-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S17x64x512 : Shape := ⟨3, ![17, 64, 512]⟩
abbrev S15x64x512 : Shape := ⟨3, ![15, 64, 512]⟩
abbrev S17 : Shape := ⟨1, ![17]⟩
abbrev S15 : Shape := ⟨1, ![15]⟩
abbrev S_ : Shape := ⟨0, ![]⟩
abbrev S1 : Shape := ⟨1, ![1]⟩
abbrev S1x64x512 : Shape := ⟨3, ![1, 64, 512]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S17x64x512, .f32⟩
  | .local _ .vmem, ⟨3, _⟩ => ⟨S15x64x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v20 : BitVec 32 := Scalar.addi v17 c0_i32_14
  let c0_i32_23 : BitVec 32 := 0#32
  ![v20.toNat, 0]
def k0_dev3 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v21 : BitVec 32 := Scalar.muli v6 c2_i32_18
  let v22 : BitVec 32 := Scalar.addi c0_i32_19 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v23 : BitVec 32 := Scalar.muli v5 c1_i32_20
  let v24 : BitVec 32 := Scalar.addi v22 v23
  v24.toNat
def k0_dev4 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v33 : BitVec 32 := Scalar.muli v6 c2_i32_27
  let v34 : BitVec 32 := Scalar.addi c0_i32_28 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v35 : BitVec 32 := Scalar.muli v5 c1_i32_29
  let v36 : BitVec 32 := Scalar.addi v34 v35
  v36.toNat
def k0_dev5 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v45 : BitVec 32 := Scalar.muli v6 c2_i32_36
  let v46 : BitVec 32 := Scalar.addi c0_i32_37 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v47 : BitVec 32 := Scalar.muli v5 c1_i32_38
  let v48 : BitVec 32 := Scalar.addi v46 v47
  v48.toNat
def k0_dev6 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v57 : BitVec 32 := Scalar.muli v6 c2_i32_44
  let v58 : BitVec 32 := Scalar.addi c0_i32_45 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v59 : BitVec 32 := Scalar.muli v5 c1_i32_46
  let v60 : BitVec 32 := Scalar.addi v58 v59
  v60.toNat
def k0_dev7 (d0 : Dev nD) : Nat :=
  let c0_i32_53 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_52 : BitVec 32 := 2#32
  let v69 : BitVec 32 := Scalar.muli v6 c2_i32_52
  let v70 : BitVec 32 := Scalar.addi c0_i32_53 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v71 : BitVec 32 := Scalar.muli v5 c1_i32_54
  let v72 : BitVec 32 := Scalar.addi v70 v71
  v72.toNat
def k0_dev8 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v81 : BitVec 32 := Scalar.muli v6 c2_i32_60
  let v82 : BitVec 32 := Scalar.addi c0_i32_61 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v83 : BitVec 32 := Scalar.muli v5 c1_i32_62
  let v84 : BitVec 32 := Scalar.addi v82 v83
  v84.toNat
def k0_dev9 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v93 : BitVec 32 := Scalar.muli v6 c2_i32_68
  let v94 : BitVec 32 := Scalar.addi c0_i32_69 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v95 : BitVec 32 := Scalar.muli v5 c1_i32_70
  let v96 : BitVec 32 := Scalar.addi v94 v95
  v96.toNat
def k0_dev10 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v105 : BitVec 32 := Scalar.muli v6 c2_i32_76
  let v106 : BitVec 32 := Scalar.addi c0_i32_77 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v107 : BitVec 32 := Scalar.muli v5 c1_i32_78
  let v108 : BitVec 32 := Scalar.addi v106 v107
  v108.toNat
def k0_dev11 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v117 : BitVec 32 := Scalar.muli v6 c2_i32_84
  let v118 : BitVec 32 := Scalar.addi c0_i32_85 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v119 : BitVec 32 := Scalar.muli v5 c1_i32_86
  let v120 : BitVec 32 := Scalar.addi v118 v119
  v120.toNat
def k0_dev12 (d0 : Dev nD) : Nat :=
  let c0_i32_93 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_92 : BitVec 32 := 2#32
  let v129 : BitVec 32 := Scalar.muli v6 c2_i32_92
  let v130 : BitVec 32 := Scalar.addi c0_i32_93 v129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v131 : BitVec 32 := Scalar.muli v5 c1_i32_94
  let v132 : BitVec 32 := Scalar.addi v130 v131
  v132.toNat
def k0_dev13 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v141 : BitVec 32 := Scalar.muli v6 c2_i32_100
  let v142 : BitVec 32 := Scalar.addi c0_i32_101 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v143 : BitVec 32 := Scalar.muli v5 c1_i32_102
  let v144 : BitVec 32 := Scalar.addi v142 v143
  v144.toNat
def k0_dev14 (d0 : Dev nD) : Nat :=
  let c0_i32_109 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_108 : BitVec 32 := 2#32
  let v153 : BitVec 32 := Scalar.muli v6 c2_i32_108
  let v154 : BitVec 32 := Scalar.addi c0_i32_109 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v155 : BitVec 32 := Scalar.muli v5 c1_i32_110
  let v156 : BitVec 32 := Scalar.addi v154 v155
  v156.toNat
def k0_dev15 (d0 : Dev nD) : Nat :=
  let c0_i32_117 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_116 : BitVec 32 := 2#32
  let v165 : BitVec 32 := Scalar.muli v6 c2_i32_116
  let v166 : BitVec 32 := Scalar.addi c0_i32_117 v165
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_118 : BitVec 32 := 1#32
  let v167 : BitVec 32 := Scalar.muli v5 c1_i32_118
  let v168 : BitVec 32 := Scalar.addi v166 v167
  v168.toNat
def k0_dev16 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v177 : BitVec 32 := Scalar.muli v6 c2_i32_124
  let v178 : BitVec 32 := Scalar.addi c0_i32_125 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v179 : BitVec 32 := Scalar.muli v5 c1_i32_126
  let v180 : BitVec 32 := Scalar.addi v178 v179
  v180.toNat
def k0_dev17 (d0 : Dev nD) : Nat :=
  let c0_i32_133 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_132 : BitVec 32 := 2#32
  let v189 : BitVec 32 := Scalar.muli v6 c2_i32_132
  let v190 : BitVec 32 := Scalar.addi c0_i32_133 v189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_134 : BitVec 32 := 1#32
  let v191 : BitVec 32 := Scalar.muli v5 c1_i32_134
  let v192 : BitVec 32 := Scalar.addi v190 v191
  v192.toNat
def k0_dev18 (d0 : Dev nD) : Nat :=
  let c0_i32_141 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_140 : BitVec 32 := 2#32
  let v201 : BitVec 32 := Scalar.muli v6 c2_i32_140
  let v202 : BitVec 32 := Scalar.addi c0_i32_141 v201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v203 : BitVec 32 := Scalar.muli v5 c1_i32_142
  let v204 : BitVec 32 := Scalar.addi v202 v203
  v204.toNat
def k0_off2 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let c960_i32_146 : BitVec 32 := 960#32
  let v212 : BitVec 32 := Scalar.addi v19 c960_i32_146
  let c0_i32_154 : BitVec 32 := 0#32
  ![v212.toNat, 0]
def k0_dev19 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v213 : BitVec 32 := Scalar.muli v6 c2_i32_149
  let v214 : BitVec 32 := Scalar.addi c0_i32_150 v213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v215 : BitVec 32 := Scalar.muli v5 c1_i32_151
  let v216 : BitVec 32 := Scalar.addi v214 v215
  v216.toNat
def k0_dev20 (d0 : Dev nD) : Nat :=
  let c0_i32_169 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_168 : BitVec 32 := 2#32
  let v233 : BitVec 32 := Scalar.muli v2 c2_i32_168
  let v234 : BitVec 32 := Scalar.addi c0_i32_169 v233
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_170 : BitVec 32 := 1#32
  let v235 : BitVec 32 := Scalar.muli v7 c1_i32_170
  let v236 : BitVec 32 := Scalar.addi v234 v235
  v236.toNat
def k0_off3 (d0 : Dev nD) (c0_i32_175 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v245 : BitVec 32 := Scalar.addi v17 c0_i32_175
  let v246 : Index := Scalar.indexCast v245
  let c0 : Index := 0#32
  ![v246.toNat, 0]
def k0_dev21 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v264 : BitVec 32 := Scalar.muli v2 c2_i32_194
  let v265 : BitVec 32 := Scalar.addi c0_i32_195 v264
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_196 : BitVec 32 := 1#32
  let v266 : BitVec 32 := Scalar.muli v7 c1_i32_196
  let v267 : BitVec 32 := Scalar.addi v265 v266
  v267.toNat
def k0_dev22 (d0 : Dev nD) : Nat :=
  let c0_i32_221 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_220 : BitVec 32 := 2#32
  let v295 : BitVec 32 := Scalar.muli v2 c2_i32_220
  let v296 : BitVec 32 := Scalar.addi c0_i32_221 v295
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_222 : BitVec 32 := 1#32
  let v297 : BitVec 32 := Scalar.muli v7 c1_i32_222
  let v298 : BitVec 32 := Scalar.addi v296 v297
  v298.toNat
def k0_dev23 (d0 : Dev nD) : Nat :=
  let c0_i32_247 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_246 : BitVec 32 := 2#32
  let v326 : BitVec 32 := Scalar.muli v2 c2_i32_246
  let v327 : BitVec 32 := Scalar.addi c0_i32_247 v326
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_248 : BitVec 32 := 1#32
  let v328 : BitVec 32 := Scalar.muli v7 c1_i32_248
  let v329 : BitVec 32 := Scalar.addi v327 v328
  v329.toNat
def k0_dev24 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v357 : BitVec 32 := Scalar.muli v2 c2_i32_272
  let v358 : BitVec 32 := Scalar.addi c0_i32_273 v357
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_274 : BitVec 32 := 1#32
  let v359 : BitVec 32 := Scalar.muli v7 c1_i32_274
  let v360 : BitVec 32 := Scalar.addi v358 v359
  v360.toNat
def k0_dev25 (d0 : Dev nD) : Nat :=
  let c0_i32_299 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_298 : BitVec 32 := 2#32
  let v388 : BitVec 32 := Scalar.muli v2 c2_i32_298
  let v389 : BitVec 32 := Scalar.addi c0_i32_299 v388
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_300 : BitVec 32 := 1#32
  let v390 : BitVec 32 := Scalar.muli v7 c1_i32_300
  let v391 : BitVec 32 := Scalar.addi v389 v390
  v391.toNat
def k0_dev26 (d0 : Dev nD) : Nat :=
  let c0_i32_325 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_324 : BitVec 32 := 2#32
  let v419 : BitVec 32 := Scalar.muli v2 c2_i32_324
  let v420 : BitVec 32 := Scalar.addi c0_i32_325 v419
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_326 : BitVec 32 := 1#32
  let v421 : BitVec 32 := Scalar.muli v7 c1_i32_326
  let v422 : BitVec 32 := Scalar.addi v420 v421
  v422.toNat
def k0_dev27 (d0 : Dev nD) : Nat :=
  let c0_i32_351 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_350 : BitVec 32 := 2#32
  let v450 : BitVec 32 := Scalar.muli v2 c2_i32_350
  let v451 : BitVec 32 := Scalar.addi c0_i32_351 v450
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_352 : BitVec 32 := 1#32
  let v452 : BitVec 32 := Scalar.muli v7 c1_i32_352
  let v453 : BitVec 32 := Scalar.addi v451 v452
  v453.toNat
def k0_dev28 (d0 : Dev nD) : Nat :=
  let c0_i32_377 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_376 : BitVec 32 := 2#32
  let v481 : BitVec 32 := Scalar.muli v2 c2_i32_376
  let v482 : BitVec 32 := Scalar.addi c0_i32_377 v481
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_378 : BitVec 32 := 1#32
  let v483 : BitVec 32 := Scalar.muli v7 c1_i32_378
  let v484 : BitVec 32 := Scalar.addi v482 v483
  v484.toNat
def k0_dev29 (d0 : Dev nD) : Nat :=
  let c0_i32_403 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_402 : BitVec 32 := 2#32
  let v512 : BitVec 32 := Scalar.muli v2 c2_i32_402
  let v513 : BitVec 32 := Scalar.addi c0_i32_403 v512
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_404 : BitVec 32 := 1#32
  let v514 : BitVec 32 := Scalar.muli v7 c1_i32_404
  let v515 : BitVec 32 := Scalar.addi v513 v514
  v515.toNat
def k0_dev30 (d0 : Dev nD) : Nat :=
  let c0_i32_429 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_428 : BitVec 32 := 2#32
  let v543 : BitVec 32 := Scalar.muli v2 c2_i32_428
  let v544 : BitVec 32 := Scalar.addi c0_i32_429 v543
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_430 : BitVec 32 := 1#32
  let v545 : BitVec 32 := Scalar.muli v7 c1_i32_430
  let v546 : BitVec 32 := Scalar.addi v544 v545
  v546.toNat
def k0_dev31 (d0 : Dev nD) : Nat :=
  let c0_i32_455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_454 : BitVec 32 := 2#32
  let v574 : BitVec 32 := Scalar.muli v2 c2_i32_454
  let v575 : BitVec 32 := Scalar.addi c0_i32_455 v574
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_456 : BitVec 32 := 1#32
  let v576 : BitVec 32 := Scalar.muli v7 c1_i32_456
  let v577 : BitVec 32 := Scalar.addi v575 v576
  v577.toNat
def k0_dev32 (d0 : Dev nD) : Nat :=
  let c0_i32_481 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_480 : BitVec 32 := 2#32
  let v605 : BitVec 32 := Scalar.muli v2 c2_i32_480
  let v606 : BitVec 32 := Scalar.addi c0_i32_481 v605
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_482 : BitVec 32 := 1#32
  let v607 : BitVec 32 := Scalar.muli v7 c1_i32_482
  let v608 : BitVec 32 := Scalar.addi v606 v607
  v608.toNat
def k0_dev33 (d0 : Dev nD) : Nat :=
  let c0_i32_507 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_506 : BitVec 32 := 2#32
  let v636 : BitVec 32 := Scalar.muli v2 c2_i32_506
  let v637 : BitVec 32 := Scalar.addi c0_i32_507 v636
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_508 : BitVec 32 := 1#32
  let v638 : BitVec 32 := Scalar.muli v7 c1_i32_508
  let v639 : BitVec 32 := Scalar.addi v637 v638
  v639.toNat
def k0_dev34 (d0 : Dev nD) : Nat :=
  let c0_i32_533 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_532 : BitVec 32 := 2#32
  let v667 : BitVec 32 := Scalar.muli v2 c2_i32_532
  let v668 : BitVec 32 := Scalar.addi c0_i32_533 v667
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_534 : BitVec 32 := 1#32
  let v669 : BitVec 32 := Scalar.muli v7 c1_i32_534
  let v670 : BitVec 32 := Scalar.addi v668 v669
  v670.toNat
def k0_off4 (d0 : Dev nD) (c960_i32_569 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let v717 : BitVec 32 := Scalar.addi v19 c960_i32_569
  let v718 : Index := Scalar.indexCast v717
  let c0_570 : Index := 0#32
  ![v718.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S17_S1_0 : ∀ a, (![0] : Fin 1 → Nat) a + S1.size a ≤ S17.size a
  squeezes_S1_S_ : S1.Squeezes S_
  inb_S17x64x512_S1x64x512_0_0_0 : ∀ a, (![0, 0, 0] : Fin 3 → Nat) a + S1x64x512.size a ≤ S17x64x512.size a
  squeezes_S1x64x512_S64x512 : S1x64x512.Squeezes S64x512
  inb_S17_S1_1 : ∀ a, (![1] : Fin 1 → Nat) a + S1.size a ≤ S17.size a
  inb_S17x64x512_S1x64x512_1_0_0 : ∀ a, (![1, 0, 0] : Fin 3 → Nat) a + S1x64x512.size a ≤ S17x64x512.size a
  inb_S17_S1_2 : ∀ a, (![2] : Fin 1 → Nat) a + S1.size a ≤ S17.size a
  inb_S17x64x512_S1x64x512_2_0_0 : ∀ a, (![2, 0, 0] : Fin 3 → Nat) a + S1x64x512.size a ≤ S17x64x512.size a
  inb_S17_S1_3 : ∀ a, (![3] : Fin 1 → Nat) a + S1.size a ≤ S17.size a
  inb_S17x64x512_S1x64x512_3_0_0 : ∀ a, (![3, 0, 0] : Fin 3 → Nat) a + S1x64x512.size a ≤ S17x64x512.size a
  inb_S17_S1_4 : ∀ a, (![4] : Fin 1 → Nat) a + S1.size a ≤ S17.size a
  inb_S17x64x512_S1x64x512_4_0_0 : ∀ a, (![4, 0, 0] : Fin 3 → Nat) a + S1x64x512.size a ≤ S17x64x512.size a
  inb_S17_S1_5 : ∀ a, (![5] : Fin 1 → Nat) a + S1.size a ≤ S17.size a
  inb_S17x64x512_S1x64x512_5_0_0 : ∀ a, (![5, 0, 0] : Fin 3 → Nat) a + S1x64x512.size a ≤ S17x64x512.size a
  inb_S17_S1_6 : ∀ a, (![6] : Fin 1 → Nat) a + S1.size a ≤ S17.size a
  inb_S17x64x512_S1x64x512_6_0_0 : ∀ a, (![6, 0, 0] : Fin 3 → Nat) a + S1x64x512.size a ≤ S17x64x512.size a
  inb_S17_S1_7 : ∀ a, (![7] : Fin 1 → Nat) a + S1.size a ≤ S17.size a
  inb_S17x64x512_S1x64x512_7_0_0 : ∀ a, (![7, 0, 0] : Fin 3 → Nat) a + S1x64x512.size a ≤ S17x64x512.size a
  inb_S17_S1_8 : ∀ a, (![8] : Fin 1 → Nat) a + S1.size a ≤ S17.size a
  inb_S17x64x512_S1x64x512_8_0_0 : ∀ a, (![8, 0, 0] : Fin 3 → Nat) a + S1x64x512.size a ≤ S17x64x512.size a
  inb_S17_S1_9 : ∀ a, (![9] : Fin 1 → Nat) a + S1.size a ≤ S17.size a
  inb_S17x64x512_S1x64x512_9_0_0 : ∀ a, (![9, 0, 0] : Fin 3 → Nat) a + S1x64x512.size a ≤ S17x64x512.size a
  inb_S17_S1_10 : ∀ a, (![10] : Fin 1 → Nat) a + S1.size a ≤ S17.size a
  inb_S17x64x512_S1x64x512_10_0_0 : ∀ a, (![10, 0, 0] : Fin 3 → Nat) a + S1x64x512.size a ≤ S17x64x512.size a
  inb_S17_S1_11 : ∀ a, (![11] : Fin 1 → Nat) a + S1.size a ≤ S17.size a
  inb_S17x64x512_S1x64x512_11_0_0 : ∀ a, (![11, 0, 0] : Fin 3 → Nat) a + S1x64x512.size a ≤ S17x64x512.size a
  inb_S17_S1_12 : ∀ a, (![12] : Fin 1 → Nat) a + S1.size a ≤ S17.size a
  inb_S17x64x512_S1x64x512_12_0_0 : ∀ a, (![12, 0, 0] : Fin 3 → Nat) a + S1x64x512.size a ≤ S17x64x512.size a
  inb_S17_S1_13 : ∀ a, (![13] : Fin 1 → Nat) a + S1.size a ≤ S17.size a
  inb_S17x64x512_S1x64x512_13_0_0 : ∀ a, (![13, 0, 0] : Fin 3 → Nat) a + S1x64x512.size a ≤ S17x64x512.size a
  inb_S17_S1_14 : ∀ a, (![14] : Fin 1 → Nat) a + S1.size a ≤ S17.size a
  inb_S17x64x512_S1x64x512_14_0_0 : ∀ a, (![14, 0, 0] : Fin 3 → Nat) a + S1x64x512.size a ≤ S17x64x512.size a
  inb_S17_S1_15 : ∀ a, (![15] : Fin 1 → Nat) a + S1.size a ≤ S17.size a
  inb_S17x64x512_S1x64x512_15_0_0 : ∀ a, (![15, 0, 0] : Fin 3 → Nat) a + S1x64x512.size a ≤ S17x64x512.size a
  inb_S17_S1_16 : ∀ a, (![16] : Fin 1 → Nat) a + S1.size a ≤ S17.size a
  inb_S17x64x512_S1x64x512_16_0_0 : ∀ a, (![16, 0, 0] : Fin 3 → Nat) a + S1x64x512.size a ≤ S17x64x512.size a
  inb_S15_S1_0 : ∀ a, (![0] : Fin 1 → Nat) a + S1.size a ≤ S15.size a
  inb_S15x64x512_S1x64x512_0_0_0 : ∀ a, (![0, 0, 0] : Fin 3 → Nat) a + S1x64x512.size a ≤ S15x64x512.size a
  h_S64x512 : 0 < S64x512.numel
  shapeCasts_S64x512_S64x512 : S64x512.ShapeCasts S64x512
  h_S1x64x512 : 0 < S1x64x512.numel
  shapeCasts_S1x64x512_S64x512 : S1x64x512.ShapeCasts S64x512
  inb_S15_S1_1 : ∀ a, (![1] : Fin 1 → Nat) a + S1.size a ≤ S15.size a
  inb_S15x64x512_S1x64x512_1_0_0 : ∀ a, (![1, 0, 0] : Fin 3 → Nat) a + S1x64x512.size a ≤ S15x64x512.size a
  inb_S15_S1_2 : ∀ a, (![2] : Fin 1 → Nat) a + S1.size a ≤ S15.size a
  inb_S15x64x512_S1x64x512_2_0_0 : ∀ a, (![2, 0, 0] : Fin 3 → Nat) a + S1x64x512.size a ≤ S15x64x512.size a
  inb_S15_S1_3 : ∀ a, (![3] : Fin 1 → Nat) a + S1.size a ≤ S15.size a
  inb_S15x64x512_S1x64x512_3_0_0 : ∀ a, (![3, 0, 0] : Fin 3 → Nat) a + S1x64x512.size a ≤ S15x64x512.size a
  inb_S15_S1_4 : ∀ a, (![4] : Fin 1 → Nat) a + S1.size a ≤ S15.size a
  inb_S15x64x512_S1x64x512_4_0_0 : ∀ a, (![4, 0, 0] : Fin 3 → Nat) a + S1x64x512.size a ≤ S15x64x512.size a
  inb_S15_S1_5 : ∀ a, (![5] : Fin 1 → Nat) a + S1.size a ≤ S15.size a
  inb_S15x64x512_S1x64x512_5_0_0 : ∀ a, (![5, 0, 0] : Fin 3 → Nat) a + S1x64x512.size a ≤ S15x64x512.size a
  inb_S15_S1_6 : ∀ a, (![6] : Fin 1 → Nat) a + S1.size a ≤ S15.size a
  inb_S15x64x512_S1x64x512_6_0_0 : ∀ a, (![6, 0, 0] : Fin 3 → Nat) a + S1x64x512.size a ≤ S15x64x512.size a
  inb_S15_S1_7 : ∀ a, (![7] : Fin 1 → Nat) a + S1.size a ≤ S15.size a
  inb_S15x64x512_S1x64x512_7_0_0 : ∀ a, (![7, 0, 0] : Fin 3 → Nat) a + S1x64x512.size a ≤ S15x64x512.size a
  inb_S15_S1_8 : ∀ a, (![8] : Fin 1 → Nat) a + S1.size a ≤ S15.size a
  inb_S15x64x512_S1x64x512_8_0_0 : ∀ a, (![8, 0, 0] : Fin 3 → Nat) a + S1x64x512.size a ≤ S15x64x512.size a
  inb_S15_S1_9 : ∀ a, (![9] : Fin 1 → Nat) a + S1.size a ≤ S15.size a
  inb_S15x64x512_S1x64x512_9_0_0 : ∀ a, (![9, 0, 0] : Fin 3 → Nat) a + S1x64x512.size a ≤ S15x64x512.size a
  inb_S15_S1_10 : ∀ a, (![10] : Fin 1 → Nat) a + S1.size a ≤ S15.size a
  inb_S15x64x512_S1x64x512_10_0_0 : ∀ a, (![10, 0, 0] : Fin 3 → Nat) a + S1x64x512.size a ≤ S15x64x512.size a
  inb_S15_S1_11 : ∀ a, (![11] : Fin 1 → Nat) a + S1.size a ≤ S15.size a
  inb_S15x64x512_S1x64x512_11_0_0 : ∀ a, (![11, 0, 0] : Fin 3 → Nat) a + S1x64x512.size a ≤ S15x64x512.size a
  inb_S15_S1_12 : ∀ a, (![12] : Fin 1 → Nat) a + S1.size a ≤ S15.size a
  inb_S15x64x512_S1x64x512_12_0_0 : ∀ a, (![12, 0, 0] : Fin 3 → Nat) a + S1x64x512.size a ≤ S15x64x512.size a
  inb_S15_S1_13 : ∀ a, (![13] : Fin 1 → Nat) a + S1.size a ≤ S15.size a
  inb_S15x64x512_S1x64x512_13_0_0 : ∀ a, (![13, 0, 0] : Fin 3 → Nat) a + S1x64x512.size a ≤ S15x64x512.size a
  inb_S15_S1_14 : ∀ a, (![14] : Fin 1 → Nat) a + S1.size a ≤ S15.size a
  inb_S15x64x512_S1x64x512_14_0_0 : ∀ a, (![14, 0, 0] : Fin 3 → Nat) a + S1x64x512.size a ≤ S15x64x512.size a
  hcc0_scratch2 : 2 + S17.numel ≤ 66
  hcc0_scratch3 : 19 + S17.numel ≤ 66
  hcc0_scratch4 : 36 + S15.numel ≤ 66
  hcc0_scratch5 : 51 + S15.numel ≤ 66
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (64 * r.val))) a + S64x512.size a ≤ S2048x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ a, (k0_off2 d0) a + S64x512.size a ≤ S2048x512.size a
  k0_dev19_lt : ∀ d0 : Dev nD, (k0_dev19 d0) < nD
  k0_dev20_lt : ∀ d0 : Dev nD, (k0_dev20 d0) < nD
  k0_off3_inb : ∀ d0 : Dev nD, ∀ (r : Fin 16), ∀ a, (k0_off3 d0 (BitVec.ofNat 32 (64 * r.val))) a + S64x512.size a ≤ S2048x512.size a
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off4_inb : ∀ d0 : Dev nD, ∀ (r : Fin 16), ∀ a, (k0_off4 d0 (BitVec.ofNat 32 (64 * r.val))) a + S64x512.size a ≤ S2048x512.size a
  hstage0_0 : ∀ j, (stage0_0 j).IsWhole
  hstage0_1 : ∀ j, (stage0_1 j).IsWhole

variable [Facts₀]

abbrev cc0_scratch2 : DmaSems sig S17 := SemArray.consecutive 2 S17 hcc0_scratch2
abbrev cc0_scratch3 : DmaSems sig S17 := SemArray.consecutive 19 S17 hcc0_scratch3
abbrev cc0_scratch4 : DmaSems sig S15 := SemArray.consecutive 36 S15 hcc0_scratch4
abbrev cc0_scratch5 : DmaSems sig S15 := SemArray.consecutive 51 S15 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S2x2048x512 : S4096x512.ShapeCasts S2x2048x512
  reducesTo_S2x2048x512_S2048x512_d0 : S2x2048x512.ReducesTo [0] S2048x512
  h_S_ : 0 < S_.numel

variable [Facts₀]

class Facts : Prop extends Facts₀ where

variable [Facts]
-- ==== Proof.Spec.lean ====
/-
  The mesh arithmetic of the two-axis all-reduce and the statement of the kernel's run.

  The four devices sit on a 2 × 2 mesh, device `2·x + y` at coordinates `(x, y)`. Each device holds a block of
  2048 rows; devices with the same `x` hold the same block. The all-reduce sums, on every device, its own block and the
  block of the device across the `x` axis (`xp`); the device across the `y` axis (`yp`) holds the same block as the
  device itself and only relays rows. The run's result on device `c` is therefore the entrywise sum of the two blocks.
-/
import proofs.«900127_g7700000000000128_dist_ar_v7x_xy2x2_x_m2048_n512_f32_1_alg».proof.KernelIdeal

noncomputable section

namespace Cert.KernelIdeal.AR

open Idealize.ShloMosaic Idealize.SL.Sem Cert.KernelIdeal

variable {F : FTy → Type} [FloatOps F]

/-- The device across the `x` axis: `(x, y) ↦ (1 - x, y)`. -/
def xp (c : Dev nD) : Dev nD := ⟨((c.val % 2) + 2) - 2 * (c.val / 2), by have := c.isLt; simp only [nD] at this ⊢; omega⟩
/-- The device across the `y` axis: `(x, y) ↦ (x, 1 - y)`. -/
def yp (c : Dev nD) : Dev nD := ⟨(2 * (c.val / 2) + 1) - (c.val % 2), by have := c.isLt; simp only [nD] at this ⊢; omega⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne (c : Dev nD) : xp c ≠ c := by revert c; decide
theorem yp_ne (c : Dev nD) : yp c ≠ c := by revert c; decide
theorem xp_ne_yp (c : Dev nD) : xp c ≠ yp c := by revert c; decide
/-- Both peers keep / flip the parity that selects the half of the block a device sends first. -/
theorem xp_mod (c : Dev nD) : (xp c).val % 2 = c.val % 2 := by revert c; decide
theorem yp_mod (c : Dev nD) : (yp c).val % 2 = 1 - c.val % 2 := by revert c; decide
theorem xp_div (c : Dev nD) : (xp c).val / 2 = 1 - c.val / 2 := by revert c; decide
theorem yp_div (c : Dev nD) : (yp c).val / 2 = c.val / 2 := by revert c; decide

/-- Device `c`'s block of the argument as the run finds it. -/
abbrev blk (m : (ℓ : Loc nD τ sig) → Buf (Elt F) ℓ) (c : Dev nD) : FVec F S2048x512 .f32 :=
  m ((c.tc : Thread nD τ).loc main_arg0)

/-- The rows that reach device `c` through the relay: the first 960 rows of the half it does not send first. -/
def relayed (c : Dev nD) (r : ℕ) : Prop := if c.val % 2 = 0 then 1024 ≤ r ∧ r < 1984 else r < 960
instance (c : Dev nD) (r : ℕ) : Decidable (relayed c r) := by unfold relayed; infer_instance

/-- The device whose block a row of the result on `c` adds to `c`'s own: the device across `x` for the rows that come
    directly, and that device's `y` peer for the relayed rows (the two hold the same block whenever blocks are cut along
    `x` only, but the run is stated for every memory). -/
def src (c : Dev nD) (i : S2048x512.Idx) : Dev nD := if relayed c (i 0).val then yp (xp c) else xp c

/-- What the all-reduce leaves on device `c`: its block plus the block that reached it, entry by entry. -/
def total (m : (ℓ : Loc nD τ sig) → Buf (Elt F) ℓ) (c : Dev nD) : FVec F S2048x512 .f32 :=
  fun i => FloatOps.addf (blk m c i) (blk m (src c i) i)

/-- The run: every weakly fair execution ends, faultless, each device's result at `total` and its argument unchanged. -/
def RunSpec [Facts] : Prop :=
  ∀ (m : (ℓ : Loc nD τ sig) → Buf (Elt F) ℓ) (ρ : Dev nD → PrngReg),
    θ_run (defs (F := F)) (onTc (τ := τ) (main (F := F))) ⟨m, fun _ => 0, ρ⟩ (fun r => ∀ c : Dev nD,
      r.2.mem ((c.tc : Thread nD τ).loc main_v1) = total m c
      ∧ r.2.mem ((c.tc : Thread nD τ).loc main_arg0) = m ((c.tc : Thread nD τ).loc main_arg0))

end Cert.KernelIdeal.AR

end
-- ==== Proof.Proto.lean ====
/-
  The all-reduce's cross-device protocol: the cells, what lands on each, and the order of waits.

  Device `c` first tells both peers it has entered (one unit to each peer's entry cell) and waits for their two
  units. Then it sends 17 chunks of 64 rows of its block to the peer across `x` (16 from its "own" half of the rows,
  one from the other half), each into the matching slot of that peer's first landing buffer. As each of the first 15
  chunks lands in its own first landing buffer it relays the slot to the peer across `y` (into that peer's second
  landing buffer) and adds the slot to its own rows; the peer across `y` holds the same block, so what it adds to the
  relayed slot is its own copy of those rows. Every row of the result is thus the sum of the two blocks.
-/
import proofs.«900127_g7700000000000128_dist_ar_v7x_xy2x2_x_m2048_n512_f32_1_alg».proof.Proof.Spec
import proofs.«900127_g7700000000000128_dist_ar_v7x_xy2x2_x_m2048_n512_f32_1_alg».proof.Proof.Gen.KernelIdeal
import proofs.«900127_g7700000000000128_dist_ar_v7x_xy2x2_x_m2048_n512_f32_1_alg».proof.Proof.Gen.KernelIdeal.Skeleton
import proofs.«900127_g7700000000000128_dist_ar_v7x_xy2x2_x_m2048_n512_f32_1_alg».proof.Proof.Gen.KernelIdeal.Launch
import proofs.«900127_g7700000000000128_dist_ar_v7x_xy2x2_x_m2048_n512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers, slots, semaphores -/

abbrev xM : Memref sig .tc .vmem S2048x512 .f32 := Memref.whole cc0_stg0_0
abbrev oM : Memref sig .tc .vmem S2048x512 .f32 := Memref.whole cc0_stg1_0
abbrev aM : Memref sig .tc .vmem S17x64x512 .f32 := Memref.whole cc0_scratch0
abbrev bM : Memref sig .tc .vmem S15x64x512 .f32 := Memref.whole cc0_scratch1

theorem slotA_inb (i : Fin 17) : ∀ a, (![i.val, 0, 0] : Fin 3 → Nat) a + S1x64x512.size a ≤ S17x64x512.size a := by
  revert i; decide
theorem slotB_inb (i : Fin 15) : ∀ a, (![i.val, 0, 0] : Fin 3 → Nat) a + S1x64x512.size a ≤ S15x64x512.size a := by
  revert i; decide

/-- Slot `i` of the first landing buffer, as a 64 × 512 view. -/
abbrev slotA (i : Fin 17) : Memref sig .tc .vmem S64x512 .f32 :=
  (aM.slice (Rect.unit (s := S17x64x512) ![i.val, 0, 0] S1x64x512.size (slotA_inb i)) (fun _ => rfl)).squeeze S64x512 squeezes_S1x64x512_S64x512
/-- Slot `i` of the second landing buffer. -/
abbrev slotB (i : Fin 15) : Memref sig .tc .vmem S64x512 .f32 :=
  (bM.slice (Rect.unit (s := S15x64x512) ![i.val, 0, 0] S1x64x512.size (slotB_inb i)) (fun _ => rfl)).squeeze S64x512 squeezes_S1x64x512_S64x512

theorem sem17_inb (i : Fin 17) : ∀ a, (![i.val] : Fin 1 → Nat) a + S1.size a ≤ S17.size a := by revert i; decide
theorem sem15_inb (i : Fin 15) : ∀ a, (![i.val] : Fin 1 → Nat) a + S1.size a ≤ S15.size a := by revert i; decide

/-- The four families of DMA semaphores: departure and arrival of the `x` transfers (17 each), of the relays (15 each). -/
abbrev sAx (i : Fin 17) : DmaSem sig := ((cc0_scratch2.slice (Rect.unit (s := S17) ![i.val] S1.size (sem17_inb i))).squeeze S_ squeezes_S1_S_).sem
abbrev rAx (i : Fin 17) : DmaSem sig := ((cc0_scratch3.slice (Rect.unit (s := S17) ![i.val] S1.size (sem17_inb i))).squeeze S_ squeezes_S1_S_).sem
abbrev sBy (i : Fin 15) : DmaSem sig := ((cc0_scratch4.slice (Rect.unit (s := S15) ![i.val] S1.size (sem15_inb i))).squeeze S_ squeezes_S1_S_).sem
abbrev rBy (i : Fin 15) : DmaSem sig := ((cc0_scratch5.slice (Rect.unit (s := S15) ![i.val] S1.size (sem15_inb i))).squeeze S_ squeezes_S1_S_).sem

theorem sAx_val : ∀ i : Fin 17, (sAx i).val = 2 + i.val := by decide
theorem rAx_val : ∀ i : Fin 17, (rAx i).val = 19 + i.val := by decide
theorem sBy_val : ∀ i : Fin 15, (sBy i).val = 36 + i.val := by decide
theorem rBy_val : ∀ i : Fin 15, (rBy i).val = 51 + i.val := by decide

/-- The entry semaphore: the runtime's, one per device. -/
abbrev barS : Sem sig := (SemArray.scalar (sig.barrier 0 rfl) : Sems sig S_).sem

abbrev barCell (c : Dev nD) : GSem nD τ sig := ((c : Thread nD τ), .reg barS)
abbrev dmaCell (c : Dev nD) (q : DmaSem sig) : GSem nD τ sig := ((c : Thread nD τ), .dma q)

variable (m : (ℓ : Loc nD τ sig) → Buf (Elt F) ℓ)

/-! ## Contents -/

/-- The staged block of device `c`: its whole argument block, as the pipeline fetched it. -/
def xstg (c : Dev nD) : (cc0_stg0_0 : Ref sig .tc).ty.Contents (Elt F) :=
  (win0_0.blk (0 : Fin 1)).view.read (Elt F) (m ((c : Thread nD τ).loc main_arg0))

/-- The 64 rows chunk `i` of the `x` transfers reads: 16 chunks of the device's own half, then the last chunk of the other half. -/
def offA (c : Dev nD) (i : Fin 17) : Fin 2 → Nat :=
  if h : i.val < 16 then k0_off1 c (BitVec.ofNat 32 (64 * i.val)) else k0_off2 c
theorem offA_inb (c : Dev nD) (i : Fin 17) : ∀ a, offA c i a + S64x512.size a ≤ S2048x512.size a := by
  unfold offA; split
  · next h => exact k0_off1_inb c ⟨i.val, h⟩
  · exact k0_off2_inb c
abbrev srcA (c : Dev nD) (i : Fin 17) : Memref sig .tc .vmem S64x512 .f32 :=
  xM.slice (Rect.unit (s := S2048x512) (offA c i) S64x512.size (offA_inb c i)) (fun _ => rfl)

/-- The relay of slot `j` reads that slot of the first landing buffer. -/
abbrev up (j : Fin 15) : Fin 17 := Fin.castLE (by decide) j

/-- The slot an index of the first (second) landing buffer lies in. -/
abbrev slotOfA (a : Idx ((aM : Memref sig .tc .vmem S17x64x512 .f32).view.loc ((0 : Dev nD) : Thread nD τ))) : Fin 17 := a 0
abbrev slotOfB (a : Idx ((bM : Memref sig .tc .vmem S15x64x512 .f32).view.loc ((0 : Dev nD) : Thread nD τ))) : Fin 15 := a 0

/-- What the first landing buffer of device `c` holds once all 17 chunks from across `x` have landed: slot `s` holds
    the rows chunk `s` of that peer's transfers reads. Stated through the views: index `a` holds what the transfer into
    its slot writes there. -/
def cA [∀ e, Nonempty (Elt F e)] (c : Dev nD) : Buf (Elt F) ((aM : Memref sig .tc .vmem S17x64x512 .f32).view.loc (c : Thread nD τ)) :=
  fun a => (slotA (slotOfA a)).view.write (Elt F) (fun _ => Classical.arbitrary _) ((srcA (xp c) (slotOfA a)).view.read (Elt F) (xstg m (xp c))) Finset.univ a

/-- What the second landing buffer holds once the 15 relays from across `y` have landed: slot `s` is slot `s` of that
    peer's first landing buffer. -/
def cB [∀ e, Nonempty (Elt F e)] (c : Dev nD) : Buf (Elt F) ((bM : Memref sig .tc .vmem S15x64x512 .f32).view.loc (c : Thread nD τ)) :=
  fun a => (slotB (slotOfB a)).view.write (Elt F) (fun _ => Classical.arbitrary _) ((slotA (up (slotOfB a))).view.read (Elt F) (cA m (yp c))) Finset.univ a

/-- The result block: the device's block plus the block that reached it (`AR.src`), entry by entry. -/
def outAt (c : Dev nD) : (cc0_stg1_0 : Ref sig .tc).ty.Contents (Elt F) :=
  fun i => FloatOps.addf (xstg m c i) (xstg m (src c i) i)

/-! ## Points-to assertions of the protocol -/

/-- The share a pending transfer holds of its source; the sender keeps the other half to read. -/
abbrev qS : PosShare TreeShare := fullShare.right
abbrev qL : PosShare TreeShare := fullShare.left

def srcPts (c : Dev nD) (i : Fin 17) : sProp 𝕄 :=
  (srcA c i).view.loc (c : Thread nD τ) ↦[(srcA c i).view.set]{qS} xstg m c
def slotAPts [∀ e, Nonempty (Elt F e)] (c : Dev nD) (i : Fin 17) (q : PosShare TreeShare) : sProp 𝕄 :=
  (slotA i).view.loc (c : Thread nD τ) ↦[(slotA i).view.set]{q} cA m c
def slotBPts [∀ e, Nonempty (Elt F e)] (c : Dev nD) (j : Fin 15) : sProp 𝕄 :=
  (slotB j).view.loc (c : Thread nD τ) ↦[(slotB j).view.set]{fullShare} cB m c
/-- A landing buffer whole, at some contents: what a device hands its peer at entry. -/
def bufA (c : Dev nD) : sProp 𝕄 := iprop(∃ f : Buf (Elt F) ((c : Thread nD τ).loc cc0_scratch0), ((c : Thread nD τ).loc cc0_scratch0) ↦{fullShare} f)
def bufB (c : Dev nD) : sProp 𝕄 := iprop(∃ f : Buf (Elt F) ((c : Thread nD τ).loc cc0_scratch1), ((c : Thread nD τ).loc cc0_scratch1) ↦{fullShare} f)

/-! ## The schedule: one round -/

/-- The units of one chunk's transfer. -/
abbrev N : ℕ := (slotA (0 : Fin 17) : Memref sig .tc .vmem S64x512 .f32).view.dmaCredit
theorem N_pos : 0 < N := View.dmaCredit_pos _ (by decide)

/-- What the units landing on DMA semaphore `q` of device `c` hand it, by the semaphore's family. -/
def dmaPay [∀ e, Nonempty (Elt F e)] (c : Dev nD) (q : DmaSem sig) : sProp 𝕄 :=
  if h : 2 ≤ q.val ∧ q.val < 19 then srcPts m c ⟨q.val - 2, by omega⟩
  else if h : 19 ≤ q.val ∧ q.val < 36 then slotAPts m c ⟨q.val - 19, by omega⟩ fullShare
  else if h : 36 ≤ q.val ∧ q.val < 51 then slotAPts m c (up ⟨q.val - 36, by omega⟩) qS
  else if h : 51 ≤ q.val ∧ q.val < 66 then slotBPts m c ⟨q.val - 51, by omega⟩
  else iprop(emp)

/-- Round 0 only. The entry cell has two duties of one unit: `true` from the peer across `x`, handing over that
    peer's first landing buffer; `false` from the peer across `y`, handing over that peer's second landing buffer.
    Each of the 64 transfer semaphores has one duty of a chunk's units. -/
def sched [∀ e, Nonempty (Elt F e)] : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  unitless _ := False
  amount g _ _ := match g.2 with | .reg _ => 1 | .dma _ => N
  payload g _ d := match g.2 with
    | .reg _ => if d then bufA (xp g.1.1) else bufB (yp g.1.1)
    | .dma q => dmaPay m g.1.1 q
  amount_pos g _ _ _ := by
    cases g.2 with
    | reg _ => exact Nat.one_pos
    | dma _ => exact N_pos

/-! ## The schedule's tables -/

section Tables
variable [∀ e, Nonempty (Elt F e)] (c : Dev nD)

theorem duties_bar : (sched m).duties (barCell c) 0 = Finset.univ := by
  dsimp only [sched]; rw [if_pos ⟨rfl, rfl⟩]; exact if_pos rfl
theorem duties_dma (q : DmaSem sig) (hq : 2 ≤ q.val) : (sched m).duties (dmaCell c q) 0 = {false} := by
  dsimp only [sched]; rw [if_pos ⟨rfl, rfl⟩]; exact if_pos hq
theorem duties_later (g : GSem nD τ sig) : ∀ r, 1 ≤ r → (sched m).duties g r = ∅ :=
  fun r hr => by dsimp only [sched]; rw [if_neg fun h => by omega]

theorem amount_bar (d : Bool) : (sched m).amount (barCell c) 0 d = 1 := rfl
theorem amount_dma (q : DmaSem sig) (d : Bool) : (sched m).amount (dmaCell c q) 0 d = N := rfl

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : 2 ≤ q.val) : (sched m).expect (dmaCell c q) 0 = N := by
  unfold Schedule.expect Schedule.amountOf; rw [duties_dma m c q hq, Finset.sum_singleton, amount_dma]

theorem payload_bar_true : (sched m).payload (barCell c) 0 true = bufA (xp c) := rfl
theorem payload_bar_false : (sched m).payload (barCell c) 0 false = bufB (yp c) := rfl
theorem payload_dma (q : DmaSem sig) (d : Bool) : (sched m).payload (dmaCell c q) 0 d = dmaPay m c q := rfl

theorem dmaPay_sAx (i : Fin 17) : dmaPay m c (sAx i) = srcPts m c i := by
  unfold dmaPay
  rw [dif_pos ⟨by rw [sAx_val]; omega, by rw [sAx_val]; omega⟩]
  congr 1; exact Fin.ext (by simp only [sAx_val]; omega)
theorem dmaPay_rAx (i : Fin 17) : dmaPay m c (rAx i) = slotAPts m c i fullShare := by
  unfold dmaPay
  rw [dif_neg (by rw [rAx_val]; omega), dif_pos ⟨by rw [rAx_val]; omega, by rw [rAx_val]; omega⟩]
  congr 1; exact Fin.ext (by simp only [rAx_val]; omega)
theorem dmaPay_sBy (j : Fin 15) : dmaPay m c (sBy j) = slotAPts m c (up j) qS := by
  unfold dmaPay
  rw [dif_neg (by rw [sBy_val]; omega), dif_neg (by rw [sBy_val]; omega), dif_pos ⟨by rw [sBy_val]; omega, by rw [sBy_val]; omega⟩]
  congr 2; exact Fin.ext (by simp only [sBy_val]; omega)
theorem dmaPay_rBy (j : Fin 15) : dmaPay m c (rBy j) = slotBPts m c j := by
  unfold dmaPay
  rw [dif_neg (by rw [rBy_val]; omega), dif_neg (by rw [rBy_val]; omega), dif_neg (by rw [rBy_val]; omega),
    dif_pos ⟨by rw [rBy_val]; omega, by rw [rBy_val]; have := j.isLt; omega⟩]
  congr 1; exact Fin.ext (by simp only [rBy_val]; omega)

/-- The whole round of the entry cell: the second landing buffer across `y`, the first across `x`. -/
theorem rest_bar : bigSep ((sched m).duties (barCell c) 0 \ ∅) (fun d => (sched m).payload (barCell c) 0 d) = iprop(bufB (yp c) ∗ bufA (xp c)) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : 2 ≤ q.val) :
    bigSep ((sched m).duties (dmaCell c q) 0 \ ∅) (fun d => (sched m).payload (dmaCell c q) 0 d) = dmaPay m c q := by
  rw [Finset.sdiff_empty, duties_dma m c q hq, bigSep_singleton, payload_dma]

end Tables

/-! ## The result's rows, chunk by chunk -/

/-- The rows chunk `k` of the 32 additions writes: 16 chunks of the device's own half, the last chunk of the other half
    (from the first landing buffer), then the first 15 chunks of the other half (from the second). -/
def offO (c : Dev nD) (k : Fin 32) : Fin 2 → Nat :=
  if h : k.val < 16 then k0_off3 c (BitVec.ofNat 32 (64 * k.val))
  else if h' : k.val = 16 then k0_off4 c (BitVec.ofNat 32 (64 * 15))
  else k0_off4 c (BitVec.ofNat 32 (64 * (k.val - 17)))
theorem offO_inb (c : Dev nD) (k : Fin 32) : ∀ a, offO c k a + S64x512.size a ≤ S2048x512.size a := by
  unfold offO; split
  · next h => exact k0_off3_inb c ⟨k.val, h⟩
  · split
    · exact k0_off4_inb c ⟨15, by decide⟩
    · next h h' => exact k0_off4_inb c ⟨k.val - 17, by have := k.isLt; omega⟩
abbrev rectO (c : Dev nD) (k : Fin 32) : Rect S2048x512 := Rect.unit (s := S2048x512) (offO c k) S64x512.size (offO_inb c k)
abbrev rectA (i : Fin 17) : Rect S17x64x512 := Rect.unit (s := S17x64x512) ![i.val, 0, 0] S1x64x512.size (slotA_inb i)
abbrev rectB (j : Fin 15) : Rect S15x64x512 := Rect.unit (s := S15x64x512) ![j.val, 0, 0] S1x64x512.size (slotB_inb j)

/-- The landed chunk the `k`-th addition reads. -/
def landedChunk [∀ e, Nonempty (Elt F e)] (c : Dev nD) (k : Fin 32) : Vec F S1x64x512 .f32 :=
  if h : k.val < 17 then (aM : Memref sig .tc .vmem S17x64x512 .f32).view.readAt (Elt F) (rectA ⟨k.val, h⟩).toLoadRect (cA m c)
  else (bM : Memref sig .tc .vmem S15x64x512 .f32).view.readAt (Elt F) (rectB ⟨k.val - 17, by have := k.isLt; omega⟩).toLoadRect (cB m c)

/-- What the `k`-th addition stores: the device's own rows plus the landed chunk. -/
def sumChunk [∀ e, Nonempty (Elt F e)] (c : Dev nD) (k : Fin 32) : FVec F S64x512 .f32 :=
  k0_pay1 ((xM : Memref sig .tc .vmem S2048x512 .f32).view.readAt (Elt F) (rectO c k).toLoadRect (xstg m c)) (landedChunk m c k)

/-- The result buffer after the first `n` additions, from contents `g`. -/
def outSeq [∀ e, Nonempty (Elt F e)] (c : Dev nD) (g : (cc0_stg1_0 : Ref sig .tc).ty.Contents (Elt F)) : ℕ → (cc0_stg1_0 : Ref sig .tc).ty.Contents (Elt F)
  | 0 => g
  | n + 1 => if h : n < 32 then ((oM : Memref sig .tc .vmem S2048x512 .f32).access (rectO c ⟨n, h⟩) : View sig .tc _ _ _).write (Elt F) (outSeq c g n) (sumChunk m c ⟨n, h⟩) Finset.univ
             else outSeq c g n

/-! ## What a device owes, payment by payment -/

/-- The `t`-th unit-paying statement of the body, in program order: the two entry signals, the 17 transfers across `x`,
    the 15 relays across `y`. -/
def payCell (c : Dev nD) (t : ℕ) : GSem nD τ sig × ℕ :=
  if t = 0 then (barCell (xp c), 1) else if t = 1 then (barCell (yp c), 1)
  else if h : t < 19 then (dmaCell (xp c) (rAx ⟨(t - 2) % 17, Nat.mod_lt _ (by decide)⟩), N)
  else (dmaCell (yp c) (rBy ⟨(t - 19) % 15, Nat.mod_lt _ (by decide)⟩), N)

/-- What remains owed when `n` of the 34 payments are still to be made. -/
def rem (c : Dev nD) : ℕ → CellTallies nD τ sig Unit
  | 0 => 0
  | n + 1 => rem c n + tallyAt (payCell c (33 - n)).1 () (payCell c (33 - n)).2

def O₀ (c : Dev nD) : CellTallies nD τ sig Unit := rem c 34

def L (g : GSem nD τ sig) : Finset Unit := if g.1.2 = .tc then {()} else ∅
/-- Entry cells at 1, arrival cells of the `x` transfers at 2, of the relays at 3; staging and departure cells at 0. -/
def lv (g : GSem nD τ sig) (_ : Unit) : ℕ :=
  match g.2 with
  | .reg _ => 1
  | .dma q => if 19 ≤ q.val ∧ q.val < 36 then 2 else if 51 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The protocol's cells, numbered; the ghost state a device starts from -/

theorem nDmaSem_eq : sig.nDmaSem = 66 := rfl

/-- The 65 cells of a device: its entry cell, then its 64 transfer semaphores (DMA semaphores 2 to 65). -/
def csem (k : Fin 65) : SemLoc sig := if k.val = 0 then .reg barS else .dma ⟨k.val + 1, by have := k.isLt; rw [nDmaSem_eq]; omega⟩
/-- The kernel's own (scoped) semaphores: the 64 transfer semaphores. -/
def osem (k : Fin 64) : SemLoc sig := .dma ⟨k.val + 2, by have := k.isLt; rw [nDmaSem_eq]; omega⟩
abbrev kcell (ck : Dev nD × Fin 65) : GSem nD τ sig := ((ck.1 : Thread nD τ), csem ck.2)

theorem csem_zero : csem 0 = .reg barS := rfl
theorem csem_dma (q : DmaSem sig) (hq : 2 ≤ q.val) : csem ⟨q.val - 1, by have : q.val < 66 := q.isLt; omega⟩ = .dma q := by
  unfold csem; rw [if_neg (by show ¬ q.val - 1 = 0; omega)]; congr 1; exact Fin.ext (by show q.val - 1 + 1 = q.val; omega)
theorem osem_dma (q : DmaSem sig) (hq : 2 ≤ q.val) : osem ⟨q.val - 2, by have : q.val < 66 := q.isLt; omega⟩ = .dma q := by
  unfold osem; congr 1; exact Fin.ext (by show q.val - 2 + 2 = q.val; omega)

section Ghost
variable [∀ e, Nonempty (Elt F e)]

/-- Every cell's invariant under the names the launch allocated, and round 0 of every cell reached: known to all. -/
def records (K : Dev nD × Fin 65 → ℕ) : sProp 𝕄 :=
  iprop((bigSep Finset.univ fun ck : Dev nD × Fin 65 => cellInv ER (sched m) (K ck) (kcell ck))
    ∗ bigSep Finset.univ fun ck : Dev nD × Fin 65 => reached ER (kcell ck) 0)

instance records_persistent (K : Dev nD × Fin 65 → ℕ) : BI.Persistent (records m K) := by unfold records; infer_instance

/-- The tokens of the duties device `c` pays: one unit on each peer's entry cell, the arrival of each of its 17 + 15
    transfers on the peers, and their departures on its own semaphores. -/
def payToks (c : Dev nD) : sProp 𝕄 :=
  iprop(dutyTok ER (barCell (xp c)) 0 true ∗ dutyTok ER (barCell (yp c)) 0 false
    ∗ (bigSep Finset.univ fun i : Fin 17 => dutyTok ER (dmaCell (xp c) (rAx i)) 0 false)
    ∗ (bigSep Finset.univ fun j : Fin 15 => dutyTok ER (dmaCell (yp c) (rBy j)) 0 false)
    ∗ (bigSep Finset.univ fun i : Fin 17 => dutyTok ER (dmaCell c (sAx i)) 0 false)
    ∗ (bigSep Finset.univ fun j : Fin 15 => dutyTok ER (dmaCell c (sBy j)) 0 false))

def ghost (K : Dev nD × Fin 65 → ℕ) (c : Dev nD) : sProp 𝕄 :=
  iprop(records m K ∗ (bigSep Finset.univ fun k : Fin 65 => atPos ER (kcell (c, k)) 0 ∅ 0) ∗ payToks c)

/-- The credit tokens for the units other devices owe this one: two on its entry cell, a chunk's on each arrival cell. -/
def creds (c : Dev nD) : sProp 𝕄 :=
  iprop(cred (tallyAt (barCell c) () 2)
    ∗ (bigSep Finset.univ fun i : Fin 17 => cred (tallyAt (dmaCell c (rAx i)) () N))
    ∗ (bigSep Finset.univ fun j : Fin 15 => cred (tallyAt (dmaCell c (rBy j)) () N)))

def start (c : Dev nD) : sProp 𝕄 := iprop((∃ K, ghost m K c) ∗ creds c ∗ levAts L lv)

def Φ₀ (c : Dev nD) : sProp 𝕄 := iprop(start m c ∗ bufA c ∗ bufB c)
/-- After the body: both landing buffers whole again, the 64 own semaphores at zero. -/
def Φ₁ (c : Dev nD) : sProp 𝕄 := iprop(bufA c ∗ bufB c ∗ bigSep Finset.univ fun k : Fin 64 => semVal ((c : Thread nD τ), osem k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Ghost

end Cert.KernelIdeal.ARProof

end
-- ==== Proof.Land.lean ====
/-
  The contents of the landing buffers and of the result, index by index.

  A transfer writes the 64 × 512 rows its source view reads into one slot of a landing buffer, whatever the slot held
  before; the landing buffers' contents `cA`, `cB` are defined slot by slot as exactly that. The result buffer, after the
  32 additions of 64 rows each, holds at every row the device's own row plus the row of the device across `x`: the 32
  row ranges tile the 2048 rows, and each landed chunk is the matching rows of that device's block (directly for the 17
  chunks that came across `x`; through the relay for the 15 that came across `y`, whose sender holds the same block).
-/
import proofs.«900127_g7700000000000128_dist_ar_v7x_xy2x2_x_m2048_n512_f32_1_alg».proof.Proof.Proto
import Idealize.ShloMosaic.Lib.Pipeline.Value

noncomputable section

namespace Cert.KernelIdeal.ARProof

open Cert.KernelIdeal Cert.KernelIdeal.Gen Cert.KernelIdeal.AR
open Idealize.ShloMosaic Idealize.ShloMosaic.TcCoe Idealize.SL.Sem

variable {F : FTy → Type} [FloatOps F] [∀ e, Nonempty (Elt F e)]
variable (m : (ℓ : Loc nD τ sig) → Buf (Elt F) ℓ)

/-- What the transfer of chunk `i` from across `x` leaves in slot `i` of device `c'`'s first landing buffer is that
    buffer's stated contents there, whatever the slot held. -/
theorem landA (c' : Dev nD) (i : Fin 17) (fd : Buf (Elt F) ((slotA i).view.loc (c' : Thread nD τ))) :
    ∀ a ∈ (slotA i).view.set,
      (slotA i).view.write (Elt F) fd ((srcA (xp c') i).view.read (Elt F) (xstg m (xp c'))) Finset.univ a = cA m c' a := by
  intro a ha
  obtain ⟨y, rfl⟩ := View.exists_emb_of_mem_set _ ha
  have hs : slotOfA ((slotA i).view.emb y) = i := Fin.ext (by
    have h0 := ((Shape.reshapeEquiv squeezes_S1x64x512_S64x512.numel_eq y) 0).isLt
    show i.val + 1 * ((Shape.reshapeEquiv squeezes_S1x64x512_S64x512.numel_eq y) 0).val = i.val
    have h1 : ((Shape.reshapeEquiv squeezes_S1x64x512_S64x512.numel_eq y) 0).val < 1 := h0
    omega)
  have key : ∀ s : Fin 17, s = i →
      (slotA s).view.write (Elt F) (fun _ => Classical.arbitrary _)
        ((srcA (xp c') s).view.read (Elt F) (xstg m (xp c'))) Finset.univ ((slotA i).view.emb y)
      = (slotA i).view.write (Elt F) fd ((srcA (xp c') i).view.read (Elt F) (xstg m (xp c'))) Finset.univ
        ((slotA i).view.emb y) := by
    rintro s rfl
    rw [View.write_emb_of_mem _ _ (Finset.mem_univ y), View.write_emb_of_mem _ _ (Finset.mem_univ y)]
  exact (key _ hs).symm

/-- The same for the relay of slot `j` from across `y` into the second landing buffer. -/
theorem landB (c' : Dev nD) (j : Fin 15) (fd : Buf (Elt F) ((slotB j).view.loc (c' : Thread nD τ))) :
    ∀ a ∈ (slotB j).view.set,
      (slotB j).view.write (Elt F) fd ((slotA (up j)).view.read (Elt F) (cA m (yp c'))) Finset.univ a = cB m c' a := by
  intro a ha
  obtain ⟨y, rfl⟩ := View.exists_emb_of_mem_set _ ha
  have hs : slotOfB ((slotB j).view.emb y) = j := Fin.ext (by
    have h0 := ((Shape.reshapeEquiv squeezes_S1x64x512_S64x512.numel_eq y) 0).isLt
    show j.val + 1 * ((Shape.reshapeEquiv squeezes_S1x64x512_S64x512.numel_eq y) 0).val = j.val
    have h1 : ((Shape.reshapeEquiv squeezes_S1x64x512_S64x512.numel_eq y) 0).val < 1 := h0
    omega)
  have key : ∀ s : Fin 15, s = j →
      (slotB s).view.write (Elt F) (fun _ => Classical.arbitrary _)
        ((slotA (up s)).view.read (Elt F) (cA m (yp c'))) Finset.univ ((slotB j).view.emb y)
      = (slotB j).view.write (Elt F) fd ((slotA (up j)).view.read (Elt F) (cA m (yp c'))) Finset.univ
        ((slotB j).view.emb y) := by
    rintro s rfl
    rw [View.write_emb_of_mem _ _ (Finset.mem_univ y), View.write_emb_of_mem _ _ (Finset.mem_univ y)]
  exact (key _ hs).symm

/-- The staged block is the device's whole argument block. -/
theorem xstg_eq (c : Dev nD) : xstg m c = blk m c := by
  unfold xstg
  exact Memref.read_access_unit_zero (Elt F) main_arg0 (funext fun a => Nat.zero_mul _) _ _

/-! ## The rows of the 32 additions

  Chunk `k` covers 64 whole rows from row `rowO c k`. Writing `p = c % 2`: chunks `0 … 15` start at `1024·p + 64·k`, chunk
  `16` at `1984 - 1024·p`, chunks `17 … 31` at `(64·(k - 17) + 1024) - 1024·p`; together they tile the 2048 rows. -/

/-- The first row of chunk `k` of the additions. -/
def rowO (c : Dev nD) (k : ℕ) : ℕ :=
  if k < 16 then 1024 * (c.val % 2) + 64 * k
  else if k = 16 then 1984 - 1024 * (c.val % 2)
  else (64 * (k - 17) + 1024) - 1024 * (c.val % 2)

theorem offO_eq (c : Dev nD) (k : Fin 32) : offO c k = ![rowO c k.val, 0] := by
  unfold offO rowO
  split
  · next h => exact k0_off3_eq c ⟨k.val, h⟩
  · next h =>
    split
    · next h' => exact k0_off4_eq c ⟨15, by decide⟩
    · next h' => exact k0_off4_eq c ⟨k.val - 17, by have := k.isLt; omega⟩

/-- The first row of chunk `i` of the transfers across `x`. -/
theorem offA_eq (c : Dev nD) (i : Fin 17) :
    offA c i = ![if i.val < 16 then 1024 * (c.val % 2) + 64 * i.val else 1984 - 1024 * (c.val % 2), 0] := by
  unfold offA
  split
  · next h => exact k0_off1_eq c ⟨i.val, h⟩
  · next h => exact k0_off2_eq c

/-- A chunk that came directly across `x` was read from the rows it is added to. -/
theorem offA_direct (c : Dev nD) (k : Fin 32) (h : k.val < 17) : offA (xp c) ⟨k.val, h⟩ = offO c k := by
  rw [offA_eq, offO_eq, xp_mod]; unfold rowO
  have hp : c.val % 2 < 2 := Nat.mod_lt _ (by decide)
  congr 1
  show (if k.val < 16 then _ else _) = _
  split
  · rfl
  · next h' => rw [if_pos (show k.val = 16 by omega)]

/-- A relayed chunk was read, on the device across both axes, from the rows it is added to. -/
theorem offA_relayed (c : Dev nD) (k : Fin 32) (h : 17 ≤ k.val) :
    offA (yp (xp c)) (up ⟨k.val - 17, by have := k.isLt; omega⟩) = offO c k := by
  rw [offA_eq, offO_eq, yp_mod, xp_mod]; unfold rowO
  have hp : c.val % 2 < 2 := Nat.mod_lt _ (by decide)
  have hk := k.isLt
  congr 1
  show (if k.val - 17 < 16 then 1024 * (1 - c.val % 2) + 64 * (k.val - 17) else _) = _
  rw [if_pos (show k.val - 17 < 16 by omega), if_neg (show ¬ k.val < 16 by omega), if_neg (show ¬ k.val = 16 by omega)]
  omega

/-- Rectangles of one size at equal offsets place an index at the same element. -/
theorem emb_unit_congr {s : Shape} {off off' size : Fin s.rank → ℕ} (h : off = off')
    (p : ∀ a, off a + size a ≤ s.size a) (p' : ∀ a, off' a + size a ≤ s.size a) (z : (Rect.unit off size p).shape.Idx) :
    (Rect.unit off size p).emb z = (Rect.unit off' size p').emb z := by
  subst h; rfl

/-- The row of the `z`-th element of chunk `k`. -/
theorem rectO_row (c : Dev nD) (k : Fin 32) (z : S64x512.Idx) :
    ((rectO c k).emb z 0).val = rowO c k.val + (z 0).val := by
  rw [Rect.emb_apply]
  show offO c k 0 + 1 * (z 0).val = _
  rw [offO_eq]
  show rowO c k.val + 1 * (z 0).val = _
  omega

/-- Which device's block chunk `k` adds: the one across `x` for the 17 direct chunks, its `y` peer for the relayed ones. -/
theorem src_rectO (c : Dev nD) (k : Fin 32) (z : S64x512.Idx) :
    src c ((rectO c k).emb z) = if k.val < 17 then xp c else yp (xp c) := by
  have hr := rectO_row c k z
  have hz : (z 0).val < 64 := (z 0).isLt
  have hp : c.val % 2 < 2 := Nat.mod_lt _ (by decide)
  have hk := k.isLt
  unfold src relayed
  rw [hr]; unfold rowO
  by_cases h17 : k.val < 17
  · rw [if_pos h17]
    refine if_neg ?_
    by_cases h16 : k.val < 16
    · rw [if_pos h16]; split <;> omega
    · rw [if_neg h16, if_pos (show k.val = 16 by omega)]; split <;> omega
  · rw [if_neg h17]
    refine if_pos ?_
    rw [if_neg (show ¬ k.val < 16 by omega), if_neg (show ¬ k.val = 16 by omega)]; split <;> omega

/-! ## What a landed chunk holds, and what an addition stores -/

/-- Slot `s` of the first landing buffer holds the rows chunk `s` of the sender's transfers reads. -/
theorem cA_emb (c' : Dev nD) (s : Fin 17) (z : S64x512.Idx) :
    cA m c' ((slotA s).view.emb z)
      = xstg m (xp c') ((Rect.unit (s := S2048x512) (offA (xp c') s) S64x512.size (offA_inb (xp c') s)).emb z) := by
  rw [← landA m c' s (fun _ => Classical.arbitrary _) _ (View.emb_mem_set _ z),
    View.write_emb_of_mem _ _ (Finset.mem_univ z)]
  rfl

/-- Slot `j` of the second landing buffer holds slot `j` of the sender's first landing buffer. -/
theorem cB_emb (c' : Dev nD) (j : Fin 15) (z : S64x512.Idx) :
    cB m c' ((slotB j).view.emb z) = cA m (yp c') ((slotA (up j)).view.emb z) := by
  rw [← landB m c' j (fun _ => Classical.arbitrary _) _ (View.emb_mem_set _ z),
    View.write_emb_of_mem _ _ (Finset.mem_univ z)]
  rfl

/-- The landed chunk the `k`-th addition reads is the rows it is added to, of the block of the device it came from. -/
theorem landedChunk_apply (c : Dev nD) (k : Fin 32) (z : S64x512.Idx) :
    landedChunk m c k (Shape.reshapeEquiv shapeCasts_S1x64x512_S64x512 z)
      = xstg m (if k.val < 17 then xp c else yp (xp c)) ((rectO c k).emb z) := by
  unfold landedChunk
  by_cases h : k.val < 17
  · rw [dif_pos h, if_pos h]
    refine (cA_emb m c ⟨k.val, h⟩ z).trans ?_
    exact congrArg (xstg m (xp c))
      (emb_unit_congr (s := S2048x512) (size := S64x512.size) (offA_direct c k h) (offA_inb _ _) (offO_inb c k) z)
  · rw [dif_neg h, if_neg h]
    have hj : k.val - 17 < 15 := by have := k.isLt; omega
    have h17 : 17 ≤ k.val := Nat.le_of_not_lt h
    refine (cB_emb m c ⟨k.val - 17, hj⟩ z).trans ?_
    refine (cA_emb m (yp c) (up ⟨k.val - 17, hj⟩) z).trans ?_
    rw [xp_yp]
    exact congrArg (xstg m (yp (xp c)))
      (emb_unit_congr (s := S2048x512) (size := S64x512.size) (offA_relayed c k h17) (offA_inb _ _) (offO_inb c k) z)

/-- What the `k`-th addition stores is the stated result on the rows of chunk `k`. -/
theorem sumChunk_apply (c : Dev nD) (k : Fin 32) (z : S64x512.Idx) :
    sumChunk m c k z = outAt m c ((rectO c k).emb z) := by
  unfold outAt
  rw [src_rectO, ← landedChunk_apply m c k z]
  unfold sumChunk k0_pay1
  show FloatOps.addf (shapeCast S64x512 _ shapeCasts_S64x512_S64x512 z) _ = _
  rw [shapeCast_self]
  rfl

/-! ## The 32 additions tile the rows -/

/-- The elements of chunk `k`, by rows. -/
theorem mem_rectO (c : Dev nD) (k : Fin 32) (i : S2048x512.Idx) :
    i ∈ (rectO c k).set ↔ rowO c k.val ≤ (i 0).val ∧ (i 0).val < rowO c k.val + 64 := by
  rw [Rect.mem_set_unit]
  constructor
  · intro h
    have h0 := h 0
    rw [offO_eq] at h0
    exact h0
  · intro h a
    rw [offO_eq]
    match a with
    | ⟨0, _⟩ => exact h
    | ⟨1, _⟩ =>
      have h1 : (i 1).val < 512 := (i 1).isLt
      exact ⟨Nat.zero_le _, by show (i 1).val < 0 + 512; omega⟩

/-- One addition: on the rows of chunk `k` the buffer takes the stated result, elsewhere it keeps what it held. -/
theorem write_rectO (c : Dev nD) (k : Fin 32) (f : (cc0_stg1_0 : Ref sig .tc).ty.Contents (Elt F)) (i : S2048x512.Idx) :
    ((oM : Memref sig .tc .vmem S2048x512 .f32).access (rectO c k) : View sig .tc _ _ _).write (Elt F) f
        (sumChunk m c k) Finset.univ i
      = if i ∈ (rectO c k).set then outAt m c i else f i := by
  by_cases h : i ∈ (rectO c k).set
  · rw [if_pos h]
    obtain ⟨z, rfl⟩ := (rectO c k).exists_idx_of_mem h
    rw [show (rectO c k).idx z = (rectO c k).emb z from rfl, ← sumChunk_apply]
    exact (View.write_emb_of_mem
      (v := ((oM : Memref sig .tc .vmem S2048x512 .f32).access (rectO c k) : View sig .tc _ _ _)) f
      (sumChunk m c k) (Finset.mem_univ z)).trans rfl
  · rw [if_neg h]
    exact View.write_of_not_mem _ _ _ (by rw [View.setOn_univ, View.set_slice_whole]; exact h)

/-- After the first `n` additions every row of a chunk below `n` holds the stated result: a later addition either
    rewrites a row with the same value or leaves it alone. -/
theorem outSeq_rows (c : Dev nD) (g : (cc0_stg1_0 : Ref sig .tc).ty.Contents (Elt F)) :
    ∀ n, n ≤ 32 → ∀ i : S2048x512.Idx, (∃ k : Fin 32, k.val < n ∧ i ∈ (rectO c k).set) →
      outSeq m c g n i = outAt m c i
  | 0, _, _, ⟨_, hk, _⟩ => absurd hk (Nat.not_lt_zero _)
  | n + 1, hn, i, ⟨k, hk, hi⟩ => by
    have hn' : n < 32 := hn
    rw [outSeq, dif_pos hn', write_rectO]
    by_cases h : i ∈ (rectO c ⟨n, hn'⟩).set
    · rw [if_pos h]
    · rw [if_neg h]
      refine outSeq_rows c g n (Nat.le_of_lt hn') i ⟨k, ?_, hi⟩
      rcases Nat.lt_succ_iff_lt_or_eq.mp hk with h' | h'
      · exact h'
      · exact absurd (by rw [show (⟨n, hn'⟩ : Fin 32) = k from Fin.ext h'.symm]; exact hi) h

/-- Every row lies in one of the 32 chunks. -/
theorem rows_cover (c : Dev nD) (i : S2048x512.Idx) : ∃ k : Fin 32, i ∈ (rectO c k).set := by
  have hi : (i 0).val < 2048 := (i 0).isLt
  have hp : c.val % 2 < 2 := Nat.mod_lt _ (by decide)
  by_cases h1 : (i 0).val / 1024 = c.val % 2
  · -- the half sent first: chunk `(row - 1024·p) / 64`
    refine ⟨⟨((i 0).val - 1024 * (c.val % 2)) / 64, by omega⟩, (mem_rectO c _ i).mpr ?_⟩
    show rowO c (((i 0).val - 1024 * (c.val % 2)) / 64) ≤ _ ∧ _
    unfold rowO
    rw [if_pos (show ((i 0).val - 1024 * (c.val % 2)) / 64 < 16 by omega)]
    omega
  · by_cases h2 : 1984 ≤ (i 0).val + 1024 * (c.val % 2) ∧ (i 0).val + 1024 * (c.val % 2) < 2048
    · -- the last 64 rows of the other half: chunk 16
      refine ⟨⟨16, by decide⟩, (mem_rectO c _ i).mpr ?_⟩
      show rowO c 16 ≤ _ ∧ _
      unfold rowO
      rw [if_neg (show ¬ 16 < 16 by decide), if_pos rfl]
      omega
    · -- the first 960 rows of the other half: chunk `17 + (row + 1024·p - 1024) / 64`
      refine ⟨⟨17 + ((i 0).val + 1024 * (c.val % 2) - 1024) / 64, by omega⟩, (mem_rectO c _ i).mpr ?_⟩
      show rowO c (17 + ((i 0).val + 1024 * (c.val % 2) - 1024) / 64) ≤ _ ∧ _
      unfold rowO
      rw [if_neg (show ¬ 17 + ((i 0).val + 1024 * (c.val % 2) - 1024) / 64 < 16 by omega),
        if_neg (show ¬ 17 + ((i 0).val + 1024 * (c.val % 2) - 1024) / 64 = 16 by omega)]
      omega

/-- After the 32 additions the result buffer holds the sum of the two blocks, whatever it held before. -/
theorem outSeq_final (c : Dev nD) (g : (cc0_stg1_0 : Ref sig .tc).ty.Contents (Elt F)) : outSeq m c g 32 = outAt m c := by
  funext i
  obtain ⟨k, hk⟩ := rows_cover c i
  exact outSeq_rows m c g 32 (Nat.le_refl _) i ⟨k, k.isLt, hk⟩

theorem outAt_eq_total (c : Dev nD) : outAt m c = total m c := by
  funext i
  unfold outAt total; rw [xstg_eq, xstg_eq]

/-- info: 'Cert.KernelIdeal.ARProof.outSeq_final' depends on axioms: [propext, Classical.choice, Quot.sound] -/
#guard_msgs in #print axioms outSeq_final

end Cert.KernelIdeal.ARProof

end
-- ==== Proof.LaunchCred.lean ====
/-
  Levels and launch credit of the all-reduce's protocol.

  A wait is allowed only below everything the waiter still owes. The entry cells sit at level 1, the arrival cells of
  the transfers across `x` at 2, those of the relays at 3, staging and departure cells at 0. A device waits on its
  entry cell owing only arrivals; on an `x` arrival owing only relay arrivals; everywhere else it owes nothing.
  At launch the units all devices owe one cell add up to two on an entry cell (one from each peer) and one chunk's units
  on each arrival cell (from the one peer that fills it).
-/
import proofs.«900127_g7700000000000128_dist_ar_v7x_xy2x2_x_m2048_n512_f32_1_alg».proof.Proof.Proto

noncomputable section

namespace Cert.KernelIdeal.ARProof

open Cert.KernelIdeal Cert.KernelIdeal.Gen Cert.KernelIdeal.AR
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One payment peeled: what remains owed before the `(34 - (n+1))`-th payment is that payment's tally on top of the rest. -/
theorem rem_succ (c : Dev nD) (n : ℕ) : rem c (n + 1) = rem c n + tallyAt (payCell c (33 - n)).1 () (payCell c (33 - n)).2 := rfl

/-- A cell still owed something is the target of one of the payments still to be made. -/
theorem rem_pos {c : Dev nD} {n : ℕ} {g : GSem nD τ sig} {u : Unit} (h : 0 < rem c n g u) :
    ∃ t, 34 - n ≤ t ∧ t < 34 ∧ g = (payCell c t).1 := by
  induction n with
  | zero => exact absurd h (Nat.lt_irrefl 0)
  | succ n ih =>
    rw [rem_succ, Pi.add_apply, Finsupp.add_apply] at h
    by_cases h1 : 0 < rem c n g u
    · obtain ⟨t, ht1, ht2, ht3⟩ := ih h1
      exact ⟨t, by omega, ht2, ht3⟩
    · have h2 : 0 < tallyAt (payCell c (33 - n)).1 () (payCell c (33 - n)).2 g u := by omega
      rw [tallyAt_apply] at h2
      by_cases hg : g = (payCell c (33 - n)).1 ∧ u = ()
      · exact ⟨33 - n, by omega, by omega, hg.1⟩
      · rw [if_neg hg] at h2; exact absurd h2 (Nat.lt_irrefl 0)

/-- The payments in program order, by family. -/
theorem payCell_zero (c : Dev nD) : payCell c 0 = (barCell (xp c), 1) := rfl
theorem payCell_one (c : Dev nD) : payCell c 1 = (barCell (yp c), 1) := rfl
theorem payCell_x (c : Dev nD) (i : Fin 17) : payCell c (2 + i.val) = (dmaCell (xp c) (rAx i), N) := by
  have hi := i.isLt
  unfold payCell
  rw [if_neg (by omega), if_neg (by omega), dif_pos (by omega)]
  congr 3; exact Fin.ext (by show (2 + i.val - 2) % 17 = i.val; rw [Nat.add_sub_cancel_left, Nat.mod_eq_of_lt hi])
theorem payCell_y (c : Dev nD) (j : Fin 15) : payCell c (19 + j.val) = (dmaCell (yp c) (rBy j), N) := by
  have hj := j.isLt
  unfold payCell
  rw [if_neg (by omega), if_neg (by omega), dif_neg (by omega)]
  congr 3; exact Fin.ext (by show (19 + j.val - 19) % 15 = j.val; rw [Nat.add_sub_cancel_left, Nat.mod_eq_of_lt hj])

/-- Every payment before the 34th is one of the two signals, one of the 17 transfers across `x` or one of the 15 relays. -/
theorem pay_cases {t : ℕ} (ht : t < 34) : t = 0 ∨ t = 1 ∨ (∃ i : Fin 17, t = 2 + i.val) ∨ ∃ j : Fin 15, t = 19 + j.val := by
  by_cases h0 : t = 0; · exact .inl h0
  by_cases h1 : t = 1; · exact .inr (.inl h1)
  by_cases h2 : t < 19
  · exact .inr (.inr (.inl ⟨⟨t - 2, by omega⟩, by show t = 2 + (t - 2); omega⟩))
  · exact .inr (.inr (.inr ⟨⟨t - 19, by omega⟩, by show t = 19 + (t - 19); omega⟩))

/-- Every payment's cell is a TensorCore's, and carries the one index. -/
theorem L_payCell (c : Dev nD) (t : ℕ) : L (payCell c t).1 = {()} := by
  unfold payCell; split
  · exact L_tc _ _
  · split
    · exact L_tc _ _
    · split <;> exact L_tc _ _

/-- The level of a payment's cell: 1 for the two signals, 2 for the transfers across `x`, 3 for the relays. -/
theorem lv_payCell (c : Dev nD) {t : ℕ} (ht : t < 34) : lv (payCell c t).1 () = if t < 2 then 1 else if t < 19 then 2 else 3 := by
  rcases pay_cases ht with rfl | rfl | ⟨i, rfl⟩ | ⟨j, rfl⟩
  · rfl
  · rfl
  · have hi := i.isLt
    rw [payCell_x, if_neg (by omega), if_pos (by omega)]
    show (if 19 ≤ (rAx i).val ∧ (rAx i).val < 36 then 2 else if 51 ≤ (rAx i).val then 3 else 0) = 2
    rw [rAx_val, if_pos ⟨by omega, by omega⟩]
  · have hj := j.isLt
    rw [payCell_y, if_neg (by omega), if_neg (by omega)]
    show (if 19 ≤ (rBy j).val ∧ (rBy j).val < 36 then 2 else if 51 ≤ (rBy j).val then 3 else 0) = 3
    rw [rBy_val, if_neg (by omega), if_pos (by omega)]

/-- A wait at a cell of level at most `b` is allowed while only payments of cells above `b` remain. -/
theorem mayWait_rem (c : Dev nD) (sm : SemLoc sig) (n b : ℕ) (hsm : lv ((c : Thread nD τ), sm) () ≤ b)
    (hn : ∀ t, 34 - n ≤ t → t < 34 → b < if t < 2 then 1 else if t < 19 then 2 else 3) :
    (levAts L lv : sProp 𝕄) ⊢ MayWait (c : Thread nD τ) sm () (rem c n) :=
  MayOwe.of_cut (L := L) (lev := lv) b
    (fun p hp => by rw [Finset.mem_singleton.mp hp, L_tc]; exact Finset.mem_singleton_self _)
    (fun g u hg => by obtain ⟨t, _, _, rfl⟩ := rem_pos hg; rw [L_payCell]; exact Finset.mem_singleton_self _)
    (fun p hp => by rw [Finset.mem_singleton.mp hp]; exact hsm)
    (fun g u hg => by obtain ⟨t, h1, h2, rfl⟩ := rem_pos hg; rw [show u = () from rfl, lv_payCell c h2]; exact hn t h1 h2)

/-- The pipeline's own waits on its staging semaphores (DMA semaphores 0 and 1, level 0): before the body the device
    owes everything, after it nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_rem c (.dma q) 34 0 ?_ fun t _ _ => ?_
    · show (if 19 ≤ q.val ∧ q.val < 36 then 2 else if 51 ≤ q.val then 3 else 0) ≤ 0
      rw [if_neg (by omega), if_neg (by omega)]
    · split
      · decide
      · split <;> decide
  · rw [MayWait_zero]; iintro -; iempintro

/-- At the entry wait the two signals are paid: the device owes arrivals only. -/
theorem mayWait_bar (c : Dev nD) :
    (levAts L lv : sProp 𝕄) ⊢ MayWait (c : Thread nD τ) (.reg barS) () (rem c 32) :=
  mayWait_rem c (.reg barS) 32 1 (Nat.le_refl 1) fun t h1 _ => by
    rw [if_neg (by omega)]; split <;> decide

/-- At the wait for an `x` arrival all 17 transfers across `x` are sent: the device owes relay arrivals only. -/
theorem mayWait_rAx (c : Dev nD) (i : Fin 17) (n : ℕ) (hn : n ≤ 15) :
    (levAts L lv : sProp 𝕄) ⊢ MayWait (c : Thread nD τ) (.dma (rAx i)) () (rem c n) := by
  have hi := i.isLt
  refine mayWait_rem c (.dma (rAx i)) n 2 ?_ fun t h1 _ => ?_
  · show (if 19 ≤ (rAx i).val ∧ (rAx i).val < 36 then 2 else if 51 ≤ (rAx i).val then 3 else 0) ≤ 2
    rw [rAx_val, if_pos ⟨by omega, by omega⟩]
  · rw [if_neg (by omega), if_neg (by omega)]; decide

/-- The kernel's 64 transfer semaphores are scoped to the launch and are no staging semaphore. -/
theorem stage_sem_lt : ∀ (w : Fin cfg0.W) (s : Fin (cfg0.spec w).nbuf), ((cfg0.spec w).sem s).val < 2 := by decide

theorem ownSemFacts : Pipeline.OwnSemFacts cfg0.spec osem where
  isScoped k := by
    revert k; decide
  inj k k' h := by
    have := congrArg (fun sm : SemLoc sig => match sm with | .dma q => q.val | .reg _ => 0) h
    exact Fin.ext (by simpa [osem] using this)
  disj k w s h := by
    have h1 := stage_sem_lt w s
    have := congrArg (fun sm : SemLoc sig => match sm with | .dma q => q.val | .reg _ => 0) h
    simp only [osem] at this
    omega

/-! ## What every device owes one cell -/

theorem bar_eq_iff {a b : Dev nD} : Iff (barCell a = barCell b) (a = b) :=
  ⟨fun h => Fin.ext (congrArg (fun g : GSem nD τ sig => g.1.1.val) h), fun h => h ▸ rfl⟩
theorem dma_eq_iff {a b : Dev nD} {q q' : DmaSem sig} : Iff (dmaCell a q = dmaCell b q') (a = b ∧ q = q') :=
  ⟨fun h => ⟨Fin.ext (congrArg (fun g : GSem nD τ sig => g.1.1.val) h), SemLoc.dma.inj (congrArg Prod.snd h)⟩, fun h => by rw [h.1, h.2]⟩
theorem bar_ne_dma (a b : Dev nD) (q : DmaSem sig) : barCell a ≠ dmaCell b q := fun h => by cases congrArg Prod.snd h
theorem dma_ne_bar (a b : Dev nD) (q : DmaSem sig) : dmaCell b q ≠ barCell a := fun h => by cases congrArg Prod.snd h
theorem rAx_inj {i i' : Fin 17} (h : rAx i = rAx i') : i = i' := by
  have := congrArg Fin.val h; rw [rAx_val, rAx_val] at this; exact Fin.ext (by omega)
theorem rBy_inj {j j' : Fin 15} (h : rBy j = rBy j') : j = j' := by
  have := congrArg Fin.val h; rw [rBy_val, rBy_val] at this; exact Fin.ext (by omega)
theorem rAx_ne_rBy (i : Fin 17) (j : Fin 15) : rAx i ≠ rBy j := fun h => by
  have := congrArg Fin.val h; rw [rAx_val, rBy_val] at this; have := i.isLt; omega

omit [FloatOps F] in
theorem tallyAt_ne_cell' {g g' : GSem nD τ sig} (h : g' ≠ g) (k : ℕ) : (tallyAt g () k : CellTallies nD τ sig Unit) g' () = 0 := by
  rw [tallyAt_ne_cell h]; rfl

/-- What remains owed at one cell, together with the payments already made there, is all 34 payments there. -/
theorem rem_add (d : Dev nD) (g : GSem nD τ sig) (u : Unit) : ∀ n, n ≤ 34 →
    rem d n g u + ∑ t ∈ Finset.range (34 - n), tallyAt (payCell d t).1 () (payCell d t).2 g u
      = ∑ t ∈ Finset.range 34, tallyAt (payCell d t).1 () (payCell d t).2 g u
  | 0, _ => by
    show (0 : CellTallies nD τ sig Unit) g u + _ = _
    rw [Pi.zero_apply, Finsupp.zero_apply, Nat.zero_add]
  | n + 1, h => by
    have e : 34 - n = (34 - (n + 1)) + 1 := by omega
    have e1 : 33 - n = 34 - (n + 1) := by omega
    rw [← rem_add d g u n (by omega), rem_succ, Pi.add_apply, Finsupp.add_apply, e, Finset.sum_range_succ, e1]
    omega

/-- What device `d` owes a cell at launch, by family of payment. -/
theorem O₀_apply (d : Dev nD) (g : GSem nD τ sig) :
    O₀ d g () = tallyAt (barCell (xp d)) () 1 g () + tallyAt (barCell (yp d)) () 1 g ()
      + (∑ i : Fin 17, tallyAt (dmaCell (xp d) (rAx i)) () N g ()) + ∑ j : Fin 15, tallyAt (dmaCell (yp d) (rBy j)) () N g () := by
  have h := rem_add d g () 34 (Nat.le_refl _)
  rw [Nat.sub_self, Finset.range_zero, Finset.sum_empty, Nat.add_zero, show (34 : ℕ) = 2 + 17 + 15 from rfl] at h
  unfold O₀
  rw [show (34 : ℕ) = 2 + 17 + 15 from rfl, h, Finset.sum_range_add, Finset.sum_range_add, Finset.sum_range_succ, Finset.sum_range_one,
    Finset.sum_range, Finset.sum_range, payCell_zero, payCell_one,
    Finset.sum_congr rfl fun (i : Fin 17) _ => by rw [payCell_x],
    Finset.sum_congr rfl fun (j : Fin 15) _ => by rw [show 2 + 17 + j.val = 19 + j.val from rfl, payCell_y]]

theorem owed_bar (d c : Dev nD) : O₀ d (barCell c) () = (if d = xp c then 1 else 0) + (if d = yp c then 1 else 0) := by
  rw [O₀_apply, tallyAt_apply, tallyAt_apply, Finset.sum_eq_zero fun i _ => tallyAt_ne_cell' (bar_ne_dma _ _ _) N,
    Finset.sum_eq_zero fun j _ => tallyAt_ne_cell' (bar_ne_dma _ _ _) N, Nat.add_zero, Nat.add_zero]
  congr 1
  · by_cases h : d = xp c
    · subst h; rw [xp_xp, if_pos ⟨rfl, rfl⟩, if_pos rfl]
    · rw [if_neg (fun ⟨h1, _⟩ => h (by rw [bar_eq_iff.mp h1, xp_xp])), if_neg h]
  · by_cases h : d = yp c
    · subst h; rw [yp_yp, if_pos ⟨rfl, rfl⟩, if_pos rfl]
    · rw [if_neg (fun ⟨h1, _⟩ => h (by rw [bar_eq_iff.mp h1, yp_yp])), if_neg h]

theorem owed_rAx (d c : Dev nD) (i : Fin 17) : O₀ d (dmaCell c (rAx i)) () = if d = xp c then N else 0 := by
  rw [O₀_apply, tallyAt_ne_cell' (dma_ne_bar _ _ _), tallyAt_ne_cell' (dma_ne_bar _ _ _),
    Finset.sum_eq_zero fun j _ => tallyAt_ne_cell' (fun h => rAx_ne_rBy i j (dma_eq_iff.mp h).2) N]
  simp only [Nat.zero_add, Nat.add_zero]
  rw [Finset.sum_eq_single i (fun i' _ hi' => tallyAt_ne_cell' (fun h => hi' (rAx_inj (dma_eq_iff.mp h).2).symm) N) (fun h => absurd (Finset.mem_univ i) h),
    tallyAt_apply]
  by_cases h : d = xp c
  · subst h; rw [xp_xp, if_pos ⟨rfl, rfl⟩, if_pos rfl]
  · rw [if_neg (fun ⟨h1, _⟩ => h (by rw [(dma_eq_iff.mp h1).1, xp_xp])), if_neg h]

theorem owed_rBy (d c : Dev nD) (j : Fin 15) : O₀ d (dmaCell c (rBy j)) () = if d = yp c then N else 0 := by
  rw [O₀_apply, tallyAt_ne_cell' (dma_ne_bar _ _ _), tallyAt_ne_cell' (dma_ne_bar _ _ _),
    Finset.sum_eq_zero fun i _ => tallyAt_ne_cell' (fun h => rAx_ne_rBy i j (dma_eq_iff.mp h).2.symm) N]
  simp only [Nat.zero_add, Nat.add_zero]
  rw [Finset.sum_eq_single j (fun j' _ hj' => tallyAt_ne_cell' (fun h => hj' (rBy_inj (dma_eq_iff.mp h).2).symm) N) (fun h => absurd (Finset.mem_univ j) h),
    tallyAt_apply]
  by_cases h : d = yp c
  · subst h; rw [yp_yp, if_pos ⟨rfl, rfl⟩, if_pos rfl]
  · rw [if_neg (fun ⟨h1, _⟩ => h (by rw [(dma_eq_iff.mp h1).1, yp_yp])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

theorem launch_rAx (c : Dev nD) (i : Fin 17) :
    tallyOn (dmaCell c (rAx i)) (launchCredit (Pipeline.owing O₀) 0 (dmaCell c (rAx i))) = (tallyAt (dmaCell c (rAx i)) () N : CellTallies nD τ sig Unit) := by
  unfold tallyAt; refine congrArg _ (Finsupp.ext fun u => ?_); cases u
  rw [Pipeline.launchCredit_owing, Finsupp.single_eq_same, Finset.sum_congr rfl fun d _ => owed_rAx d c i, Finset.sum_ite_eq' Finset.univ (xp c) fun _ => N,
    if_pos (Finset.mem_univ _)]

theorem launch_rBy (c : Dev nD) (j : Fin 15) :
    tallyOn (dmaCell c (rBy j)) (launchCredit (Pipeline.owing O₀) 0 (dmaCell c (rBy j))) = (tallyAt (dmaCell c (rBy j)) () N : CellTallies nD τ sig Unit) := by
  unfold tallyAt; refine congrArg _ (Finsupp.ext fun u => ?_); cases u
  rw [Pipeline.launchCredit_owing, Finsupp.single_eq_same, Finset.sum_congr rfl fun d _ => owed_rBy d c j, Finset.sum_ite_eq' Finset.univ (yp c) fun _ => N,
    if_pos (Finset.mem_univ _)]

/-- The 33 cells of a device that are owed units at launch: its entry cell and its 32 arrival cells. -/
def credCell : Unit ⊕ (Fin 17 ⊕ Fin 15) → Option (SemLoc sig)
  | .inl _ => some (.reg barS)
  | .inr (.inl i) => some (.dma (rAx i))
  | .inr (.inr j) => some (.dma (rBy j))

theorem credCell_inj : ∀ a b sm, credCell a = some sm → credCell b = some sm → a = b := by
  rintro (_ | i | j) (_ | i' | j') sm h1 h2 <;> have h := Option.some.inj (h1.trans h2.symm)
  · rfl
  · cases h
  · cases h
  · cases h
  · rw [rAx_inj (SemLoc.dma.inj h)]
  · exact absurd (SemLoc.dma.inj h) (rAx_ne_rBy i j')
  · cases h
  · exact absurd (SemLoc.dma.inj h).symm (rAx_ne_rBy i' j)
  · rw [rBy_inj (SemLoc.dma.inj h)]

/-- The launch credit of device `c`: two units on its entry cell, one chunk's units on each of its 32 arrival cells. -/
theorem creds_intro (c : Dev nD) : (Pipeline.launchCred O₀ c : sProp 𝕄) ⊢ creds c := by
  unfold Pipeline.launchCred creds
  refine (bigSep_along credCell credCell_inj _).trans ?_
  rw [bigSep_univ_sum, bigSep_univ_sum, bigSep_univ_of_subsingleton ()]
  refine sep_mono (Entails.of_eq (congrArg cred (launch_bar c))) (sep_mono ?_ ?_)
  · exact bigSep_mono fun i _ => Entails.of_eq (congrArg cred (launch_rAx c i))
  · exact bigSep_mono fun j _ => Entails.of_eq (congrArg cred (launch_rBy c j))

end Cert.KernelIdeal.ARProof

end
-- ==== Proof.Launch.lean ====
/-
  The launch of the all-reduce: the ghost state every device starts from, and the run of the whole mesh from the body's proof.

  Each device has 65 cells: its entry cell and its 64 transfer semaphores. At launch the protocol's algebra holds every
  cell's round state, position and reached-mark, and one token for each duty: on every device the two duties of its
  entry cell and one duty on each transfer semaphore. One update allocates all 260 invariants; the tokens are then
  dealt to the devices that pay them: the entry duties and the arrival duties go across the mesh axes (both peer maps
  are involutions, so dealing is a re-indexing of the devices), the departure duties stay. With the launch credit and
  the level facts this is what the body starts from; after it the landing buffers and the 64 transfer semaphores are
  back as the launch left them, and the two arrays are read off the pipeline's final state.
-/
import proofs.«900127_g7700000000000128_dist_ar_v7x_xy2x2_x_m2048_n512_f32_1_alg».proof.Proof.Proto
import proofs.«900127_g7700000000000128_dist_ar_v7x_xy2x2_x_m2048_n512_f32_1_alg».proof.Proof.Land
import proofs.«900127_g7700000000000128_dist_ar_v7x_xy2x2_x_m2048_n512_f32_1_alg».proof.Proof.LaunchCred
import Idealize.ShloMosaic.Lib.Pipeline.Launch
import Idealize.ShloMosaic.Lib.Pipeline.Kit
import Idealize.ShloMosaic.Lib.Tactic

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, numbered -/

theorem csem_injective : Function.Injective csem := by
  intro k k' h
  unfold csem at h
  by_cases hk : k.val = 0 <;> by_cases hk' : k'.val = 0
  · exact Fin.ext (hk.trans hk'.symm)
  · rw [if_pos hk, if_neg hk'] at h; cases h
  · rw [if_neg hk, if_pos hk'] at h; cases h
  · rw [if_neg hk, if_neg hk'] at h
    have h1 := congrArg Fin.val (SemLoc.dma.inj h)
    exact Fin.ext (Nat.add_right_cancel h1)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: every device's 65. -/
def ringCells : Finset (GSem nD τ sig) := Finset.univ.map ⟨kcell, kcell_injective⟩

/-- The 65 cells of a device as its entry cell and its 64 transfer semaphores. -/
def e65 : Fin 1 ⊕ Fin 64 ≃ Fin 65 := finSumFinEquiv

theorem csem_inl (z : Fin 1) : csem (e65 (.inl z)) = .reg barS := by
  unfold csem; rw [if_pos]
  show (Fin.castAdd 64 z).val = 0
  rw [Fin.coe_castAdd]; omega

theorem csem_inr (k : Fin 64) : csem (e65 (.inr k)) = osem k := by
  have hv : (e65 (.inr k)).val = 1 + k.val := by show (Fin.natAdd 1 k).val = _; rw [Fin.coe_natAdd]
  unfold csem osem; rw [if_neg (by rw [hv]; omega)]
  congr 1; exact Fin.ext (by show (e65 (.inr k)).val + 1 = k.val + 2; rw [hv]; omega)

omit [FloatOps F] in
/-- A product over a device's 65 cells: the entry cell's factor and the 64 transfer semaphores'. -/
theorem bigSep_fin65L (Φ : SemLoc sig → sProp 𝕄) :
    bigSep Finset.univ (fun k : Fin 65 => Φ (csem k)) = iprop(Φ (.reg barS) ∗ bigSep Finset.univ fun k : Fin 64 => Φ (osem k)) := by
  rw [bigSep_univ_equiv e65 (fun k : Fin 65 => Φ (csem k)), bigSep_univ_sum]
  simp only [csem_inl, csem_inr]
  rw [bigSep_univ_of_subsingleton (0 : Fin 1)]
  rfl

/-! ## The tokens minted at launch -/

/-- A device's duties: the two of its entry cell, then one on each departure and arrival semaphore of the transfers
    across `x` and of the relays across `y`. -/
abbrev TI : Type := Bool ⊕ ((Fin 17 ⊕ Fin 17) ⊕ (Fin 15 ⊕ Fin 15))

def tsem : TI → SemLoc sig × Bool
  | .inl d => (.reg barS, d)
  | .inr (.inl (.inl i)) => (.dma (sAx i), false)
  | .inr (.inl (.inr i)) => (.dma (rAx i), false)
  | .inr (.inr (.inl j)) => (.dma (sBy j), false)
  | .inr (.inr (.inr j)) => (.dma (rBy j), false)

/-- A number telling the duties of one device apart: 0 and 1 for the entry cell's, the semaphore's number otherwise. -/
def tcode (x : SemLoc sig × Bool) : ℕ := match x.1 with
  | .reg _ => if x.2 then 1 else 0
  | .dma q => q.val

theorem tsem_injective : Function.Injective tsem := by
  intro a b h
  have hc : tcode (tsem a) = tcode (tsem b) := congrArg tcode h
  rcases a with d | ((i | i) | (j | j)) <;> rcases b with d' | ((i' | i') | (j' | j')) <;>
    simp only [tsem, tcode, sAx_val, rAx_val, sBy_val, rBy_val] at hc
  all_goals first
    | (cases d <;> cases d' <;> first | rfl | (exfalso; revert hc; decide))
    | (exfalso; cases d <;> (simp only [Bool.false_eq_true, if_true, if_false] at hc; omega))
    | (exfalso; cases d' <;> (simp only [Bool.false_eq_true, if_true, if_false] at hc; omega))
    | (have : i = i' := Fin.ext (by omega); subst this; rfl)
    | (have : j = j' := Fin.ext (by omega); subst this; rfl)
    | (exfalso; omega)

abbrev tokOf (cj : Dev nD × TI) : GSem nD τ sig × ℕ × Bool := (((cj.1 : Thread nD τ), (tsem cj.2).1), 0, (tsem cj.2).2)

theorem tokOf_injective : Function.Injective (tokOf : Dev nD × TI → GSem nD τ sig × ℕ × Bool) := by
  rintro ⟨c, a⟩ ⟨c', a'⟩ h
  have h1 : c = c' := by have := congrArg (fun x : GSem nD τ sig × ℕ × Bool => x.1.1.1) h; exact this
  subst h1
  have h2 : (tsem a).1 = (tsem a').1 := congrArg (fun x : GSem nD τ sig × ℕ × Bool => x.1.2) h
  have h3 : (tsem a).2 = (tsem a').2 := congrArg (fun x : GSem nD τ sig × ℕ × Bool => x.2.2) h
  rw [tsem_injective (Prod.ext h2 h3)]

def ringToks : Finset (GSem nD τ sig × ℕ × Bool) := Finset.univ.map ⟨tokOf, tokOf_injective⟩

/-- The launch element: the pipeline's copy and the protocol's. -/
def u₀ : UU :=
  (initOf (Pipeline.cells cfgs cellOf_inj) (Pipeline.launchToks cfgs cellOf_inj), initOf ringCells ringToks)

section Launch
variable [∀ e, Nonempty (Elt F e)]

/-- The duty tokens of device `c`'s own cells, as minted. -/
def toks (c : Dev nD) : sProp 𝕄 :=
  iprop((dutyTok ER (barCell c) 0 false ∗ dutyTok ER (barCell c) 0 true)
    ∗ ((bigSep Finset.univ fun i : Fin 17 => dutyTok ER (dmaCell c (sAx i)) 0 false)
        ∗ (bigSep Finset.univ fun i : Fin 17 => dutyTok ER (dmaCell c (rAx i)) 0 false))
    ∗ (bigSep Finset.univ fun j : Fin 15 => dutyTok ER (dmaCell c (sBy j)) 0 false)
    ∗ (bigSep Finset.univ fun j : Fin 15 => dutyTok ER (dmaCell c (rBy j)) 0 false))

/-- What the launch element deals device `c`: its cells' round states, positions and reached-marks, its cells' tokens. -/
def G (c : Dev nD) : sProp 𝕄 :=
  iprop((bigSep Finset.univ fun k : Fin 65 => roundState ER (sched m) (kcell (c, k)) 0)
    ∗ (bigSep Finset.univ fun k : Fin 65 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

/-- Every payload of the schedule is made of points-to assertions: it can be kept in an invariant. -/
instance launch_payload_storable (g : GSem nD τ sig) (r : ℕ) (d : Bool) :
    BI.Storable (upEmb : UEmb _ 𝕄) ((sched (F := F) m).payload g r d) := by
  show BI.Storable upEmb (match g.2 with
    | .reg _ => if d then bufA (xp g.1.1) else bufB (yp g.1.1)
    | .dma q => dmaPay m g.1.1 q)
  unfold bufA bufB dmaPay srcPts slotAPts slotBPts
  (repeat' split) <;> infer_instance

omit [FloatOps F] in
theorem bigSep_univ_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_sum, bigSep_univ_sum, bigSep_univ_bool]
      rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  unfold toks; simp only [bigSep_sep']
  iexact Htok'

omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_fin65L (fun sm => semVal ((c : Thread nD τ), sm) 0)]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Both peer maps are involutions: dealing along them re-indexes the devices. -/
def xpE : Dev nD ≃ Dev nD := ⟨xp, xp, xp_xp, xp_xp⟩
def ypE : Dev nD ≃ Dev nD := ⟨yp, yp, yp_yp, yp_yp⟩

/-- The tokens dealt to their payers: an entry cell's `true` token and the arrival tokens of the transfers across `x` go
    across `x`, its `false` token and the relays' arrival tokens across `y`; the departure tokens stay. -/
theorem toks_around : (bigSep Finset.univ fun c : Dev nD => (toks c : sProp 𝕄)) ⊢ bigSep Finset.univ fun c : Dev nD => payToks c := by
  unfold toks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => (bigSep Finset.univ fun i : Fin 17 => dutyTok ER (dmaCell c (rAx i)) 0 false : sProp 𝕄)),
    bigSep_univ_equiv ypE (fun c : Dev nD => (bigSep Finset.univ fun j : Fin 15 => dutyTok ER (dmaCell c (rBy j)) 0 false : sProp 𝕄))]
  iintro ⟨⟨HbF, HbT⟩, ⟨HSA, HRA⟩, HSB, HRB⟩
  isplitl [HbT]; · iexact HbT
  isplitl [HbF]; · iexact HbF
  isplitl [HRA]; · iexact HRA
  isplitl [HRB]; · iexact HRB
  isplitl [HSA]; · iexact HSA
  iexact HSB

/-- What stays with device `c` beside the records: its 65 positions and the tokens of the duties it pays. -/
def linear (c : Dev nD) : sProp 𝕄 :=
  iprop((bigSep Finset.univ fun k : Fin 65 => atPos ER (kcell (c, k)) 0 ∅ 0) ∗ payToks c)

theorem ghost_intro (K : Dev nD × Fin 65 → ℕ) (c : Dev nD) : iprop(records m K ∗ linear c) ⊢ G' m c := by
  unfold linear G' ghost
  iintro ⟨HR, Hat, Htok⟩
  iexists K
  isplitl [HR]; · iexact HR
  isplitl [Hat] <;> iassumption

theorem regroup :
    (bigSep Finset.univ fun c : Dev nD => iprop((bigSep Finset.univ fun k => iprop(∃ κ : ℕ, cellInv ER (sched m) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (sched m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => bigSep Finset.univ fun k : Fin 65 => (atPos ER (kcell (c, k)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem dats_share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufA bufB
  iintro ⟨Hs, -, HA, HB⟩
  isplitl [Hs]; · iexact Hs
  isplitl [HA] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ bufA bufB Pipeline.ownSems0
  iintro ⟨HA, HB, Hz⟩
  isplitr; · iempintro
  isplitl [Hz]; · iexact Hz
  isplitl [HA] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The final arrays -/

/-- The argument array is never written back: it holds what it held. -/
theorem final_arg (c : Dev nD) : (dats m 0 c).arrAt (0 : Fin 2) cfg0.N = m ((c : Thread nD τ).loc main_arg0) :=
  (dats (F := F) m 0 c).arrAt_in (0 : Fin 2) rfl _

/-- The result array after the one write-back: the whole array overwritten by what the body left in the result's
    staging buffer. -/
theorem final_out (c : Dev nD) : (dats m 0 c).arrAt (1 : Fin 2) cfg0.N = outAt m c := by
  have h := (dats (F := F) m 0 c).arrAt_succ (1 : Fin 2) t0_0
  rw [if_pos (flush0_1 t0_0)] at h
  refine (show (dats m 0 c).arrAt (1 : Fin 2) cfg0.N = (dats m 0 c).arrAt (1 : Fin 2) (t0_0.val + 1) from rfl).trans (h.trans ?_)
  have key : ∀ (A w : (main_v1 : Ref sig .tc).ty.Contents (Elt F)),
      View.write (Elt F) ((cfg0.win 1).blk t0_0).view A w Finset.univ = w := fun A w =>
    Memref.write_access_unit_zero_univ (Elt F) main_v1 (funext fun a => by fin_cases a <;> rfl) _ A w
  exact key _ _

/-- What the launch theorem says of the final arrays, read at the result and at the argument. -/
theorem final_post (c : Dev nD) (s : MemSt nD τ sig (Elt F))
    (h : ∀ w : Fin cfg0.W, s.mem ((cfg0.spec w).arr.view.loc (c : Thread nD τ)) = (dats m 0 c).arrAt w cfg0.N) :
    s.mem ((c : Thread nD τ).loc main_v1) = total m c
      ∧ s.mem ((c : Thread nD τ).loc main_arg0) = m ((c : Thread nD τ).loc main_arg0) :=
  ⟨((h (1 : Fin 2)).trans (final_out m c)).trans (outAt_eq_total m c), (h (0 : Fin 2)).trans (final_arg m c)⟩

/-! ## The run -/

set_option maxRecDepth 8000 in
/-- At the compiled mesh of four devices, for any float values, from any memory with zero counters: every weakly fair
    execution of the four kernels — entering, exchanging chunks across `x`, relaying them across `y`, adding — ends, and
    every final state has each device's result at its own block plus the block that reached it (`total`) and its argument
    unchanged, given the body's proof. -/
theorem run_of_body (hbody : ∀ (m : (ℓ : Loc nD τ sig) → Buf (Elt F) ℓ) (c : Dev nD), BodyObligation (dats (F := F) m 0 c) (defs₀ (F := F)) 𝒱₀ () Set.univ) :
    Cert.KernelIdeal.AR.RunSpec (F := F) := fun m ρ =>
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody m c).loose) (hne := block_pos0) (harr := arr_whole0) (hstage := stage_whole0) (hshare := dats_share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => final_post m c s (h c).1)

/-- info: 'Cert.KernelIdeal.ARProof.run_of_body' depends on axioms: [propext, Classical.choice, Quot.sound] -/
#guard_msgs in #print axioms run_of_body

end Launch

end Cert.KernelIdeal.ARProof

end
-- ==== Proof.KSpec.lean ====
/-
  The mesh arithmetic of the two-axis all-reduce and the statement of the kernel's run.

  The four devices sit on a 2 × 2 mesh, device `2·x + y` at coordinates `(x, y)`. Each device holds a block of
  2048 rows; devices with the same `x` hold the same block. The all-reduce sums, on every device, its own block and the
  block of the device across the `x` axis (`xp`); the device across the `y` axis (`yp`) holds the same block as the
  device itself and only relays rows. The run's result on device `c` is therefore the entrywise sum of the two blocks.
-/
import proofs.«900127_g7700000000000128_dist_ar_v7x_xy2x2_x_m2048_n512_f32_1_alg».proof.Kernel

noncomputable section

namespace Cert.Kernel.AR

open Idealize.ShloMosaic Idealize.SL.Sem Cert.Kernel

variable {F : FTy → Type} [FloatOps F]

/-- The device across the `x` axis: `(x, y) ↦ (1 - x, y)`. -/
def xp (c : Dev nD) : Dev nD := ⟨((c.val % 2) + 2) - 2 * (c.val / 2), by have := c.isLt; simp only [nD] at this ⊢; omega⟩
/-- The device across the `y` axis: `(x, y) ↦ (x, 1 - y)`. -/
def yp (c : Dev nD) : Dev nD := ⟨(2 * (c.val / 2) + 1) - (c.val % 2), by have := c.isLt; simp only [nD] at this ⊢; omega⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne (c : Dev nD) : xp c ≠ c := by revert c; decide
theorem yp_ne (c : Dev nD) : yp c ≠ c := by revert c; decide
theorem xp_ne_yp (c : Dev nD) : xp c ≠ yp c := by revert c; decide
/-- Both peers keep / flip the parity that selects the half of the block a device sends first. -/
theorem xp_mod (c : Dev nD) : (xp c).val % 2 = c.val % 2 := by revert c; decide
theorem yp_mod (c : Dev nD) : (yp c).val % 2 = 1 - c.val % 2 := by revert c; decide
theorem xp_div (c : Dev nD) : (xp c).val / 2 = 1 - c.val / 2 := by revert c; decide
theorem yp_div (c : Dev nD) : (yp c).val / 2 = c.val / 2 := by revert c; decide

/-- Device `c`'s block of the argument as the run finds it. -/
abbrev blk (m : (ℓ : Loc nD τ sig) → Buf (Elt F) ℓ) (c : Dev nD) : FVec F S2048x512 .f32 :=
  m ((c.tc : Thread nD τ).loc main_arg0)

/-- The rows that reach device `c` through the relay: the first 960 rows of the half it does not send first. -/
def relayed (c : Dev nD) (r : ℕ) : Prop := if c.val % 2 = 0 then 1024 ≤ r ∧ r < 1984 else r < 960
instance (c : Dev nD) (r : ℕ) : Decidable (relayed c r) := by unfold relayed; infer_instance

/-- The device whose block a row of the result on `c` adds to `c`'s own: the device across `x` for the rows that come
    directly, and that device's `y` peer for the relayed rows (the two hold the same block whenever blocks are cut along
    `x` only, but the run is stated for every memory). -/
def src (c : Dev nD) (i : S2048x512.Idx) : Dev nD := if relayed c (i 0).val then yp (xp c) else xp c

/-- What the all-reduce leaves on device `c`: its block plus the block that reached it, entry by entry. -/
def total (m : (ℓ : Loc nD τ sig) → Buf (Elt F) ℓ) (c : Dev nD) : FVec F S2048x512 .f32 :=
  fun i => FloatOps.addf (blk m c i) (blk m (src c i) i)

/-- The run: every weakly fair execution ends, faultless, each device's result at `total` and its argument unchanged. -/
def RunSpec [Facts] : Prop :=
  ∀ (m : (ℓ : Loc nD τ sig) → Buf (Elt F) ℓ) (ρ : Dev nD → PrngReg),
    θ_run (defs (F := F)) (onTc (τ := τ) (main (F := F))) ⟨m, fun _ => 0, ρ⟩ (fun r => ∀ c : Dev nD,
      r.2.mem ((c.tc : Thread nD τ).loc main_v1) = total m c
      ∧ r.2.mem ((c.tc : Thread nD τ).loc main_arg0) = m ((c.tc : Thread nD τ).loc main_arg0))

end Cert.Kernel.AR

end
-- ==== Proof.KProto.lean ====
/-
  The all-reduce's cross-device protocol: the cells, what lands on each, and the order of waits.

  Device `c` first tells both peers it has entered (one unit to each peer's entry cell) and waits for their two
  units. Then it sends 17 chunks of 64 rows of its block to the peer across `x` (16 from its "own" half of the rows,
  one from the other half), each into the matching slot of that peer's first landing buffer. As each of the first 15
  chunks lands in its own first landing buffer it relays the slot to the peer across `y` (into that peer's second
  landing buffer) and adds the slot to its own rows; the peer across `y` holds the same block, so what it adds to the
  relayed slot is its own copy of those rows. Every row of the result is thus the sum of the two blocks.
-/
import proofs.«900127_g7700000000000128_dist_ar_v7x_xy2x2_x_m2048_n512_f32_1_alg».proof.Proof.KSpec
import proofs.«900127_g7700000000000128_dist_ar_v7x_xy2x2_x_m2048_n512_f32_1_alg».proof.Proof.Gen.Kernel
import proofs.«900127_g7700000000000128_dist_ar_v7x_xy2x2_x_m2048_n512_f32_1_alg».proof.Proof.Gen.Kernel.Skeleton
import proofs.«900127_g7700000000000128_dist_ar_v7x_xy2x2_x_m2048_n512_f32_1_alg».proof.Proof.Gen.Kernel.Launch
import proofs.«900127_g7700000000000128_dist_ar_v7x_xy2x2_x_m2048_n512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers, slots, semaphores -/

abbrev xM : Memref sig .tc .vmem S2048x512 .f32 := Memref.whole cc0_stg0_0
abbrev oM : Memref sig .tc .vmem S2048x512 .f32 := Memref.whole cc0_stg1_0
abbrev aM : Memref sig .tc .vmem S17x64x512 .f32 := Memref.whole cc0_scratch0
abbrev bM : Memref sig .tc .vmem S15x64x512 .f32 := Memref.whole cc0_scratch1

theorem slotA_inb (i : Fin 17) : ∀ a, (![i.val, 0, 0] : Fin 3 → Nat) a + S1x64x512.size a ≤ S17x64x512.size a := by
  revert i; decide
theorem slotB_inb (i : Fin 15) : ∀ a, (![i.val, 0, 0] : Fin 3 → Nat) a + S1x64x512.size a ≤ S15x64x512.size a := by
  revert i; decide

/-- Slot `i` of the first landing buffer, as a 64 × 512 view. -/
abbrev slotA (i : Fin 17) : Memref sig .tc .vmem S64x512 .f32 :=
  (aM.slice (Rect.unit (s := S17x64x512) ![i.val, 0, 0] S1x64x512.size (slotA_inb i)) (fun _ => rfl)).squeeze S64x512 squeezes_S1x64x512_S64x512
/-- Slot `i` of the second landing buffer. -/
abbrev slotB (i : Fin 15) : Memref sig .tc .vmem S64x512 .f32 :=
  (bM.slice (Rect.unit (s := S15x64x512) ![i.val, 0, 0] S1x64x512.size (slotB_inb i)) (fun _ => rfl)).squeeze S64x512 squeezes_S1x64x512_S64x512

theorem sem17_inb (i : Fin 17) : ∀ a, (![i.val] : Fin 1 → Nat) a + S1.size a ≤ S17.size a := by revert i; decide
theorem sem15_inb (i : Fin 15) : ∀ a, (![i.val] : Fin 1 → Nat) a + S1.size a ≤ S15.size a := by revert i; decide

/-- The four families of DMA semaphores: departure and arrival of the `x` transfers (17 each), of the relays (15 each). -/
abbrev sAx (i : Fin 17) : DmaSem sig := ((cc0_scratch2.slice (Rect.unit (s := S17) ![i.val] S1.size (sem17_inb i))).squeeze S_ squeezes_S1_S_).sem
abbrev rAx (i : Fin 17) : DmaSem sig := ((cc0_scratch3.slice (Rect.unit (s := S17) ![i.val] S1.size (sem17_inb i))).squeeze S_ squeezes_S1_S_).sem
abbrev sBy (i : Fin 15) : DmaSem sig := ((cc0_scratch4.slice (Rect.unit (s := S15) ![i.val] S1.size (sem15_inb i))).squeeze S_ squeezes_S1_S_).sem
abbrev rBy (i : Fin 15) : DmaSem sig := ((cc0_scratch5.slice (Rect.unit (s := S15) ![i.val] S1.size (sem15_inb i))).squeeze S_ squeezes_S1_S_).sem

theorem sAx_val : ∀ i : Fin 17, (sAx i).val = 2 + i.val := by decide
theorem rAx_val : ∀ i : Fin 17, (rAx i).val = 19 + i.val := by decide
theorem sBy_val : ∀ i : Fin 15, (sBy i).val = 36 + i.val := by decide
theorem rBy_val : ∀ i : Fin 15, (rBy i).val = 51 + i.val := by decide

/-- The entry semaphore: the runtime's, one per device. -/
abbrev barS : Sem sig := (SemArray.scalar (sig.barrier 0 rfl) : Sems sig S_).sem

abbrev barCell (c : Dev nD) : GSem nD τ sig := ((c : Thread nD τ), .reg barS)
abbrev dmaCell (c : Dev nD) (q : DmaSem sig) : GSem nD τ sig := ((c : Thread nD τ), .dma q)

variable (m : (ℓ : Loc nD τ sig) → Buf (Elt F) ℓ)

/-! ## Contents -/

/-- The staged block of device `c`: its whole argument block, as the pipeline fetched it. -/
def xstg (c : Dev nD) : (cc0_stg0_0 : Ref sig .tc).ty.Contents (Elt F) :=
  (win0_0.blk (0 : Fin 1)).view.read (Elt F) (m ((c : Thread nD τ).loc main_arg0))

/-- The 64 rows chunk `i` of the `x` transfers reads: 16 chunks of the device's own half, then the last chunk of the other half. -/
def offA (c : Dev nD) (i : Fin 17) : Fin 2 → Nat :=
  if h : i.val < 16 then k0_off1 c (BitVec.ofNat 32 (64 * i.val)) else k0_off2 c
theorem offA_inb (c : Dev nD) (i : Fin 17) : ∀ a, offA c i a + S64x512.size a ≤ S2048x512.size a := by
  unfold offA; split
  · next h => exact k0_off1_inb c ⟨i.val, h⟩
  · exact k0_off2_inb c
abbrev srcA (c : Dev nD) (i : Fin 17) : Memref sig .tc .vmem S64x512 .f32 :=
  xM.slice (Rect.unit (s := S2048x512) (offA c i) S64x512.size (offA_inb c i)) (fun _ => rfl)

/-- The relay of slot `j` reads that slot of the first landing buffer. -/
abbrev up (j : Fin 15) : Fin 17 := Fin.castLE (by decide) j

/-- The slot an index of the first (second) landing buffer lies in. -/
abbrev slotOfA (a : Idx ((aM : Memref sig .tc .vmem S17x64x512 .f32).view.loc ((0 : Dev nD) : Thread nD τ))) : Fin 17 := a 0
abbrev slotOfB (a : Idx ((bM : Memref sig .tc .vmem S15x64x512 .f32).view.loc ((0 : Dev nD) : Thread nD τ))) : Fin 15 := a 0

/-- What the first landing buffer of device `c` holds once all 17 chunks from across `x` have landed: slot `s` holds
    the rows chunk `s` of that peer's transfers reads. Stated through the views: index `a` holds what the transfer into
    its slot writes there. -/
def cA [∀ e, Nonempty (Elt F e)] (c : Dev nD) : Buf (Elt F) ((aM : Memref sig .tc .vmem S17x64x512 .f32).view.loc (c : Thread nD τ)) :=
  fun a => (slotA (slotOfA a)).view.write (Elt F) (fun _ => Classical.arbitrary _) ((srcA (xp c) (slotOfA a)).view.read (Elt F) (xstg m (xp c))) Finset.univ a

/-- What the second landing buffer holds once the 15 relays from across `y` have landed: slot `s` is slot `s` of that
    peer's first landing buffer. -/
def cB [∀ e, Nonempty (Elt F e)] (c : Dev nD) : Buf (Elt F) ((bM : Memref sig .tc .vmem S15x64x512 .f32).view.loc (c : Thread nD τ)) :=
  fun a => (slotB (slotOfB a)).view.write (Elt F) (fun _ => Classical.arbitrary _) ((slotA (up (slotOfB a))).view.read (Elt F) (cA m (yp c))) Finset.univ a

/-- The result block: the device's block plus the block that reached it (`AR.src`), entry by entry. -/
def outAt (c : Dev nD) : (cc0_stg1_0 : Ref sig .tc).ty.Contents (Elt F) :=
  fun i => FloatOps.addf (xstg m c i) (xstg m (src c i) i)

/-! ## Points-to assertions of the protocol -/

/-- The share a pending transfer holds of its source; the sender keeps the other half to read. -/
abbrev qS : PosShare TreeShare := fullShare.right
abbrev qL : PosShare TreeShare := fullShare.left

def srcPts (c : Dev nD) (i : Fin 17) : sProp 𝕄 :=
  (srcA c i).view.loc (c : Thread nD τ) ↦[(srcA c i).view.set]{qS} xstg m c
def slotAPts [∀ e, Nonempty (Elt F e)] (c : Dev nD) (i : Fin 17) (q : PosShare TreeShare) : sProp 𝕄 :=
  (slotA i).view.loc (c : Thread nD τ) ↦[(slotA i).view.set]{q} cA m c
def slotBPts [∀ e, Nonempty (Elt F e)] (c : Dev nD) (j : Fin 15) : sProp 𝕄 :=
  (slotB j).view.loc (c : Thread nD τ) ↦[(slotB j).view.set]{fullShare} cB m c
/-- A landing buffer whole, at some contents: what a device hands its peer at entry. -/
def bufA (c : Dev nD) : sProp 𝕄 := iprop(∃ f : Buf (Elt F) ((c : Thread nD τ).loc cc0_scratch0), ((c : Thread nD τ).loc cc0_scratch0) ↦{fullShare} f)
def bufB (c : Dev nD) : sProp 𝕄 := iprop(∃ f : Buf (Elt F) ((c : Thread nD τ).loc cc0_scratch1), ((c : Thread nD τ).loc cc0_scratch1) ↦{fullShare} f)

/-! ## The schedule: one round -/

/-- The units of one chunk's transfer. -/
abbrev N : ℕ := (slotA (0 : Fin 17) : Memref sig .tc .vmem S64x512 .f32).view.dmaCredit
theorem N_pos : 0 < N := View.dmaCredit_pos _ (by decide)

/-- What the units landing on DMA semaphore `q` of device `c` hand it, by the semaphore's family. -/
def dmaPay [∀ e, Nonempty (Elt F e)] (c : Dev nD) (q : DmaSem sig) : sProp 𝕄 :=
  if h : 2 ≤ q.val ∧ q.val < 19 then srcPts m c ⟨q.val - 2, by omega⟩
  else if h : 19 ≤ q.val ∧ q.val < 36 then slotAPts m c ⟨q.val - 19, by omega⟩ fullShare
  else if h : 36 ≤ q.val ∧ q.val < 51 then slotAPts m c (up ⟨q.val - 36, by omega⟩) qS
  else if h : 51 ≤ q.val ∧ q.val < 66 then slotBPts m c ⟨q.val - 51, by omega⟩
  else iprop(emp)

/-- Round 0 only. The entry cell has two duties of one unit: `true` from the peer across `x`, handing over that
    peer's first landing buffer; `false` from the peer across `y`, handing over that peer's second landing buffer.
    Each of the 64 transfer semaphores has one duty of a chunk's units. -/
def sched [∀ e, Nonempty (Elt F e)] : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  unitless _ := False
  amount g _ _ := match g.2 with | .reg _ => 1 | .dma _ => N
  payload g _ d := match g.2 with
    | .reg _ => if d then bufA (xp g.1.1) else bufB (yp g.1.1)
    | .dma q => dmaPay m g.1.1 q
  amount_pos g _ _ _ := by
    cases g.2 with
    | reg _ => exact Nat.one_pos
    | dma _ => exact N_pos

/-! ## The schedule's tables -/

section Tables
variable [∀ e, Nonempty (Elt F e)] (c : Dev nD)

theorem duties_bar : (sched m).duties (barCell c) 0 = Finset.univ := by
  dsimp only [sched]; rw [if_pos ⟨rfl, rfl⟩]; exact if_pos rfl
theorem duties_dma (q : DmaSem sig) (hq : 2 ≤ q.val) : (sched m).duties (dmaCell c q) 0 = {false} := by
  dsimp only [sched]; rw [if_pos ⟨rfl, rfl⟩]; exact if_pos hq
theorem duties_later (g : GSem nD τ sig) : ∀ r, 1 ≤ r → (sched m).duties g r = ∅ :=
  fun r hr => by dsimp only [sched]; rw [if_neg fun h => by omega]

theorem amount_bar (d : Bool) : (sched m).amount (barCell c) 0 d = 1 := rfl
theorem amount_dma (q : DmaSem sig) (d : Bool) : (sched m).amount (dmaCell c q) 0 d = N := rfl

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : 2 ≤ q.val) : (sched m).expect (dmaCell c q) 0 = N := by
  unfold Schedule.expect Schedule.amountOf; rw [duties_dma m c q hq, Finset.sum_singleton, amount_dma]

theorem payload_bar_true : (sched m).payload (barCell c) 0 true = bufA (xp c) := rfl
theorem payload_bar_false : (sched m).payload (barCell c) 0 false = bufB (yp c) := rfl
theorem payload_dma (q : DmaSem sig) (d : Bool) : (sched m).payload (dmaCell c q) 0 d = dmaPay m c q := rfl

theorem dmaPay_sAx (i : Fin 17) : dmaPay m c (sAx i) = srcPts m c i := by
  unfold dmaPay
  rw [dif_pos ⟨by rw [sAx_val]; omega, by rw [sAx_val]; omega⟩]
  congr 1; exact Fin.ext (by simp only [sAx_val]; omega)
theorem dmaPay_rAx (i : Fin 17) : dmaPay m c (rAx i) = slotAPts m c i fullShare := by
  unfold dmaPay
  rw [dif_neg (by rw [rAx_val]; omega), dif_pos ⟨by rw [rAx_val]; omega, by rw [rAx_val]; omega⟩]
  congr 1; exact Fin.ext (by simp only [rAx_val]; omega)
theorem dmaPay_sBy (j : Fin 15) : dmaPay m c (sBy j) = slotAPts m c (up j) qS := by
  unfold dmaPay
  rw [dif_neg (by rw [sBy_val]; omega), dif_neg (by rw [sBy_val]; omega), dif_pos ⟨by rw [sBy_val]; omega, by rw [sBy_val]; omega⟩]
  congr 2; exact Fin.ext (by simp only [sBy_val]; omega)
theorem dmaPay_rBy (j : Fin 15) : dmaPay m c (rBy j) = slotBPts m c j := by
  unfold dmaPay
  rw [dif_neg (by rw [rBy_val]; omega), dif_neg (by rw [rBy_val]; omega), dif_neg (by rw [rBy_val]; omega),
    dif_pos ⟨by rw [rBy_val]; omega, by rw [rBy_val]; have := j.isLt; omega⟩]
  congr 1; exact Fin.ext (by simp only [rBy_val]; omega)

/-- The whole round of the entry cell: the second landing buffer across `y`, the first across `x`. -/
theorem rest_bar : bigSep ((sched m).duties (barCell c) 0 \ ∅) (fun d => (sched m).payload (barCell c) 0 d) = iprop(bufB (yp c) ∗ bufA (xp c)) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : 2 ≤ q.val) :
    bigSep ((sched m).duties (dmaCell c q) 0 \ ∅) (fun d => (sched m).payload (dmaCell c q) 0 d) = dmaPay m c q := by
  rw [Finset.sdiff_empty, duties_dma m c q hq, bigSep_singleton, payload_dma]

end Tables

/-! ## The result's rows, chunk by chunk -/

/-- The rows chunk `k` of the 32 additions writes: 16 chunks of the device's own half, the last chunk of the other half
    (from the first landing buffer), then the first 15 chunks of the other half (from the second). -/
def offO (c : Dev nD) (k : Fin 32) : Fin 2 → Nat :=
  if h : k.val < 16 then k0_off3 c (BitVec.ofNat 32 (64 * k.val))
  else if h' : k.val = 16 then k0_off4 c (BitVec.ofNat 32 (64 * 15))
  else k0_off4 c (BitVec.ofNat 32 (64 * (k.val - 17)))
theorem offO_inb (c : Dev nD) (k : Fin 32) : ∀ a, offO c k a + S64x512.size a ≤ S2048x512.size a := by
  unfold offO; split
  · next h => exact k0_off3_inb c ⟨k.val, h⟩
  · split
    · exact k0_off4_inb c ⟨15, by decide⟩
    · next h h' => exact k0_off4_inb c ⟨k.val - 17, by have := k.isLt; omega⟩
abbrev rectO (c : Dev nD) (k : Fin 32) : Rect S2048x512 := Rect.unit (s := S2048x512) (offO c k) S64x512.size (offO_inb c k)
abbrev rectA (i : Fin 17) : Rect S17x64x512 := Rect.unit (s := S17x64x512) ![i.val, 0, 0] S1x64x512.size (slotA_inb i)
abbrev rectB (j : Fin 15) : Rect S15x64x512 := Rect.unit (s := S15x64x512) ![j.val, 0, 0] S1x64x512.size (slotB_inb j)

/-- The landed chunk the `k`-th addition reads. -/
def landedChunk [∀ e, Nonempty (Elt F e)] (c : Dev nD) (k : Fin 32) : Vec F S1x64x512 .f32 :=
  if h : k.val < 17 then (aM : Memref sig .tc .vmem S17x64x512 .f32).view.readAt (Elt F) (rectA ⟨k.val, h⟩).toLoadRect (cA m c)
  else (bM : Memref sig .tc .vmem S15x64x512 .f32).view.readAt (Elt F) (rectB ⟨k.val - 17, by have := k.isLt; omega⟩).toLoadRect (cB m c)

/-- What the `k`-th addition stores: the device's own rows plus the landed chunk. -/
def sumChunk [∀ e, Nonempty (Elt F e)] (c : Dev nD) (k : Fin 32) : FVec F S64x512 .f32 :=
  k0_pay1 ((xM : Memref sig .tc .vmem S2048x512 .f32).view.readAt (Elt F) (rectO c k).toLoadRect (xstg m c)) (landedChunk m c k)

/-- The result buffer after the first `n` additions, from contents `g`. -/
def outSeq [∀ e, Nonempty (Elt F e)] (c : Dev nD) (g : (cc0_stg1_0 : Ref sig .tc).ty.Contents (Elt F)) : ℕ → (cc0_stg1_0 : Ref sig .tc).ty.Contents (Elt F)
  | 0 => g
  | n + 1 => if h : n < 32 then ((oM : Memref sig .tc .vmem S2048x512 .f32).access (rectO c ⟨n, h⟩) : View sig .tc _ _ _).write (Elt F) (outSeq c g n) (sumChunk m c ⟨n, h⟩) Finset.univ
             else outSeq c g n

/-! ## What a device owes, payment by payment -/

/-- The `t`-th unit-paying statement of the body, in program order: the two entry signals, the 17 transfers across `x`,
    the 15 relays across `y`. -/
def payCell (c : Dev nD) (t : ℕ) : GSem nD τ sig × ℕ :=
  if t = 0 then (barCell (xp c), 1) else if t = 1 then (barCell (yp c), 1)
  else if h : t < 19 then (dmaCell (xp c) (rAx ⟨(t - 2) % 17, Nat.mod_lt _ (by decide)⟩), N)
  else (dmaCell (yp c) (rBy ⟨(t - 19) % 15, Nat.mod_lt _ (by decide)⟩), N)

/-- What remains owed when `n` of the 34 payments are still to be made. -/
def rem (c : Dev nD) : ℕ → CellTallies nD τ sig Unit
  | 0 => 0
  | n + 1 => rem c n + tallyAt (payCell c (33 - n)).1 () (payCell c (33 - n)).2

def O₀ (c : Dev nD) : CellTallies nD τ sig Unit := rem c 34

def L (g : GSem nD τ sig) : Finset Unit := if g.1.2 = .tc then {()} else ∅
/-- Entry cells at 1, arrival cells of the `x` transfers at 2, of the relays at 3; staging and departure cells at 0. -/
def lv (g : GSem nD τ sig) (_ : Unit) : ℕ :=
  match g.2 with
  | .reg _ => 1
  | .dma q => if 19 ≤ q.val ∧ q.val < 36 then 2 else if 51 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The protocol's cells, numbered; the ghost state a device starts from -/

theorem nDmaSem_eq : sig.nDmaSem = 66 := rfl

/-- The 65 cells of a device: its entry cell, then its 64 transfer semaphores (DMA semaphores 2 to 65). -/
def csem (k : Fin 65) : SemLoc sig := if k.val = 0 then .reg barS else .dma ⟨k.val + 1, by have := k.isLt; rw [nDmaSem_eq]; omega⟩
/-- The kernel's own (scoped) semaphores: the 64 transfer semaphores. -/
def osem (k : Fin 64) : SemLoc sig := .dma ⟨k.val + 2, by have := k.isLt; rw [nDmaSem_eq]; omega⟩
abbrev kcell (ck : Dev nD × Fin 65) : GSem nD τ sig := ((ck.1 : Thread nD τ), csem ck.2)

theorem csem_zero : csem 0 = .reg barS := rfl
theorem csem_dma (q : DmaSem sig) (hq : 2 ≤ q.val) : csem ⟨q.val - 1, by have : q.val < 66 := q.isLt; omega⟩ = .dma q := by
  unfold csem; rw [if_neg (by show ¬ q.val - 1 = 0; omega)]; congr 1; exact Fin.ext (by show q.val - 1 + 1 = q.val; omega)
theorem osem_dma (q : DmaSem sig) (hq : 2 ≤ q.val) : osem ⟨q.val - 2, by have : q.val < 66 := q.isLt; omega⟩ = .dma q := by
  unfold osem; congr 1; exact Fin.ext (by show q.val - 2 + 2 = q.val; omega)

section Ghost
variable [∀ e, Nonempty (Elt F e)]

/-- Every cell's invariant under the names the launch allocated, and round 0 of every cell reached: known to all. -/
def records (K : Dev nD × Fin 65 → ℕ) : sProp 𝕄 :=
  iprop((bigSep Finset.univ fun ck : Dev nD × Fin 65 => cellInv ER (sched m) (K ck) (kcell ck))
    ∗ bigSep Finset.univ fun ck : Dev nD × Fin 65 => reached ER (kcell ck) 0)

instance records_persistent (K : Dev nD × Fin 65 → ℕ) : BI.Persistent (records m K) := by unfold records; infer_instance

/-- The tokens of the duties device `c` pays: one unit on each peer's entry cell, the arrival of each of its 17 + 15
    transfers on the peers, and their departures on its own semaphores. -/
def payToks (c : Dev nD) : sProp 𝕄 :=
  iprop(dutyTok ER (barCell (xp c)) 0 true ∗ dutyTok ER (barCell (yp c)) 0 false
    ∗ (bigSep Finset.univ fun i : Fin 17 => dutyTok ER (dmaCell (xp c) (rAx i)) 0 false)
    ∗ (bigSep Finset.univ fun j : Fin 15 => dutyTok ER (dmaCell (yp c) (rBy j)) 0 false)
    ∗ (bigSep Finset.univ fun i : Fin 17 => dutyTok ER (dmaCell c (sAx i)) 0 false)
    ∗ (bigSep Finset.univ fun j : Fin 15 => dutyTok ER (dmaCell c (sBy j)) 0 false))

def ghost (K : Dev nD × Fin 65 → ℕ) (c : Dev nD) : sProp 𝕄 :=
  iprop(records m K ∗ (bigSep Finset.univ fun k : Fin 65 => atPos ER (kcell (c, k)) 0 ∅ 0) ∗ payToks c)

/-- The credit tokens for the units other devices owe this one: two on its entry cell, a chunk's on each arrival cell. -/
def creds (c : Dev nD) : sProp 𝕄 :=
  iprop(cred (tallyAt (barCell c) () 2)
    ∗ (bigSep Finset.univ fun i : Fin 17 => cred (tallyAt (dmaCell c (rAx i)) () N))
    ∗ (bigSep Finset.univ fun j : Fin 15 => cred (tallyAt (dmaCell c (rBy j)) () N)))

def start (c : Dev nD) : sProp 𝕄 := iprop((∃ K, ghost m K c) ∗ creds c ∗ levAts L lv)

def Φ₀ (c : Dev nD) : sProp 𝕄 := iprop(start m c ∗ bufA c ∗ bufB c)
/-- After the body: both landing buffers whole again, the 64 own semaphores at zero. -/
def Φ₁ (c : Dev nD) : sProp 𝕄 := iprop(bufA c ∗ bufB c ∗ bigSep Finset.univ fun k : Fin 64 => semVal ((c : Thread nD τ), osem k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Ghost

end Cert.Kernel.ARProof

end
-- ==== Proof.KLand.lean ====
/-
  The contents of the landing buffers and of the result, index by index.

  A transfer writes the 64 × 512 rows its source view reads into one slot of a landing buffer, whatever the slot held
  before; the landing buffers' contents `cA`, `cB` are defined slot by slot as exactly that. The result buffer, after the
  32 additions of 64 rows each, holds at every row the device's own row plus the row of the device across `x`: the 32
  row ranges tile the 2048 rows, and each landed chunk is the matching rows of that device's block (directly for the 17
  chunks that came across `x`; through the relay for the 15 that came across `y`, whose sender holds the same block).
-/
import proofs.«900127_g7700000000000128_dist_ar_v7x_xy2x2_x_m2048_n512_f32_1_alg».proof.Proof.KProto
import Idealize.ShloMosaic.Lib.Pipeline.Value

noncomputable section

namespace Cert.Kernel.ARProof

open Cert.Kernel Cert.Kernel.Gen Cert.Kernel.AR
open Idealize.ShloMosaic Idealize.ShloMosaic.TcCoe Idealize.SL.Sem

variable {F : FTy → Type} [FloatOps F] [∀ e, Nonempty (Elt F e)]
variable (m : (ℓ : Loc nD τ sig) → Buf (Elt F) ℓ)

/-- What the transfer of chunk `i` from across `x` leaves in slot `i` of device `c'`'s first landing buffer is that
    buffer's stated contents there, whatever the slot held. -/
theorem landA (c' : Dev nD) (i : Fin 17) (fd : Buf (Elt F) ((slotA i).view.loc (c' : Thread nD τ))) :
    ∀ a ∈ (slotA i).view.set,
      (slotA i).view.write (Elt F) fd ((srcA (xp c') i).view.read (Elt F) (xstg m (xp c'))) Finset.univ a = cA m c' a := by
  intro a ha
  obtain ⟨y, rfl⟩ := View.exists_emb_of_mem_set _ ha
  have hs : slotOfA ((slotA i).view.emb y) = i := Fin.ext (by
    have h0 := ((Shape.reshapeEquiv squeezes_S1x64x512_S64x512.numel_eq y) 0).isLt
    show i.val + 1 * ((Shape.reshapeEquiv squeezes_S1x64x512_S64x512.numel_eq y) 0).val = i.val
    have h1 : ((Shape.reshapeEquiv squeezes_S1x64x512_S64x512.numel_eq y) 0).val < 1 := h0
    omega)
  have key : ∀ s : Fin 17, s = i →
      (slotA s).view.write (Elt F) (fun _ => Classical.arbitrary _)
        ((srcA (xp c') s).view.read (Elt F) (xstg m (xp c'))) Finset.univ ((slotA i).view.emb y)
      = (slotA i).view.write (Elt F) fd ((srcA (xp c') i).view.read (Elt F) (xstg m (xp c'))) Finset.univ
        ((slotA i).view.emb y) := by
    rintro s rfl
    rw [View.write_emb_of_mem _ _ (Finset.mem_univ y), View.write_emb_of_mem _ _ (Finset.mem_univ y)]
  exact (key _ hs).symm

/-- The same for the relay of slot `j` from across `y` into the second landing buffer. -/
theorem landB (c' : Dev nD) (j : Fin 15) (fd : Buf (Elt F) ((slotB j).view.loc (c' : Thread nD τ))) :
    ∀ a ∈ (slotB j).view.set,
      (slotB j).view.write (Elt F) fd ((slotA (up j)).view.read (Elt F) (cA m (yp c'))) Finset.univ a = cB m c' a := by
  intro a ha
  obtain ⟨y, rfl⟩ := View.exists_emb_of_mem_set _ ha
  have hs : slotOfB ((slotB j).view.emb y) = j := Fin.ext (by
    have h0 := ((Shape.reshapeEquiv squeezes_S1x64x512_S64x512.numel_eq y) 0).isLt
    show j.val + 1 * ((Shape.reshapeEquiv squeezes_S1x64x512_S64x512.numel_eq y) 0).val = j.val
    have h1 : ((Shape.reshapeEquiv squeezes_S1x64x512_S64x512.numel_eq y) 0).val < 1 := h0
    omega)
  have key : ∀ s : Fin 15, s = j →
      (slotB s).view.write (Elt F) (fun _ => Classical.arbitrary _)
        ((slotA (up s)).view.read (Elt F) (cA m (yp c'))) Finset.univ ((slotB j).view.emb y)
      = (slotB j).view.write (Elt F) fd ((slotA (up j)).view.read (Elt F) (cA m (yp c'))) Finset.univ
        ((slotB j).view.emb y) := by
    rintro s rfl
    rw [View.write_emb_of_mem _ _ (Finset.mem_univ y), View.write_emb_of_mem _ _ (Finset.mem_univ y)]
  exact (key _ hs).symm

/-- The staged block is the device's whole argument block. -/
theorem xstg_eq (c : Dev nD) : xstg m c = blk m c := by
  unfold xstg
  exact Memref.read_access_unit_zero (Elt F) main_arg0 (funext fun a => Nat.zero_mul _) _ _

/-! ## The rows of the 32 additions

  Chunk `k` covers 64 whole rows from row `rowO c k`. Writing `p = c % 2`: chunks `0 … 15` start at `1024·p + 64·k`, chunk
  `16` at `1984 - 1024·p`, chunks `17 … 31` at `(64·(k - 17) + 1024) - 1024·p`; together they tile the 2048 rows. -/

/-- The first row of chunk `k` of the additions. -/
def rowO (c : Dev nD) (k : ℕ) : ℕ :=
  if k < 16 then 1024 * (c.val % 2) + 64 * k
  else if k = 16 then 1984 - 1024 * (c.val % 2)
  else (64 * (k - 17) + 1024) - 1024 * (c.val % 2)

theorem offO_eq (c : Dev nD) (k : Fin 32) : offO c k = ![rowO c k.val, 0] := by
  unfold offO rowO
  split
  · next h => exact k0_off3_eq c ⟨k.val, h⟩
  · next h =>
    split
    · next h' => exact k0_off4_eq c ⟨15, by decide⟩
    · next h' => exact k0_off4_eq c ⟨k.val - 17, by have := k.isLt; omega⟩

/-- The first row of chunk `i` of the transfers across `x`. -/
theorem offA_eq (c : Dev nD) (i : Fin 17) :
    offA c i = ![if i.val < 16 then 1024 * (c.val % 2) + 64 * i.val else 1984 - 1024 * (c.val % 2), 0] := by
  unfold offA
  split
  · next h => exact k0_off1_eq c ⟨i.val, h⟩
  · next h => exact k0_off2_eq c

/-- A chunk that came directly across `x` was read from the rows it is added to. -/
theorem offA_direct (c : Dev nD) (k : Fin 32) (h : k.val < 17) : offA (xp c) ⟨k.val, h⟩ = offO c k := by
  rw [offA_eq, offO_eq, xp_mod]; unfold rowO
  have hp : c.val % 2 < 2 := Nat.mod_lt _ (by decide)
  congr 1
  show (if k.val < 16 then _ else _) = _
  split
  · rfl
  · next h' => rw [if_pos (show k.val = 16 by omega)]

/-- A relayed chunk was read, on the device across both axes, from the rows it is added to. -/
theorem offA_relayed (c : Dev nD) (k : Fin 32) (h : 17 ≤ k.val) :
    offA (yp (xp c)) (up ⟨k.val - 17, by have := k.isLt; omega⟩) = offO c k := by
  rw [offA_eq, offO_eq, yp_mod, xp_mod]; unfold rowO
  have hp : c.val % 2 < 2 := Nat.mod_lt _ (by decide)
  have hk := k.isLt
  congr 1
  show (if k.val - 17 < 16 then 1024 * (1 - c.val % 2) + 64 * (k.val - 17) else _) = _
  rw [if_pos (show k.val - 17 < 16 by omega), if_neg (show ¬ k.val < 16 by omega), if_neg (show ¬ k.val = 16 by omega)]
  omega

/-- Rectangles of one size at equal offsets place an index at the same element. -/
theorem emb_unit_congr {s : Shape} {off off' size : Fin s.rank → ℕ} (h : off = off')
    (p : ∀ a, off a + size a ≤ s.size a) (p' : ∀ a, off' a + size a ≤ s.size a) (z : (Rect.unit off size p).shape.Idx) :
    (Rect.unit off size p).emb z = (Rect.unit off' size p').emb z := by
  subst h; rfl

/-- The row of the `z`-th element of chunk `k`. -/
theorem rectO_row (c : Dev nD) (k : Fin 32) (z : S64x512.Idx) :
    ((rectO c k).emb z 0).val = rowO c k.val + (z 0).val := by
  rw [Rect.emb_apply]
  show offO c k 0 + 1 * (z 0).val = _
  rw [offO_eq]
  show rowO c k.val + 1 * (z 0).val = _
  omega

/-- Which device's block chunk `k` adds: the one across `x` for the 17 direct chunks, its `y` peer for the relayed ones. -/
theorem src_rectO (c : Dev nD) (k : Fin 32) (z : S64x512.Idx) :
    src c ((rectO c k).emb z) = if k.val < 17 then xp c else yp (xp c) := by
  have hr := rectO_row c k z
  have hz : (z 0).val < 64 := (z 0).isLt
  have hp : c.val % 2 < 2 := Nat.mod_lt _ (by decide)
  have hk := k.isLt
  unfold src relayed
  rw [hr]; unfold rowO
  by_cases h17 : k.val < 17
  · rw [if_pos h17]
    refine if_neg ?_
    by_cases h16 : k.val < 16
    · rw [if_pos h16]; split <;> omega
    · rw [if_neg h16, if_pos (show k.val = 16 by omega)]; split <;> omega
  · rw [if_neg h17]
    refine if_pos ?_
    rw [if_neg (show ¬ k.val < 16 by omega), if_neg (show ¬ k.val = 16 by omega)]; split <;> omega

/-! ## What a landed chunk holds, and what an addition stores -/

/-- Slot `s` of the first landing buffer holds the rows chunk `s` of the sender's transfers reads. -/
theorem cA_emb (c' : Dev nD) (s : Fin 17) (z : S64x512.Idx) :
    cA m c' ((slotA s).view.emb z)
      = xstg m (xp c') ((Rect.unit (s := S2048x512) (offA (xp c') s) S64x512.size (offA_inb (xp c') s)).emb z) := by
  rw [← landA m c' s (fun _ => Classical.arbitrary _) _ (View.emb_mem_set _ z),
    View.write_emb_of_mem _ _ (Finset.mem_univ z)]
  rfl

/-- Slot `j` of the second landing buffer holds slot `j` of the sender's first landing buffer. -/
theorem cB_emb (c' : Dev nD) (j : Fin 15) (z : S64x512.Idx) :
    cB m c' ((slotB j).view.emb z) = cA m (yp c') ((slotA (up j)).view.emb z) := by
  rw [← landB m c' j (fun _ => Classical.arbitrary _) _ (View.emb_mem_set _ z),
    View.write_emb_of_mem _ _ (Finset.mem_univ z)]
  rfl

/-- The landed chunk the `k`-th addition reads is the rows it is added to, of the block of the device it came from. -/
theorem landedChunk_apply (c : Dev nD) (k : Fin 32) (z : S64x512.Idx) :
    landedChunk m c k (Shape.reshapeEquiv shapeCasts_S1x64x512_S64x512 z)
      = xstg m (if k.val < 17 then xp c else yp (xp c)) ((rectO c k).emb z) := by
  unfold landedChunk
  by_cases h : k.val < 17
  · rw [dif_pos h, if_pos h]
    refine (cA_emb m c ⟨k.val, h⟩ z).trans ?_
    exact congrArg (xstg m (xp c))
      (emb_unit_congr (s := S2048x512) (size := S64x512.size) (offA_direct c k h) (offA_inb _ _) (offO_inb c k) z)
  · rw [dif_neg h, if_neg h]
    have hj : k.val - 17 < 15 := by have := k.isLt; omega
    have h17 : 17 ≤ k.val := Nat.le_of_not_lt h
    refine (cB_emb m c ⟨k.val - 17, hj⟩ z).trans ?_
    refine (cA_emb m (yp c) (up ⟨k.val - 17, hj⟩) z).trans ?_
    rw [xp_yp]
    exact congrArg (xstg m (yp (xp c)))
      (emb_unit_congr (s := S2048x512) (size := S64x512.size) (offA_relayed c k h17) (offA_inb _ _) (offO_inb c k) z)

/-- What the `k`-th addition stores is the stated result on the rows of chunk `k`. -/
theorem sumChunk_apply (c : Dev nD) (k : Fin 32) (z : S64x512.Idx) :
    sumChunk m c k z = outAt m c ((rectO c k).emb z) := by
  unfold outAt
  rw [src_rectO, ← landedChunk_apply m c k z]
  unfold sumChunk k0_pay1
  show FloatOps.addf (shapeCast S64x512 _ shapeCasts_S64x512_S64x512 z) _ = _
  rw [shapeCast_self]
  rfl

/-! ## The 32 additions tile the rows -/

/-- The elements of chunk `k`, by rows. -/
theorem mem_rectO (c : Dev nD) (k : Fin 32) (i : S2048x512.Idx) :
    i ∈ (rectO c k).set ↔ rowO c k.val ≤ (i 0).val ∧ (i 0).val < rowO c k.val + 64 := by
  rw [Rect.mem_set_unit]
  constructor
  · intro h
    have h0 := h 0
    rw [offO_eq] at h0
    exact h0
  · intro h a
    rw [offO_eq]
    match a with
    | ⟨0, _⟩ => exact h
    | ⟨1, _⟩ =>
      have h1 : (i 1).val < 512 := (i 1).isLt
      exact ⟨Nat.zero_le _, by show (i 1).val < 0 + 512; omega⟩

/-- One addition: on the rows of chunk `k` the buffer takes the stated result, elsewhere it keeps what it held. -/
theorem write_rectO (c : Dev nD) (k : Fin 32) (f : (cc0_stg1_0 : Ref sig .tc).ty.Contents (Elt F)) (i : S2048x512.Idx) :
    ((oM : Memref sig .tc .vmem S2048x512 .f32).access (rectO c k) : View sig .tc _ _ _).write (Elt F) f
        (sumChunk m c k) Finset.univ i
      = if i ∈ (rectO c k).set then outAt m c i else f i := by
  by_cases h : i ∈ (rectO c k).set
  · rw [if_pos h]
    obtain ⟨z, rfl⟩ := (rectO c k).exists_idx_of_mem h
    rw [show (rectO c k).idx z = (rectO c k).emb z from rfl, ← sumChunk_apply]
    exact (View.write_emb_of_mem
      (v := ((oM : Memref sig .tc .vmem S2048x512 .f32).access (rectO c k) : View sig .tc _ _ _)) f
      (sumChunk m c k) (Finset.mem_univ z)).trans rfl
  · rw [if_neg h]
    exact View.write_of_not_mem _ _ _ (by rw [View.setOn_univ, View.set_slice_whole]; exact h)

/-- After the first `n` additions every row of a chunk below `n` holds the stated result: a later addition either
    rewrites a row with the same value or leaves it alone. -/
theorem outSeq_rows (c : Dev nD) (g : (cc0_stg1_0 : Ref sig .tc).ty.Contents (Elt F)) :
    ∀ n, n ≤ 32 → ∀ i : S2048x512.Idx, (∃ k : Fin 32, k.val < n ∧ i ∈ (rectO c k).set) →
      outSeq m c g n i = outAt m c i
  | 0, _, _, ⟨_, hk, _⟩ => absurd hk (Nat.not_lt_zero _)
  | n + 1, hn, i, ⟨k, hk, hi⟩ => by
    have hn' : n < 32 := hn
    rw [outSeq, dif_pos hn', write_rectO]
    by_cases h : i ∈ (rectO c ⟨n, hn'⟩).set
    · rw [if_pos h]
    · rw [if_neg h]
      refine outSeq_rows c g n (Nat.le_of_lt hn') i ⟨k, ?_, hi⟩
      rcases Nat.lt_succ_iff_lt_or_eq.mp hk with h' | h'
      · exact h'
      · exact absurd (by rw [show (⟨n, hn'⟩ : Fin 32) = k from Fin.ext h'.symm]; exact hi) h

/-- Every row lies in one of the 32 chunks. -/
theorem rows_cover (c : Dev nD) (i : S2048x512.Idx) : ∃ k : Fin 32, i ∈ (rectO c k).set := by
  have hi : (i 0).val < 2048 := (i 0).isLt
  have hp : c.val % 2 < 2 := Nat.mod_lt _ (by decide)
  by_cases h1 : (i 0).val / 1024 = c.val % 2
  · -- the half sent first: chunk `(row - 1024·p) / 64`
    refine ⟨⟨((i 0).val - 1024 * (c.val % 2)) / 64, by omega⟩, (mem_rectO c _ i).mpr ?_⟩
    show rowO c (((i 0).val - 1024 * (c.val % 2)) / 64) ≤ _ ∧ _
    unfold rowO
    rw [if_pos (show ((i 0).val - 1024 * (c.val % 2)) / 64 < 16 by omega)]
    omega
  · by_cases h2 : 1984 ≤ (i 0).val + 1024 * (c.val % 2) ∧ (i 0).val + 1024 * (c.val % 2) < 2048
    · -- the last 64 rows of the other half: chunk 16
      refine ⟨⟨16, by decide⟩, (mem_rectO c _ i).mpr ?_⟩
      show rowO c 16 ≤ _ ∧ _
      unfold rowO
      rw [if_neg (show ¬ 16 < 16 by decide), if_pos rfl]
      omega
    · -- the first 960 rows of the other half: chunk `17 + (row + 1024·p - 1024) / 64`
      refine ⟨⟨17 + ((i 0).val + 1024 * (c.val % 2) - 1024) / 64, by omega⟩, (mem_rectO c _ i).mpr ?_⟩
      show rowO c (17 + ((i 0).val + 1024 * (c.val % 2) - 1024) / 64) ≤ _ ∧ _
      unfold rowO
      rw [if_neg (show ¬ 17 + ((i 0).val + 1024 * (c.val % 2) - 1024) / 64 < 16 by omega),
        if_neg (show ¬ 17 + ((i 0).val + 1024 * (c.val % 2) - 1024) / 64 = 16 by omega)]
      omega

/-- After the 32 additions the result buffer holds the sum of the two blocks, whatever it held before. -/
theorem outSeq_final (c : Dev nD) (g : (cc0_stg1_0 : Ref sig .tc).ty.Contents (Elt F)) : outSeq m c g 32 = outAt m c := by
  funext i
  obtain ⟨k, hk⟩ := rows_cover c i
  exact outSeq_rows m c g 32 (Nat.le_refl _) i ⟨k, k.isLt, hk⟩

theorem outAt_eq_total (c : Dev nD) : outAt m c = total m c := by
  funext i
  unfold outAt total; rw [xstg_eq, xstg_eq]

/-- info: 'Cert.Kernel.ARProof.outSeq_final' depends on axioms: [propext, Classical.choice, Quot.sound] -/
#guard_msgs in #print axioms outSeq_final

end Cert.Kernel.ARProof

end
-- ==== Proof.KLaunchCred.lean ====
/-
  Levels and launch credit of the all-reduce's protocol.

  A wait is allowed only below everything the waiter still owes. The entry cells sit at level 1, the arrival cells of
  the transfers across `x` at 2, those of the relays at 3, staging and departure cells at 0. A device waits on its
  entry cell owing only arrivals; on an `x` arrival owing only relay arrivals; everywhere else it owes nothing.
  At launch the units all devices owe one cell add up to two on an entry cell (one from each peer) and one chunk's units
  on each arrival cell (from the one peer that fills it).
-/
import proofs.«900127_g7700000000000128_dist_ar_v7x_xy2x2_x_m2048_n512_f32_1_alg».proof.Proof.KProto

noncomputable section

namespace Cert.Kernel.ARProof

open Cert.Kernel Cert.Kernel.Gen Cert.Kernel.AR
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One payment peeled: what remains owed before the `(34 - (n+1))`-th payment is that payment's tally on top of the rest. -/
theorem rem_succ (c : Dev nD) (n : ℕ) : rem c (n + 1) = rem c n + tallyAt (payCell c (33 - n)).1 () (payCell c (33 - n)).2 := rfl

/-- A cell still owed something is the target of one of the payments still to be made. -/
theorem rem_pos {c : Dev nD} {n : ℕ} {g : GSem nD τ sig} {u : Unit} (h : 0 < rem c n g u) :
    ∃ t, 34 - n ≤ t ∧ t < 34 ∧ g = (payCell c t).1 := by
  induction n with
  | zero => exact absurd h (Nat.lt_irrefl 0)
  | succ n ih =>
    rw [rem_succ, Pi.add_apply, Finsupp.add_apply] at h
    by_cases h1 : 0 < rem c n g u
    · obtain ⟨t, ht1, ht2, ht3⟩ := ih h1
      exact ⟨t, by omega, ht2, ht3⟩
    · have h2 : 0 < tallyAt (payCell c (33 - n)).1 () (payCell c (33 - n)).2 g u := by omega
      rw [tallyAt_apply] at h2
      by_cases hg : g = (payCell c (33 - n)).1 ∧ u = ()
      · exact ⟨33 - n, by omega, by omega, hg.1⟩
      · rw [if_neg hg] at h2; exact absurd h2 (Nat.lt_irrefl 0)

/-- The payments in program order, by family. -/
theorem payCell_zero (c : Dev nD) : payCell c 0 = (barCell (xp c), 1) := rfl
theorem payCell_one (c : Dev nD) : payCell c 1 = (barCell (yp c), 1) := rfl
theorem payCell_x (c : Dev nD) (i : Fin 17) : payCell c (2 + i.val) = (dmaCell (xp c) (rAx i), N) := by
  have hi := i.isLt
  unfold payCell
  rw [if_neg (by omega), if_neg (by omega), dif_pos (by omega)]
  congr 3; exact Fin.ext (by show (2 + i.val - 2) % 17 = i.val; rw [Nat.add_sub_cancel_left, Nat.mod_eq_of_lt hi])
theorem payCell_y (c : Dev nD) (j : Fin 15) : payCell c (19 + j.val) = (dmaCell (yp c) (rBy j), N) := by
  have hj := j.isLt
  unfold payCell
  rw [if_neg (by omega), if_neg (by omega), dif_neg (by omega)]
  congr 3; exact Fin.ext (by show (19 + j.val - 19) % 15 = j.val; rw [Nat.add_sub_cancel_left, Nat.mod_eq_of_lt hj])

/-- Every payment before the 34th is one of the two signals, one of the 17 transfers across `x` or one of the 15 relays. -/
theorem pay_cases {t : ℕ} (ht : t < 34) : t = 0 ∨ t = 1 ∨ (∃ i : Fin 17, t = 2 + i.val) ∨ ∃ j : Fin 15, t = 19 + j.val := by
  by_cases h0 : t = 0; · exact .inl h0
  by_cases h1 : t = 1; · exact .inr (.inl h1)
  by_cases h2 : t < 19
  · exact .inr (.inr (.inl ⟨⟨t - 2, by omega⟩, by show t = 2 + (t - 2); omega⟩))
  · exact .inr (.inr (.inr ⟨⟨t - 19, by omega⟩, by show t = 19 + (t - 19); omega⟩))

/-- Every payment's cell is a TensorCore's, and carries the one index. -/
theorem L_payCell (c : Dev nD) (t : ℕ) : L (payCell c t).1 = {()} := by
  unfold payCell; split
  · exact L_tc _ _
  · split
    · exact L_tc _ _
    · split <;> exact L_tc _ _

/-- The level of a payment's cell: 1 for the two signals, 2 for the transfers across `x`, 3 for the relays. -/
theorem lv_payCell (c : Dev nD) {t : ℕ} (ht : t < 34) : lv (payCell c t).1 () = if t < 2 then 1 else if t < 19 then 2 else 3 := by
  rcases pay_cases ht with rfl | rfl | ⟨i, rfl⟩ | ⟨j, rfl⟩
  · rfl
  · rfl
  · have hi := i.isLt
    rw [payCell_x, if_neg (by omega), if_pos (by omega)]
    show (if 19 ≤ (rAx i).val ∧ (rAx i).val < 36 then 2 else if 51 ≤ (rAx i).val then 3 else 0) = 2
    rw [rAx_val, if_pos ⟨by omega, by omega⟩]
  · have hj := j.isLt
    rw [payCell_y, if_neg (by omega), if_neg (by omega)]
    show (if 19 ≤ (rBy j).val ∧ (rBy j).val < 36 then 2 else if 51 ≤ (rBy j).val then 3 else 0) = 3
    rw [rBy_val, if_neg (by omega), if_pos (by omega)]

/-- A wait at a cell of level at most `b` is allowed while only payments of cells above `b` remain. -/
theorem mayWait_rem (c : Dev nD) (sm : SemLoc sig) (n b : ℕ) (hsm : lv ((c : Thread nD τ), sm) () ≤ b)
    (hn : ∀ t, 34 - n ≤ t → t < 34 → b < if t < 2 then 1 else if t < 19 then 2 else 3) :
    (levAts L lv : sProp 𝕄) ⊢ MayWait (c : Thread nD τ) sm () (rem c n) :=
  MayOwe.of_cut (L := L) (lev := lv) b
    (fun p hp => by rw [Finset.mem_singleton.mp hp, L_tc]; exact Finset.mem_singleton_self _)
    (fun g u hg => by obtain ⟨t, _, _, rfl⟩ := rem_pos hg; rw [L_payCell]; exact Finset.mem_singleton_self _)
    (fun p hp => by rw [Finset.mem_singleton.mp hp]; exact hsm)
    (fun g u hg => by obtain ⟨t, h1, h2, rfl⟩ := rem_pos hg; rw [show u = () from rfl, lv_payCell c h2]; exact hn t h1 h2)

/-- The pipeline's own waits on its staging semaphores (DMA semaphores 0 and 1, level 0): before the body the device
    owes everything, after it nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_rem c (.dma q) 34 0 ?_ fun t _ _ => ?_
    · show (if 19 ≤ q.val ∧ q.val < 36 then 2 else if 51 ≤ q.val then 3 else 0) ≤ 0
      rw [if_neg (by omega), if_neg (by omega)]
    · split
      · decide
      · split <;> decide
  · rw [MayWait_zero]; iintro -; iempintro

/-- At the entry wait the two signals are paid: the device owes arrivals only. -/
theorem mayWait_bar (c : Dev nD) :
    (levAts L lv : sProp 𝕄) ⊢ MayWait (c : Thread nD τ) (.reg barS) () (rem c 32) :=
  mayWait_rem c (.reg barS) 32 1 (Nat.le_refl 1) fun t h1 _ => by
    rw [if_neg (by omega)]; split <;> decide

/-- At the wait for an `x` arrival all 17 transfers across `x` are sent: the device owes relay arrivals only. -/
theorem mayWait_rAx (c : Dev nD) (i : Fin 17) (n : ℕ) (hn : n ≤ 15) :
    (levAts L lv : sProp 𝕄) ⊢ MayWait (c : Thread nD τ) (.dma (rAx i)) () (rem c n) := by
  have hi := i.isLt
  refine mayWait_rem c (.dma (rAx i)) n 2 ?_ fun t h1 _ => ?_
  · show (if 19 ≤ (rAx i).val ∧ (rAx i).val < 36 then 2 else if 51 ≤ (rAx i).val then 3 else 0) ≤ 2
    rw [rAx_val, if_pos ⟨by omega, by omega⟩]
  · rw [if_neg (by omega), if_neg (by omega)]; decide

/-- The kernel's 64 transfer semaphores are scoped to the launch and are no staging semaphore. -/
theorem stage_sem_lt : ∀ (w : Fin cfg0.W) (s : Fin (cfg0.spec w).nbuf), ((cfg0.spec w).sem s).val < 2 := by decide

theorem ownSemFacts : Pipeline.OwnSemFacts cfg0.spec osem where
  isScoped k := by
    revert k; decide
  inj k k' h := by
    have := congrArg (fun sm : SemLoc sig => match sm with | .dma q => q.val | .reg _ => 0) h
    exact Fin.ext (by simpa [osem] using this)
  disj k w s h := by
    have h1 := stage_sem_lt w s
    have := congrArg (fun sm : SemLoc sig => match sm with | .dma q => q.val | .reg _ => 0) h
    simp only [osem] at this
    omega

/-! ## What every device owes one cell -/

theorem bar_eq_iff {a b : Dev nD} : Iff (barCell a = barCell b) (a = b) :=
  ⟨fun h => Fin.ext (congrArg (fun g : GSem nD τ sig => g.1.1.val) h), fun h => h ▸ rfl⟩
theorem dma_eq_iff {a b : Dev nD} {q q' : DmaSem sig} : Iff (dmaCell a q = dmaCell b q') (a = b ∧ q = q') :=
  ⟨fun h => ⟨Fin.ext (congrArg (fun g : GSem nD τ sig => g.1.1.val) h), SemLoc.dma.inj (congrArg Prod.snd h)⟩, fun h => by rw [h.1, h.2]⟩
theorem bar_ne_dma (a b : Dev nD) (q : DmaSem sig) : barCell a ≠ dmaCell b q := fun h => by cases congrArg Prod.snd h
theorem dma_ne_bar (a b : Dev nD) (q : DmaSem sig) : dmaCell b q ≠ barCell a := fun h => by cases congrArg Prod.snd h
theorem rAx_inj {i i' : Fin 17} (h : rAx i = rAx i') : i = i' := by
  have := congrArg Fin.val h; rw [rAx_val, rAx_val] at this; exact Fin.ext (by omega)
theorem rBy_inj {j j' : Fin 15} (h : rBy j = rBy j') : j = j' := by
  have := congrArg Fin.val h; rw [rBy_val, rBy_val] at this; exact Fin.ext (by omega)
theorem rAx_ne_rBy (i : Fin 17) (j : Fin 15) : rAx i ≠ rBy j := fun h => by
  have := congrArg Fin.val h; rw [rAx_val, rBy_val] at this; have := i.isLt; omega

omit [FloatOps F] in
theorem tallyAt_ne_cell' {g g' : GSem nD τ sig} (h : g' ≠ g) (k : ℕ) : (tallyAt g () k : CellTallies nD τ sig Unit) g' () = 0 := by
  rw [tallyAt_ne_cell h]; rfl

/-- What remains owed at one cell, together with the payments already made there, is all 34 payments there. -/
theorem rem_add (d : Dev nD) (g : GSem nD τ sig) (u : Unit) : ∀ n, n ≤ 34 →
    rem d n g u + ∑ t ∈ Finset.range (34 - n), tallyAt (payCell d t).1 () (payCell d t).2 g u
      = ∑ t ∈ Finset.range 34, tallyAt (payCell d t).1 () (payCell d t).2 g u
  | 0, _ => by
    show (0 : CellTallies nD τ sig Unit) g u + _ = _
    rw [Pi.zero_apply, Finsupp.zero_apply, Nat.zero_add]
  | n + 1, h => by
    have e : 34 - n = (34 - (n + 1)) + 1 := by omega
    have e1 : 33 - n = 34 - (n + 1) := by omega
    rw [← rem_add d g u n (by omega), rem_succ, Pi.add_apply, Finsupp.add_apply, e, Finset.sum_range_succ, e1]
    omega

/-- What device `d` owes a cell at launch, by family of payment. -/
theorem O₀_apply (d : Dev nD) (g : GSem nD τ sig) :
    O₀ d g () = tallyAt (barCell (xp d)) () 1 g () + tallyAt (barCell (yp d)) () 1 g ()
      + (∑ i : Fin 17, tallyAt (dmaCell (xp d) (rAx i)) () N g ()) + ∑ j : Fin 15, tallyAt (dmaCell (yp d) (rBy j)) () N g () := by
  have h := rem_add d g () 34 (Nat.le_refl _)
  rw [Nat.sub_self, Finset.range_zero, Finset.sum_empty, Nat.add_zero, show (34 : ℕ) = 2 + 17 + 15 from rfl] at h
  unfold O₀
  rw [show (34 : ℕ) = 2 + 17 + 15 from rfl, h, Finset.sum_range_add, Finset.sum_range_add, Finset.sum_range_succ, Finset.sum_range_one,
    Finset.sum_range, Finset.sum_range, payCell_zero, payCell_one,
    Finset.sum_congr rfl fun (i : Fin 17) _ => by rw [payCell_x],
    Finset.sum_congr rfl fun (j : Fin 15) _ => by rw [show 2 + 17 + j.val = 19 + j.val from rfl, payCell_y]]

theorem owed_bar (d c : Dev nD) : O₀ d (barCell c) () = (if d = xp c then 1 else 0) + (if d = yp c then 1 else 0) := by
  rw [O₀_apply, tallyAt_apply, tallyAt_apply, Finset.sum_eq_zero fun i _ => tallyAt_ne_cell' (bar_ne_dma _ _ _) N,
    Finset.sum_eq_zero fun j _ => tallyAt_ne_cell' (bar_ne_dma _ _ _) N, Nat.add_zero, Nat.add_zero]
  congr 1
  · by_cases h : d = xp c
    · subst h; rw [xp_xp, if_pos ⟨rfl, rfl⟩, if_pos rfl]
    · rw [if_neg (fun ⟨h1, _⟩ => h (by rw [bar_eq_iff.mp h1, xp_xp])), if_neg h]
  · by_cases h : d = yp c
    · subst h; rw [yp_yp, if_pos ⟨rfl, rfl⟩, if_pos rfl]
    · rw [if_neg (fun ⟨h1, _⟩ => h (by rw [bar_eq_iff.mp h1, yp_yp])), if_neg h]

theorem owed_rAx (d c : Dev nD) (i : Fin 17) : O₀ d (dmaCell c (rAx i)) () = if d = xp c then N else 0 := by
  rw [O₀_apply, tallyAt_ne_cell' (dma_ne_bar _ _ _), tallyAt_ne_cell' (dma_ne_bar _ _ _),
    Finset.sum_eq_zero fun j _ => tallyAt_ne_cell' (fun h => rAx_ne_rBy i j (dma_eq_iff.mp h).2) N]
  simp only [Nat.zero_add, Nat.add_zero]
  rw [Finset.sum_eq_single i (fun i' _ hi' => tallyAt_ne_cell' (fun h => hi' (rAx_inj (dma_eq_iff.mp h).2).symm) N) (fun h => absurd (Finset.mem_univ i) h),
    tallyAt_apply]
  by_cases h : d = xp c
  · subst h; rw [xp_xp, if_pos ⟨rfl, rfl⟩, if_pos rfl]
  · rw [if_neg (fun ⟨h1, _⟩ => h (by rw [(dma_eq_iff.mp h1).1, xp_xp])), if_neg h]

theorem owed_rBy (d c : Dev nD) (j : Fin 15) : O₀ d (dmaCell c (rBy j)) () = if d = yp c then N else 0 := by
  rw [O₀_apply, tallyAt_ne_cell' (dma_ne_bar _ _ _), tallyAt_ne_cell' (dma_ne_bar _ _ _),
    Finset.sum_eq_zero fun i _ => tallyAt_ne_cell' (fun h => rAx_ne_rBy i j (dma_eq_iff.mp h).2.symm) N]
  simp only [Nat.zero_add, Nat.add_zero]
  rw [Finset.sum_eq_single j (fun j' _ hj' => tallyAt_ne_cell' (fun h => hj' (rBy_inj (dma_eq_iff.mp h).2).symm) N) (fun h => absurd (Finset.mem_univ j) h),
    tallyAt_apply]
  by_cases h : d = yp c
  · subst h; rw [yp_yp, if_pos ⟨rfl, rfl⟩, if_pos rfl]
  · rw [if_neg (fun ⟨h1, _⟩ => h (by rw [(dma_eq_iff.mp h1).1, yp_yp])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

theorem launch_rAx (c : Dev nD) (i : Fin 17) :
    tallyOn (dmaCell c (rAx i)) (launchCredit (Pipeline.owing O₀) 0 (dmaCell c (rAx i))) = (tallyAt (dmaCell c (rAx i)) () N : CellTallies nD τ sig Unit) := by
  unfold tallyAt; refine congrArg _ (Finsupp.ext fun u => ?_); cases u
  rw [Pipeline.launchCredit_owing, Finsupp.single_eq_same, Finset.sum_congr rfl fun d _ => owed_rAx d c i, Finset.sum_ite_eq' Finset.univ (xp c) fun _ => N,
    if_pos (Finset.mem_univ _)]

theorem launch_rBy (c : Dev nD) (j : Fin 15) :
    tallyOn (dmaCell c (rBy j)) (launchCredit (Pipeline.owing O₀) 0 (dmaCell c (rBy j))) = (tallyAt (dmaCell c (rBy j)) () N : CellTallies nD τ sig Unit) := by
  unfold tallyAt; refine congrArg _ (Finsupp.ext fun u => ?_); cases u
  rw [Pipeline.launchCredit_owing, Finsupp.single_eq_same, Finset.sum_congr rfl fun d _ => owed_rBy d c j, Finset.sum_ite_eq' Finset.univ (yp c) fun _ => N,
    if_pos (Finset.mem_univ _)]

/-- The 33 cells of a device that are owed units at launch: its entry cell and its 32 arrival cells. -/
def credCell : Unit ⊕ (Fin 17 ⊕ Fin 15) → Option (SemLoc sig)
  | .inl _ => some (.reg barS)
  | .inr (.inl i) => some (.dma (rAx i))
  | .inr (.inr j) => some (.dma (rBy j))

theorem credCell_inj : ∀ a b sm, credCell a = some sm → credCell b = some sm → a = b := by
  rintro (_ | i | j) (_ | i' | j') sm h1 h2 <;> have h := Option.some.inj (h1.trans h2.symm)
  · rfl
  · cases h
  · cases h
  · cases h
  · rw [rAx_inj (SemLoc.dma.inj h)]
  · exact absurd (SemLoc.dma.inj h) (rAx_ne_rBy i j')
  · cases h
  · exact absurd (SemLoc.dma.inj h).symm (rAx_ne_rBy i' j)
  · rw [rBy_inj (SemLoc.dma.inj h)]

/-- The launch credit of device `c`: two units on its entry cell, one chunk's units on each of its 32 arrival cells. -/
theorem creds_intro (c : Dev nD) : (Pipeline.launchCred O₀ c : sProp 𝕄) ⊢ creds c := by
  unfold Pipeline.launchCred creds
  refine (bigSep_along credCell credCell_inj _).trans ?_
  rw [bigSep_univ_sum, bigSep_univ_sum, bigSep_univ_of_subsingleton ()]
  refine sep_mono (Entails.of_eq (congrArg cred (launch_bar c))) (sep_mono ?_ ?_)
  · exact bigSep_mono fun i _ => Entails.of_eq (congrArg cred (launch_rAx c i))
  · exact bigSep_mono fun j _ => Entails.of_eq (congrArg cred (launch_rBy c j))

end Cert.Kernel.ARProof

end
-- ==== Proof.KLaunch.lean ====
/-
  The launch of the all-reduce: the ghost state every device starts from, and the run of the whole mesh from the body's proof.

  Each device has 65 cells: its entry cell and its 64 transfer semaphores. At launch the protocol's algebra holds every
  cell's round state, position and reached-mark, and one token for each duty: on every device the two duties of its
  entry cell and one duty on each transfer semaphore. One update allocates all 260 invariants; the tokens are then
  dealt to the devices that pay them: the entry duties and the arrival duties go across the mesh axes (both peer maps
  are involutions, so dealing is a re-indexing of the devices), the departure duties stay. With the launch credit and
  the level facts this is what the body starts from; after it the landing buffers and the 64 transfer semaphores are
  back as the launch left them, and the two arrays are read off the pipeline's final state.
-/
import proofs.«900127_g7700000000000128_dist_ar_v7x_xy2x2_x_m2048_n512_f32_1_alg».proof.Proof.KProto
import proofs.«900127_g7700000000000128_dist_ar_v7x_xy2x2_x_m2048_n512_f32_1_alg».proof.Proof.KLand
import proofs.«900127_g7700000000000128_dist_ar_v7x_xy2x2_x_m2048_n512_f32_1_alg».proof.Proof.KLaunchCred
import Idealize.ShloMosaic.Lib.Pipeline.Launch
import Idealize.ShloMosaic.Lib.Pipeline.Kit
import Idealize.ShloMosaic.Lib.Tactic

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, numbered -/

theorem csem_injective : Function.Injective csem := by
  intro k k' h
  unfold csem at h
  by_cases hk : k.val = 0 <;> by_cases hk' : k'.val = 0
  · exact Fin.ext (hk.trans hk'.symm)
  · rw [if_pos hk, if_neg hk'] at h; cases h
  · rw [if_neg hk, if_pos hk'] at h; cases h
  · rw [if_neg hk, if_neg hk'] at h
    have h1 := congrArg Fin.val (SemLoc.dma.inj h)
    exact Fin.ext (Nat.add_right_cancel h1)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: every device's 65. -/
def ringCells : Finset (GSem nD τ sig) := Finset.univ.map ⟨kcell, kcell_injective⟩

/-- The 65 cells of a device as its entry cell and its 64 transfer semaphores. -/
def e65 : Fin 1 ⊕ Fin 64 ≃ Fin 65 := finSumFinEquiv

theorem csem_inl (z : Fin 1) : csem (e65 (.inl z)) = .reg barS := by
  unfold csem; rw [if_pos]
  show (Fin.castAdd 64 z).val = 0
  rw [Fin.coe_castAdd]; omega

theorem csem_inr (k : Fin 64) : csem (e65 (.inr k)) = osem k := by
  have hv : (e65 (.inr k)).val = 1 + k.val := by show (Fin.natAdd 1 k).val = _; rw [Fin.coe_natAdd]
  unfold csem osem; rw [if_neg (by rw [hv]; omega)]
  congr 1; exact Fin.ext (by show (e65 (.inr k)).val + 1 = k.val + 2; rw [hv]; omega)

omit [FloatOps F] in
/-- A product over a device's 65 cells: the entry cell's factor and the 64 transfer semaphores'. -/
theorem bigSep_fin65L (Φ : SemLoc sig → sProp 𝕄) :
    bigSep Finset.univ (fun k : Fin 65 => Φ (csem k)) = iprop(Φ (.reg barS) ∗ bigSep Finset.univ fun k : Fin 64 => Φ (osem k)) := by
  rw [bigSep_univ_equiv e65 (fun k : Fin 65 => Φ (csem k)), bigSep_univ_sum]
  simp only [csem_inl, csem_inr]
  rw [bigSep_univ_of_subsingleton (0 : Fin 1)]
  rfl

/-! ## The tokens minted at launch -/

/-- A device's duties: the two of its entry cell, then one on each departure and arrival semaphore of the transfers
    across `x` and of the relays across `y`. -/
abbrev TI : Type := Bool ⊕ ((Fin 17 ⊕ Fin 17) ⊕ (Fin 15 ⊕ Fin 15))

def tsem : TI → SemLoc sig × Bool
  | .inl d => (.reg barS, d)
  | .inr (.inl (.inl i)) => (.dma (sAx i), false)
  | .inr (.inl (.inr i)) => (.dma (rAx i), false)
  | .inr (.inr (.inl j)) => (.dma (sBy j), false)
  | .inr (.inr (.inr j)) => (.dma (rBy j), false)

/-- A number telling the duties of one device apart: 0 and 1 for the entry cell's, the semaphore's number otherwise. -/
def tcode (x : SemLoc sig × Bool) : ℕ := match x.1 with
  | .reg _ => if x.2 then 1 else 0
  | .dma q => q.val

theorem tsem_injective : Function.Injective tsem := by
  intro a b h
  have hc : tcode (tsem a) = tcode (tsem b) := congrArg tcode h
  rcases a with d | ((i | i) | (j | j)) <;> rcases b with d' | ((i' | i') | (j' | j')) <;>
    simp only [tsem, tcode, sAx_val, rAx_val, sBy_val, rBy_val] at hc
  all_goals first
    | (cases d <;> cases d' <;> first | rfl | (exfalso; revert hc; decide))
    | (exfalso; cases d <;> (simp only [Bool.false_eq_true, if_true, if_false] at hc; omega))
    | (exfalso; cases d' <;> (simp only [Bool.false_eq_true, if_true, if_false] at hc; omega))
    | (have : i = i' := Fin.ext (by omega); subst this; rfl)
    | (have : j = j' := Fin.ext (by omega); subst this; rfl)
    | (exfalso; omega)

abbrev tokOf (cj : Dev nD × TI) : GSem nD τ sig × ℕ × Bool := (((cj.1 : Thread nD τ), (tsem cj.2).1), 0, (tsem cj.2).2)

theorem tokOf_injective : Function.Injective (tokOf : Dev nD × TI → GSem nD τ sig × ℕ × Bool) := by
  rintro ⟨c, a⟩ ⟨c', a'⟩ h
  have h1 : c = c' := by have := congrArg (fun x : GSem nD τ sig × ℕ × Bool => x.1.1.1) h; exact this
  subst h1
  have h2 : (tsem a).1 = (tsem a').1 := congrArg (fun x : GSem nD τ sig × ℕ × Bool => x.1.2) h
  have h3 : (tsem a).2 = (tsem a').2 := congrArg (fun x : GSem nD τ sig × ℕ × Bool => x.2.2) h
  rw [tsem_injective (Prod.ext h2 h3)]

def ringToks : Finset (GSem nD τ sig × ℕ × Bool) := Finset.univ.map ⟨tokOf, tokOf_injective⟩

/-- The launch element: the pipeline's copy and the protocol's. -/
def u₀ : UU :=
  (initOf (Pipeline.cells cfgs cellOf_inj) (Pipeline.launchToks cfgs cellOf_inj), initOf ringCells ringToks)

section Launch
variable [∀ e, Nonempty (Elt F e)]

/-- The duty tokens of device `c`'s own cells, as minted. -/
def toks (c : Dev nD) : sProp 𝕄 :=
  iprop((dutyTok ER (barCell c) 0 false ∗ dutyTok ER (barCell c) 0 true)
    ∗ ((bigSep Finset.univ fun i : Fin 17 => dutyTok ER (dmaCell c (sAx i)) 0 false)
        ∗ (bigSep Finset.univ fun i : Fin 17 => dutyTok ER (dmaCell c (rAx i)) 0 false))
    ∗ (bigSep Finset.univ fun j : Fin 15 => dutyTok ER (dmaCell c (sBy j)) 0 false)
    ∗ (bigSep Finset.univ fun j : Fin 15 => dutyTok ER (dmaCell c (rBy j)) 0 false))

/-- What the launch element deals device `c`: its cells' round states, positions and reached-marks, its cells' tokens. -/
def G (c : Dev nD) : sProp 𝕄 :=
  iprop((bigSep Finset.univ fun k : Fin 65 => roundState ER (sched m) (kcell (c, k)) 0)
    ∗ (bigSep Finset.univ fun k : Fin 65 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

/-- Every payload of the schedule is made of points-to assertions: it can be kept in an invariant. -/
instance launch_payload_storable (g : GSem nD τ sig) (r : ℕ) (d : Bool) :
    BI.Storable (upEmb : UEmb _ 𝕄) ((sched (F := F) m).payload g r d) := by
  show BI.Storable upEmb (match g.2 with
    | .reg _ => if d then bufA (xp g.1.1) else bufB (yp g.1.1)
    | .dma q => dmaPay m g.1.1 q)
  unfold bufA bufB dmaPay srcPts slotAPts slotBPts
  (repeat' split) <;> infer_instance

omit [FloatOps F] in
theorem bigSep_univ_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_sum, bigSep_univ_sum, bigSep_univ_bool]
      rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  unfold toks; simp only [bigSep_sep']
  iexact Htok'

omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_fin65L (fun sm => semVal ((c : Thread nD τ), sm) 0)]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Both peer maps are involutions: dealing along them re-indexes the devices. -/
def xpE : Dev nD ≃ Dev nD := ⟨xp, xp, xp_xp, xp_xp⟩
def ypE : Dev nD ≃ Dev nD := ⟨yp, yp, yp_yp, yp_yp⟩

/-- The tokens dealt to their payers: an entry cell's `true` token and the arrival tokens of the transfers across `x` go
    across `x`, its `false` token and the relays' arrival tokens across `y`; the departure tokens stay. -/
theorem toks_around : (bigSep Finset.univ fun c : Dev nD => (toks c : sProp 𝕄)) ⊢ bigSep Finset.univ fun c : Dev nD => payToks c := by
  unfold toks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => (bigSep Finset.univ fun i : Fin 17 => dutyTok ER (dmaCell c (rAx i)) 0 false : sProp 𝕄)),
    bigSep_univ_equiv ypE (fun c : Dev nD => (bigSep Finset.univ fun j : Fin 15 => dutyTok ER (dmaCell c (rBy j)) 0 false : sProp 𝕄))]
  iintro ⟨⟨HbF, HbT⟩, ⟨HSA, HRA⟩, HSB, HRB⟩
  isplitl [HbT]; · iexact HbT
  isplitl [HbF]; · iexact HbF
  isplitl [HRA]; · iexact HRA
  isplitl [HRB]; · iexact HRB
  isplitl [HSA]; · iexact HSA
  iexact HSB

/-- What stays with device `c` beside the records: its 65 positions and the tokens of the duties it pays. -/
def linear (c : Dev nD) : sProp 𝕄 :=
  iprop((bigSep Finset.univ fun k : Fin 65 => atPos ER (kcell (c, k)) 0 ∅ 0) ∗ payToks c)

theorem ghost_intro (K : Dev nD × Fin 65 → ℕ) (c : Dev nD) : iprop(records m K ∗ linear c) ⊢ G' m c := by
  unfold linear G' ghost
  iintro ⟨HR, Hat, Htok⟩
  iexists K
  isplitl [HR]; · iexact HR
  isplitl [Hat] <;> iassumption

theorem regroup :
    (bigSep Finset.univ fun c : Dev nD => iprop((bigSep Finset.univ fun k => iprop(∃ κ : ℕ, cellInv ER (sched m) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (sched m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => bigSep Finset.univ fun k : Fin 65 => (atPos ER (kcell (c, k)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem dats_share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufA bufB
  iintro ⟨Hs, -, HA, HB⟩
  isplitl [Hs]; · iexact Hs
  isplitl [HA] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ bufA bufB Pipeline.ownSems0
  iintro ⟨HA, HB, Hz⟩
  isplitr; · iempintro
  isplitl [Hz]; · iexact Hz
  isplitl [HA] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The final arrays -/

/-- The argument array is never written back: it holds what it held. -/
theorem final_arg (c : Dev nD) : (dats m 0 c).arrAt (0 : Fin 2) cfg0.N = m ((c : Thread nD τ).loc main_arg0) :=
  (dats (F := F) m 0 c).arrAt_in (0 : Fin 2) rfl _

/-- The result array after the one write-back: the whole array overwritten by what the body left in the result's
    staging buffer. -/
theorem final_out (c : Dev nD) : (dats m 0 c).arrAt (1 : Fin 2) cfg0.N = outAt m c := by
  have h := (dats (F := F) m 0 c).arrAt_succ (1 : Fin 2) t0_0
  rw [if_pos (flush0_1 t0_0)] at h
  refine (show (dats m 0 c).arrAt (1 : Fin 2) cfg0.N = (dats m 0 c).arrAt (1 : Fin 2) (t0_0.val + 1) from rfl).trans (h.trans ?_)
  have key : ∀ (A w : (main_v1 : Ref sig .tc).ty.Contents (Elt F)),
      View.write (Elt F) ((cfg0.win 1).blk t0_0).view A w Finset.univ = w := fun A w =>
    Memref.write_access_unit_zero_univ (Elt F) main_v1 (funext fun a => by fin_cases a <;> rfl) _ A w
  exact key _ _

/-- What the launch theorem says of the final arrays, read at the result and at the argument. -/
theorem final_post (c : Dev nD) (s : MemSt nD τ sig (Elt F))
    (h : ∀ w : Fin cfg0.W, s.mem ((cfg0.spec w).arr.view.loc (c : Thread nD τ)) = (dats m 0 c).arrAt w cfg0.N) :
    s.mem ((c : Thread nD τ).loc main_v1) = total m c
      ∧ s.mem ((c : Thread nD τ).loc main_arg0) = m ((c : Thread nD τ).loc main_arg0) :=
  ⟨((h (1 : Fin 2)).trans (final_out m c)).trans (outAt_eq_total m c), (h (0 : Fin 2)).trans (final_arg m c)⟩

/-! ## The run -/

set_option maxRecDepth 8000 in
/-- At the compiled mesh of four devices, for any float values, from any memory with zero counters: every weakly fair
    execution of the four kernels — entering, exchanging chunks across `x`, relaying them across `y`, adding — ends, and
    every final state has each device's result at its own block plus the block that reached it (`total`) and its argument
    unchanged, given the body's proof. -/
theorem run_of_body (hbody : ∀ (m : (ℓ : Loc nD τ sig) → Buf (Elt F) ℓ) (c : Dev nD), BodyObligation (dats (F := F) m 0 c) (defs₀ (F := F)) 𝒱₀ () Set.univ) :
    Cert.Kernel.AR.RunSpec (F := F) := fun m ρ =>
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody m c).loose) (hne := block_pos0) (harr := arr_whole0) (hstage := stage_whole0) (hshare := dats_share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => final_post m c s (h c).1)

/-- info: 'Cert.Kernel.ARProof.run_of_body' depends on axioms: [propext, Classical.choice, Quot.sound] -/
#guard_msgs in #print axioms run_of_body

end Launch

end Cert.Kernel.ARProof

end
-- ==== Proof.Frag.lean ====
/-
  The two transfer steps of the all-reduce as instances of the rounds library's send rule.

  A transfer across `x` lends the pending copy the sender's half share of the 64 source rows (it comes back with the
  departure cell's units) and hands the peer's arrival cell slot `i` of the peer's first landing buffer holding those
  rows; a relay across `y` does the same from slot `j` of the device's own first landing buffer into slot `j` of the
  peer's second one.
-/
import proofs.«900127_g7700000000000128_dist_ar_v7x_xy2x2_x_m2048_n512_f32_1_alg».proof.Proof.Land
import proofs.«900127_g7700000000000128_dist_ar_v7x_xy2x2_x_m2048_n512_f32_1_alg».proof.Proof.LaunchCred

noncomputable section

namespace Cert.KernelIdeal.ARProof

open Cert.KernelIdeal Cert.KernelIdeal.Gen Cert.KernelIdeal.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sAx_ge (i : Fin 17) : 2 ≤ (sAx i).val := by rw [sAx_val]; omega
theorem rAx_ge (i : Fin 17) : 2 ≤ (rAx i).val := by rw [rAx_val]; omega
theorem sBy_ge (j : Fin 15) : 2 ≤ (sBy j).val := by rw [sBy_val]; omega
theorem rBy_ge (j : Fin 15) : 2 ≤ (rBy j).val := by rw [rBy_val]; omega

/-- The transfer of chunk `i` across `x`, addressed to `n = xp c`. -/
theorem wp_sendA (κ₁ κ₂ : ℕ) (c n : Dev nD) (hn : n = xp c) (i : Fin 17)
    {hsc : (slotA i : Memref sig (Dev.tc n : Thread nD τ).2.kind .vmem S64x512 .f32).view.ref.isScScratch = false}
    {hsrc : (srcA c i).view.WordExact} {hdst : (slotA i : Memref sig .tc .vmem S64x512 .f32).view.WordExact}
    {hsem : DmaTarget.Typed .vmem (.dma (rAx i)) (.remote (Dev.tc n : Thread nD τ) (slotA i : Memref sig .tc .vmem S64x512 .f32) (.dma (sAx i)) hsc)}
    {α : Type} {Q : α → sProp 𝕄} {k : PUnit → Prog (TpuEff nD τ sig (Elt F) Λ₀ .tc) α}
    (fn : Buf (Elt F) ((slotA i : Memref sig .tc .vmem S64x512 .f32).view.loc (xp c : Thread nD τ))) (O : CellTallies nD τ sig Unit) (W : Waits sig Unit) :
    iprop(cellInv ER (sched m) κ₁ (dmaCell c (sAx i)) ∗ cellInv ER (sched m) κ₂ (dmaCell (xp c) (rAx i))
        ∗ srcPts m c i ∗ ((slotA i : Memref sig .tc .vmem S64x512 .f32).view.loc (xp c : Thread nD τ) ↦[(slotA i : Memref sig .tc .vmem S64x512 .f32).view.set]{fullShare} fn)
        ∗ owes (c : Thread nD τ) (O + tallyAt (dmaCell (xp c) (rAx i)) () N) W
        ∗ dutyTok ER (dmaCell c (sAx i)) 0 false ∗ reached ER (dmaCell c (sAx i)) 0
        ∗ dutyTok ER (dmaCell (xp c) (rAx i)) 0 false ∗ reached ER (dmaCell (xp c) (rAx i)) 0)
      ⊢ iprop(((cred (tallyAt (dmaCell c (sAx i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c i) (.remote (Dev.tc n : Thread nD τ) (slotA i) (.dma (sAx i)) hsc) (.dma (rAx i)) hsrc hdst hsem) k) Q) := by
  subst hn
  unfold srcPts
  exact Rounds.wp_send_pointsTo 𝒱₀ ER (sched m) (c : Thread nD τ) none (κ₁ := κ₁) (κ₂ := κ₂)
    (r₁ := 0) (r₂ := 0) (d₁ := false) (d₂ := false) (fd := fn)
    (by rw [duties_dma m c _ (sAx_ge i)]; exact Finset.mem_singleton_self _)
    (by rw [duties_dma m (xp c) _ (rAx_ge i)]; exact Finset.mem_singleton_self _)
    () () N rfl (amount_dma m c (sAx i) false) (amount_dma m (xp c) (rAx i) false) O rfl (W := W)
    (by rw [payload_dma, dmaPay_sAx]; exact BI.Entails.refl _)
    (by
      rw [payload_dma, dmaPay_rAx]; unfold slotAPts
      have h := landA m (xp c) i fn
      rw [xp_xp] at h
      rw [pointsTo_congr h])

/-- The relay of slot `j` across `y`, addressed to `n = yp c`. -/
theorem wp_sendB (κ₁ κ₂ : ℕ) (c n : Dev nD) (hn : n = yp c) (j : Fin 15)
    {hsc : (slotB j : Memref sig (Dev.tc n : Thread nD τ).2.kind .vmem S64x512 .f32).view.ref.isScScratch = false}
    {hsrc : (slotA (up j) : Memref sig .tc .vmem S64x512 .f32).view.WordExact} {hdst : (slotB j : Memref sig .tc .vmem S64x512 .f32).view.WordExact}
    {hsem : DmaTarget.Typed .vmem (.dma (rBy j)) (.remote (Dev.tc n : Thread nD τ) (slotB j : Memref sig .tc .vmem S64x512 .f32) (.dma (sBy j)) hsc)}
    {α : Type} {Q : α → sProp 𝕄} {k : PUnit → Prog (TpuEff nD τ sig (Elt F) Λ₀ .tc) α}
    (fn : Buf (Elt F) ((slotB j : Memref sig .tc .vmem S64x512 .f32).view.loc (yp c : Thread nD τ))) (O : CellTallies nD τ sig Unit) (W : Waits sig Unit) :
    iprop(cellInv ER (sched m) κ₁ (dmaCell c (sBy j)) ∗ cellInv ER (sched m) κ₂ (dmaCell (yp c) (rBy j))
        ∗ slotAPts m c (up j) qS ∗ ((slotB j : Memref sig .tc .vmem S64x512 .f32).view.loc (yp c : Thread nD τ) ↦[(slotB j : Memref sig .tc .vmem S64x512 .f32).view.set]{fullShare} fn)
        ∗ owes (c : Thread nD τ) (O + tallyAt (dmaCell (yp c) (rBy j)) () N) W
        ∗ dutyTok ER (dmaCell c (sBy j)) 0 false ∗ reached ER (dmaCell c (sBy j)) 0
        ∗ dutyTok ER (dmaCell (yp c) (rBy j)) 0 false ∗ reached ER (dmaCell (yp c) (rBy j)) 0)
      ⊢ iprop(((cred (tallyAt (dmaCell c (sBy j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA (up j)) (.remote (Dev.tc n : Thread nD τ) (slotB j) (.dma (sBy j)) hsc) (.dma (rBy j)) hsrc hdst hsem) k) Q) := by
  subst hn
  unfold slotAPts
  exact Rounds.wp_send_pointsTo 𝒱₀ ER (sched m) (c : Thread nD τ) none (κ₁ := κ₁) (κ₂ := κ₂)
    (r₁ := 0) (r₂ := 0) (d₁ := false) (d₂ := false) (fd := fn)
    (by rw [duties_dma m c _ (sBy_ge j)]; exact Finset.mem_singleton_self _)
    (by rw [duties_dma m (yp c) _ (rBy_ge j)]; exact Finset.mem_singleton_self _)
    () () N rfl (amount_dma m c (sBy j) false) (amount_dma m (yp c) (rBy j) false) O rfl (W := W)
    (by rw [payload_dma, dmaPay_sBy]; exact BI.Entails.refl _)
    (by
      rw [payload_dma, dmaPay_rBy]; unfold slotBPts
      have h := landB m (yp c) j fn
      rw [yp_yp] at h
      rw [pointsTo_congr h])

end Cert.KernelIdeal.ARProof

end
-- ==== Proof.LForms.lean ====
/-
  The schedule's tables over the cells and slots as the program text spells them: a numeral index and the printed
  in-bounds evidence. Each is its Fin-indexed counterpart of the protocol module read at `⟨i, hi⟩`.
-/
import proofs.«900127_g7700000000000128_dist_ar_v7x_xy2x2_x_m2048_n512_f32_1_alg».proof.Proof.Frag

noncomputable section

namespace Cert.KernelIdeal.ARProof

open Cert.KernelIdeal Cert.KernelIdeal.Gen Cert.KernelIdeal.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev sAxL (i : ℕ) (h : ∀ a, (![i] : Fin 1 → Nat) a + S1.size a ≤ S17.size a) : DmaSem sig := ((cc0_scratch2.slice (Rect.unit (s := S17) ![i] S1.size h)).squeeze S_ squeezes_S1_S_).sem
abbrev rAxL (i : ℕ) (h : ∀ a, (![i] : Fin 1 → Nat) a + S1.size a ≤ S17.size a) : DmaSem sig := ((cc0_scratch3.slice (Rect.unit (s := S17) ![i] S1.size h)).squeeze S_ squeezes_S1_S_).sem
abbrev sByL (i : ℕ) (h : ∀ a, (![i] : Fin 1 → Nat) a + S1.size a ≤ S15.size a) : DmaSem sig := ((cc0_scratch4.slice (Rect.unit (s := S15) ![i] S1.size h)).squeeze S_ squeezes_S1_S_).sem
abbrev rByL (i : ℕ) (h : ∀ a, (![i] : Fin 1 → Nat) a + S1.size a ≤ S15.size a) : DmaSem sig := ((cc0_scratch5.slice (Rect.unit (s := S15) ![i] S1.size h)).squeeze S_ squeezes_S1_S_).sem
abbrev slotAL (i : ℕ) (h : ∀ a, (![i, 0, 0] : Fin 3 → Nat) a + S1x64x512.size a ≤ S17x64x512.size a) : Memref sig .tc .vmem S64x512 .f32 :=
  (aM.slice (Rect.unit (s := S17x64x512) ![i, 0, 0] S1x64x512.size h) (fun _ => rfl)).squeeze S64x512 squeezes_S1x64x512_S64x512
abbrev slotBL (i : ℕ) (h : ∀ a, (![i, 0, 0] : Fin 3 → Nat) a + S1x64x512.size a ≤ S15x64x512.size a) : Memref sig .tc .vmem S64x512 .f32 :=
  (bM.slice (Rect.unit (s := S15x64x512) ![i, 0, 0] S1x64x512.size h) (fun _ => rfl)).squeeze S64x512 squeezes_S1x64x512_S64x512

theorem lt17_of_lt15 {i : ℕ} (hi : i < 15) : i < 17 := by omega

section TablesL
variable [∀ e, Nonempty (Elt F e)] (c : Dev nD)

theorem amount_dmaL (q : DmaSem sig) (r : ℕ) (d : Bool) : (sched m).amount (dmaCell c q) r d = N := rfl

theorem duties_sAxL (i : ℕ) (h) (hi : i < 17) : (sched m).duties (dmaCell c (sAxL i h)) 0 = {false} := duties_dma m c _ (sAx_ge ⟨i, hi⟩)
theorem duties_rAxL (i : ℕ) (h) (hi : i < 17) : (sched m).duties (dmaCell c (rAxL i h)) 0 = {false} := duties_dma m c _ (rAx_ge ⟨i, hi⟩)
theorem duties_sByL (i : ℕ) (h) (hi : i < 15) : (sched m).duties (dmaCell c (sByL i h)) 0 = {false} := duties_dma m c _ (sBy_ge ⟨i, hi⟩)
theorem duties_rByL (i : ℕ) (h) (hi : i < 15) : (sched m).duties (dmaCell c (rByL i h)) 0 = {false} := duties_dma m c _ (rBy_ge ⟨i, hi⟩)

theorem expect_sAxL (i : ℕ) (h) (hi : i < 17) : (sched m).expect (dmaCell c (sAxL i h)) 0 = N := expect_dma m c _ (sAx_ge ⟨i, hi⟩)
theorem expect_rAxL (i : ℕ) (h) (hi : i < 17) : (sched m).expect (dmaCell c (rAxL i h)) 0 = N := expect_dma m c _ (rAx_ge ⟨i, hi⟩)
theorem expect_sByL (i : ℕ) (h) (hi : i < 15) : (sched m).expect (dmaCell c (sByL i h)) 0 = N := expect_dma m c _ (sBy_ge ⟨i, hi⟩)
theorem expect_rByL (i : ℕ) (h) (hi : i < 15) : (sched m).expect (dmaCell c (rByL i h)) 0 = N := expect_dma m c _ (rBy_ge ⟨i, hi⟩)

/-- An arrival across `x` hands over its slot of the first landing buffer, filled. -/
theorem payload_rAxL (i : ℕ) (h) (hi : i < 17) (d : Bool) :
    (sched m).payload (dmaCell c (rAxL i h)) 0 d = ((slotAL i (slotA_inb ⟨i, hi⟩)).view.loc (c : Thread nD τ) ↦[(slotAL i (slotA_inb ⟨i, hi⟩)).view.set]{fullShare} cA m c) := by
  rw [payload_dma]; exact dmaPay_rAx m c ⟨i, hi⟩
/-- A relay's arrival hands over its slot of the second landing buffer, filled. -/
theorem payload_rByL (i : ℕ) (h) (hi : i < 15) (d : Bool) :
    (sched m).payload (dmaCell c (rByL i h)) 0 d = ((slotBL i (slotB_inb ⟨i, hi⟩)).view.loc (c : Thread nD τ) ↦[(slotBL i (slotB_inb ⟨i, hi⟩)).view.set]{fullShare} cB m c) := by
  rw [payload_dma]; exact dmaPay_rBy m c ⟨i, hi⟩
/-- A departure hands back the half share of the rows the transfer read. -/
theorem payload_sAxL (i : ℕ) (h) (hi : i < 17) (d : Bool) :
    (sched m).payload (dmaCell c (sAxL i h)) 0 d = srcPts m c ⟨i, hi⟩ := by
  rw [payload_dma]; exact dmaPay_sAx m c ⟨i, hi⟩
theorem payload_sByL (i : ℕ) (h) (hi : i < 15) (d : Bool) :
    (sched m).payload (dmaCell c (sByL i h)) 0 d = ((slotAL i (slotA_inb ⟨i, lt17_of_lt15 hi⟩)).view.loc (c : Thread nD τ) ↦[(slotAL i (slotA_inb ⟨i, lt17_of_lt15 hi⟩)).view.set]{qS} cA m c) := by
  rw [payload_dma]; exact dmaPay_sBy m c ⟨i, hi⟩

/-- The entry cell's two payloads, spelt through the buffers' views: the peers' landing buffers whole, at some contents. -/
theorem pay_bar_t : (sched m).payload (barCell c) 0 true = iprop(∃ f : Buf (Elt F) ((aM : Memref sig .tc .vmem S17x64x512 .f32).view.loc (xp c : Thread nD τ)), ((aM : Memref sig .tc .vmem S17x64x512 .f32).view.loc (xp c : Thread nD τ)) ↦[(aM : Memref sig .tc .vmem S17x64x512 .f32).view.set]{fullShare} f) := by
  rw [payload_bar_true]; unfold bufA; simp only [Memref.view_whole, View.set_whole]
theorem pay_bar_f : (sched m).payload (barCell c) 0 false = iprop(∃ f : Buf (Elt F) ((bM : Memref sig .tc .vmem S15x64x512 .f32).view.loc (yp c : Thread nD τ)), ((bM : Memref sig .tc .vmem S15x64x512 .f32).view.loc (yp c : Thread nD τ)) ↦[(bM : Memref sig .tc .vmem S15x64x512 .f32).view.set]{fullShare} f) := by
  rw [payload_bar_false]; unfold bufB; simp only [Memref.view_whole, View.set_whole]
/-- The same at the peers' entry cells, the double peer resolved: what this device hands over is its own buffers. -/
theorem pay_bar_xp : (sched m).payload (barCell (xp c)) 0 true = iprop(∃ f : Buf (Elt F) ((aM : Memref sig .tc .vmem S17x64x512 .f32).view.loc (c : Thread nD τ)), ((aM : Memref sig .tc .vmem S17x64x512 .f32).view.loc (c : Thread nD τ)) ↦[(aM : Memref sig .tc .vmem S17x64x512 .f32).view.set]{fullShare} f) := by
  rw [pay_bar_t, xp_xp]
theorem pay_bar_yp : (sched m).payload (barCell (yp c)) 0 false = iprop(∃ f : Buf (Elt F) ((bM : Memref sig .tc .vmem S15x64x512 .f32).view.loc (c : Thread nD τ)), ((bM : Memref sig .tc .vmem S15x64x512 .f32).view.loc (c : Thread nD τ)) ↦[(bM : Memref sig .tc .vmem S15x64x512 .f32).view.set]{fullShare} f) := by
  rw [pay_bar_f, yp_yp]
/-- Both payloads of the entry cell's round. -/
theorem pay_bar_all : bigSep Finset.univ (fun d : Bool => (sched m).payload (barCell c) 0 d) = iprop(bufB (yp c) ∗ bufA (xp c)) := by
  rw [bigSep_univ_eq_bigSepL [false, true] (by decide) (by decide), bigSepL_cons_cons, bigSepL_singleton, payload_bar_false, payload_bar_true]
  rfl

end TablesL

theorem devX_eq (c : Dev nD) (n : ℕ) (h : n < nD) (hn : n = ((c.val % 2) + 2) - 2 * (c.val / 2)) : (⟨n, h⟩ : Dev nD) = xp c := Fin.ext hn
theorem devY_eq (c : Dev nD) (n : ℕ) (h : n < nD) (hn : n = (2 * (c.val / 2) + 1) - (c.val % 2)) : (⟨n, h⟩ : Dev nD) = yp c := Fin.ext hn

end Cert.KernelIdeal.ARProof

end
-- ==== Proof.Unpack.lean ====
/-
  The ghost state a device starts from, regrouped family by family over the cells as the program spells them.

  A device's 65 cells are its entry cell and its four families of transfer semaphores: departures and arrivals of the
  17 transfers across `x`, departures and arrivals of the 15 relays across `y`. The launch hands every device the
  invariants and the reached-round facts of ALL cells of the mesh (persistent, so they can be read off repeatedly) and the
  positions of its own 65 cells, indexed by cell number. Here the same facts are stated per family, over the entry cell
  and the semaphore of each slot, for the device's own cells and for those cells of its two peers that it pays onto.
-/
import proofs.«900127_g7700000000000128_dist_ar_v7x_xy2x2_x_m2048_n512_f32_1_alg».proof.Proof.Proto
import Mathlib.Logic.Equiv.Fin.Basic

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Separating conjunctions over `Fin n`, listed and split -/

theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A separating conjunction over `Fin (a + b)` is the one over the first `a` indices and the one over the last `b`. -/
theorem bigSep_fin_add {a b n : ℕ} (h : a + b = n) (Φ : Fin n → sProp 𝕄) :
    bigSep Finset.univ Φ
      = iprop((bigSep Finset.univ fun i : Fin a => Φ ⟨i.val, by have := i.isLt; omega⟩)
          ∗ bigSep Finset.univ fun j : Fin b => Φ ⟨a + j.val, by have := j.isLt; omega⟩) := by
  subst h
  rw [bigSep_univ_equiv finSumFinEquiv Φ, bigSep_univ_sum]
  rfl

/-- From offset `o` on: the next `a` indices, and the rest from offset `o + a` on. -/
theorem bigSep_fin_peel {n : ℕ} (Φ : Fin n → sProp 𝕄) (o a o' : ℕ) (h : o + a = o') (hn : o' ≤ n) :
    (bigSep Finset.univ fun j : Fin (n - o) => Φ ⟨o + j.val, by have := j.isLt; omega⟩)
      = iprop((bigSep Finset.univ fun i : Fin a => Φ ⟨o + i.val, by have := i.isLt; omega⟩)
          ∗ bigSep Finset.univ fun j : Fin (n - o') => Φ ⟨o' + j.val, by have := j.isLt; omega⟩) := by
  subst h
  rw [bigSep_fin_add (a := a) (b := n - (o + a)) (n := n - o) (by omega)]
  congr 1
  exact bigSep_congr fun j _ => congrArg Φ (Fin.ext (by show o + (a + j.val) = o + a + j.val; omega))

/-! ## The cells of a device, family by family -/

/-- The cell numbers of the four families: departures and arrivals across `x`, departures and arrivals of the relays. -/
def kSA (i : Fin 17) : Fin 65 := ⟨1 + i.val, by have := i.isLt; omega⟩
def kRA (i : Fin 17) : Fin 65 := ⟨18 + i.val, by have := i.isLt; omega⟩
def kSB (j : Fin 15) : Fin 65 := ⟨35 + j.val, by have := j.isLt; omega⟩
def kRB (j : Fin 15) : Fin 65 := ⟨50 + j.val, by have := j.isLt; omega⟩

@[simp] theorem kSA_val (i : Fin 17) : (kSA i).val = 1 + i.val := rfl
@[simp] theorem kRA_val (i : Fin 17) : (kRA i).val = 18 + i.val := rfl
@[simp] theorem kSB_val (j : Fin 15) : (kSB j).val = 35 + j.val := rfl
@[simp] theorem kRB_val (j : Fin 15) : (kRB j).val = 50 + j.val := rfl

theorem csem_kSA (i : Fin 17) : csem (kSA i) = .dma (sAx i) := by
  rw [← csem_dma (sAx i) (by rw [sAx_val]; omega)]; congr 1; exact Fin.ext (by show 1 + i.val = (sAx i).val - 1; rw [sAx_val]; omega)
theorem csem_kRA (i : Fin 17) : csem (kRA i) = .dma (rAx i) := by
  rw [← csem_dma (rAx i) (by rw [rAx_val]; omega)]; congr 1; exact Fin.ext (by show 18 + i.val = (rAx i).val - 1; rw [rAx_val]; omega)
theorem csem_kSB (j : Fin 15) : csem (kSB j) = .dma (sBy j) := by
  rw [← csem_dma (sBy j) (by rw [sBy_val]; omega)]; congr 1; exact Fin.ext (by show 35 + j.val = (sBy j).val - 1; rw [sBy_val]; omega)
theorem csem_kRB (j : Fin 15) : csem (kRB j) = .dma (rBy j) := by
  rw [← csem_dma (rBy j) (by rw [rBy_val]; omega)]; congr 1; exact Fin.ext (by show 50 + j.val = (rBy j).val - 1; rw [rBy_val]; omega)

theorem kcell_bar (c : Dev nD) : kcell (c, 0) = barCell c := rfl
theorem kcell_sAx (c : Dev nD) (i : Fin 17) : kcell (c, kSA i) = dmaCell c (sAx i) := by
  show ((c : Thread nD τ), csem (kSA i)) = _; rw [csem_kSA]
theorem kcell_rAx (c : Dev nD) (i : Fin 17) : kcell (c, kRA i) = dmaCell c (rAx i) := by
  show ((c : Thread nD τ), csem (kRA i)) = _; rw [csem_kRA]
theorem kcell_sBy (c : Dev nD) (j : Fin 15) : kcell (c, kSB j) = dmaCell c (sBy j) := by
  show ((c : Thread nD τ), csem (kSB j)) = _; rw [csem_kSB]
theorem kcell_rBy (c : Dev nD) (j : Fin 15) : kcell (c, kRB j) = dmaCell c (rBy j) := by
  show ((c : Thread nD τ), csem (kRB j)) = _; rw [csem_kRB]

/-- The 65 cells of a device, by family. -/
theorem bigSep_fin65 (Φ : Fin 65 → sProp 𝕄) :
    bigSep Finset.univ Φ
      = iprop(Φ 0 ∗ (bigSep Finset.univ fun i : Fin 17 => Φ (kSA i)) ∗ (bigSep Finset.univ fun i : Fin 17 => Φ (kRA i))
          ∗ (bigSep Finset.univ fun j : Fin 15 => Φ (kSB j)) ∗ bigSep Finset.univ fun j : Fin 15 => Φ (kRB j)) := by
  have e0 := bigSep_fin_add (a := 1) (b := 64) (n := 65) rfl Φ
  have e1 := bigSep_fin_peel Φ 1 17 18 rfl (by decide)
  have e2 := bigSep_fin_peel Φ 18 17 35 rfl (by decide)
  have e3 := bigSep_fin_add (a := 15) (b := 15) (n := 65 - 35) rfl (fun j : Fin (65 - 35) => Φ ⟨35 + j.val, by have := j.isLt; omega⟩)
  have e4 : (bigSep Finset.univ fun i : Fin 1 => Φ ⟨i.val, by have := i.isLt; omega⟩) = Φ 0 := bigSep_univ_of_subsingleton (0 : Fin 1)
  rw [e0, e4]
  refine congrArg (BI.sep (Φ 0)) (e1.trans (congrArg (BI.sep _) (e2.trans (congrArg (BI.sep _) (e3.trans ?_)))))
  exact congrArg (BI.sep _) (bigSep_congr fun j _ => congrArg Φ (Fin.ext (by show 35 + (15 + j.val) = 50 + j.val; omega)))

section Ghost
variable [∀ e, Nonempty (Elt F e)]

/-! ## The regrouped ghost state -/

/-- The invariants device `c` works with, each under the name the launch gave its cell: its own 65 cells, and the
    cells of its peers it pays onto (both entry cells, the arrivals across `x` on one peer, of the relays on the other). -/
def invsB (K : Dev nD × Fin 65 → ℕ) (c : Dev nD) : sProp 𝕄 :=
  iprop(cellInv ER (sched m) (K (c, 0)) (barCell c)
    ∗ (bigSep Finset.univ fun i : Fin 17 => cellInv ER (sched m) (K (c, kSA i)) (dmaCell c (sAx i)))
    ∗ (bigSep Finset.univ fun i : Fin 17 => cellInv ER (sched m) (K (c, kRA i)) (dmaCell c (rAx i)))
    ∗ (bigSep Finset.univ fun j : Fin 15 => cellInv ER (sched m) (K (c, kSB j)) (dmaCell c (sBy j)))
    ∗ (bigSep Finset.univ fun j : Fin 15 => cellInv ER (sched m) (K (c, kRB j)) (dmaCell c (rBy j)))
    ∗ cellInv ER (sched m) (K (xp c, 0)) (barCell (xp c))
    ∗ cellInv ER (sched m) (K (yp c, 0)) (barCell (yp c))
    ∗ (bigSep Finset.univ fun i : Fin 17 => cellInv ER (sched m) (K (xp c, kRA i)) (dmaCell (xp c) (rAx i)))
    ∗ (bigSep Finset.univ fun j : Fin 15 => cellInv ER (sched m) (K (yp c, kRB j)) (dmaCell (yp c) (rBy j))))

/-- Round 0 reached, on the same cells. -/
def reachedB (c : Dev nD) : sProp 𝕄 :=
  iprop(reached ER (barCell c) 0
    ∗ (bigSep Finset.univ fun i : Fin 17 => reached ER (dmaCell c (sAx i)) 0)
    ∗ (bigSep Finset.univ fun i : Fin 17 => reached ER (dmaCell c (rAx i)) 0)
    ∗ (bigSep Finset.univ fun j : Fin 15 => reached ER (dmaCell c (sBy j)) 0)
    ∗ (bigSep Finset.univ fun j : Fin 15 => reached ER (dmaCell c (rBy j)) 0)
    ∗ reached ER (barCell (xp c)) 0
    ∗ reached ER (barCell (yp c)) 0
    ∗ (bigSep Finset.univ fun i : Fin 17 => reached ER (dmaCell (xp c) (rAx i)) 0)
    ∗ (bigSep Finset.univ fun j : Fin 15 => reached ER (dmaCell (yp c) (rBy j)) 0))

/-- The positions of the device's own 65 cells: round 0, nothing landed. -/
def posB (c : Dev nD) : sProp 𝕄 :=
  iprop(atPos ER (barCell c) 0 ∅ 0
    ∗ (bigSep Finset.univ fun i : Fin 17 => atPos ER (dmaCell c (sAx i)) 0 ∅ 0)
    ∗ (bigSep Finset.univ fun i : Fin 17 => atPos ER (dmaCell c (rAx i)) 0 ∅ 0)
    ∗ (bigSep Finset.univ fun j : Fin 15 => atPos ER (dmaCell c (sBy j)) 0 ∅ 0)
    ∗ (bigSep Finset.univ fun j : Fin 15 => atPos ER (dmaCell c (rBy j)) 0 ∅ 0))

instance invsB_persistent (K : Dev nD × Fin 65 → ℕ) (c : Dev nD) : BI.Persistent (invsB m K c) := by unfold invsB; infer_instance
instance reachedB_persistent (c : Dev nD) : BI.Persistent (reachedB (F := F) c) := by unfold reachedB; infer_instance

/-- One summand of a separating conjunction over all cells of the mesh. -/
theorem pick_one (Ψ : Dev nD × Fin 65 → sProp 𝕄) (ck : Dev nD × Fin 65) (P : sProp 𝕄) (h : Ψ ck = P) :
    bigSep Finset.univ Ψ ⊢ P := h ▸ bigSep_elim (Finset.mem_univ ck)

/-- A family of summands of a separating conjunction of persistent assertions over all cells of the mesh. -/
theorem pick_fam {J : Type} [Fintype J] [DecidableEq J] (Ψ : Dev nD × Fin 65 → sProp 𝕄) [∀ ck, BI.Persistent (Ψ ck)]
    (f : J → Dev nD × Fin 65) (Φ : J → sProp 𝕄) (h : ∀ j, Ψ (f j) = Φ j) :
    bigSep Finset.univ Ψ ⊢ bigSep Finset.univ Φ :=
  bigSep_intro_persistent fun j _ => h j ▸ bigSep_elim (Finset.mem_univ (f j))

theorem records_invsB (K : Dev nD × Fin 65 → ℕ) (c : Dev nD) : records m K ⊢ invsB m K c := by
  unfold records invsB
  iintro ⟨#H, -⟩
  isplitr; · iapply (pick_one (fun ck => cellInv ER (sched m) (K ck) (kcell ck)) (c, 0) _ rfl); iexact H
  isplitr; · iapply (pick_fam (fun ck => cellInv ER (sched m) (K ck) (kcell ck)) (fun i => (c, kSA i)) _ (fun i => by rw [kcell_sAx])); iexact H
  isplitr; · iapply (pick_fam (fun ck => cellInv ER (sched m) (K ck) (kcell ck)) (fun i => (c, kRA i)) _ (fun i => by rw [kcell_rAx])); iexact H
  isplitr; · iapply (pick_fam (fun ck => cellInv ER (sched m) (K ck) (kcell ck)) (fun j => (c, kSB j)) _ (fun j => by rw [kcell_sBy])); iexact H
  isplitr; · iapply (pick_fam (fun ck => cellInv ER (sched m) (K ck) (kcell ck)) (fun j => (c, kRB j)) _ (fun j => by rw [kcell_rBy])); iexact H
  isplitr; · iapply (pick_one (fun ck => cellInv ER (sched m) (K ck) (kcell ck)) (xp c, 0) _ rfl); iexact H
  isplitr; · iapply (pick_one (fun ck => cellInv ER (sched m) (K ck) (kcell ck)) (yp c, 0) _ rfl); iexact H
  isplitr; · iapply (pick_fam (fun ck => cellInv ER (sched m) (K ck) (kcell ck)) (fun i => (xp c, kRA i)) _ (fun i => by rw [kcell_rAx])); iexact H
  iapply (pick_fam (fun ck => cellInv ER (sched m) (K ck) (kcell ck)) (fun j => (yp c, kRB j)) _ (fun j => by rw [kcell_rBy])); iexact H

theorem records_reachedB (K : Dev nD × Fin 65 → ℕ) (c : Dev nD) : records m K ⊢ reachedB c := by
  unfold records reachedB
  iintro ⟨-, #H⟩
  isplitr; · iapply (pick_one (fun ck => reached ER (kcell ck) 0) (c, 0) _ rfl); iexact H
  isplitr; · iapply (pick_fam (fun ck => reached ER (kcell ck) 0) (fun i => (c, kSA i)) _ (fun i => by rw [kcell_sAx])); iexact H
  isplitr; · iapply (pick_fam (fun ck => reached ER (kcell ck) 0) (fun i => (c, kRA i)) _ (fun i => by rw [kcell_rAx])); iexact H
  isplitr; · iapply (pick_fam (fun ck => reached ER (kcell ck) 0) (fun j => (c, kSB j)) _ (fun j => by rw [kcell_sBy])); iexact H
  isplitr; · iapply (pick_fam (fun ck => reached ER (kcell ck) 0) (fun j => (c, kRB j)) _ (fun j => by rw [kcell_rBy])); iexact H
  isplitr; · iapply (pick_one (fun ck => reached ER (kcell ck) 0) (xp c, 0) _ rfl); iexact H
  isplitr; · iapply (pick_one (fun ck => reached ER (kcell ck) 0) (yp c, 0) _ rfl); iexact H
  isplitr; · iapply (pick_fam (fun ck => reached ER (kcell ck) 0) (fun i => (xp c, kRA i)) _ (fun i => by rw [kcell_rAx])); iexact H
  iapply (pick_fam (fun ck => reached ER (kcell ck) 0) (fun j => (yp c, kRB j)) _ (fun j => by rw [kcell_rBy])); iexact H

/-- The positions of a device's 65 cells, by family. -/
theorem pos_unpack (c : Dev nD) : (bigSep Finset.univ fun k : Fin 65 => (atPos ER (kcell (c, k)) 0 ∅ 0 : sProp 𝕄)) = posB c := by
  rw [bigSep_fin65]; unfold posB
  simp only [kcell_sAx, kcell_rAx, kcell_sBy, kcell_rBy]
  rfl

/-- The ghost state of a device, regrouped. -/
theorem ghost_unpack (K : Dev nD × Fin 65 → ℕ) (c : Dev nD) :
    ghost m K c ⊢ iprop(invsB m K c ∗ reachedB c ∗ posB c ∗ payToks c) := by
  unfold ghost
  rw [pos_unpack]
  iintro ⟨#HR, Hpos, Htok⟩
  isplitr; · iapply (records_invsB m K c); iexact HR
  isplitr; · iapply (records_reachedB m K c); iexact HR
  isplitl [Hpos]; · iexact Hpos
  iexact Htok

end Ghost

end Cert.KernelIdeal.ARProof

end
-- ==== Proof.Pieces.lean ====
/-
  The buffers cut into the pieces the transfers move, and put together again.

  The first landing buffer is 17 slots of 64 rows, the second 15: a slot is the rectangle of one leading coordinate,
  the slots are pairwise disjoint and cover the buffer, so a points-to assertion of the whole buffer is the
  separating product of the slots' assertions at the same share and contents. The staged argument block is read by 17
  transfers, each from its own 64 rows: 16 chunks of one half of the rows and the last chunk of the other half. These
  row ranges are pairwise disjoint, so half of the full share of the block splits into the 17 chunks and the rest,
  while the other half stays with the device to read. A load of one slot through the whole landing buffer touches
  exactly that slot's elements.
-/
import proofs.«900127_g7700000000000128_dist_ar_v7x_xy2x2_x_m2048_n512_f32_1_alg».proof.Proof.Proto

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The element sets of the slots and of the source chunks -/

theorem slotA_set (i : Fin 17) : (slotA i).view.set = (rectA i).set := by
  simp only [Memref.view_squeeze, Memref.view_slice, Memref.view_whole, View.set_reshape, View.set_slice_whole]

theorem slotB_set (j : Fin 15) : (slotB j).view.set = (rectB j).set := by
  simp only [Memref.view_squeeze, Memref.view_slice, Memref.view_whole, View.set_reshape, View.set_slice_whole]

/-- The rectangle of rows chunk `i` of device `d`'s transfers across `x` reads. -/
abbrev rectS (d : Dev nD) (i : Fin 17) : Rect S2048x512 := Rect.unit (s := S2048x512) (offA d i) S64x512.size (offA_inb d i)

theorem srcA_set (d : Dev nD) (i : Fin 17) : (srcA d i).view.set = (rectS d i).set := by
  simp only [Memref.view_slice, Memref.view_whole, View.set_slice_whole]

/-- Slots with different leading coordinates are disjoint. -/
theorem rectA_disjoint {i j : Fin 17} (h : i ≠ j) : Disjoint (rectA i).set (rectA j).set := by
  refine Rect.unit_disjoint 0 ?_
  have hne : i.val ≠ j.val := fun e => h (Fin.ext e)
  show i.val + 1 ≤ j.val ∨ j.val + 1 ≤ i.val
  omega

theorem rectB_disjoint {i j : Fin 15} (h : i ≠ j) : Disjoint (rectB i).set (rectB j).set := by
  refine Rect.unit_disjoint 0 ?_
  have hne : i.val ≠ j.val := fun e => h (Fin.ext e)
  show i.val + 1 ≤ j.val ∨ j.val + 1 ≤ i.val
  omega

/-- Every element of the first landing buffer lies in the slot of its leading coordinate. -/
theorem rectA_cover : (Finset.univ.biUnion fun i : Fin 17 => (rectA i).set) = Finset.univ := by
  ext a
  simp only [Finset.mem_biUnion, Finset.mem_univ, true_and, iff_true]
  refine ⟨a 0, Rect.mem_set_unit.mpr fun ax => ?_⟩
  have h1 : (a 1).val < 64 := (a 1).isLt
  have h2 : (a 2).val < 512 := (a 2).isLt
  fin_cases ax
  · show (a 0).val ≤ (a 0).val ∧ (a 0).val < (a 0).val + 1
    omega
  · show 0 ≤ (a 1).val ∧ (a 1).val < 0 + 64
    omega
  · show 0 ≤ (a 2).val ∧ (a 2).val < 0 + 512
    omega

theorem rectB_cover : (Finset.univ.biUnion fun j : Fin 15 => (rectB j).set) = Finset.univ := by
  ext a
  simp only [Finset.mem_biUnion, Finset.mem_univ, true_and, iff_true]
  refine ⟨a 0, Rect.mem_set_unit.mpr fun ax => ?_⟩
  have h1 : (a 1).val < 64 := (a 1).isLt
  have h2 : (a 2).val < 512 := (a 2).isLt
  fin_cases ax
  · show (a 0).val ≤ (a 0).val ∧ (a 0).val < (a 0).val + 1
    omega
  · show 0 ≤ (a 1).val ∧ (a 1).val < 0 + 64
    omega
  · show 0 ≤ (a 2).val ∧ (a 2).val < 0 + 512
    omega

/-! ## The landing buffers, slot by slot -/

theorem splitA_eq (d : Dev nD) (q : PosShare TreeShare)
    (f : Buf (Elt F) ((aM : Memref sig .tc .vmem S17x64x512 .f32).view.loc (d : Thread nD τ))) :
    ((aM : Memref sig .tc .vmem S17x64x512 .f32).view.loc (d : Thread nD τ) ↦[(aM : Memref sig .tc .vmem S17x64x512 .f32).view.set]{q} f : sProp 𝕄)
      = bigSep Finset.univ fun i : Fin 17 => (slotA i).view.loc (d : Thread nD τ) ↦[(slotA i).view.set]{q} f := by
  have hset : (aM : Memref sig .tc .vmem S17x64x512 .f32).view.set = Finset.univ.biUnion fun i : Fin 17 => (slotA i).view.set := by
    refine (View.set_whole cc0_scratch0).trans (rectA_cover.symm.trans ?_)
    exact Finset.biUnion_congr rfl fun i _ => (slotA_set i).symm
  rw [hset]
  exact pointsTo_biUnion Finset.univ _ fun i _ j _ h => by rw [slotA_set, slotA_set]; exact rectA_disjoint h

/-- The first landing buffer is its 17 slots. -/
theorem splitA (d : Dev nD) (q : PosShare TreeShare)
    (f : Buf (Elt F) ((aM : Memref sig .tc .vmem S17x64x512 .f32).view.loc (d : Thread nD τ))) :
    ((aM : Memref sig .tc .vmem S17x64x512 .f32).view.loc (d : Thread nD τ) ↦[(aM : Memref sig .tc .vmem S17x64x512 .f32).view.set]{q} f : sProp 𝕄)
      ⊣⊢ bigSep Finset.univ fun i : Fin 17 => (slotA i).view.loc (d : Thread nD τ) ↦[(slotA i).view.set]{q} f :=
  .of_eq (splitA_eq d q f)

theorem splitB_eq (d : Dev nD) (q : PosShare TreeShare)
    (f : Buf (Elt F) ((bM : Memref sig .tc .vmem S15x64x512 .f32).view.loc (d : Thread nD τ))) :
    ((bM : Memref sig .tc .vmem S15x64x512 .f32).view.loc (d : Thread nD τ) ↦[(bM : Memref sig .tc .vmem S15x64x512 .f32).view.set]{q} f : sProp 𝕄)
      = bigSep Finset.univ fun j : Fin 15 => (slotB j).view.loc (d : Thread nD τ) ↦[(slotB j).view.set]{q} f := by
  have hset : (bM : Memref sig .tc .vmem S15x64x512 .f32).view.set = Finset.univ.biUnion fun j : Fin 15 => (slotB j).view.set := by
    refine (View.set_whole cc0_scratch1).trans (rectB_cover.symm.trans ?_)
    exact Finset.biUnion_congr rfl fun j _ => (slotB_set j).symm
  rw [hset]
  exact pointsTo_biUnion Finset.univ _ fun i _ j _ h => by rw [slotB_set, slotB_set]; exact rectB_disjoint h

/-- The second landing buffer is its 15 slots. -/
theorem splitB (d : Dev nD) (q : PosShare TreeShare)
    (f : Buf (Elt F) ((bM : Memref sig .tc .vmem S15x64x512 .f32).view.loc (d : Thread nD τ))) :
    ((bM : Memref sig .tc .vmem S15x64x512 .f32).view.loc (d : Thread nD τ) ↦[(bM : Memref sig .tc .vmem S15x64x512 .f32).view.set]{q} f : sProp 𝕄)
      ⊣⊢ bigSep Finset.univ fun j : Fin 15 => (slotB j).view.loc (d : Thread nD τ) ↦[(slotB j).view.set]{q} f :=
  .of_eq (splitB_eq d q f)

/-! ## The staged argument block: the rows the 17 transfers read -/

/-- Assertions that entail each other are equal. -/
theorem eq_of_biEntails {P Q : sProp 𝕄} (h : P ⊣⊢ Q) : P = Q := BI.equiv_iff.mp ⟨h.1, h.2⟩

/-- The first row of chunk `i`: 16 chunks of 64 rows from row `1024 · (d mod 2)`, then the last 64 rows of the other half. -/
theorem offA_eq (d : Dev nD) (i : Fin 17) :
    offA d i = ![if i.val < 16 then 1024 * (d.val % 2) + 64 * i.val else 1984 - 1024 * (d.val % 2), 0] := by
  unfold offA; split
  · next h => exact k0_off1_eq d ⟨i.val, h⟩
  · exact k0_off2_eq d

/-- Different chunks read different rows. -/
theorem rectS_disjoint (d : Dev nD) {i j : Fin 17} (h : i ≠ j) : Disjoint (rectS d i).set (rectS d j).set := by
  refine Rect.unit_disjoint 0 ?_
  rw [offA_eq, offA_eq]
  have hi := i.isLt
  have hj := j.isLt
  have hne : i.val ≠ j.val := fun e => h (Fin.ext e)
  have hd : d.val % 2 < 2 := Nat.mod_lt _ (by decide)
  show (if i.val < 16 then 1024 * (d.val % 2) + 64 * i.val else 1984 - 1024 * (d.val % 2)) + 64
        ≤ (if j.val < 16 then 1024 * (d.val % 2) + 64 * j.val else 1984 - 1024 * (d.val % 2))
      ∨ (if j.val < 16 then 1024 * (d.val % 2) + 64 * j.val else 1984 - 1024 * (d.val % 2)) + 64
        ≤ (if i.val < 16 then 1024 * (d.val % 2) + 64 * i.val else 1984 - 1024 * (d.val % 2))
  split_ifs <;> omega

theorem srcA_disjoint (d : Dev nD) {i j : Fin 17} (h : i ≠ j) : Disjoint (srcA d i).view.set (srcA d j).view.set := by
  rw [srcA_set, srcA_set]; exact rectS_disjoint d h

/-- The whole staged block at the full share: one half of the share kept whole to read from, the other half cut into
    the 17 chunks the transfers hold while in flight and the rows no transfer reads. -/
theorem splitX_eq (d : Dev nD)
    (f : Buf (Elt F) ((xM : Memref sig .tc .vmem S2048x512 .f32).view.loc (d : Thread nD τ))) :
    ((xM : Memref sig .tc .vmem S2048x512 .f32).view.loc (d : Thread nD τ) ↦[(xM : Memref sig .tc .vmem S2048x512 .f32).view.set]{fullShare} f : sProp 𝕄)
      = iprop(((xM : Memref sig .tc .vmem S2048x512 .f32).view.loc (d : Thread nD τ) ↦[(xM : Memref sig .tc .vmem S2048x512 .f32).view.set]{qL} f)
        ∗ (bigSep Finset.univ fun i : Fin 17 => (srcA d i).view.loc (d : Thread nD τ) ↦[(srcA d i).view.set]{qS} f)
        ∗ ((xM : Memref sig .tc .vmem S2048x512 .f32).view.loc (d : Thread nD τ)
            ↦[(xM : Memref sig .tc .vmem S2048x512 .f32).view.set \ (Finset.univ.biUnion fun i : Fin 17 => (srcA d i).view.set)]{qS} f)) := by
  have hshare : ((xM : Memref sig .tc .vmem S2048x512 .f32).view.loc (d : Thread nD τ) ↦[(xM : Memref sig .tc .vmem S2048x512 .f32).view.set]{fullShare} f : sProp 𝕄)
      = iprop(((xM : Memref sig .tc .vmem S2048x512 .f32).view.loc (d : Thread nD τ) ↦[(xM : Memref sig .tc .vmem S2048x512 .f32).view.set]{qL} f)
        ∗ ((xM : Memref sig .tc .vmem S2048x512 .f32).view.loc (d : Thread nD τ) ↦[(xM : Memref sig .tc .vmem S2048x512 .f32).view.set]{qS} f)) :=
    eq_of_biEntails (pointsTo_share (PosShare.mem_left_op_right fullShare))
  have hsub : (Finset.univ.biUnion fun i : Fin 17 => (srcA d i).view.set) ⊆ (xM : Memref sig .tc .vmem S2048x512 .f32).view.set := by
    rw [show (xM : Memref sig .tc .vmem S2048x512 .f32).view.set = Finset.univ from View.set_whole cc0_stg0_0]
    exact Finset.subset_univ _
  have hcut : ((xM : Memref sig .tc .vmem S2048x512 .f32).view.loc (d : Thread nD τ) ↦[(xM : Memref sig .tc .vmem S2048x512 .f32).view.set]{qS} f : sProp 𝕄)
      = iprop(((xM : Memref sig .tc .vmem S2048x512 .f32).view.loc (d : Thread nD τ) ↦[Finset.univ.biUnion fun i : Fin 17 => (srcA d i).view.set]{qS} f)
        ∗ ((xM : Memref sig .tc .vmem S2048x512 .f32).view.loc (d : Thread nD τ)
            ↦[(xM : Memref sig .tc .vmem S2048x512 .f32).view.set \ (Finset.univ.biUnion fun i : Fin 17 => (srcA d i).view.set)]{qS} f)) :=
    eq_of_biEntails (pointsTo_split_subset hsub)
  have hbig : ((xM : Memref sig .tc .vmem S2048x512 .f32).view.loc (d : Thread nD τ) ↦[Finset.univ.biUnion fun i : Fin 17 => (srcA d i).view.set]{qS} f : sProp 𝕄)
      = bigSep Finset.univ fun i : Fin 17 => (srcA d i).view.loc (d : Thread nD τ) ↦[(srcA d i).view.set]{qS} f :=
    pointsTo_biUnion Finset.univ _ fun i _ j _ h => srcA_disjoint d h
  rw [hshare, hcut, hbig]

theorem splitX (d : Dev nD)
    (f : Buf (Elt F) ((xM : Memref sig .tc .vmem S2048x512 .f32).view.loc (d : Thread nD τ))) :
    ((xM : Memref sig .tc .vmem S2048x512 .f32).view.loc (d : Thread nD τ) ↦[(xM : Memref sig .tc .vmem S2048x512 .f32).view.set]{fullShare} f : sProp 𝕄)
      ⊣⊢ iprop(((xM : Memref sig .tc .vmem S2048x512 .f32).view.loc (d : Thread nD τ) ↦[(xM : Memref sig .tc .vmem S2048x512 .f32).view.set]{qL} f)
        ∗ (bigSep Finset.univ fun i : Fin 17 => (srcA d i).view.loc (d : Thread nD τ) ↦[(srcA d i).view.set]{qS} f)
        ∗ ((xM : Memref sig .tc .vmem S2048x512 .f32).view.loc (d : Thread nD τ)
            ↦[(xM : Memref sig .tc .vmem S2048x512 .f32).view.set \ (Finset.univ.biUnion fun i : Fin 17 => (srcA d i).view.set)]{qS} f)) :=
  .of_eq (splitX_eq d f)

/-! ## A load of one slot through the whole landing buffer -/

theorem loadA_eq (i : Fin 17) :
    (aM : Memref sig .tc .vmem S17x64x512 .f32).view.setOn (rectA i).toLoadRect.set = (slotA i).view.set := by
  rw [slotA_set]
  exact Finset.map_refl

/-- The elements a load of slot `i` through the whole first landing buffer reads are the slot's. -/
theorem loadA_sub (i : Fin 17) :
    (aM : Memref sig .tc .vmem S17x64x512 .f32).view.setOn (rectA i).toLoadRect.set ⊆ (slotA i).view.set :=
  (loadA_eq i).subset

theorem loadB_eq (j : Fin 15) :
    (bM : Memref sig .tc .vmem S15x64x512 .f32).view.setOn (rectB j).toLoadRect.set = (slotB j).view.set := by
  rw [slotB_set]
  exact Finset.map_refl

theorem loadB_sub (j : Fin 15) :
    (bM : Memref sig .tc .vmem S15x64x512 .f32).view.setOn (rectB j).toLoadRect.set ⊆ (slotB j).view.set :=
  (loadB_eq j).subset

end Cert.KernelIdeal.ARProof

end
-- ==== Proof.Close.lean ====
/-
  The end of the body: every transfer cell of a device has consumed its one round.

  Each of the 64 transfer cells of a device (17 departures and 17 arrivals of the transfers across `x`, 15 departures and
  15 arrivals of the relays) has a single round. Once its owner stands past that round with nothing pending, the cell can
  be closed: its counter, at zero, returns to the device. The 64 counters at zero, numbered as the device's own
  semaphores are (DMA semaphore `k + 2` is the `k`-th own semaphore), are what the device hands back at the end.
-/
import proofs.«900127_g7700000000000128_dist_ar_v7x_xy2x2_x_m2048_n512_f32_1_alg».proof.Proof.Proto

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell whose owner stands past its only round, nothing pending, closes: its counter returns at zero. -/
theorem close_one [∀ e, Nonempty (Elt F e)] (κ : ℕ) (g : GSem nD τ sig) :
    iprop(cellInv ER (sched m) κ g ∗ atPos ER g 1 ∅ 0) ⊢ (|={Set.univ}=> semVal g 0 : sProp 𝕄) :=
  Rounds.cell_close ER (sched m) (Set.mem_univ κ) (fun h => h) (R := 1) (duties_later m g)

/-- A finite family of such cells closes at once. -/
theorem close_family [∀ e, Nonempty (Elt F e)] {n : ℕ} (κ : Fin n → ℕ) (g : Fin n → GSem nD τ sig) :
    iprop((bigSep Finset.univ fun i => cellInv ER (sched m) (κ i) (g i)) ∗ bigSep Finset.univ fun i => atPos ER (g i) 1 ∅ 0)
      ⊢ (|={Set.univ}=> bigSep Finset.univ fun i => semVal (g i) 0 : sProp 𝕄) := by
  rw [← bigSep_sep']
  exact (bigSep_mono fun i _ => close_one m (κ i) (g i)).trans (bigSep_fupd _ _)

/-- A family over `Fin (a + b)` is the family over its first `a` members and the one over its last `b`. -/
theorem bigSep_fin_addC (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

/-- The `k`-th own semaphore is DMA semaphore `k + 2`. -/
theorem osem_eq (k : Fin 64) (q : DmaSem sig) (h : q.val = k.val + 2) : osem k = .dma q := by
  unfold osem; congr 1; exact Fin.ext h.symm

/-- The four families, in the order of their semaphores, are the device's 64 own semaphores. -/
theorem sems64 (c : Dev nD) :
    iprop((bigSep Finset.univ fun i : Fin 17 => semVal (dmaCell c (sAx i)) 0) ∗ (bigSep Finset.univ fun i : Fin 17 => semVal (dmaCell c (rAx i)) 0)
        ∗ (bigSep Finset.univ fun j : Fin 15 => semVal (dmaCell c (sBy j)) 0) ∗ (bigSep Finset.univ fun j : Fin 15 => semVal (dmaCell c (rBy j)) 0))
      ⊢ (bigSep Finset.univ fun k : Fin 64 => semVal ((c : Thread nD τ), osem k) 0 : sProp 𝕄) := by
  have hS (i : Fin 17) : dmaCell c (sAx i) = ((c : Thread nD τ), osem (Fin.castAdd 15 (Fin.castAdd 15 (Fin.castAdd 17 i)))) := by
    rw [osem_eq _ (sAx i) (by rw [sAx_val]; show 2 + i.val = i.val + 2; omega)]
  have hR (i : Fin 17) : dmaCell c (rAx i) = ((c : Thread nD τ), osem (Fin.castAdd 15 (Fin.castAdd 15 (Fin.natAdd 17 i)))) := by
    rw [osem_eq _ (rAx i) (by rw [rAx_val]; show 19 + i.val = 17 + i.val + 2; omega)]
  have hSB (j : Fin 15) : dmaCell c (sBy j) = ((c : Thread nD τ), osem (Fin.castAdd 15 (Fin.natAdd 34 j))) := by
    rw [osem_eq _ (sBy j) (by rw [sBy_val]; show 36 + j.val = 34 + j.val + 2; omega)]
  have hRB (j : Fin 15) : dmaCell c (rBy j) = ((c : Thread nD τ), osem (Fin.natAdd 49 j)) := by
    rw [osem_eq _ (rBy j) (by rw [rBy_val]; show 51 + j.val = 49 + j.val + 2; omega)]
  have h1 := bigSep_fin_addC (F := F) 49 15 (fun k => semVal ((c : Thread nD τ), osem k) 0)
  have h2 := bigSep_fin_addC (F := F) 34 15 (fun a => semVal ((c : Thread nD τ), osem (Fin.castAdd 15 a)) 0)
  have h3 := bigSep_fin_addC (F := F) 17 17 (fun a => semVal ((c : Thread nD τ), osem (Fin.castAdd 15 (Fin.castAdd 15 a))) 0)
  rw [show (bigSep Finset.univ fun k : Fin 64 => (semVal ((c : Thread nD τ), osem k) 0 : sProp 𝕄)) = _ from h1, h2, h3]
  simp only [hS, hR, hSB, hRB]
  iintro ⟨H1, H2, H3, H4⟩
  isplitl [H1 H2 H3]
  · isplitl [H1 H2]
    · isplitl [H1] <;> iassumption
    · iexact H3
  · iexact H4

/-- At the end of the body all 64 transfer cells of device `c` close: its own semaphores at zero. -/
theorem close_all [∀ e, Nonempty (Elt F e)] (κS κR : Fin 17 → ℕ) (κSB κRB : Fin 15 → ℕ) (c : Dev nD) :
    iprop((bigSep Finset.univ fun i : Fin 17 => cellInv ER (sched m) (κS i) (dmaCell c (sAx i))) ∗ (bigSep Finset.univ fun i : Fin 17 => cellInv ER (sched m) (κR i) (dmaCell c (rAx i)))
        ∗ (bigSep Finset.univ fun j : Fin 15 => cellInv ER (sched m) (κSB j) (dmaCell c (sBy j))) ∗ (bigSep Finset.univ fun j : Fin 15 => cellInv ER (sched m) (κRB j) (dmaCell c (rBy j)))
        ∗ (bigSep Finset.univ fun i : Fin 17 => atPos ER (dmaCell c (sAx i)) 1 ∅ 0) ∗ (bigSep Finset.univ fun i : Fin 17 => atPos ER (dmaCell c (rAx i)) 1 ∅ 0)
        ∗ (bigSep Finset.univ fun j : Fin 15 => atPos ER (dmaCell c (sBy j)) 1 ∅ 0) ∗ (bigSep Finset.univ fun j : Fin 15 => atPos ER (dmaCell c (rBy j)) 1 ∅ 0))
      ⊢ |={Set.univ}=> (bigSep Finset.univ fun k : Fin 64 => semVal ((c : Thread nD τ), osem k) 0 : sProp 𝕄) := by
  iintro ⟨I1, I2, I3, I4, A1, A2, A3, A4⟩
  imod (close_family m κS fun i => dmaCell c (sAx i)) $$ [I1 A1] with H1
  · isplitl [I1] <;> iassumption
  imod (close_family m κR fun i => dmaCell c (rAx i)) $$ [I2 A2] with H2
  · isplitl [I2] <;> iassumption
  imod (close_family m κSB fun j => dmaCell c (sBy j)) $$ [I3 A3] with H3
  · isplitl [I3] <;> iassumption
  imod (close_family m κRB fun j => dmaCell c (rBy j)) $$ [I4 A4] with H4
  · isplitl [I4] <;> iassumption
  imodintro
  iapply (sems64 (F := F) c)
  isplitl [H1]; · iexact H1
  isplitl [H2]; · iexact H2
  isplitl [H3] <;> iassumption

end Cert.KernelIdeal.ARProof

end
-- ==== Proof.Steps.lean ====
/-
  The two transfer steps of the all-reduce, each from ONE assertion holding the transfer's resources.

  A device's body alternates stretches of local work with its 17 transfers across `x` and its 15 relays across `y`.
  Each transfer needs the invariants and reached-round facts of two cells (its departure cell on the device, its arrival
  cell on the peer), two duty tokens, the source rows and the destination slot. The invariants and reached-round facts
  are read off the regrouped ghost state; the rest is gathered per chunk.
-/
import proofs.«900127_g7700000000000128_dist_ar_v7x_xy2x2_x_m2048_n512_f32_1_alg».proof.Proof.Unpack
import proofs.«900127_g7700000000000128_dist_ar_v7x_xy2x2_x_m2048_n512_f32_1_alg».proof.Proof.Frag

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps
variable [∀ e, Nonempty (Elt F e)]

/-! ## One cell's invariant and reached-round fact out of the regrouped state -/

/-- One summand of a separating conjunction over a finite type. -/
theorem bigSep_pick {J : Type} [Fintype J] [DecidableEq J] (Φ : J → sProp 𝕄) (j : J) : bigSep Finset.univ Φ ⊢ Φ j :=
  bigSep_elim (Finset.mem_univ j)

theorem invsB_sA (K : Dev nD × Fin 65 → ℕ) (c : Dev nD) (i : Fin 17) :
    invsB m K c ⊢ cellInv ER (sched m) (K (c, kSA i)) (dmaCell c (sAx i)) := by
  unfold invsB; iintro ⟨-, H, -⟩
  iapply (bigSep_pick (fun i : Fin 17 => cellInv ER (sched m) (K (c, kSA i)) (dmaCell c (sAx i))) i); iexact H
theorem invsB_sB (K : Dev nD × Fin 65 → ℕ) (c : Dev nD) (j : Fin 15) :
    invsB m K c ⊢ cellInv ER (sched m) (K (c, kSB j)) (dmaCell c (sBy j)) := by
  unfold invsB; iintro ⟨-, -, -, H, -⟩
  iapply (bigSep_pick (fun j : Fin 15 => cellInv ER (sched m) (K (c, kSB j)) (dmaCell c (sBy j))) j); iexact H
theorem invsB_xrA (K : Dev nD × Fin 65 → ℕ) (c : Dev nD) (i : Fin 17) :
    invsB m K c ⊢ cellInv ER (sched m) (K (xp c, kRA i)) (dmaCell (xp c) (rAx i)) := by
  unfold invsB; iintro ⟨-, -, -, -, -, -, -, H, -⟩
  iapply (bigSep_pick (fun i : Fin 17 => cellInv ER (sched m) (K (xp c, kRA i)) (dmaCell (xp c) (rAx i))) i); iexact H
theorem invsB_yrB (K : Dev nD × Fin 65 → ℕ) (c : Dev nD) (j : Fin 15) :
    invsB m K c ⊢ cellInv ER (sched m) (K (yp c, kRB j)) (dmaCell (yp c) (rBy j)) := by
  unfold invsB; iintro ⟨-, -, -, -, -, -, -, -, H⟩
  iapply (bigSep_pick (fun j : Fin 15 => cellInv ER (sched m) (K (yp c, kRB j)) (dmaCell (yp c) (rBy j))) j); iexact H

theorem reachedB_sA (c : Dev nD) (i : Fin 17) : reachedB (F := F) c ⊢ reached ER (dmaCell c (sAx i)) 0 := by
  unfold reachedB; iintro ⟨-, H, -⟩
  iapply (bigSep_pick (fun i : Fin 17 => (reached ER (dmaCell c (sAx i)) 0 : sProp 𝕄)) i); iexact H
theorem reachedB_sB (c : Dev nD) (j : Fin 15) : reachedB (F := F) c ⊢ reached ER (dmaCell c (sBy j)) 0 := by
  unfold reachedB; iintro ⟨-, -, -, H, -⟩
  iapply (bigSep_pick (fun j : Fin 15 => (reached ER (dmaCell c (sBy j)) 0 : sProp 𝕄)) j); iexact H
theorem reachedB_xrA (c : Dev nD) (i : Fin 17) : reachedB (F := F) c ⊢ reached ER (dmaCell (xp c) (rAx i)) 0 := by
  unfold reachedB; iintro ⟨-, -, -, -, -, -, -, H, -⟩
  iapply (bigSep_pick (fun i : Fin 17 => (reached ER (dmaCell (xp c) (rAx i)) 0 : sProp 𝕄)) i); iexact H
theorem reachedB_yrB (c : Dev nD) (j : Fin 15) : reachedB (F := F) c ⊢ reached ER (dmaCell (yp c) (rBy j)) 0 := by
  unfold reachedB; iintro ⟨-, -, -, -, -, -, -, -, H⟩
  iapply (bigSep_pick (fun j : Fin 15 => (reached ER (dmaCell (yp c) (rBy j)) 0 : sProp 𝕄)) j); iexact H

/-! ## A transfer's resources as one assertion -/

/-- What the transfer of chunk `i` across `x` consumes: the share of its 64 source rows it lends the copy, the two
    duty tokens (departure on the device's own cell, arrival on the peer's), and slot `i` of the peer's first landing
    buffer. -/
def chunkA (c : Dev nD) (i : Fin 17) (f : Buf (Elt F) ((slotA i : Memref sig .tc .vmem S64x512 .f32).view.loc (xp c : Thread nD τ))) : sProp 𝕄 :=
  iprop(srcPts m c i ∗ dutyTok ER (dmaCell c (sAx i)) 0 false ∗ dutyTok ER (dmaCell (xp c) (rAx i)) 0 false
    ∗ ((slotA i : Memref sig .tc .vmem S64x512 .f32).view.loc (xp c : Thread nD τ) ↦[(slotA i : Memref sig .tc .vmem S64x512 .f32).view.set]{fullShare} f))

/-- What the relay of slot `j` across `y` consumes besides its source: the two duty tokens and slot `j` of the peer's
    second landing buffer. -/
def chunkB (c : Dev nD) (j : Fin 15) (f : Buf (Elt F) ((slotB j : Memref sig .tc .vmem S64x512 .f32).view.loc (yp c : Thread nD τ))) : sProp 𝕄 :=
  iprop(dutyTok ER (dmaCell c (sBy j)) 0 false ∗ dutyTok ER (dmaCell (yp c) (rBy j)) 0 false
    ∗ ((slotB j : Memref sig .tc .vmem S64x512 .f32).view.loc (yp c : Thread nD τ) ↦[(slotB j : Memref sig .tc .vmem S64x512 .f32).view.set]{fullShare} f))

/-- The transfer of chunk `i` across `x`, from the regrouped state and the chunk's resources. -/
theorem sendA_step (K : Dev nD × Fin 65 → ℕ) (c n : Dev nD) (hn : n = xp c) (i : Fin 17)
    {hsc : (slotA i : Memref sig (Dev.tc n : Thread nD τ).2.kind .vmem S64x512 .f32).view.ref.isScScratch = false}
    {hsrc : (srcA c i).view.WordExact} {hdst : (slotA i : Memref sig .tc .vmem S64x512 .f32).view.WordExact}
    {hsem : DmaTarget.Typed .vmem (.dma (rAx i)) (.remote (Dev.tc n : Thread nD τ) (slotA i : Memref sig .tc .vmem S64x512 .f32) (.dma (sAx i)) hsc)}
    {α : Type} {Q : α → sProp 𝕄} {k : PUnit → Prog (TpuEff nD τ sig (Elt F) Λ₀ .tc) α}
    (f : Buf (Elt F) ((slotA i : Memref sig .tc .vmem S64x512 .f32).view.loc (xp c : Thread nD τ))) (O : CellTallies nD τ sig Unit) (W : Waits sig Unit) :
    iprop(invsB m K c ∗ reachedB c ∗ chunkA m c i f ∗ owes (c : Thread nD τ) (O + tallyAt (dmaCell (xp c) (rAx i)) () N) W)
      ⊢ iprop(((cred (tallyAt (dmaCell c (sAx i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c i) (.remote (Dev.tc n : Thread nD τ) (slotA i) (.dma (sAx i)) hsc) (.dma (rAx i)) hsrc hdst hsem) k) Q) := by
  unfold chunkA
  iintro ⟨#HI, #HR, ⟨Hsrc, Ht1, Ht2, Hdst⟩, Ho⟩
  ihave #Hi1 := (invsB_sA m K c i) $$ HI
  ihave #Hi2 := (invsB_xrA m K c i) $$ HI
  ihave #Hr1 := (reachedB_sA c i) $$ HR
  ihave #Hr2 := (reachedB_xrA c i) $$ HR
  iapply (wp_sendA m (K (c, kSA i)) (K (xp c, kRA i)) c n hn i f O W)
  isplitr; · iexact Hi1
  isplitr; · iexact Hi2
  isplitl [Hsrc]; · iexact Hsrc
  isplitl [Hdst]; · iexact Hdst
  isplitl [Ho]; · iexact Ho
  isplitl [Ht1]; · iexact Ht1
  isplitr; · iexact Hr1
  isplitl [Ht2]; · iexact Ht2
  iexact Hr2

/-- The relay of slot `j` across `y`, from the regrouped state, the relay's resources and the lent share of the slot. -/
theorem sendB_step (K : Dev nD × Fin 65 → ℕ) (c n : Dev nD) (hn : n = yp c) (j : Fin 15)
    {hsc : (slotB j : Memref sig (Dev.tc n : Thread nD τ).2.kind .vmem S64x512 .f32).view.ref.isScScratch = false}
    {hsrc : (slotA (up j) : Memref sig .tc .vmem S64x512 .f32).view.WordExact} {hdst : (slotB j : Memref sig .tc .vmem S64x512 .f32).view.WordExact}
    {hsem : DmaTarget.Typed .vmem (.dma (rBy j)) (.remote (Dev.tc n : Thread nD τ) (slotB j : Memref sig .tc .vmem S64x512 .f32) (.dma (sBy j)) hsc)}
    {α : Type} {Q : α → sProp 𝕄} {k : PUnit → Prog (TpuEff nD τ sig (Elt F) Λ₀ .tc) α}
    (f : Buf (Elt F) ((slotB j : Memref sig .tc .vmem S64x512 .f32).view.loc (yp c : Thread nD τ))) (O : CellTallies nD τ sig Unit) (W : Waits sig Unit) :
    iprop(invsB m K c ∗ reachedB c ∗ chunkB c j f ∗ slotAPts m c (up j) qS ∗ owes (c : Thread nD τ) (O + tallyAt (dmaCell (yp c) (rBy j)) () N) W)
      ⊢ iprop(((cred (tallyAt (dmaCell c (sBy j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA (up j)) (.remote (Dev.tc n : Thread nD τ) (slotB j) (.dma (sBy j)) hsc) (.dma (rBy j)) hsrc hdst hsem) k) Q) := by
  unfold chunkB
  iintro ⟨#HI, #HR, ⟨Ht1, Ht2, Hdst⟩, Hsrc, Ho⟩
  ihave #Hi1 := (invsB_sB m K c j) $$ HI
  ihave #Hi2 := (invsB_yrB m K c j) $$ HI
  ihave #Hr1 := (reachedB_sB c j) $$ HR
  ihave #Hr2 := (reachedB_yrB c j) $$ HR
  iapply (wp_sendB m (K (c, kSB j)) (K (yp c, kRB j)) c n hn j f O W)
  isplitr; · iexact Hi1
  isplitr; · iexact Hi2
  isplitl [Hsrc]; · iexact Hsrc
  isplitl [Hdst]; · iexact Hdst
  isplitl [Ho]; · iexact Ho
  isplitl [Ht1]; · iexact Ht1
  isplitr; · iexact Hr1
  isplitl [Ht2]; · iexact Ht2
  iexact Hr2

/-! ## The chunks' resources, from the families -/

theorem chunksA_intro (c : Dev nD) (f : Buf (Elt F) ((aM : Memref sig .tc .vmem S17x64x512 .f32).view.loc (xp c : Thread nD τ))) :
    iprop((bigSep Finset.univ fun i : Fin 17 => srcPts m c i)
        ∗ (bigSep Finset.univ fun i : Fin 17 => dutyTok ER (dmaCell c (sAx i)) 0 false)
        ∗ (bigSep Finset.univ fun i : Fin 17 => dutyTok ER (dmaCell (xp c) (rAx i)) 0 false)
        ∗ (bigSep Finset.univ fun i : Fin 17 => (slotA i : Memref sig .tc .vmem S64x512 .f32).view.loc (xp c : Thread nD τ) ↦[(slotA i : Memref sig .tc .vmem S64x512 .f32).view.set]{fullShare} f))
      ⊢ iprop(chunkA m c 0 f ∗ chunkA m c 1 f ∗ chunkA m c 2 f ∗ chunkA m c 3 f ∗ chunkA m c 4 f ∗ chunkA m c 5 f ∗ chunkA m c 6 f ∗ chunkA m c 7 f
          ∗ chunkA m c 8 f ∗ chunkA m c 9 f ∗ chunkA m c 10 f ∗ chunkA m c 11 f ∗ chunkA m c 12 f ∗ chunkA m c 13 f ∗ chunkA m c 14 f ∗ chunkA m c 15 f
          ∗ chunkA m c 16 f) := by
  refine BI.Entails.trans ?_ (Entails.of_eq (bigSep_fin17 fun i => chunkA m c i f))
  unfold chunkA
  rw [bigSep_sep', bigSep_sep', bigSep_sep']
  exact BI.Entails.refl _

theorem chunksB_intro (c : Dev nD) (f : Buf (Elt F) ((bM : Memref sig .tc .vmem S15x64x512 .f32).view.loc (yp c : Thread nD τ))) :
    iprop((bigSep Finset.univ fun j : Fin 15 => dutyTok ER (dmaCell c (sBy j)) 0 false)
        ∗ (bigSep Finset.univ fun j : Fin 15 => dutyTok ER (dmaCell (yp c) (rBy j)) 0 false)
        ∗ (bigSep Finset.univ fun j : Fin 15 => (slotB j : Memref sig .tc .vmem S64x512 .f32).view.loc (yp c : Thread nD τ) ↦[(slotB j : Memref sig .tc .vmem S64x512 .f32).view.set]{fullShare} f))
      ⊢ iprop(chunkB c 0 f ∗ chunkB c 1 f ∗ chunkB c 2 f ∗ chunkB c 3 f ∗ chunkB c 4 f ∗ chunkB c 5 f ∗ chunkB c 6 f ∗ chunkB c 7 f
          ∗ chunkB c 8 f ∗ chunkB c 9 f ∗ chunkB c 10 f ∗ chunkB c 11 f ∗ chunkB c 12 f ∗ chunkB c 13 f ∗ chunkB c 14 f) := by
  refine BI.Entails.trans ?_ (Entails.of_eq (bigSep_fin15 fun j => chunkB c j f))
  unfold chunkB
  rw [bigSep_sep', bigSep_sep']
  exact BI.Entails.refl _

/-- A landed slot, whole, is the share a relay borrows and the share the device keeps to read. -/
theorem slot_share (c : Dev nD) (i : Fin 17) : slotAPts m c i fullShare ⊣⊢ iprop(slotAPts m c i qS ∗ slotAPts m c i qL) := by
  unfold slotAPts
  exact pointsTo_share (PCS.mem_op_comm.mp (PosShare.mem_left_op_right fullShare))

end Steps

end Cert.KernelIdeal.ARProof

end
-- ==== Proof.OutList.lean ====
/-
  The result buffer, written chunk by chunk.

  The body stores 32 chunks of 64 rows into the result buffer, chunk `k` through the rectangle of rows it covers. Kept as
  a list of writes, the last write first, the contents after all 32 stores are the contents the chunk-by-chunk recursion
  `outSeq` names: writing the list's head over what the tail leaves is one step of that recursion.
-/
import proofs.«900127_g7700000000000128_dist_ar_v7x_xy2x2_x_m2048_n512_f32_1_alg».proof.Proof.Proto
import Idealize.ShloMosaic.Lib.Writes

noncomputable section

namespace Cert.KernelIdeal.ARProof

open Cert.KernelIdeal Cert.KernelIdeal.Gen Cert.KernelIdeal.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) [∀ e, Nonempty (Elt F e)]

/-- The 32 stores of the body as a list of writes, the last store first. -/
def outList (c : Dev nD) : List (View.Piece (Elt F) S2048x512 .f32) :=
  ((List.finRange 32).map fun k : Fin 32 => (⟨rectO c k, sumChunk m c k⟩ : View.Piece (Elt F) S2048x512 .f32)).reverse

/-- The first `n` stores, the last of them first. -/
def outPieces (c : Dev nD) : ℕ → List (View.Piece (Elt F) S2048x512 .f32)
  | 0 => []
  | n + 1 => if h : n < 32 then ⟨rectO c ⟨n, h⟩, sumChunk m c ⟨n, h⟩⟩ :: outPieces c n else outPieces c n

/-- The first `n` writes leave what the first `n` steps of the recursion leave. -/
theorem writes_outPieces (c : Dev nD) (g : (cc0_stg1_0 : Ref sig .tc).ty.Contents (Elt F)) :
    ∀ n, (oM : Memref sig .tc .vmem S2048x512 .f32).view.writes (Elt F) g (outPieces m c n) = outSeq m c g n
  | 0 => rfl
  | n + 1 => by
    by_cases h : n < 32
    · have e1 : outPieces m c (n + 1) = ⟨rectO c ⟨n, h⟩, sumChunk m c ⟨n, h⟩⟩ :: outPieces m c n := dif_pos h
      have e2 : outSeq m c g (n + 1)
          = ((oM : Memref sig .tc .vmem S2048x512 .f32).access (rectO c ⟨n, h⟩) : View sig .tc _ _ _).write (Elt F) (outSeq m c g n) (sumChunk m c ⟨n, h⟩) Finset.univ :=
        dif_pos h
      rw [e1, e2, View.writes_cons, writes_outPieces c g n]
    · have e1 : outPieces m c (n + 1) = outPieces m c n := dif_neg h
      have e2 : outSeq m c g (n + 1) = outSeq m c g n := dif_neg h
      rw [e1, e2]; exact writes_outPieces c g n

theorem outList_eq_pieces (c : Dev nD) : outList m c = outPieces m c 32 := rfl

/-- All 32 writes leave the contents the recursion names after 32 steps. -/
theorem writes_outList (c : Dev nD) (g : (cc0_stg1_0 : Ref sig .tc).ty.Contents (Elt F)) :
    (oM : Memref sig .tc .vmem S2048x512 .f32).view.writes (Elt F) g (outList m c) = outSeq m c g 32 := by
  rw [outList_eq_pieces]; exact writes_outPieces m c g 32

/-- The list written out, the last store first. -/
theorem outList_eq (c : Dev nD) : outList m c = [
     ⟨rectO c 31, sumChunk m c 31⟩, ⟨rectO c 30, sumChunk m c 30⟩, ⟨rectO c 29, sumChunk m c 29⟩,
     ⟨rectO c 28, sumChunk m c 28⟩, ⟨rectO c 27, sumChunk m c 27⟩, ⟨rectO c 26, sumChunk m c 26⟩,
     ⟨rectO c 25, sumChunk m c 25⟩, ⟨rectO c 24, sumChunk m c 24⟩, ⟨rectO c 23, sumChunk m c 23⟩,
     ⟨rectO c 22, sumChunk m c 22⟩, ⟨rectO c 21, sumChunk m c 21⟩, ⟨rectO c 20, sumChunk m c 20⟩,
     ⟨rectO c 19, sumChunk m c 19⟩, ⟨rectO c 18, sumChunk m c 18⟩, ⟨rectO c 17, sumChunk m c 17⟩,
     ⟨rectO c 16, sumChunk m c 16⟩, ⟨rectO c 15, sumChunk m c 15⟩, ⟨rectO c 14, sumChunk m c 14⟩,
     ⟨rectO c 13, sumChunk m c 13⟩, ⟨rectO c 12, sumChunk m c 12⟩, ⟨rectO c 11, sumChunk m c 11⟩,
     ⟨rectO c 10, sumChunk m c 10⟩, ⟨rectO c 9, sumChunk m c 9⟩, ⟨rectO c 8, sumChunk m c 8⟩,
     ⟨rectO c 7, sumChunk m c 7⟩, ⟨rectO c 6, sumChunk m c 6⟩, ⟨rectO c 5, sumChunk m c 5⟩,
     ⟨rectO c 4, sumChunk m c 4⟩, ⟨rectO c 3, sumChunk m c 3⟩, ⟨rectO c 2, sumChunk m c 2⟩,
     ⟨rectO c 1, sumChunk m c 1⟩, ⟨rectO c 0, sumChunk m c 0⟩] := rfl

end Cert.KernelIdeal.ARProof

end
-- ==== Proof.DevEqs.lean ====
import proofs.«900127_g7700000000000128_dist_ar_v7x_xy2x2_x_m2048_n512_f32_1_alg».proof.Proof.Spec
import proofs.«900127_g7700000000000128_dist_ar_v7x_xy2x2_x_m2048_n512_f32_1_alg».proof.Proof.Gen.KernelIdeal

namespace Cert.KernelIdeal.ARProof

open Cert.KernelIdeal Cert.KernelIdeal.Gen Cert.KernelIdeal.AR Idealize.ShloMosaic

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = xp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = xp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = xp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = xp c := Fin.ext (k0_dev17_eq c)
theorem dev18_eq (c : Dev nD) : (⟨k0_dev18 c, k0_dev18_lt c⟩ : Dev nD) = xp c := Fin.ext (k0_dev18_eq c)
theorem dev19_eq (c : Dev nD) : (⟨k0_dev19 c, k0_dev19_lt c⟩ : Dev nD) = xp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = yp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = yp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = yp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = yp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = yp c := Fin.ext (k0_dev33_eq c)
theorem dev34_eq (c : Dev nD) : (⟨k0_dev34 c, k0_dev34_lt c⟩ : Dev nD) = yp c := Fin.ext (k0_dev34_eq c)

end Cert.KernelIdeal.ARProof
-- ==== Proof.BodyRun.lean ====
/-
  One device's body of the all-reduce, run from the device's share of the protocol's ghost state.

  The device pays its two entry units and waits for its own two, which hand it both peers' landing buffers. It cuts the
  first of them into its 17 slots and sends the 17 chunks across x. Then, arrival by arrival, it relays a landed slot
  across y (lending the relay half of the slot's share, reading through the other half), adds the slot to its own rows and
  stores the sum; the slots relayed to it are added the same way. Last it waits for every departure, which returns the lent
  shares, closes its 64 cells and puts its buffers together again: the result holds, row by row, its own block plus the
  block that reached it.
-/
import proofs.«900127_g7700000000000128_dist_ar_v7x_xy2x2_x_m2048_n512_f32_1_alg».proof.Proof.LForms
import proofs.«900127_g7700000000000128_dist_ar_v7x_xy2x2_x_m2048_n512_f32_1_alg».proof.Proof.Unpack
import proofs.«900127_g7700000000000128_dist_ar_v7x_xy2x2_x_m2048_n512_f32_1_alg».proof.Proof.Pieces
import proofs.«900127_g7700000000000128_dist_ar_v7x_xy2x2_x_m2048_n512_f32_1_alg».proof.Proof.Close
import proofs.«900127_g7700000000000128_dist_ar_v7x_xy2x2_x_m2048_n512_f32_1_alg».proof.Proof.Steps
import proofs.«900127_g7700000000000128_dist_ar_v7x_xy2x2_x_m2048_n512_f32_1_alg».proof.Proof.OutList
import proofs.«900127_g7700000000000128_dist_ar_v7x_xy2x2_x_m2048_n512_f32_1_alg».proof.Proof.DevEqs
import Idealize.ShloMosaic.Lib.Exec

noncomputable section

namespace Cert.KernelIdeal.ARProof

open Cert.KernelIdeal Cert.KernelIdeal.Gen Cert.KernelIdeal.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families of 17 and of 15 written out -/

theorem open17 (Φ : Fin 17 → sProp 𝕄) : bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  Entails.of_eq (bigSep_fin17 Φ)
theorem open15 (Φ : Fin 15 → sProp 𝕄) : bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  Entails.of_eq (bigSep_fin15 Φ)
theorem close17 (Φ : Fin 17 → sProp 𝕄) : iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) ⊢ bigSep Finset.univ Φ :=
  Entails.of_eq (bigSep_fin17 Φ).symm
theorem close15 (Φ : Fin 15 → sProp 𝕄) : iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) ⊢ bigSep Finset.univ Φ :=
  Entails.of_eq (bigSep_fin15 Φ).symm

/-! ## The point, the staged buffers -/

theorem cfg0_N1 : cfg0.N = 1 := by decide
def pt0 : Fin cfg0.N := ⟨0, by rw [cfg0_N1]; decide⟩
theorem fin_pt (t : Fin cfg0.N) : t = pt0 := by
  obtain ⟨t, ht⟩ := t; have := cfg0_N1; exact Fin.ext (by simp only [pt0]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer through its view is the buffer. -/
theorem whole_pts (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  simp only [Memref.view_whole, View.set_whole]

section Body
variable [∀ e, Nonempty (Elt F e)] (K : Dev nD × Fin 65 → ℕ)

def bodyPre (c : Dev nD) : sProp 𝕄 :=
  iprop((ghost m K c ∗ creds c ∗ levAts L lv ∗ bufA c ∗ bufB c)
    ∗ (dats m 0 c).owesAt () pt0.castSucc
    ∗ (∃ d, stg c cc0_stg0_0 ((dats m 0 c).before (0 : Fin 2) pt0 d))
    ∗ (∃ d, stg c cc0_stg1_0 ((dats m 0 c).before (1 : Fin 2) pt0 d)))

def bodyPost (c : Dev nD) : sProp 𝕄 :=
  iprop(Φ₁ c ∗ (dats m 0 c).owesAt () pt0.succ ∗ stg c cc0_stg0_0 (xstg m c) ∗ stg c cc0_stg1_0 (outAt m c))

/-- The invariants and the reached rounds kept as two closed bundles for the transfer steps, beside a copy to take apart. -/
def invsKeep (c : Dev nD) : sProp 𝕄 := invsB m K c
def reachKeep (c : Dev nD) : sProp 𝕄 := reachedB (F := F) c
instance invsKeep_persistent (c : Dev nD) : BI.Persistent (invsKeep m K c) := by unfold invsKeep; infer_instance
instance reachKeep_persistent (c : Dev nD) : BI.Persistent (reachKeep (F := F) c) := by unfold reachKeep; infer_instance

theorem keep2 (c : Dev nD) : iprop(invsB m K c ∗ reachedB (F := F) c) ⊢ iprop((invsKeep m K c ∗ reachKeep (F := F) c) ∗ invsB m K c ∗ reachedB (F := F) c) := by
  unfold invsKeep reachKeep
  iintro ⟨#H1, #H2⟩
  isplitr
  · isplitr
    · iexact H1
    · iexact H2
  · isplitr
    · iexact H1
    · iexact H2

theorem sendA_stepK (c n : Dev nD) (hn : n = xp c) (i : Fin 17)
    {hsc : (slotA i : Memref sig (Dev.tc n : Thread nD τ).2.kind .vmem S64x512 .f32).view.ref.isScScratch = false}
    {hsrc : (srcA c i).view.WordExact} {hdst : (slotA i : Memref sig .tc .vmem S64x512 .f32).view.WordExact}
    {hsem : DmaTarget.Typed .vmem (.dma (rAx i)) (.remote (Dev.tc n : Thread nD τ) (slotA i : Memref sig .tc .vmem S64x512 .f32) (.dma (sAx i)) hsc)}
    {α : Type} {Q : α → sProp 𝕄} {k : PUnit → Prog (TpuEff nD τ sig (Elt F) Λ₀ .tc) α}
    (f : Buf (Elt F) ((slotA i : Memref sig .tc .vmem S64x512 .f32).view.loc (xp c : Thread nD τ))) (O : CellTallies nD τ sig Unit) (W : Waits sig Unit) :
    iprop(invsKeep m K c ∗ reachKeep (F := F) c ∗ chunkA m c i f ∗ owes (c : Thread nD τ) (O + tallyAt (dmaCell (xp c) (rAx i)) () N) W)
      ⊢ iprop(((cred (tallyAt (dmaCell c (sAx i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c i) (.remote (Dev.tc n : Thread nD τ) (slotA i) (.dma (sAx i)) hsc) (.dma (rAx i)) hsrc hdst hsem) k) Q) :=
  sendA_step m K c n hn i f O W

theorem sendB_stepK (c n : Dev nD) (hn : n = yp c) (j : Fin 15)
    {hsc : (slotB j : Memref sig (Dev.tc n : Thread nD τ).2.kind .vmem S64x512 .f32).view.ref.isScScratch = false}
    {hsrc : (slotA (up j) : Memref sig .tc .vmem S64x512 .f32).view.WordExact} {hdst : (slotB j : Memref sig .tc .vmem S64x512 .f32).view.WordExact}
    {hsem : DmaTarget.Typed .vmem (.dma (rBy j)) (.remote (Dev.tc n : Thread nD τ) (slotB j : Memref sig .tc .vmem S64x512 .f32) (.dma (sBy j)) hsc)}
    {α : Type} {Q : α → sProp 𝕄} {k : PUnit → Prog (TpuEff nD τ sig (Elt F) Λ₀ .tc) α}
    (f : Buf (Elt F) ((slotB j : Memref sig .tc .vmem S64x512 .f32).view.loc (yp c : Thread nD τ))) (O : CellTallies nD τ sig Unit) (W : Waits sig Unit) :
    iprop(invsKeep m K c ∗ reachKeep (F := F) c ∗ chunkB (F := F) c j f ∗ slotAPts m c (up j) qS ∗ owes (c : Thread nD τ) (O + tallyAt (dmaCell (yp c) (rBy j)) () N) W)
      ⊢ iprop(((cred (tallyAt (dmaCell c (sBy j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA (up j)) (.remote (Dev.tc n : Thread nD τ) (slotB j) (.dma (sBy j)) hsc) (.dma (rBy j)) hsrc hdst hsem) k) Q) :=
  sendB_step m K c n hn j f O W

/-- A landed slot's share halved: one half for the relay, one to read through. -/
theorem slot_halves (c : Dev nD) (i : Fin 17) :
    ((slotA i).view.loc (c : Thread nD τ) ↦[(slotA i).view.set]{fullShare} cA m c : sProp 𝕄)
      ⊢ iprop(slotAPts m c i qS ∗ ((slotA i).view.loc (c : Thread nD τ) ↦[(slotA i).view.set]{qL} cA m c)) :=
  (slot_share m c i).1

set_option maxHeartbeats 2000000 in
/-- A relayed slot's two half shares joined again: the relay's half as its departure returns it, the half read through. -/
theorem slot_rejoin (c : Dev nD) (j : Fin 15) (i : Fin 17) (h : i.val = j.val) :
    iprop(((slotAL j.val (slotA_inb ⟨j.val, lt17_of_lt15 j.isLt⟩)).view.loc (c : Thread nD τ) ↦[(slotAL j.val (slotA_inb ⟨j.val, lt17_of_lt15 j.isLt⟩)).view.set]{qS} cA m c)
        ∗ ((slotA i).view.loc (c : Thread nD τ) ↦[(slotA i).view.set]{qL} cA m c))
      ⊢ ((slotA i).view.loc (c : Thread nD τ) ↦[(slotA i).view.set]{fullShare} cA m c : sProp 𝕄) := by
  obtain ⟨iv, hiv⟩ := i
  have h' : iv = j.val := h
  subst h'
  exact (slot_share m c ⟨j.val, hiv⟩).2

/-- The result buffer after the 32 additions, as the list of writes the run leaves, holds the sum of the two blocks. -/
theorem out_final (c : Dev nD) (g : (cc0_stg1_0 : Ref sig .tc).ty.Contents (Elt F)) (Ls : List (View.Piece (Elt F) S2048x512 .f32))
    (hL : Ls = outList m c) : (oM : Memref sig .tc .vmem S2048x512 .f32).view.writes (Elt F) g Ls = outAt m c := by
  subst hL
  rw [writes_outList, outSeq_final]

attribute [local sl_rounds] duties_bar amount_bar expect_bar pay_bar_t pay_bar_f amount_dmaL
  duties_sAxL duties_rAxL duties_sByL duties_rByL expect_sAxL expect_rAxL expect_sByL expect_rByL
  payload_rAxL payload_rByL payload_sAxL payload_sByL
attribute [local sl_rounds high] pay_bar_xp pay_bar_yp
attribute [local sl_canon] dev1_eq dev2_eq

set_option maxHeartbeats 3200000 in
/-- The body, from the device's ghost state and its staged buffers, to the result block and the buffers whole again. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  unfold bodyPre
  iintro ⟨⟨⟨Hg, Hcr, #Hlev, HbA, HbB⟩, Ho, ⟨%d0, %g0, %hg0, Hx⟩, ⟨%d1, %g1, %hg1, Hout⟩⟩, Hk⟩
  have hx : g0 = xstg m c := by rw [hg0]; unfold Dat.before; rw [if_pos (fetch0_0 pt0)]; rfl
  subst hx
  ihave Hg' := (ghost_unpack m K c) $$ Hg
  icases Hg' with ⟨Hinv0, Hreach0, Hpos, Htok⟩
  -- the invariants and reached rounds: two closed bundles for the transfer steps, and a copy taken apart cell by cell
  ihave H2 := (keep2 m K c) $$ [Hinv0 Hreach0]
  · isplitl [Hinv0]; · iexact Hinv0
    iexact Hreach0
  icases H2 with ⟨⟨#Hinv, #Hreach⟩, Hown, Hrown⟩
  unfold invsB reachedB
  icases Hown with ⟨#IB, #HfS, #HfR, #HfU, #HfV, #IBx, #IBy, -, -⟩
  ihave H := (open17 _) $$ HfS; icases H with ⟨#IS0, #IS1, #IS2, #IS3, #IS4, #IS5, #IS6, #IS7, #IS8, #IS9, #IS10, #IS11, #IS12, #IS13, #IS14, #IS15, #IS16⟩
  ihave H := (open17 _) $$ HfR; icases H with ⟨#IR0, #IR1, #IR2, #IR3, #IR4, #IR5, #IR6, #IR7, #IR8, #IR9, #IR10, #IR11, #IR12, #IR13, #IR14, #IR15, #IR16⟩
  ihave H := (open15 _) $$ HfU; icases H with ⟨#IU0, #IU1, #IU2, #IU3, #IU4, #IU5, #IU6, #IU7, #IU8, #IU9, #IU10, #IU11, #IU12, #IU13, #IU14⟩
  ihave H := (open15 _) $$ HfV; icases H with ⟨#IV0, #IV1, #IV2, #IV3, #IV4, #IV5, #IV6, #IV7, #IV8, #IV9, #IV10, #IV11, #IV12, #IV13, #IV14⟩
  -- its positions
  unfold posB
  icases Hpos with ⟨PB, HpS, HpR, HpU, HpV⟩
  ihave H := (open17 _) $$ HpS; icases H with ⟨PS0, PS1, PS2, PS3, PS4, PS5, PS6, PS7, PS8, PS9, PS10, PS11, PS12, PS13, PS14, PS15, PS16⟩
  ihave H := (open17 _) $$ HpR; icases H with ⟨PR0, PR1, PR2, PR3, PR4, PR5, PR6, PR7, PR8, PR9, PR10, PR11, PR12, PR13, PR14, PR15, PR16⟩
  ihave H := (open15 _) $$ HpU; icases H with ⟨PU0, PU1, PU2, PU3, PU4, PU5, PU6, PU7, PU8, PU9, PU10, PU11, PU12, PU13, PU14⟩
  ihave H := (open15 _) $$ HpV; icases H with ⟨PV0, PV1, PV2, PV3, PV4, PV5, PV6, PV7, PV8, PV9, PV10, PV11, PV12, PV13, PV14⟩
  -- the credit for what the peers owe it
  unfold creds
  icases Hcr with ⟨CB, HcR, HcV⟩
  ihave H := (open17 _) $$ HcR; icases H with ⟨CR0, CR1, CR2, CR3, CR4, CR5, CR6, CR7, CR8, CR9, CR10, CR11, CR12, CR13, CR14, CR15, CR16⟩
  ihave H := (open15 _) $$ HcV; icases H with ⟨CV0, CV1, CV2, CV3, CV4, CV5, CV6, CV7, CV8, CV9, CV10, CV11, CV12, CV13, CV14⟩
  -- the tokens of what it pays: the two entry units apart, the transfers' kept as families
  unfold payToks
  icases Htok with ⟨Ttx, Tty, HtRx, HtRy, HtS, HtU⟩
  icases Hrown with ⟨-, -, -, -, -, #Rbx, #Rby, -, -⟩
  -- what it owes: the 32 transfers, then the two entry units
  unfold Dat.owesAt Pipeline.owesWithin
  icases Ho with ⟨%W, %hW, HO⟩
  rw [show (dats m 0 c).owed pt0.castSucc = rem c 32 + tallyAt (barCell (yp c)) () 1 + tallyAt (barCell (xp c)) () 1 from rfl]
  -- its own landing buffers, through their views: what the entry signals hand the peers
  unfold bufA bufB
  icases HbA with ⟨%fA, HbA⟩
  icases HbB with ⟨%fB, HbB⟩
  ihave HbA' := (Entails.of_eq (whole_pts c cc0_scratch0 fA).symm) $$ HbA
  ihave HbB' := (Entails.of_eq (whole_pts c cc0_scratch1 fB).symm) $$ HbB
  have hmwB := mayWait_bar (F := F) c
  have hmwR := fun (i : Fin 17) (n : ℕ) (hn : n ≤ 15) => mayWait_rAx (F := F) c i n hn
  rw [cc0_body_eq_skeleton]; unfold cc0_body_skel
  -- the two entry signals and the entry wait
  sl_exec
  -- the entry round's two payloads: both peers' landing buffers
  ihave Hp := (Entails.of_eq (pay_bar_all m c)) $$ PB_pay1
  unfold bufA bufB
  icases Hp with ⟨⟨%fY, HdB⟩, ⟨%fX, HdA⟩⟩
  ihave HdA' := (Entails.of_eq (whole_pts (xp c) cc0_scratch0 fX).symm) $$ HdA
  ihave HdB' := (Entails.of_eq (whole_pts (yp c) cc0_scratch1 fY).symm) $$ HdB
  ihave Hx' := (Entails.of_eq (whole_pts c cc0_stg0_0 (xstg m c)).symm) $$ Hx
  ihave Hout' := (Entails.of_eq (whole_pts c cc0_stg1_0 g1).symm) $$ Hout
  -- the peers' landing buffers cut into slots; the argument block into the half share read and the 17 ranges sent
  ihave HsA := (splitA (F := F) (xp c) fullShare fX).1 $$ HdA'
  ihave HsB := (splitB (F := F) (yp c) fullShare fY).1 $$ HdB'
  ihave HsX := (splitX (F := F) c (xstg m c)).1 $$ Hx'
  icases HsX with ⟨HxL, HxS, HxRest⟩
  ihave HA := (chunksA_intro m c fX) $$ [HxS HtS HtRx HsA]
  · isplitl [HxS]; · iexact HxS
    isplitl [HtS]; · iexact HtS
    isplitl [HtRx]; · iexact HtRx
    iexact HsA
  icases HA with ⟨HA0, HA1, HA2, HA3, HA4, HA5, HA6, HA7, HA8, HA9, HA10, HA11, HA12, HA13, HA14, HA15, HA16⟩
  ihave HB := (chunksB_intro (F := F) c fY) $$ [HtU HtRy HsB]
  · isplitl [HtU]; · iexact HtU
    isplitl [HtRy]; · iexact HtRy
    iexact HsB
  icases HB with ⟨HB0, HB1, HB2, HB3, HB4, HB5, HB6, HB7, HB8, HB9, HB10, HB11, HB12, HB13, HB14⟩
  -- the 17 transfers across x: chunk i through the printed device chain 3 + i, 31 - i payments left after it
  iapply (sendA_stepK m K c _ (dev3_eq c) 0 fX (rem c 31) _) $$ [HA0 HO]
  · isplitr; · iexact Hinv
    isplitr; · iexact Hreach
    isplitl [HA0]; · iexact HA0
    iexact HO
  iintro ⟨CS0, HO⟩
  sl_exec
  iapply (sendA_stepK m K c _ (dev4_eq c) 1 fX (rem c 30) _) $$ [HA1 HO]
  · isplitr; · iexact Hinv
    isplitr; · iexact Hreach
    isplitl [HA1]; · iexact HA1
    iexact HO
  iintro ⟨CS1, HO⟩
  sl_exec
  iapply (sendA_stepK m K c _ (dev5_eq c) 2 fX (rem c 29) _) $$ [HA2 HO]
  · isplitr; · iexact Hinv
    isplitr; · iexact Hreach
    isplitl [HA2]; · iexact HA2
    iexact HO
  iintro ⟨CS2, HO⟩
  sl_exec
  iapply (sendA_stepK m K c _ (dev6_eq c) 3 fX (rem c 28) _) $$ [HA3 HO]
  · isplitr; · iexact Hinv
    isplitr; · iexact Hreach
    isplitl [HA3]; · iexact HA3
    iexact HO
  iintro ⟨CS3, HO⟩
  sl_exec
  iapply (sendA_stepK m K c _ (dev7_eq c) 4 fX (rem c 27) _) $$ [HA4 HO]
  · isplitr; · iexact Hinv
    isplitr; · iexact Hreach
    isplitl [HA4]; · iexact HA4
    iexact HO
  iintro ⟨CS4, HO⟩
  sl_exec
  iapply (sendA_stepK m K c _ (dev8_eq c) 5 fX (rem c 26) _) $$ [HA5 HO]
  · isplitr; · iexact Hinv
    isplitr; · iexact Hreach
    isplitl [HA5]; · iexact HA5
    iexact HO
  iintro ⟨CS5, HO⟩
  sl_exec
  iapply (sendA_stepK m K c _ (dev9_eq c) 6 fX (rem c 25) _) $$ [HA6 HO]
  · isplitr; · iexact Hinv
    isplitr; · iexact Hreach
    isplitl [HA6]; · iexact HA6
    iexact HO
  iintro ⟨CS6, HO⟩
  sl_exec
  iapply (sendA_stepK m K c _ (dev10_eq c) 7 fX (rem c 24) _) $$ [HA7 HO]
  · isplitr; · iexact Hinv
    isplitr; · iexact Hreach
    isplitl [HA7]; · iexact HA7
    iexact HO
  iintro ⟨CS7, HO⟩
  sl_exec
  iapply (sendA_stepK m K c _ (dev11_eq c) 8 fX (rem c 23) _) $$ [HA8 HO]
  · isplitr; · iexact Hinv
    isplitr; · iexact Hreach
    isplitl [HA8]; · iexact HA8
    iexact HO
  iintro ⟨CS8, HO⟩
  sl_exec
  iapply (sendA_stepK m K c _ (dev12_eq c) 9 fX (rem c 22) _) $$ [HA9 HO]
  · isplitr; · iexact Hinv
    isplitr; · iexact Hreach
    isplitl [HA9]; · iexact HA9
    iexact HO
  iintro ⟨CS9, HO⟩
  sl_exec
  iapply (sendA_stepK m K c _ (dev13_eq c) 10 fX (rem c 21) _) $$ [HA10 HO]
  · isplitr; · iexact Hinv
    isplitr; · iexact Hreach
    isplitl [HA10]; · iexact HA10
    iexact HO
  iintro ⟨CS10, HO⟩
  sl_exec
  iapply (sendA_stepK m K c _ (dev14_eq c) 11 fX (rem c 20) _) $$ [HA11 HO]
  · isplitr; · iexact Hinv
    isplitr; · iexact Hreach
    isplitl [HA11]; · iexact HA11
    iexact HO
  iintro ⟨CS11, HO⟩
  sl_exec
  iapply (sendA_stepK m K c _ (dev15_eq c) 12 fX (rem c 19) _) $$ [HA12 HO]
  · isplitr; · iexact Hinv
    isplitr; · iexact Hreach
    isplitl [HA12]; · iexact HA12
    iexact HO
  iintro ⟨CS12, HO⟩
  sl_exec
  iapply (sendA_stepK m K c _ (dev16_eq c) 13 fX (rem c 18) _) $$ [HA13 HO]
  · isplitr; · iexact Hinv
    isplitr; · iexact Hreach
    isplitl [HA13]; · iexact HA13
    iexact HO
  iintro ⟨CS13, HO⟩
  sl_exec
  iapply (sendA_stepK m K c _ (dev17_eq c) 14 fX (rem c 17) _) $$ [HA14 HO]
  · isplitr; · iexact Hinv
    isplitr; · iexact Hreach
    isplitl [HA14]; · iexact HA14
    iexact HO
  iintro ⟨CS14, HO⟩
  sl_exec
  iapply (sendA_stepK m K c _ (dev18_eq c) 15 fX (rem c 16) _) $$ [HA15 HO]
  · isplitr; · iexact Hinv
    isplitr; · iexact Hreach
    isplitl [HA15]; · iexact HA15
    iexact HO
  iintro ⟨CS15, HO⟩
  sl_exec
  iapply (sendA_stepK m K c _ (dev19_eq c) 16 fX (rem c 15) _) $$ [HA16 HO]
  · isplitr; · iexact Hinv
    isplitr; · iexact Hreach
    isplitl [HA16]; · iexact HA16
    iexact HO
  iintro ⟨CS16, HO⟩
  sl_exec
  -- the relays: as each of the first 15 chunks lands, half of its slot's share goes to the relay across y
  -- (slot j through the printed device chain 20 + j, 14 - j payments left after it); the run then adds the slot to the
  -- device's rows and waits for the next arrival
  ihave Hs := (slot_halves m c 0) $$ PR0_pay1
  icases Hs with ⟨Hq0, Hl0⟩
  iapply (sendB_stepK m K c _ (dev20_eq c) 0 fY (rem c 14) _) $$ [HB0 Hq0 HO]
  · isplitr; · iexact Hinv
    isplitr; · iexact Hreach
    isplitl [HB0]; · iexact HB0
    isplitl [Hq0]; · iexact Hq0
    iexact HO
  iintro ⟨CU0, HO⟩
  sl_exec
  ihave Hs := (slot_halves m c 1) $$ PR1_pay1
  icases Hs with ⟨Hq1, Hl1⟩
  iapply (sendB_stepK m K c _ (dev21_eq c) 1 fY (rem c 13) _) $$ [HB1 Hq1 HO]
  · isplitr; · iexact Hinv
    isplitr; · iexact Hreach
    isplitl [HB1]; · iexact HB1
    isplitl [Hq1]; · iexact Hq1
    iexact HO
  iintro ⟨CU1, HO⟩
  sl_exec
  ihave Hs := (slot_halves m c 2) $$ PR2_pay1
  icases Hs with ⟨Hq2, Hl2⟩
  iapply (sendB_stepK m K c _ (dev22_eq c) 2 fY (rem c 12) _) $$ [HB2 Hq2 HO]
  · isplitr; · iexact Hinv
    isplitr; · iexact Hreach
    isplitl [HB2]; · iexact HB2
    isplitl [Hq2]; · iexact Hq2
    iexact HO
  iintro ⟨CU2, HO⟩
  sl_exec
  ihave Hs := (slot_halves m c 3) $$ PR3_pay1
  icases Hs with ⟨Hq3, Hl3⟩
  iapply (sendB_stepK m K c _ (dev23_eq c) 3 fY (rem c 11) _) $$ [HB3 Hq3 HO]
  · isplitr; · iexact Hinv
    isplitr; · iexact Hreach
    isplitl [HB3]; · iexact HB3
    isplitl [Hq3]; · iexact Hq3
    iexact HO
  iintro ⟨CU3, HO⟩
  sl_exec
  ihave Hs := (slot_halves m c 4) $$ PR4_pay1
  icases Hs with ⟨Hq4, Hl4⟩
  iapply (sendB_stepK m K c _ (dev24_eq c) 4 fY (rem c 10) _) $$ [HB4 Hq4 HO]
  · isplitr; · iexact Hinv
    isplitr; · iexact Hreach
    isplitl [HB4]; · iexact HB4
    isplitl [Hq4]; · iexact Hq4
    iexact HO
  iintro ⟨CU4, HO⟩
  sl_exec
  ihave Hs := (slot_halves m c 5) $$ PR5_pay1
  icases Hs with ⟨Hq5, Hl5⟩
  iapply (sendB_stepK m K c _ (dev25_eq c) 5 fY (rem c 9) _) $$ [HB5 Hq5 HO]
  · isplitr; · iexact Hinv
    isplitr; · iexact Hreach
    isplitl [HB5]; · iexact HB5
    isplitl [Hq5]; · iexact Hq5
    iexact HO
  iintro ⟨CU5, HO⟩
  sl_exec
  ihave Hs := (slot_halves m c 6) $$ PR6_pay1
  icases Hs with ⟨Hq6, Hl6⟩
  iapply (sendB_stepK m K c _ (dev26_eq c) 6 fY (rem c 8) _) $$ [HB6 Hq6 HO]
  · isplitr; · iexact Hinv
    isplitr; · iexact Hreach
    isplitl [HB6]; · iexact HB6
    isplitl [Hq6]; · iexact Hq6
    iexact HO
  iintro ⟨CU6, HO⟩
  sl_exec
  ihave Hs := (slot_halves m c 7) $$ PR7_pay1
  icases Hs with ⟨Hq7, Hl7⟩
  iapply (sendB_stepK m K c _ (dev27_eq c) 7 fY (rem c 7) _) $$ [HB7 Hq7 HO]
  · isplitr; · iexact Hinv
    isplitr; · iexact Hreach
    isplitl [HB7]; · iexact HB7
    isplitl [Hq7]; · iexact Hq7
    iexact HO
  iintro ⟨CU7, HO⟩
  sl_exec
  ihave Hs := (slot_halves m c 8) $$ PR8_pay1
  icases Hs with ⟨Hq8, Hl8⟩
  iapply (sendB_stepK m K c _ (dev28_eq c) 8 fY (rem c 6) _) $$ [HB8 Hq8 HO]
  · isplitr; · iexact Hinv
    isplitr; · iexact Hreach
    isplitl [HB8]; · iexact HB8
    isplitl [Hq8]; · iexact Hq8
    iexact HO
  iintro ⟨CU8, HO⟩
  sl_exec
  ihave Hs := (slot_halves m c 9) $$ PR9_pay1
  icases Hs with ⟨Hq9, Hl9⟩
  iapply (sendB_stepK m K c _ (dev29_eq c) 9 fY (rem c 5) _) $$ [HB9 Hq9 HO]
  · isplitr; · iexact Hinv
    isplitr; · iexact Hreach
    isplitl [HB9]; · iexact HB9
    isplitl [Hq9]; · iexact Hq9
    iexact HO
  iintro ⟨CU9, HO⟩
  sl_exec
  ihave Hs := (slot_halves m c 10) $$ PR10_pay1
  icases Hs with ⟨Hq10, Hl10⟩
  iapply (sendB_stepK m K c _ (dev30_eq c) 10 fY (rem c 4) _) $$ [HB10 Hq10 HO]
  · isplitr; · iexact Hinv
    isplitr; · iexact Hreach
    isplitl [HB10]; · iexact HB10
    isplitl [Hq10]; · iexact Hq10
    iexact HO
  iintro ⟨CU10, HO⟩
  sl_exec
  ihave Hs := (slot_halves m c 11) $$ PR11_pay1
  icases Hs with ⟨Hq11, Hl11⟩
  iapply (sendB_stepK m K c _ (dev31_eq c) 11 fY (rem c 3) _) $$ [HB11 Hq11 HO]
  · isplitr; · iexact Hinv
    isplitr; · iexact Hreach
    isplitl [HB11]; · iexact HB11
    isplitl [Hq11]; · iexact Hq11
    iexact HO
  iintro ⟨CU11, HO⟩
  sl_exec
  ihave Hs := (slot_halves m c 12) $$ PR12_pay1
  icases Hs with ⟨Hq12, Hl12⟩
  iapply (sendB_stepK m K c _ (dev32_eq c) 12 fY (rem c 2) _) $$ [HB12 Hq12 HO]
  · isplitr; · iexact Hinv
    isplitr; · iexact Hreach
    isplitl [HB12]; · iexact HB12
    isplitl [Hq12]; · iexact Hq12
    iexact HO
  iintro ⟨CU12, HO⟩
  sl_exec
  ihave Hs := (slot_halves m c 13) $$ PR13_pay1
  icases Hs with ⟨Hq13, Hl13⟩
  iapply (sendB_stepK m K c _ (dev33_eq c) 13 fY (rem c 1) _) $$ [HB13 Hq13 HO]
  · isplitr; · iexact Hinv
    isplitr; · iexact Hreach
    isplitl [HB13]; · iexact HB13
    isplitl [Hq13]; · iexact Hq13
    iexact HO
  iintro ⟨CU13, HO⟩
  sl_exec
  ihave Hs := (slot_halves m c 14) $$ PR14_pay1
  icases Hs with ⟨Hq14, Hl14⟩
  iapply (sendB_stepK m K c _ (dev34_eq c) 14 fY (rem c 0) _) $$ [HB14 Hq14 HO]
  · isplitr; · iexact Hinv
    isplitr; · iexact Hreach
    isplitl [HB14]; · iexact HB14
    isplitl [Hq14]; · iexact Hq14
    iexact HO
  iintro ⟨CU14, HO⟩
  -- the rest of the body: the last two arrivals across x, the 15 relayed arrivals, every addition, every departure
  sl_exec
  -- every departure has returned its lent share; the relayed slots' two halves are joined again
  ihave S0 := (slot_rejoin m c 0 0 rfl) $$ [PU0_pay1 Hl0]
  · isplitl [PU0_pay1]; · iexact PU0_pay1
    iexact Hl0
  ihave S1 := (slot_rejoin m c 1 1 rfl) $$ [PU1_pay1 Hl1]
  · isplitl [PU1_pay1]; · iexact PU1_pay1
    iexact Hl1
  ihave S2 := (slot_rejoin m c 2 2 rfl) $$ [PU2_pay1 Hl2]
  · isplitl [PU2_pay1]; · iexact PU2_pay1
    iexact Hl2
  ihave S3 := (slot_rejoin m c 3 3 rfl) $$ [PU3_pay1 Hl3]
  · isplitl [PU3_pay1]; · iexact PU3_pay1
    iexact Hl3
  ihave S4 := (slot_rejoin m c 4 4 rfl) $$ [PU4_pay1 Hl4]
  · isplitl [PU4_pay1]; · iexact PU4_pay1
    iexact Hl4
  ihave S5 := (slot_rejoin m c 5 5 rfl) $$ [PU5_pay1 Hl5]
  · isplitl [PU5_pay1]; · iexact PU5_pay1
    iexact Hl5
  ihave S6 := (slot_rejoin m c 6 6 rfl) $$ [PU6_pay1 Hl6]
  · isplitl [PU6_pay1]; · iexact PU6_pay1
    iexact Hl6
  ihave S7 := (slot_rejoin m c 7 7 rfl) $$ [PU7_pay1 Hl7]
  · isplitl [PU7_pay1]; · iexact PU7_pay1
    iexact Hl7
  ihave S8 := (slot_rejoin m c 8 8 rfl) $$ [PU8_pay1 Hl8]
  · isplitl [PU8_pay1]; · iexact PU8_pay1
    iexact Hl8
  ihave S9 := (slot_rejoin m c 9 9 rfl) $$ [PU9_pay1 Hl9]
  · isplitl [PU9_pay1]; · iexact PU9_pay1
    iexact Hl9
  ihave S10 := (slot_rejoin m c 10 10 rfl) $$ [PU10_pay1 Hl10]
  · isplitl [PU10_pay1]; · iexact PU10_pay1
    iexact Hl10
  ihave S11 := (slot_rejoin m c 11 11 rfl) $$ [PU11_pay1 Hl11]
  · isplitl [PU11_pay1]; · iexact PU11_pay1
    iexact Hl11
  ihave S12 := (slot_rejoin m c 12 12 rfl) $$ [PU12_pay1 Hl12]
  · isplitl [PU12_pay1]; · iexact PU12_pay1
    iexact Hl12
  ihave S13 := (slot_rejoin m c 13 13 rfl) $$ [PU13_pay1 Hl13]
  · isplitl [PU13_pay1]; · iexact PU13_pay1
    iexact Hl13
  ihave S14 := (slot_rejoin m c 14 14 rfl) $$ [PU14_pay1 Hl14]
  · isplitl [PU14_pay1]; · iexact PU14_pay1
    iexact Hl14
  -- the first landing buffer whole again, at its stated contents
  ihave HAw := (close17 (fun i : Fin 17 => ((slotA i).view.loc (c : Thread nD τ) ↦[(slotA i).view.set]{fullShare} cA m c : sProp 𝕄)))
    $$ [S0 S1 S2 S3 S4 S5 S6 S7 S8 S9 S10 S11 S12 S13 S14 PR15_pay1 PR16_pay1]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [PR15_pay1]; · iexact PR15_pay1
    iexact PR16_pay1
  ihave HAw2 := (splitA (F := F) c fullShare (cA m c)).2 $$ HAw
  ihave HAw3 := (Entails.of_eq (whole_pts c cc0_scratch0 (cA m c))) $$ HAw2
  -- the second landing buffer
  ihave HBw := (close15 (fun j : Fin 15 => ((slotB j).view.loc (c : Thread nD τ) ↦[(slotB j).view.set]{fullShare} cB m c : sProp 𝕄)))
    $$ [PV0_pay1 PV1_pay1 PV2_pay1 PV3_pay1 PV4_pay1 PV5_pay1 PV6_pay1 PV7_pay1 PV8_pay1 PV9_pay1 PV10_pay1 PV11_pay1 PV12_pay1 PV13_pay1 PV14_pay1]
  · isplitl [PV0_pay1]; · iexact PV0_pay1
    isplitl [PV1_pay1]; · iexact PV1_pay1
    isplitl [PV2_pay1]; · iexact PV2_pay1
    isplitl [PV3_pay1]; · iexact PV3_pay1
    isplitl [PV4_pay1]; · iexact PV4_pay1
    isplitl [PV5_pay1]; · iexact PV5_pay1
    isplitl [PV6_pay1]; · iexact PV6_pay1
    isplitl [PV7_pay1]; · iexact PV7_pay1
    isplitl [PV8_pay1]; · iexact PV8_pay1
    isplitl [PV9_pay1]; · iexact PV9_pay1
    isplitl [PV10_pay1]; · iexact PV10_pay1
    isplitl [PV11_pay1]; · iexact PV11_pay1
    isplitl [PV12_pay1]; · iexact PV12_pay1
    isplitl [PV13_pay1]; · iexact PV13_pay1
    iexact PV14_pay1
  ihave HBw2 := (splitB (F := F) c fullShare (cB m c)).2 $$ HBw
  ihave HBw3 := (Entails.of_eq (whole_pts c cc0_scratch1 (cB m c))) $$ HBw2
  -- the argument block: the 17 ranges' lent halves, the rest of that half, and the half read through
  ihave HXs := (close17 (fun i : Fin 17 => srcPts m c i))
    $$ [PS0_pay1 PS1_pay1 PS2_pay1 PS3_pay1 PS4_pay1 PS5_pay1 PS6_pay1 PS7_pay1 PS8_pay1 PS9_pay1 PS10_pay1 PS11_pay1 PS12_pay1 PS13_pay1 PS14_pay1 PS15_pay1 PS16_pay1]
  · isplitl [PS0_pay1]; · iexact PS0_pay1
    isplitl [PS1_pay1]; · iexact PS1_pay1
    isplitl [PS2_pay1]; · iexact PS2_pay1
    isplitl [PS3_pay1]; · iexact PS3_pay1
    isplitl [PS4_pay1]; · iexact PS4_pay1
    isplitl [PS5_pay1]; · iexact PS5_pay1
    isplitl [PS6_pay1]; · iexact PS6_pay1
    isplitl [PS7_pay1]; · iexact PS7_pay1
    isplitl [PS8_pay1]; · iexact PS8_pay1
    isplitl [PS9_pay1]; · iexact PS9_pay1
    isplitl [PS10_pay1]; · iexact PS10_pay1
    isplitl [PS11_pay1]; · iexact PS11_pay1
    isplitl [PS12_pay1]; · iexact PS12_pay1
    isplitl [PS13_pay1]; · iexact PS13_pay1
    isplitl [PS14_pay1]; · iexact PS14_pay1
    isplitl [PS15_pay1]; · iexact PS15_pay1
    iexact PS16_pay1
  ihave HXs2 := (Entails.of_eq (show (bigSep Finset.univ (fun i : Fin 17 => srcPts m c i) : sProp 𝕄)
      = bigSep Finset.univ (fun i : Fin 17 => ((srcA c i).view.loc (c : Thread nD τ) ↦[(srcA c i).view.set]{qS} xstg m c)) from rfl)) $$ HXs
  ihave HXw := (splitX (F := F) c (xstg m c)).2 $$ [HxL HXs2 HxRest]
  · isplitl [HxL]; · iexact HxL
    isplitl [HXs2]; · iexact HXs2
    iexact HxRest
  ihave HXw2 := (Entails.of_eq (whole_pts c cc0_stg0_0 (xstg m c))) $$ HXw
  -- the 64 transfer cells have consumed their one round: closed, their counters back at zero
  ihave HqS := (close17 (fun i : Fin 17 => (atPos ER (dmaCell c (sAx i)) 1 ∅ 0 : sProp 𝕄)))
    $$ [PS0 PS1 PS2 PS3 PS4 PS5 PS6 PS7 PS8 PS9 PS10 PS11 PS12 PS13 PS14 PS15 PS16]
  · isplitl [PS0]; · iexact PS0
    isplitl [PS1]; · iexact PS1
    isplitl [PS2]; · iexact PS2
    isplitl [PS3]; · iexact PS3
    isplitl [PS4]; · iexact PS4
    isplitl [PS5]; · iexact PS5
    isplitl [PS6]; · iexact PS6
    isplitl [PS7]; · iexact PS7
    isplitl [PS8]; · iexact PS8
    isplitl [PS9]; · iexact PS9
    isplitl [PS10]; · iexact PS10
    isplitl [PS11]; · iexact PS11
    isplitl [PS12]; · iexact PS12
    isplitl [PS13]; · iexact PS13
    isplitl [PS14]; · iexact PS14
    isplitl [PS15]; · iexact PS15
    iexact PS16
  ihave HqR := (close17 (fun i : Fin 17 => (atPos ER (dmaCell c (rAx i)) 1 ∅ 0 : sProp 𝕄)))
    $$ [PR0 PR1 PR2 PR3 PR4 PR5 PR6 PR7 PR8 PR9 PR10 PR11 PR12 PR13 PR14 PR15 PR16]
  · isplitl [PR0]; · iexact PR0
    isplitl [PR1]; · iexact PR1
    isplitl [PR2]; · iexact PR2
    isplitl [PR3]; · iexact PR3
    isplitl [PR4]; · iexact PR4
    isplitl [PR5]; · iexact PR5
    isplitl [PR6]; · iexact PR6
    isplitl [PR7]; · iexact PR7
    isplitl [PR8]; · iexact PR8
    isplitl [PR9]; · iexact PR9
    isplitl [PR10]; · iexact PR10
    isplitl [PR11]; · iexact PR11
    isplitl [PR12]; · iexact PR12
    isplitl [PR13]; · iexact PR13
    isplitl [PR14]; · iexact PR14
    isplitl [PR15]; · iexact PR15
    iexact PR16
  ihave HqU := (close15 (fun j : Fin 15 => (atPos ER (dmaCell c (sBy j)) 1 ∅ 0 : sProp 𝕄)))
    $$ [PU0 PU1 PU2 PU3 PU4 PU5 PU6 PU7 PU8 PU9 PU10 PU11 PU12 PU13 PU14]
  · isplitl [PU0]; · iexact PU0
    isplitl [PU1]; · iexact PU1
    isplitl [PU2]; · iexact PU2
    isplitl [PU3]; · iexact PU3
    isplitl [PU4]; · iexact PU4
    isplitl [PU5]; · iexact PU5
    isplitl [PU6]; · iexact PU6
    isplitl [PU7]; · iexact PU7
    isplitl [PU8]; · iexact PU8
    isplitl [PU9]; · iexact PU9
    isplitl [PU10]; · iexact PU10
    isplitl [PU11]; · iexact PU11
    isplitl [PU12]; · iexact PU12
    isplitl [PU13]; · iexact PU13
    iexact PU14
  ihave HqV := (close15 (fun j : Fin 15 => (atPos ER (dmaCell c (rBy j)) 1 ∅ 0 : sProp 𝕄)))
    $$ [PV0 PV1 PV2 PV3 PV4 PV5 PV6 PV7 PV8 PV9 PV10 PV11 PV12 PV13 PV14]
  · isplitl [PV0]; · iexact PV0
    isplitl [PV1]; · iexact PV1
    isplitl [PV2]; · iexact PV2
    isplitl [PV3]; · iexact PV3
    isplitl [PV4]; · iexact PV4
    isplitl [PV5]; · iexact PV5
    isplitl [PV6]; · iexact PV6
    isplitl [PV7]; · iexact PV7
    isplitl [PV8]; · iexact PV8
    isplitl [PV9]; · iexact PV9
    isplitl [PV10]; · iexact PV10
    isplitl [PV11]; · iexact PV11
    isplitl [PV12]; · iexact PV12
    isplitl [PV13]; · iexact PV13
    iexact PV14
  imod (close_all m (fun i => K (c, kSA i)) (fun i => K (c, kRA i)) (fun j => K (c, kSB j)) (fun j => K (c, kRB j)) c) $$ [HqS HqR HqU HqV] with Hz
  · isplitr; · iexact HfS
    isplitr; · iexact HfR
    isplitr; · iexact HfU
    isplitr; · iexact HfV
    isplitl [HqS]; · iexact HqS
    isplitl [HqR]; · iexact HqR
    isplitl [HqU]; · iexact HqU
    iexact HqV
  -- the result buffer: the 32 additions tile its rows
  ihave Hout2 := (Entails.of_eq (whole_pts c cc0_stg1_0 _)) $$ Hout'
  rw [show rem c 0 = (0 : CellTallies nD τ sig Unit) from rfl]
  rw [wp_ret]; imodintro
  iapply Hk
  unfold bodyPost Φ₁ bufA bufB Dat.owesAt Pipeline.owesWithin
  rw [show (dats m 0 c).owed pt0.succ = 0 from rfl]
  isplitl [HAw3 HBw3 Hz]
  · isplitl [HAw3]
    · iexists (cA m c); iexact HAw3
    isplitl [HBw3]
    · iexists (cB m c); iexact HBw3
    iexact Hz
  isplitl [HO]
  · iexists _
    isplitr; swap
    · iexact HO
    ipureintro; exact fun _ _ => Or.inl trivial
  isplitl [HXw2]
  · iexists _; isplitr; · (ipureintro; rfl)
    iexact HXw2
  iexists _
  isplitr; swap
  · iexact Hout2
  ipureintro
  exact out_final m c g1 _ rfl

/-- info: 'Cert.KernelIdeal.ARProof.sound_body' depends on axioms: [propext, Classical.choice, Quot.sound] -/
#guard_msgs in #print axioms sound_body

end Body

end Cert.KernelIdeal.ARProof

end
-- ==== Proof.Body.lean ====
/-
  The library's body obligation for one device of the all-reduce: the pipeline's precondition at its one point, sorted
  into what the body's run starts from, and the run's post handed back.
-/
import proofs.«900127_g7700000000000128_dist_ar_v7x_xy2x2_x_m2048_n512_f32_1_alg».proof.Proof.BodyRun

noncomputable section

namespace Cert.KernelIdeal.ARProof

open Cert.KernelIdeal Cert.KernelIdeal.Gen Cert.KernelIdeal.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable [∀ e, Nonempty (Elt F e)]

/-! ## The body obligation -/

def bodyPre' (c : Dev nD) : sProp 𝕄 :=
  iprop(Φ₀ m c ∗ (dats m 0 c).owesAt () pt0.castSucc
    ∗ (∃ d, stg c cc0_stg0_0 ((dats m 0 c).before (0 : Fin 2) pt0 d))
    ∗ (∃ d, stg c cc0_stg1_0 ((dats m 0 c).before (1 : Fin 2) pt0 d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device c, at the one point of the gridless pipeline. -/
theorem body_obligation (c : Dev nD) : BodyObligation (dats (F := F) m 0 c) (defs₀ (F := F)) 𝒱₀ () Set.univ := fun t => by
  rw [fin_pt t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m c)
  unfold bodyPre' Φ₀ start
  iintro ⟨⟨⟨⟨%K, Hg⟩, Hcr, Hlev⟩, HbA, HbB⟩, Ho, Hx, Hout⟩
  iapply (sound_body m K c fun _ => bodyPost m c)
  unfold bodyPre
  isplitr []
  · isplitl [Hg Hcr Hlev HbA HbB]
    · isplitl [Hg]; · iexact Hg
      isplitl [Hcr]; · iexact Hcr
      isplitl [Hlev]; · iexact Hlev
      isplitl [HbA]; · iexact HbA
      iexact HbB
    isplitl [Ho]; · iexact Ho
    isplitl [Hx]; · iexact Hx
    iexact Hout
  · iintro H; iexact H

/-- info: 'Cert.KernelIdeal.ARProof.body_obligation' depends on axioms: [propext, Classical.choice, Quot.sound] -/
#guard_msgs in #print axioms body_obligation

end Body

end Cert.KernelIdeal.ARProof

end
-- ==== Proof.KFrag.lean ====
/-
  The two transfer steps of the all-reduce as instances of the rounds library's send rule.

  A transfer across `x` lends the pending copy the sender's half share of the 64 source rows (it comes back with the
  departure cell's units) and hands the peer's arrival cell slot `i` of the peer's first landing buffer holding those
  rows; a relay across `y` does the same from slot `j` of the device's own first landing buffer into slot `j` of the
  peer's second one.
-/
import proofs.«900127_g7700000000000128_dist_ar_v7x_xy2x2_x_m2048_n512_f32_1_alg».proof.Proof.KLand
import proofs.«900127_g7700000000000128_dist_ar_v7x_xy2x2_x_m2048_n512_f32_1_alg».proof.Proof.KLaunchCred

noncomputable section

namespace Cert.Kernel.ARProof

open Cert.Kernel Cert.Kernel.Gen Cert.Kernel.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sAx_ge (i : Fin 17) : 2 ≤ (sAx i).val := by rw [sAx_val]; omega
theorem rAx_ge (i : Fin 17) : 2 ≤ (rAx i).val := by rw [rAx_val]; omega
theorem sBy_ge (j : Fin 15) : 2 ≤ (sBy j).val := by rw [sBy_val]; omega
theorem rBy_ge (j : Fin 15) : 2 ≤ (rBy j).val := by rw [rBy_val]; omega

/-- The transfer of chunk `i` across `x`, addressed to `n = xp c`. -/
theorem wp_sendA (κ₁ κ₂ : ℕ) (c n : Dev nD) (hn : n = xp c) (i : Fin 17)
    {hsc : (slotA i : Memref sig (Dev.tc n : Thread nD τ).2.kind .vmem S64x512 .f32).view.ref.isScScratch = false}
    {hsrc : (srcA c i).view.WordExact} {hdst : (slotA i : Memref sig .tc .vmem S64x512 .f32).view.WordExact}
    {hsem : DmaTarget.Typed .vmem (.dma (rAx i)) (.remote (Dev.tc n : Thread nD τ) (slotA i : Memref sig .tc .vmem S64x512 .f32) (.dma (sAx i)) hsc)}
    {α : Type} {Q : α → sProp 𝕄} {k : PUnit → Prog (TpuEff nD τ sig (Elt F) Λ₀ .tc) α}
    (fn : Buf (Elt F) ((slotA i : Memref sig .tc .vmem S64x512 .f32).view.loc (xp c : Thread nD τ))) (O : CellTallies nD τ sig Unit) (W : Waits sig Unit) :
    iprop(cellInv ER (sched m) κ₁ (dmaCell c (sAx i)) ∗ cellInv ER (sched m) κ₂ (dmaCell (xp c) (rAx i))
        ∗ srcPts m c i ∗ ((slotA i : Memref sig .tc .vmem S64x512 .f32).view.loc (xp c : Thread nD τ) ↦[(slotA i : Memref sig .tc .vmem S64x512 .f32).view.set]{fullShare} fn)
        ∗ owes (c : Thread nD τ) (O + tallyAt (dmaCell (xp c) (rAx i)) () N) W
        ∗ dutyTok ER (dmaCell c (sAx i)) 0 false ∗ reached ER (dmaCell c (sAx i)) 0
        ∗ dutyTok ER (dmaCell (xp c) (rAx i)) 0 false ∗ reached ER (dmaCell (xp c) (rAx i)) 0)
      ⊢ iprop(((cred (tallyAt (dmaCell c (sAx i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c i) (.remote (Dev.tc n : Thread nD τ) (slotA i) (.dma (sAx i)) hsc) (.dma (rAx i)) hsrc hdst hsem) k) Q) := by
  subst hn
  unfold srcPts
  exact Rounds.wp_send_pointsTo 𝒱₀ ER (sched m) (c : Thread nD τ) none (κ₁ := κ₁) (κ₂ := κ₂)
    (r₁ := 0) (r₂ := 0) (d₁ := false) (d₂ := false) (fd := fn)
    (by rw [duties_dma m c _ (sAx_ge i)]; exact Finset.mem_singleton_self _)
    (by rw [duties_dma m (xp c) _ (rAx_ge i)]; exact Finset.mem_singleton_self _)
    () () N rfl (amount_dma m c (sAx i) false) (amount_dma m (xp c) (rAx i) false) O rfl (W := W)
    (by rw [payload_dma, dmaPay_sAx]; exact BI.Entails.refl _)
    (by
      rw [payload_dma, dmaPay_rAx]; unfold slotAPts
      have h := landA m (xp c) i fn
      rw [xp_xp] at h
      rw [pointsTo_congr h])

/-- The relay of slot `j` across `y`, addressed to `n = yp c`. -/
theorem wp_sendB (κ₁ κ₂ : ℕ) (c n : Dev nD) (hn : n = yp c) (j : Fin 15)
    {hsc : (slotB j : Memref sig (Dev.tc n : Thread nD τ).2.kind .vmem S64x512 .f32).view.ref.isScScratch = false}
    {hsrc : (slotA (up j) : Memref sig .tc .vmem S64x512 .f32).view.WordExact} {hdst : (slotB j : Memref sig .tc .vmem S64x512 .f32).view.WordExact}
    {hsem : DmaTarget.Typed .vmem (.dma (rBy j)) (.remote (Dev.tc n : Thread nD τ) (slotB j : Memref sig .tc .vmem S64x512 .f32) (.dma (sBy j)) hsc)}
    {α : Type} {Q : α → sProp 𝕄} {k : PUnit → Prog (TpuEff nD τ sig (Elt F) Λ₀ .tc) α}
    (fn : Buf (Elt F) ((slotB j : Memref sig .tc .vmem S64x512 .f32).view.loc (yp c : Thread nD τ))) (O : CellTallies nD τ sig Unit) (W : Waits sig Unit) :
    iprop(cellInv ER (sched m) κ₁ (dmaCell c (sBy j)) ∗ cellInv ER (sched m) κ₂ (dmaCell (yp c) (rBy j))
        ∗ slotAPts m c (up j) qS ∗ ((slotB j : Memref sig .tc .vmem S64x512 .f32).view.loc (yp c : Thread nD τ) ↦[(slotB j : Memref sig .tc .vmem S64x512 .f32).view.set]{fullShare} fn)
        ∗ owes (c : Thread nD τ) (O + tallyAt (dmaCell (yp c) (rBy j)) () N) W
        ∗ dutyTok ER (dmaCell c (sBy j)) 0 false ∗ reached ER (dmaCell c (sBy j)) 0
        ∗ dutyTok ER (dmaCell (yp c) (rBy j)) 0 false ∗ reached ER (dmaCell (yp c) (rBy j)) 0)
      ⊢ iprop(((cred (tallyAt (dmaCell c (sBy j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA (up j)) (.remote (Dev.tc n : Thread nD τ) (slotB j) (.dma (sBy j)) hsc) (.dma (rBy j)) hsrc hdst hsem) k) Q) := by
  subst hn
  unfold slotAPts
  exact Rounds.wp_send_pointsTo 𝒱₀ ER (sched m) (c : Thread nD τ) none (κ₁ := κ₁) (κ₂ := κ₂)
    (r₁ := 0) (r₂ := 0) (d₁ := false) (d₂ := false) (fd := fn)
    (by rw [duties_dma m c _ (sBy_ge j)]; exact Finset.mem_singleton_self _)
    (by rw [duties_dma m (yp c) _ (rBy_ge j)]; exact Finset.mem_singleton_self _)
    () () N rfl (amount_dma m c (sBy j) false) (amount_dma m (yp c) (rBy j) false) O rfl (W := W)
    (by rw [payload_dma, dmaPay_sBy]; exact BI.Entails.refl _)
    (by
      rw [payload_dma, dmaPay_rBy]; unfold slotBPts
      have h := landB m (yp c) j fn
      rw [yp_yp] at h
      rw [pointsTo_congr h])

end Cert.Kernel.ARProof

end
-- ==== Proof.KLForms.lean ====
/-
  The schedule's tables over the cells and slots as the program text spells them: a numeral index and the printed
  in-bounds evidence. Each is its Fin-indexed counterpart of the protocol module read at `⟨i, hi⟩`.
-/
import proofs.«900127_g7700000000000128_dist_ar_v7x_xy2x2_x_m2048_n512_f32_1_alg».proof.Proof.KFrag

noncomputable section

namespace Cert.Kernel.ARProof

open Cert.Kernel Cert.Kernel.Gen Cert.Kernel.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev sAxL (i : ℕ) (h : ∀ a, (![i] : Fin 1 → Nat) a + S1.size a ≤ S17.size a) : DmaSem sig := ((cc0_scratch2.slice (Rect.unit (s := S17) ![i] S1.size h)).squeeze S_ squeezes_S1_S_).sem
abbrev rAxL (i : ℕ) (h : ∀ a, (![i] : Fin 1 → Nat) a + S1.size a ≤ S17.size a) : DmaSem sig := ((cc0_scratch3.slice (Rect.unit (s := S17) ![i] S1.size h)).squeeze S_ squeezes_S1_S_).sem
abbrev sByL (i : ℕ) (h : ∀ a, (![i] : Fin 1 → Nat) a + S1.size a ≤ S15.size a) : DmaSem sig := ((cc0_scratch4.slice (Rect.unit (s := S15) ![i] S1.size h)).squeeze S_ squeezes_S1_S_).sem
abbrev rByL (i : ℕ) (h : ∀ a, (![i] : Fin 1 → Nat) a + S1.size a ≤ S15.size a) : DmaSem sig := ((cc0_scratch5.slice (Rect.unit (s := S15) ![i] S1.size h)).squeeze S_ squeezes_S1_S_).sem
abbrev slotAL (i : ℕ) (h : ∀ a, (![i, 0, 0] : Fin 3 → Nat) a + S1x64x512.size a ≤ S17x64x512.size a) : Memref sig .tc .vmem S64x512 .f32 :=
  (aM.slice (Rect.unit (s := S17x64x512) ![i, 0, 0] S1x64x512.size h) (fun _ => rfl)).squeeze S64x512 squeezes_S1x64x512_S64x512
abbrev slotBL (i : ℕ) (h : ∀ a, (![i, 0, 0] : Fin 3 → Nat) a + S1x64x512.size a ≤ S15x64x512.size a) : Memref sig .tc .vmem S64x512 .f32 :=
  (bM.slice (Rect.unit (s := S15x64x512) ![i, 0, 0] S1x64x512.size h) (fun _ => rfl)).squeeze S64x512 squeezes_S1x64x512_S64x512

theorem lt17_of_lt15 {i : ℕ} (hi : i < 15) : i < 17 := by omega

section TablesL
variable [∀ e, Nonempty (Elt F e)] (c : Dev nD)

theorem amount_dmaL (q : DmaSem sig) (r : ℕ) (d : Bool) : (sched m).amount (dmaCell c q) r d = N := rfl

theorem duties_sAxL (i : ℕ) (h) (hi : i < 17) : (sched m).duties (dmaCell c (sAxL i h)) 0 = {false} := duties_dma m c _ (sAx_ge ⟨i, hi⟩)
theorem duties_rAxL (i : ℕ) (h) (hi : i < 17) : (sched m).duties (dmaCell c (rAxL i h)) 0 = {false} := duties_dma m c _ (rAx_ge ⟨i, hi⟩)
theorem duties_sByL (i : ℕ) (h) (hi : i < 15) : (sched m).duties (dmaCell c (sByL i h)) 0 = {false} := duties_dma m c _ (sBy_ge ⟨i, hi⟩)
theorem duties_rByL (i : ℕ) (h) (hi : i < 15) : (sched m).duties (dmaCell c (rByL i h)) 0 = {false} := duties_dma m c _ (rBy_ge ⟨i, hi⟩)

theorem expect_sAxL (i : ℕ) (h) (hi : i < 17) : (sched m).expect (dmaCell c (sAxL i h)) 0 = N := expect_dma m c _ (sAx_ge ⟨i, hi⟩)
theorem expect_rAxL (i : ℕ) (h) (hi : i < 17) : (sched m).expect (dmaCell c (rAxL i h)) 0 = N := expect_dma m c _ (rAx_ge ⟨i, hi⟩)
theorem expect_sByL (i : ℕ) (h) (hi : i < 15) : (sched m).expect (dmaCell c (sByL i h)) 0 = N := expect_dma m c _ (sBy_ge ⟨i, hi⟩)
theorem expect_rByL (i : ℕ) (h) (hi : i < 15) : (sched m).expect (dmaCell c (rByL i h)) 0 = N := expect_dma m c _ (rBy_ge ⟨i, hi⟩)

/-- An arrival across `x` hands over its slot of the first landing buffer, filled. -/
theorem payload_rAxL (i : ℕ) (h) (hi : i < 17) (d : Bool) :
    (sched m).payload (dmaCell c (rAxL i h)) 0 d = ((slotAL i (slotA_inb ⟨i, hi⟩)).view.loc (c : Thread nD τ) ↦[(slotAL i (slotA_inb ⟨i, hi⟩)).view.set]{fullShare} cA m c) := by
  rw [payload_dma]; exact dmaPay_rAx m c ⟨i, hi⟩
/-- A relay's arrival hands over its slot of the second landing buffer, filled. -/
theorem payload_rByL (i : ℕ) (h) (hi : i < 15) (d : Bool) :
    (sched m).payload (dmaCell c (rByL i h)) 0 d = ((slotBL i (slotB_inb ⟨i, hi⟩)).view.loc (c : Thread nD τ) ↦[(slotBL i (slotB_inb ⟨i, hi⟩)).view.set]{fullShare} cB m c) := by
  rw [payload_dma]; exact dmaPay_rBy m c ⟨i, hi⟩
/-- A departure hands back the half share of the rows the transfer read. -/
theorem payload_sAxL (i : ℕ) (h) (hi : i < 17) (d : Bool) :
    (sched m).payload (dmaCell c (sAxL i h)) 0 d = srcPts m c ⟨i, hi⟩ := by
  rw [payload_dma]; exact dmaPay_sAx m c ⟨i, hi⟩
theorem payload_sByL (i : ℕ) (h) (hi : i < 15) (d : Bool) :
    (sched m).payload (dmaCell c (sByL i h)) 0 d = ((slotAL i (slotA_inb ⟨i, lt17_of_lt15 hi⟩)).view.loc (c : Thread nD τ) ↦[(slotAL i (slotA_inb ⟨i, lt17_of_lt15 hi⟩)).view.set]{qS} cA m c) := by
  rw [payload_dma]; exact dmaPay_sBy m c ⟨i, hi⟩

/-- The entry cell's two payloads, spelt through the buffers' views: the peers' landing buffers whole, at some contents. -/
theorem pay_bar_t : (sched m).payload (barCell c) 0 true = iprop(∃ f : Buf (Elt F) ((aM : Memref sig .tc .vmem S17x64x512 .f32).view.loc (xp c : Thread nD τ)), ((aM : Memref sig .tc .vmem S17x64x512 .f32).view.loc (xp c : Thread nD τ)) ↦[(aM : Memref sig .tc .vmem S17x64x512 .f32).view.set]{fullShare} f) := by
  rw [payload_bar_true]; unfold bufA; simp only [Memref.view_whole, View.set_whole]
theorem pay_bar_f : (sched m).payload (barCell c) 0 false = iprop(∃ f : Buf (Elt F) ((bM : Memref sig .tc .vmem S15x64x512 .f32).view.loc (yp c : Thread nD τ)), ((bM : Memref sig .tc .vmem S15x64x512 .f32).view.loc (yp c : Thread nD τ)) ↦[(bM : Memref sig .tc .vmem S15x64x512 .f32).view.set]{fullShare} f) := by
  rw [payload_bar_false]; unfold bufB; simp only [Memref.view_whole, View.set_whole]
/-- The same at the peers' entry cells, the double peer resolved: what this device hands over is its own buffers. -/
theorem pay_bar_xp : (sched m).payload (barCell (xp c)) 0 true = iprop(∃ f : Buf (Elt F) ((aM : Memref sig .tc .vmem S17x64x512 .f32).view.loc (c : Thread nD τ)), ((aM : Memref sig .tc .vmem S17x64x512 .f32).view.loc (c : Thread nD τ)) ↦[(aM : Memref sig .tc .vmem S17x64x512 .f32).view.set]{fullShare} f) := by
  rw [pay_bar_t, xp_xp]
theorem pay_bar_yp : (sched m).payload (barCell (yp c)) 0 false = iprop(∃ f : Buf (Elt F) ((bM : Memref sig .tc .vmem S15x64x512 .f32).view.loc (c : Thread nD τ)), ((bM : Memref sig .tc .vmem S15x64x512 .f32).view.loc (c : Thread nD τ)) ↦[(bM : Memref sig .tc .vmem S15x64x512 .f32).view.set]{fullShare} f) := by
  rw [pay_bar_f, yp_yp]
/-- Both payloads of the entry cell's round. -/
theorem pay_bar_all : bigSep Finset.univ (fun d : Bool => (sched m).payload (barCell c) 0 d) = iprop(bufB (yp c) ∗ bufA (xp c)) := by
  rw [bigSep_univ_eq_bigSepL [false, true] (by decide) (by decide), bigSepL_cons_cons, bigSepL_singleton, payload_bar_false, payload_bar_true]
  rfl

end TablesL

theorem devX_eq (c : Dev nD) (n : ℕ) (h : n < nD) (hn : n = ((c.val % 2) + 2) - 2 * (c.val / 2)) : (⟨n, h⟩ : Dev nD) = xp c := Fin.ext hn
theorem devY_eq (c : Dev nD) (n : ℕ) (h : n < nD) (hn : n = (2 * (c.val / 2) + 1) - (c.val % 2)) : (⟨n, h⟩ : Dev nD) = yp c := Fin.ext hn

end Cert.Kernel.ARProof

end
-- ==== Proof.KUnpack.lean ====
/-
  The ghost state a device starts from, regrouped family by family over the cells as the program spells them.

  A device's 65 cells are its entry cell and its four families of transfer semaphores: departures and arrivals of the
  17 transfers across `x`, departures and arrivals of the 15 relays across `y`. The launch hands every device the
  invariants and the reached-round facts of ALL cells of the mesh (persistent, so they can be read off repeatedly) and the
  positions of its own 65 cells, indexed by cell number. Here the same facts are stated per family, over the entry cell
  and the semaphore of each slot, for the device's own cells and for those cells of its two peers that it pays onto.
-/
import proofs.«900127_g7700000000000128_dist_ar_v7x_xy2x2_x_m2048_n512_f32_1_alg».proof.Proof.KProto
import Mathlib.Logic.Equiv.Fin.Basic

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Separating conjunctions over `Fin n`, listed and split -/

theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A separating conjunction over `Fin (a + b)` is the one over the first `a` indices and the one over the last `b`. -/
theorem bigSep_fin_add {a b n : ℕ} (h : a + b = n) (Φ : Fin n → sProp 𝕄) :
    bigSep Finset.univ Φ
      = iprop((bigSep Finset.univ fun i : Fin a => Φ ⟨i.val, by have := i.isLt; omega⟩)
          ∗ bigSep Finset.univ fun j : Fin b => Φ ⟨a + j.val, by have := j.isLt; omega⟩) := by
  subst h
  rw [bigSep_univ_equiv finSumFinEquiv Φ, bigSep_univ_sum]
  rfl

/-- From offset `o` on: the next `a` indices, and the rest from offset `o + a` on. -/
theorem bigSep_fin_peel {n : ℕ} (Φ : Fin n → sProp 𝕄) (o a o' : ℕ) (h : o + a = o') (hn : o' ≤ n) :
    (bigSep Finset.univ fun j : Fin (n - o) => Φ ⟨o + j.val, by have := j.isLt; omega⟩)
      = iprop((bigSep Finset.univ fun i : Fin a => Φ ⟨o + i.val, by have := i.isLt; omega⟩)
          ∗ bigSep Finset.univ fun j : Fin (n - o') => Φ ⟨o' + j.val, by have := j.isLt; omega⟩) := by
  subst h
  rw [bigSep_fin_add (a := a) (b := n - (o + a)) (n := n - o) (by omega)]
  congr 1
  exact bigSep_congr fun j _ => congrArg Φ (Fin.ext (by show o + (a + j.val) = o + a + j.val; omega))

/-! ## The cells of a device, family by family -/

/-- The cell numbers of the four families: departures and arrivals across `x`, departures and arrivals of the relays. -/
def kSA (i : Fin 17) : Fin 65 := ⟨1 + i.val, by have := i.isLt; omega⟩
def kRA (i : Fin 17) : Fin 65 := ⟨18 + i.val, by have := i.isLt; omega⟩
def kSB (j : Fin 15) : Fin 65 := ⟨35 + j.val, by have := j.isLt; omega⟩
def kRB (j : Fin 15) : Fin 65 := ⟨50 + j.val, by have := j.isLt; omega⟩

@[simp] theorem kSA_val (i : Fin 17) : (kSA i).val = 1 + i.val := rfl
@[simp] theorem kRA_val (i : Fin 17) : (kRA i).val = 18 + i.val := rfl
@[simp] theorem kSB_val (j : Fin 15) : (kSB j).val = 35 + j.val := rfl
@[simp] theorem kRB_val (j : Fin 15) : (kRB j).val = 50 + j.val := rfl

theorem csem_kSA (i : Fin 17) : csem (kSA i) = .dma (sAx i) := by
  rw [← csem_dma (sAx i) (by rw [sAx_val]; omega)]; congr 1; exact Fin.ext (by show 1 + i.val = (sAx i).val - 1; rw [sAx_val]; omega)
theorem csem_kRA (i : Fin 17) : csem (kRA i) = .dma (rAx i) := by
  rw [← csem_dma (rAx i) (by rw [rAx_val]; omega)]; congr 1; exact Fin.ext (by show 18 + i.val = (rAx i).val - 1; rw [rAx_val]; omega)
theorem csem_kSB (j : Fin 15) : csem (kSB j) = .dma (sBy j) := by
  rw [← csem_dma (sBy j) (by rw [sBy_val]; omega)]; congr 1; exact Fin.ext (by show 35 + j.val = (sBy j).val - 1; rw [sBy_val]; omega)
theorem csem_kRB (j : Fin 15) : csem (kRB j) = .dma (rBy j) := by
  rw [← csem_dma (rBy j) (by rw [rBy_val]; omega)]; congr 1; exact Fin.ext (by show 50 + j.val = (rBy j).val - 1; rw [rBy_val]; omega)

theorem kcell_bar (c : Dev nD) : kcell (c, 0) = barCell c := rfl
theorem kcell_sAx (c : Dev nD) (i : Fin 17) : kcell (c, kSA i) = dmaCell c (sAx i) := by
  show ((c : Thread nD τ), csem (kSA i)) = _; rw [csem_kSA]
theorem kcell_rAx (c : Dev nD) (i : Fin 17) : kcell (c, kRA i) = dmaCell c (rAx i) := by
  show ((c : Thread nD τ), csem (kRA i)) = _; rw [csem_kRA]
theorem kcell_sBy (c : Dev nD) (j : Fin 15) : kcell (c, kSB j) = dmaCell c (sBy j) := by
  show ((c : Thread nD τ), csem (kSB j)) = _; rw [csem_kSB]
theorem kcell_rBy (c : Dev nD) (j : Fin 15) : kcell (c, kRB j) = dmaCell c (rBy j) := by
  show ((c : Thread nD τ), csem (kRB j)) = _; rw [csem_kRB]

/-- The 65 cells of a device, by family. -/
theorem bigSep_fin65 (Φ : Fin 65 → sProp 𝕄) :
    bigSep Finset.univ Φ
      = iprop(Φ 0 ∗ (bigSep Finset.univ fun i : Fin 17 => Φ (kSA i)) ∗ (bigSep Finset.univ fun i : Fin 17 => Φ (kRA i))
          ∗ (bigSep Finset.univ fun j : Fin 15 => Φ (kSB j)) ∗ bigSep Finset.univ fun j : Fin 15 => Φ (kRB j)) := by
  have e0 := bigSep_fin_add (a := 1) (b := 64) (n := 65) rfl Φ
  have e1 := bigSep_fin_peel Φ 1 17 18 rfl (by decide)
  have e2 := bigSep_fin_peel Φ 18 17 35 rfl (by decide)
  have e3 := bigSep_fin_add (a := 15) (b := 15) (n := 65 - 35) rfl (fun j : Fin (65 - 35) => Φ ⟨35 + j.val, by have := j.isLt; omega⟩)
  have e4 : (bigSep Finset.univ fun i : Fin 1 => Φ ⟨i.val, by have := i.isLt; omega⟩) = Φ 0 := bigSep_univ_of_subsingleton (0 : Fin 1)
  rw [e0, e4]
  refine congrArg (BI.sep (Φ 0)) (e1.trans (congrArg (BI.sep _) (e2.trans (congrArg (BI.sep _) (e3.trans ?_)))))
  exact congrArg (BI.sep _) (bigSep_congr fun j _ => congrArg Φ (Fin.ext (by show 35 + (15 + j.val) = 50 + j.val; omega)))

section Ghost
variable [∀ e, Nonempty (Elt F e)]

/-! ## The regrouped ghost state -/

/-- The invariants device `c` works with, each under the name the launch gave its cell: its own 65 cells, and the
    cells of its peers it pays onto (both entry cells, the arrivals across `x` on one peer, of the relays on the other). -/
def invsB (K : Dev nD × Fin 65 → ℕ) (c : Dev nD) : sProp 𝕄 :=
  iprop(cellInv ER (sched m) (K (c, 0)) (barCell c)
    ∗ (bigSep Finset.univ fun i : Fin 17 => cellInv ER (sched m) (K (c, kSA i)) (dmaCell c (sAx i)))
    ∗ (bigSep Finset.univ fun i : Fin 17 => cellInv ER (sched m) (K (c, kRA i)) (dmaCell c (rAx i)))
    ∗ (bigSep Finset.univ fun j : Fin 15 => cellInv ER (sched m) (K (c, kSB j)) (dmaCell c (sBy j)))
    ∗ (bigSep Finset.univ fun j : Fin 15 => cellInv ER (sched m) (K (c, kRB j)) (dmaCell c (rBy j)))
    ∗ cellInv ER (sched m) (K (xp c, 0)) (barCell (xp c))
    ∗ cellInv ER (sched m) (K (yp c, 0)) (barCell (yp c))
    ∗ (bigSep Finset.univ fun i : Fin 17 => cellInv ER (sched m) (K (xp c, kRA i)) (dmaCell (xp c) (rAx i)))
    ∗ (bigSep Finset.univ fun j : Fin 15 => cellInv ER (sched m) (K (yp c, kRB j)) (dmaCell (yp c) (rBy j))))

/-- Round 0 reached, on the same cells. -/
def reachedB (c : Dev nD) : sProp 𝕄 :=
  iprop(reached ER (barCell c) 0
    ∗ (bigSep Finset.univ fun i : Fin 17 => reached ER (dmaCell c (sAx i)) 0)
    ∗ (bigSep Finset.univ fun i : Fin 17 => reached ER (dmaCell c (rAx i)) 0)
    ∗ (bigSep Finset.univ fun j : Fin 15 => reached ER (dmaCell c (sBy j)) 0)
    ∗ (bigSep Finset.univ fun j : Fin 15 => reached ER (dmaCell c (rBy j)) 0)
    ∗ reached ER (barCell (xp c)) 0
    ∗ reached ER (barCell (yp c)) 0
    ∗ (bigSep Finset.univ fun i : Fin 17 => reached ER (dmaCell (xp c) (rAx i)) 0)
    ∗ (bigSep Finset.univ fun j : Fin 15 => reached ER (dmaCell (yp c) (rBy j)) 0))

/-- The positions of the device's own 65 cells: round 0, nothing landed. -/
def posB (c : Dev nD) : sProp 𝕄 :=
  iprop(atPos ER (barCell c) 0 ∅ 0
    ∗ (bigSep Finset.univ fun i : Fin 17 => atPos ER (dmaCell c (sAx i)) 0 ∅ 0)
    ∗ (bigSep Finset.univ fun i : Fin 17 => atPos ER (dmaCell c (rAx i)) 0 ∅ 0)
    ∗ (bigSep Finset.univ fun j : Fin 15 => atPos ER (dmaCell c (sBy j)) 0 ∅ 0)
    ∗ (bigSep Finset.univ fun j : Fin 15 => atPos ER (dmaCell c (rBy j)) 0 ∅ 0))

instance invsB_persistent (K : Dev nD × Fin 65 → ℕ) (c : Dev nD) : BI.Persistent (invsB m K c) := by unfold invsB; infer_instance
instance reachedB_persistent (c : Dev nD) : BI.Persistent (reachedB (F := F) c) := by unfold reachedB; infer_instance

/-- One summand of a separating conjunction over all cells of the mesh. -/
theorem pick_one (Ψ : Dev nD × Fin 65 → sProp 𝕄) (ck : Dev nD × Fin 65) (P : sProp 𝕄) (h : Ψ ck = P) :
    bigSep Finset.univ Ψ ⊢ P := h ▸ bigSep_elim (Finset.mem_univ ck)

/-- A family of summands of a separating conjunction of persistent assertions over all cells of the mesh. -/
theorem pick_fam {J : Type} [Fintype J] [DecidableEq J] (Ψ : Dev nD × Fin 65 → sProp 𝕄) [∀ ck, BI.Persistent (Ψ ck)]
    (f : J → Dev nD × Fin 65) (Φ : J → sProp 𝕄) (h : ∀ j, Ψ (f j) = Φ j) :
    bigSep Finset.univ Ψ ⊢ bigSep Finset.univ Φ :=
  bigSep_intro_persistent fun j _ => h j ▸ bigSep_elim (Finset.mem_univ (f j))

theorem records_invsB (K : Dev nD × Fin 65 → ℕ) (c : Dev nD) : records m K ⊢ invsB m K c := by
  unfold records invsB
  iintro ⟨#H, -⟩
  isplitr; · iapply (pick_one (fun ck => cellInv ER (sched m) (K ck) (kcell ck)) (c, 0) _ rfl); iexact H
  isplitr; · iapply (pick_fam (fun ck => cellInv ER (sched m) (K ck) (kcell ck)) (fun i => (c, kSA i)) _ (fun i => by rw [kcell_sAx])); iexact H
  isplitr; · iapply (pick_fam (fun ck => cellInv ER (sched m) (K ck) (kcell ck)) (fun i => (c, kRA i)) _ (fun i => by rw [kcell_rAx])); iexact H
  isplitr; · iapply (pick_fam (fun ck => cellInv ER (sched m) (K ck) (kcell ck)) (fun j => (c, kSB j)) _ (fun j => by rw [kcell_sBy])); iexact H
  isplitr; · iapply (pick_fam (fun ck => cellInv ER (sched m) (K ck) (kcell ck)) (fun j => (c, kRB j)) _ (fun j => by rw [kcell_rBy])); iexact H
  isplitr; · iapply (pick_one (fun ck => cellInv ER (sched m) (K ck) (kcell ck)) (xp c, 0) _ rfl); iexact H
  isplitr; · iapply (pick_one (fun ck => cellInv ER (sched m) (K ck) (kcell ck)) (yp c, 0) _ rfl); iexact H
  isplitr; · iapply (pick_fam (fun ck => cellInv ER (sched m) (K ck) (kcell ck)) (fun i => (xp c, kRA i)) _ (fun i => by rw [kcell_rAx])); iexact H
  iapply (pick_fam (fun ck => cellInv ER (sched m) (K ck) (kcell ck)) (fun j => (yp c, kRB j)) _ (fun j => by rw [kcell_rBy])); iexact H

theorem records_reachedB (K : Dev nD × Fin 65 → ℕ) (c : Dev nD) : records m K ⊢ reachedB c := by
  unfold records reachedB
  iintro ⟨-, #H⟩
  isplitr; · iapply (pick_one (fun ck => reached ER (kcell ck) 0) (c, 0) _ rfl); iexact H
  isplitr; · iapply (pick_fam (fun ck => reached ER (kcell ck) 0) (fun i => (c, kSA i)) _ (fun i => by rw [kcell_sAx])); iexact H
  isplitr; · iapply (pick_fam (fun ck => reached ER (kcell ck) 0) (fun i => (c, kRA i)) _ (fun i => by rw [kcell_rAx])); iexact H
  isplitr; · iapply (pick_fam (fun ck => reached ER (kcell ck) 0) (fun j => (c, kSB j)) _ (fun j => by rw [kcell_sBy])); iexact H
  isplitr; · iapply (pick_fam (fun ck => reached ER (kcell ck) 0) (fun j => (c, kRB j)) _ (fun j => by rw [kcell_rBy])); iexact H
  isplitr; · iapply (pick_one (fun ck => reached ER (kcell ck) 0) (xp c, 0) _ rfl); iexact H
  isplitr; · iapply (pick_one (fun ck => reached ER (kcell ck) 0) (yp c, 0) _ rfl); iexact H
  isplitr; · iapply (pick_fam (fun ck => reached ER (kcell ck) 0) (fun i => (xp c, kRA i)) _ (fun i => by rw [kcell_rAx])); iexact H
  iapply (pick_fam (fun ck => reached ER (kcell ck) 0) (fun j => (yp c, kRB j)) _ (fun j => by rw [kcell_rBy])); iexact H

/-- The positions of a device's 65 cells, by family. -/
theorem pos_unpack (c : Dev nD) : (bigSep Finset.univ fun k : Fin 65 => (atPos ER (kcell (c, k)) 0 ∅ 0 : sProp 𝕄)) = posB c := by
  rw [bigSep_fin65]; unfold posB
  simp only [kcell_sAx, kcell_rAx, kcell_sBy, kcell_rBy]
  rfl

/-- The ghost state of a device, regrouped. -/
theorem ghost_unpack (K : Dev nD × Fin 65 → ℕ) (c : Dev nD) :
    ghost m K c ⊢ iprop(invsB m K c ∗ reachedB c ∗ posB c ∗ payToks c) := by
  unfold ghost
  rw [pos_unpack]
  iintro ⟨#HR, Hpos, Htok⟩
  isplitr; · iapply (records_invsB m K c); iexact HR
  isplitr; · iapply (records_reachedB m K c); iexact HR
  isplitl [Hpos]; · iexact Hpos
  iexact Htok

end Ghost

end Cert.Kernel.ARProof

end
-- ==== Proof.KPieces.lean ====
/-
  The buffers cut into the pieces the transfers move, and put together again.

  The first landing buffer is 17 slots of 64 rows, the second 15: a slot is the rectangle of one leading coordinate,
  the slots are pairwise disjoint and cover the buffer, so a points-to assertion of the whole buffer is the
  separating product of the slots' assertions at the same share and contents. The staged argument block is read by 17
  transfers, each from its own 64 rows: 16 chunks of one half of the rows and the last chunk of the other half. These
  row ranges are pairwise disjoint, so half of the full share of the block splits into the 17 chunks and the rest,
  while the other half stays with the device to read. A load of one slot through the whole landing buffer touches
  exactly that slot's elements.
-/
import proofs.«900127_g7700000000000128_dist_ar_v7x_xy2x2_x_m2048_n512_f32_1_alg».proof.Proof.KProto

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The element sets of the slots and of the source chunks -/

theorem slotA_set (i : Fin 17) : (slotA i).view.set = (rectA i).set := by
  simp only [Memref.view_squeeze, Memref.view_slice, Memref.view_whole, View.set_reshape, View.set_slice_whole]

theorem slotB_set (j : Fin 15) : (slotB j).view.set = (rectB j).set := by
  simp only [Memref.view_squeeze, Memref.view_slice, Memref.view_whole, View.set_reshape, View.set_slice_whole]

/-- The rectangle of rows chunk `i` of device `d`'s transfers across `x` reads. -/
abbrev rectS (d : Dev nD) (i : Fin 17) : Rect S2048x512 := Rect.unit (s := S2048x512) (offA d i) S64x512.size (offA_inb d i)

theorem srcA_set (d : Dev nD) (i : Fin 17) : (srcA d i).view.set = (rectS d i).set := by
  simp only [Memref.view_slice, Memref.view_whole, View.set_slice_whole]

/-- Slots with different leading coordinates are disjoint. -/
theorem rectA_disjoint {i j : Fin 17} (h : i ≠ j) : Disjoint (rectA i).set (rectA j).set := by
  refine Rect.unit_disjoint 0 ?_
  have hne : i.val ≠ j.val := fun e => h (Fin.ext e)
  show i.val + 1 ≤ j.val ∨ j.val + 1 ≤ i.val
  omega

theorem rectB_disjoint {i j : Fin 15} (h : i ≠ j) : Disjoint (rectB i).set (rectB j).set := by
  refine Rect.unit_disjoint 0 ?_
  have hne : i.val ≠ j.val := fun e => h (Fin.ext e)
  show i.val + 1 ≤ j.val ∨ j.val + 1 ≤ i.val
  omega

/-- Every element of the first landing buffer lies in the slot of its leading coordinate. -/
theorem rectA_cover : (Finset.univ.biUnion fun i : Fin 17 => (rectA i).set) = Finset.univ := by
  ext a
  simp only [Finset.mem_biUnion, Finset.mem_univ, true_and, iff_true]
  refine ⟨a 0, Rect.mem_set_unit.mpr fun ax => ?_⟩
  have h1 : (a 1).val < 64 := (a 1).isLt
  have h2 : (a 2).val < 512 := (a 2).isLt
  fin_cases ax
  · show (a 0).val ≤ (a 0).val ∧ (a 0).val < (a 0).val + 1
    omega
  · show 0 ≤ (a 1).val ∧ (a 1).val < 0 + 64
    omega
  · show 0 ≤ (a 2).val ∧ (a 2).val < 0 + 512
    omega

theorem rectB_cover : (Finset.univ.biUnion fun j : Fin 15 => (rectB j).set) = Finset.univ := by
  ext a
  simp only [Finset.mem_biUnion, Finset.mem_univ, true_and, iff_true]
  refine ⟨a 0, Rect.mem_set_unit.mpr fun ax => ?_⟩
  have h1 : (a 1).val < 64 := (a 1).isLt
  have h2 : (a 2).val < 512 := (a 2).isLt
  fin_cases ax
  · show (a 0).val ≤ (a 0).val ∧ (a 0).val < (a 0).val + 1
    omega
  · show 0 ≤ (a 1).val ∧ (a 1).val < 0 + 64
    omega
  · show 0 ≤ (a 2).val ∧ (a 2).val < 0 + 512
    omega

/-! ## The landing buffers, slot by slot -/

theorem splitA_eq (d : Dev nD) (q : PosShare TreeShare)
    (f : Buf (Elt F) ((aM : Memref sig .tc .vmem S17x64x512 .f32).view.loc (d : Thread nD τ))) :
    ((aM : Memref sig .tc .vmem S17x64x512 .f32).view.loc (d : Thread nD τ) ↦[(aM : Memref sig .tc .vmem S17x64x512 .f32).view.set]{q} f : sProp 𝕄)
      = bigSep Finset.univ fun i : Fin 17 => (slotA i).view.loc (d : Thread nD τ) ↦[(slotA i).view.set]{q} f := by
  have hset : (aM : Memref sig .tc .vmem S17x64x512 .f32).view.set = Finset.univ.biUnion fun i : Fin 17 => (slotA i).view.set := by
    refine (View.set_whole cc0_scratch0).trans (rectA_cover.symm.trans ?_)
    exact Finset.biUnion_congr rfl fun i _ => (slotA_set i).symm
  rw [hset]
  exact pointsTo_biUnion Finset.univ _ fun i _ j _ h => by rw [slotA_set, slotA_set]; exact rectA_disjoint h

/-- The first landing buffer is its 17 slots. -/
theorem splitA (d : Dev nD) (q : PosShare TreeShare)
    (f : Buf (Elt F) ((aM : Memref sig .tc .vmem S17x64x512 .f32).view.loc (d : Thread nD τ))) :
    ((aM : Memref sig .tc .vmem S17x64x512 .f32).view.loc (d : Thread nD τ) ↦[(aM : Memref sig .tc .vmem S17x64x512 .f32).view.set]{q} f : sProp 𝕄)
      ⊣⊢ bigSep Finset.univ fun i : Fin 17 => (slotA i).view.loc (d : Thread nD τ) ↦[(slotA i).view.set]{q} f :=
  .of_eq (splitA_eq d q f)

theorem splitB_eq (d : Dev nD) (q : PosShare TreeShare)
    (f : Buf (Elt F) ((bM : Memref sig .tc .vmem S15x64x512 .f32).view.loc (d : Thread nD τ))) :
    ((bM : Memref sig .tc .vmem S15x64x512 .f32).view.loc (d : Thread nD τ) ↦[(bM : Memref sig .tc .vmem S15x64x512 .f32).view.set]{q} f : sProp 𝕄)
      = bigSep Finset.univ fun j : Fin 15 => (slotB j).view.loc (d : Thread nD τ) ↦[(slotB j).view.set]{q} f := by
  have hset : (bM : Memref sig .tc .vmem S15x64x512 .f32).view.set = Finset.univ.biUnion fun j : Fin 15 => (slotB j).view.set := by
    refine (View.set_whole cc0_scratch1).trans (rectB_cover.symm.trans ?_)
    exact Finset.biUnion_congr rfl fun j _ => (slotB_set j).symm
  rw [hset]
  exact pointsTo_biUnion Finset.univ _ fun i _ j _ h => by rw [slotB_set, slotB_set]; exact rectB_disjoint h

/-- The second landing buffer is its 15 slots. -/
theorem splitB (d : Dev nD) (q : PosShare TreeShare)
    (f : Buf (Elt F) ((bM : Memref sig .tc .vmem S15x64x512 .f32).view.loc (d : Thread nD τ))) :
    ((bM : Memref sig .tc .vmem S15x64x512 .f32).view.loc (d : Thread nD τ) ↦[(bM : Memref sig .tc .vmem S15x64x512 .f32).view.set]{q} f : sProp 𝕄)
      ⊣⊢ bigSep Finset.univ fun j : Fin 15 => (slotB j).view.loc (d : Thread nD τ) ↦[(slotB j).view.set]{q} f :=
  .of_eq (splitB_eq d q f)

/-! ## The staged argument block: the rows the 17 transfers read -/

/-- Assertions that entail each other are equal. -/
theorem eq_of_biEntails {P Q : sProp 𝕄} (h : P ⊣⊢ Q) : P = Q := BI.equiv_iff.mp ⟨h.1, h.2⟩

/-- The first row of chunk `i`: 16 chunks of 64 rows from row `1024 · (d mod 2)`, then the last 64 rows of the other half. -/
theorem offA_eq (d : Dev nD) (i : Fin 17) :
    offA d i = ![if i.val < 16 then 1024 * (d.val % 2) + 64 * i.val else 1984 - 1024 * (d.val % 2), 0] := by
  unfold offA; split
  · next h => exact k0_off1_eq d ⟨i.val, h⟩
  · exact k0_off2_eq d

/-- Different chunks read different rows. -/
theorem rectS_disjoint (d : Dev nD) {i j : Fin 17} (h : i ≠ j) : Disjoint (rectS d i).set (rectS d j).set := by
  refine Rect.unit_disjoint 0 ?_
  rw [offA_eq, offA_eq]
  have hi := i.isLt
  have hj := j.isLt
  have hne : i.val ≠ j.val := fun e => h (Fin.ext e)
  have hd : d.val % 2 < 2 := Nat.mod_lt _ (by decide)
  show (if i.val < 16 then 1024 * (d.val % 2) + 64 * i.val else 1984 - 1024 * (d.val % 2)) + 64
        ≤ (if j.val < 16 then 1024 * (d.val % 2) + 64 * j.val else 1984 - 1024 * (d.val % 2))
      ∨ (if j.val < 16 then 1024 * (d.val % 2) + 64 * j.val else 1984 - 1024 * (d.val % 2)) + 64
        ≤ (if i.val < 16 then 1024 * (d.val % 2) + 64 * i.val else 1984 - 1024 * (d.val % 2))
  split_ifs <;> omega

theorem srcA_disjoint (d : Dev nD) {i j : Fin 17} (h : i ≠ j) : Disjoint (srcA d i).view.set (srcA d j).view.set := by
  rw [srcA_set, srcA_set]; exact rectS_disjoint d h

/-- The whole staged block at the full share: one half of the share kept whole to read from, the other half cut into
    the 17 chunks the transfers hold while in flight and the rows no transfer reads. -/
theorem splitX_eq (d : Dev nD)
    (f : Buf (Elt F) ((xM : Memref sig .tc .vmem S2048x512 .f32).view.loc (d : Thread nD τ))) :
    ((xM : Memref sig .tc .vmem S2048x512 .f32).view.loc (d : Thread nD τ) ↦[(xM : Memref sig .tc .vmem S2048x512 .f32).view.set]{fullShare} f : sProp 𝕄)
      = iprop(((xM : Memref sig .tc .vmem S2048x512 .f32).view.loc (d : Thread nD τ) ↦[(xM : Memref sig .tc .vmem S2048x512 .f32).view.set]{qL} f)
        ∗ (bigSep Finset.univ fun i : Fin 17 => (srcA d i).view.loc (d : Thread nD τ) ↦[(srcA d i).view.set]{qS} f)
        ∗ ((xM : Memref sig .tc .vmem S2048x512 .f32).view.loc (d : Thread nD τ)
            ↦[(xM : Memref sig .tc .vmem S2048x512 .f32).view.set \ (Finset.univ.biUnion fun i : Fin 17 => (srcA d i).view.set)]{qS} f)) := by
  have hshare : ((xM : Memref sig .tc .vmem S2048x512 .f32).view.loc (d : Thread nD τ) ↦[(xM : Memref sig .tc .vmem S2048x512 .f32).view.set]{fullShare} f : sProp 𝕄)
      = iprop(((xM : Memref sig .tc .vmem S2048x512 .f32).view.loc (d : Thread nD τ) ↦[(xM : Memref sig .tc .vmem S2048x512 .f32).view.set]{qL} f)
        ∗ ((xM : Memref sig .tc .vmem S2048x512 .f32).view.loc (d : Thread nD τ) ↦[(xM : Memref sig .tc .vmem S2048x512 .f32).view.set]{qS} f)) :=
    eq_of_biEntails (pointsTo_share (PosShare.mem_left_op_right fullShare))
  have hsub : (Finset.univ.biUnion fun i : Fin 17 => (srcA d i).view.set) ⊆ (xM : Memref sig .tc .vmem S2048x512 .f32).view.set := by
    rw [show (xM : Memref sig .tc .vmem S2048x512 .f32).view.set = Finset.univ from View.set_whole cc0_stg0_0]
    exact Finset.subset_univ _
  have hcut : ((xM : Memref sig .tc .vmem S2048x512 .f32).view.loc (d : Thread nD τ) ↦[(xM : Memref sig .tc .vmem S2048x512 .f32).view.set]{qS} f : sProp 𝕄)
      = iprop(((xM : Memref sig .tc .vmem S2048x512 .f32).view.loc (d : Thread nD τ) ↦[Finset.univ.biUnion fun i : Fin 17 => (srcA d i).view.set]{qS} f)
        ∗ ((xM : Memref sig .tc .vmem S2048x512 .f32).view.loc (d : Thread nD τ)
            ↦[(xM : Memref sig .tc .vmem S2048x512 .f32).view.set \ (Finset.univ.biUnion fun i : Fin 17 => (srcA d i).view.set)]{qS} f)) :=
    eq_of_biEntails (pointsTo_split_subset hsub)
  have hbig : ((xM : Memref sig .tc .vmem S2048x512 .f32).view.loc (d : Thread nD τ) ↦[Finset.univ.biUnion fun i : Fin 17 => (srcA d i).view.set]{qS} f : sProp 𝕄)
      = bigSep Finset.univ fun i : Fin 17 => (srcA d i).view.loc (d : Thread nD τ) ↦[(srcA d i).view.set]{qS} f :=
    pointsTo_biUnion Finset.univ _ fun i _ j _ h => srcA_disjoint d h
  rw [hshare, hcut, hbig]

theorem splitX (d : Dev nD)
    (f : Buf (Elt F) ((xM : Memref sig .tc .vmem S2048x512 .f32).view.loc (d : Thread nD τ))) :
    ((xM : Memref sig .tc .vmem S2048x512 .f32).view.loc (d : Thread nD τ) ↦[(xM : Memref sig .tc .vmem S2048x512 .f32).view.set]{fullShare} f : sProp 𝕄)
      ⊣⊢ iprop(((xM : Memref sig .tc .vmem S2048x512 .f32).view.loc (d : Thread nD τ) ↦[(xM : Memref sig .tc .vmem S2048x512 .f32).view.set]{qL} f)
        ∗ (bigSep Finset.univ fun i : Fin 17 => (srcA d i).view.loc (d : Thread nD τ) ↦[(srcA d i).view.set]{qS} f)
        ∗ ((xM : Memref sig .tc .vmem S2048x512 .f32).view.loc (d : Thread nD τ)
            ↦[(xM : Memref sig .tc .vmem S2048x512 .f32).view.set \ (Finset.univ.biUnion fun i : Fin 17 => (srcA d i).view.set)]{qS} f)) :=
  .of_eq (splitX_eq d f)

/-! ## A load of one slot through the whole landing buffer -/

theorem loadA_eq (i : Fin 17) :
    (aM : Memref sig .tc .vmem S17x64x512 .f32).view.setOn (rectA i).toLoadRect.set = (slotA i).view.set := by
  rw [slotA_set]
  exact Finset.map_refl

/-- The elements a load of slot `i` through the whole first landing buffer reads are the slot's. -/
theorem loadA_sub (i : Fin 17) :
    (aM : Memref sig .tc .vmem S17x64x512 .f32).view.setOn (rectA i).toLoadRect.set ⊆ (slotA i).view.set :=
  (loadA_eq i).subset

theorem loadB_eq (j : Fin 15) :
    (bM : Memref sig .tc .vmem S15x64x512 .f32).view.setOn (rectB j).toLoadRect.set = (slotB j).view.set := by
  rw [slotB_set]
  exact Finset.map_refl

theorem loadB_sub (j : Fin 15) :
    (bM : Memref sig .tc .vmem S15x64x512 .f32).view.setOn (rectB j).toLoadRect.set ⊆ (slotB j).view.set :=
  (loadB_eq j).subset

end Cert.Kernel.ARProof

end
-- ==== Proof.KClose.lean ====
/-
  The end of the body: every transfer cell of a device has consumed its one round.

  Each of the 64 transfer cells of a device (17 departures and 17 arrivals of the transfers across `x`, 15 departures and
  15 arrivals of the relays) has a single round. Once its owner stands past that round with nothing pending, the cell can
  be closed: its counter, at zero, returns to the device. The 64 counters at zero, numbered as the device's own
  semaphores are (DMA semaphore `k + 2` is the `k`-th own semaphore), are what the device hands back at the end.
-/
import proofs.«900127_g7700000000000128_dist_ar_v7x_xy2x2_x_m2048_n512_f32_1_alg».proof.Proof.KProto

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell whose owner stands past its only round, nothing pending, closes: its counter returns at zero. -/
theorem close_one [∀ e, Nonempty (Elt F e)] (κ : ℕ) (g : GSem nD τ sig) :
    iprop(cellInv ER (sched m) κ g ∗ atPos ER g 1 ∅ 0) ⊢ (|={Set.univ}=> semVal g 0 : sProp 𝕄) :=
  Rounds.cell_close ER (sched m) (Set.mem_univ κ) (fun h => h) (R := 1) (duties_later m g)

/-- A finite family of such cells closes at once. -/
theorem close_family [∀ e, Nonempty (Elt F e)] {n : ℕ} (κ : Fin n → ℕ) (g : Fin n → GSem nD τ sig) :
    iprop((bigSep Finset.univ fun i => cellInv ER (sched m) (κ i) (g i)) ∗ bigSep Finset.univ fun i => atPos ER (g i) 1 ∅ 0)
      ⊢ (|={Set.univ}=> bigSep Finset.univ fun i => semVal (g i) 0 : sProp 𝕄) := by
  rw [← bigSep_sep']
  exact (bigSep_mono fun i _ => close_one m (κ i) (g i)).trans (bigSep_fupd _ _)

/-- A family over `Fin (a + b)` is the family over its first `a` members and the one over its last `b`. -/
theorem bigSep_fin_addC (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

/-- The `k`-th own semaphore is DMA semaphore `k + 2`. -/
theorem osem_eq (k : Fin 64) (q : DmaSem sig) (h : q.val = k.val + 2) : osem k = .dma q := by
  unfold osem; congr 1; exact Fin.ext h.symm

/-- The four families, in the order of their semaphores, are the device's 64 own semaphores. -/
theorem sems64 (c : Dev nD) :
    iprop((bigSep Finset.univ fun i : Fin 17 => semVal (dmaCell c (sAx i)) 0) ∗ (bigSep Finset.univ fun i : Fin 17 => semVal (dmaCell c (rAx i)) 0)
        ∗ (bigSep Finset.univ fun j : Fin 15 => semVal (dmaCell c (sBy j)) 0) ∗ (bigSep Finset.univ fun j : Fin 15 => semVal (dmaCell c (rBy j)) 0))
      ⊢ (bigSep Finset.univ fun k : Fin 64 => semVal ((c : Thread nD τ), osem k) 0 : sProp 𝕄) := by
  have hS (i : Fin 17) : dmaCell c (sAx i) = ((c : Thread nD τ), osem (Fin.castAdd 15 (Fin.castAdd 15 (Fin.castAdd 17 i)))) := by
    rw [osem_eq _ (sAx i) (by rw [sAx_val]; show 2 + i.val = i.val + 2; omega)]
  have hR (i : Fin 17) : dmaCell c (rAx i) = ((c : Thread nD τ), osem (Fin.castAdd 15 (Fin.castAdd 15 (Fin.natAdd 17 i)))) := by
    rw [osem_eq _ (rAx i) (by rw [rAx_val]; show 19 + i.val = 17 + i.val + 2; omega)]
  have hSB (j : Fin 15) : dmaCell c (sBy j) = ((c : Thread nD τ), osem (Fin.castAdd 15 (Fin.natAdd 34 j))) := by
    rw [osem_eq _ (sBy j) (by rw [sBy_val]; show 36 + j.val = 34 + j.val + 2; omega)]
  have hRB (j : Fin 15) : dmaCell c (rBy j) = ((c : Thread nD τ), osem (Fin.natAdd 49 j)) := by
    rw [osem_eq _ (rBy j) (by rw [rBy_val]; show 51 + j.val = 49 + j.val + 2; omega)]
  have h1 := bigSep_fin_addC (F := F) 49 15 (fun k => semVal ((c : Thread nD τ), osem k) 0)
  have h2 := bigSep_fin_addC (F := F) 34 15 (fun a => semVal ((c : Thread nD τ), osem (Fin.castAdd 15 a)) 0)
  have h3 := bigSep_fin_addC (F := F) 17 17 (fun a => semVal ((c : Thread nD τ), osem (Fin.castAdd 15 (Fin.castAdd 15 a))) 0)
  rw [show (bigSep Finset.univ fun k : Fin 64 => (semVal ((c : Thread nD τ), osem k) 0 : sProp 𝕄)) = _ from h1, h2, h3]
  simp only [hS, hR, hSB, hRB]
  iintro ⟨H1, H2, H3, H4⟩
  isplitl [H1 H2 H3]
  · isplitl [H1 H2]
    · isplitl [H1] <;> iassumption
    · iexact H3
  · iexact H4

/-- At the end of the body all 64 transfer cells of device `c` close: its own semaphores at zero. -/
theorem close_all [∀ e, Nonempty (Elt F e)] (κS κR : Fin 17 → ℕ) (κSB κRB : Fin 15 → ℕ) (c : Dev nD) :
    iprop((bigSep Finset.univ fun i : Fin 17 => cellInv ER (sched m) (κS i) (dmaCell c (sAx i))) ∗ (bigSep Finset.univ fun i : Fin 17 => cellInv ER (sched m) (κR i) (dmaCell c (rAx i)))
        ∗ (bigSep Finset.univ fun j : Fin 15 => cellInv ER (sched m) (κSB j) (dmaCell c (sBy j))) ∗ (bigSep Finset.univ fun j : Fin 15 => cellInv ER (sched m) (κRB j) (dmaCell c (rBy j)))
        ∗ (bigSep Finset.univ fun i : Fin 17 => atPos ER (dmaCell c (sAx i)) 1 ∅ 0) ∗ (bigSep Finset.univ fun i : Fin 17 => atPos ER (dmaCell c (rAx i)) 1 ∅ 0)
        ∗ (bigSep Finset.univ fun j : Fin 15 => atPos ER (dmaCell c (sBy j)) 1 ∅ 0) ∗ (bigSep Finset.univ fun j : Fin 15 => atPos ER (dmaCell c (rBy j)) 1 ∅ 0))
      ⊢ |={Set.univ}=> (bigSep Finset.univ fun k : Fin 64 => semVal ((c : Thread nD τ), osem k) 0 : sProp 𝕄) := by
  iintro ⟨I1, I2, I3, I4, A1, A2, A3, A4⟩
  imod (close_family m κS fun i => dmaCell c (sAx i)) $$ [I1 A1] with H1
  · isplitl [I1] <;> iassumption
  imod (close_family m κR fun i => dmaCell c (rAx i)) $$ [I2 A2] with H2
  · isplitl [I2] <;> iassumption
  imod (close_family m κSB fun j => dmaCell c (sBy j)) $$ [I3 A3] with H3
  · isplitl [I3] <;> iassumption
  imod (close_family m κRB fun j => dmaCell c (rBy j)) $$ [I4 A4] with H4
  · isplitl [I4] <;> iassumption
  imodintro
  iapply (sems64 (F := F) c)
  isplitl [H1]; · iexact H1
  isplitl [H2]; · iexact H2
  isplitl [H3] <;> iassumption

end Cert.Kernel.ARProof

end
-- ==== Proof.KSteps.lean ====
/-
  The two transfer steps of the all-reduce, each from ONE assertion holding the transfer's resources.

  A device's body alternates stretches of local work with its 17 transfers across `x` and its 15 relays across `y`.
  Each transfer needs the invariants and reached-round facts of two cells (its departure cell on the device, its arrival
  cell on the peer), two duty tokens, the source rows and the destination slot. The invariants and reached-round facts
  are read off the regrouped ghost state; the rest is gathered per chunk.
-/
import proofs.«900127_g7700000000000128_dist_ar_v7x_xy2x2_x_m2048_n512_f32_1_alg».proof.Proof.KUnpack
import proofs.«900127_g7700000000000128_dist_ar_v7x_xy2x2_x_m2048_n512_f32_1_alg».proof.Proof.KFrag

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps
variable [∀ e, Nonempty (Elt F e)]

/-! ## One cell's invariant and reached-round fact out of the regrouped state -/

/-- One summand of a separating conjunction over a finite type. -/
theorem bigSep_pick {J : Type} [Fintype J] [DecidableEq J] (Φ : J → sProp 𝕄) (j : J) : bigSep Finset.univ Φ ⊢ Φ j :=
  bigSep_elim (Finset.mem_univ j)

theorem invsB_sA (K : Dev nD × Fin 65 → ℕ) (c : Dev nD) (i : Fin 17) :
    invsB m K c ⊢ cellInv ER (sched m) (K (c, kSA i)) (dmaCell c (sAx i)) := by
  unfold invsB; iintro ⟨-, H, -⟩
  iapply (bigSep_pick (fun i : Fin 17 => cellInv ER (sched m) (K (c, kSA i)) (dmaCell c (sAx i))) i); iexact H
theorem invsB_sB (K : Dev nD × Fin 65 → ℕ) (c : Dev nD) (j : Fin 15) :
    invsB m K c ⊢ cellInv ER (sched m) (K (c, kSB j)) (dmaCell c (sBy j)) := by
  unfold invsB; iintro ⟨-, -, -, H, -⟩
  iapply (bigSep_pick (fun j : Fin 15 => cellInv ER (sched m) (K (c, kSB j)) (dmaCell c (sBy j))) j); iexact H
theorem invsB_xrA (K : Dev nD × Fin 65 → ℕ) (c : Dev nD) (i : Fin 17) :
    invsB m K c ⊢ cellInv ER (sched m) (K (xp c, kRA i)) (dmaCell (xp c) (rAx i)) := by
  unfold invsB; iintro ⟨-, -, -, -, -, -, -, H, -⟩
  iapply (bigSep_pick (fun i : Fin 17 => cellInv ER (sched m) (K (xp c, kRA i)) (dmaCell (xp c) (rAx i))) i); iexact H
theorem invsB_yrB (K : Dev nD × Fin 65 → ℕ) (c : Dev nD) (j : Fin 15) :
    invsB m K c ⊢ cellInv ER (sched m) (K (yp c, kRB j)) (dmaCell (yp c) (rBy j)) := by
  unfold invsB; iintro ⟨-, -, -, -, -, -, -, -, H⟩
  iapply (bigSep_pick (fun j : Fin 15 => cellInv ER (sched m) (K (yp c, kRB j)) (dmaCell (yp c) (rBy j))) j); iexact H

theorem reachedB_sA (c : Dev nD) (i : Fin 17) : reachedB (F := F) c ⊢ reached ER (dmaCell c (sAx i)) 0 := by
  unfold reachedB; iintro ⟨-, H, -⟩
  iapply (bigSep_pick (fun i : Fin 17 => (reached ER (dmaCell c (sAx i)) 0 : sProp 𝕄)) i); iexact H
theorem reachedB_sB (c : Dev nD) (j : Fin 15) : reachedB (F := F) c ⊢ reached ER (dmaCell c (sBy j)) 0 := by
  unfold reachedB; iintro ⟨-, -, -, H, -⟩
  iapply (bigSep_pick (fun j : Fin 15 => (reached ER (dmaCell c (sBy j)) 0 : sProp 𝕄)) j); iexact H
theorem reachedB_xrA (c : Dev nD) (i : Fin 17) : reachedB (F := F) c ⊢ reached ER (dmaCell (xp c) (rAx i)) 0 := by
  unfold reachedB; iintro ⟨-, -, -, -, -, -, -, H, -⟩
  iapply (bigSep_pick (fun i : Fin 17 => (reached ER (dmaCell (xp c) (rAx i)) 0 : sProp 𝕄)) i); iexact H
theorem reachedB_yrB (c : Dev nD) (j : Fin 15) : reachedB (F := F) c ⊢ reached ER (dmaCell (yp c) (rBy j)) 0 := by
  unfold reachedB; iintro ⟨-, -, -, -, -, -, -, -, H⟩
  iapply (bigSep_pick (fun j : Fin 15 => (reached ER (dmaCell (yp c) (rBy j)) 0 : sProp 𝕄)) j); iexact H

/-! ## A transfer's resources as one assertion -/

/-- What the transfer of chunk `i` across `x` consumes: the share of its 64 source rows it lends the copy, the two
    duty tokens (departure on the device's own cell, arrival on the peer's), and slot `i` of the peer's first landing
    buffer. -/
def chunkA (c : Dev nD) (i : Fin 17) (f : Buf (Elt F) ((slotA i : Memref sig .tc .vmem S64x512 .f32).view.loc (xp c : Thread nD τ))) : sProp 𝕄 :=
  iprop(srcPts m c i ∗ dutyTok ER (dmaCell c (sAx i)) 0 false ∗ dutyTok ER (dmaCell (xp c) (rAx i)) 0 false
    ∗ ((slotA i : Memref sig .tc .vmem S64x512 .f32).view.loc (xp c : Thread nD τ) ↦[(slotA i : Memref sig .tc .vmem S64x512 .f32).view.set]{fullShare} f))

/-- What the relay of slot `j` across `y` consumes besides its source: the two duty tokens and slot `j` of the peer's
    second landing buffer. -/
def chunkB (c : Dev nD) (j : Fin 15) (f : Buf (Elt F) ((slotB j : Memref sig .tc .vmem S64x512 .f32).view.loc (yp c : Thread nD τ))) : sProp 𝕄 :=
  iprop(dutyTok ER (dmaCell c (sBy j)) 0 false ∗ dutyTok ER (dmaCell (yp c) (rBy j)) 0 false
    ∗ ((slotB j : Memref sig .tc .vmem S64x512 .f32).view.loc (yp c : Thread nD τ) ↦[(slotB j : Memref sig .tc .vmem S64x512 .f32).view.set]{fullShare} f))

/-- The transfer of chunk `i` across `x`, from the regrouped state and the chunk's resources. -/
theorem sendA_step (K : Dev nD × Fin 65 → ℕ) (c n : Dev nD) (hn : n = xp c) (i : Fin 17)
    {hsc : (slotA i : Memref sig (Dev.tc n : Thread nD τ).2.kind .vmem S64x512 .f32).view.ref.isScScratch = false}
    {hsrc : (srcA c i).view.WordExact} {hdst : (slotA i : Memref sig .tc .vmem S64x512 .f32).view.WordExact}
    {hsem : DmaTarget.Typed .vmem (.dma (rAx i)) (.remote (Dev.tc n : Thread nD τ) (slotA i : Memref sig .tc .vmem S64x512 .f32) (.dma (sAx i)) hsc)}
    {α : Type} {Q : α → sProp 𝕄} {k : PUnit → Prog (TpuEff nD τ sig (Elt F) Λ₀ .tc) α}
    (f : Buf (Elt F) ((slotA i : Memref sig .tc .vmem S64x512 .f32).view.loc (xp c : Thread nD τ))) (O : CellTallies nD τ sig Unit) (W : Waits sig Unit) :
    iprop(invsB m K c ∗ reachedB c ∗ chunkA m c i f ∗ owes (c : Thread nD τ) (O + tallyAt (dmaCell (xp c) (rAx i)) () N) W)
      ⊢ iprop(((cred (tallyAt (dmaCell c (sAx i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c i) (.remote (Dev.tc n : Thread nD τ) (slotA i) (.dma (sAx i)) hsc) (.dma (rAx i)) hsrc hdst hsem) k) Q) := by
  unfold chunkA
  iintro ⟨#HI, #HR, ⟨Hsrc, Ht1, Ht2, Hdst⟩, Ho⟩
  ihave #Hi1 := (invsB_sA m K c i) $$ HI
  ihave #Hi2 := (invsB_xrA m K c i) $$ HI
  ihave #Hr1 := (reachedB_sA c i) $$ HR
  ihave #Hr2 := (reachedB_xrA c i) $$ HR
  iapply (wp_sendA m (K (c, kSA i)) (K (xp c, kRA i)) c n hn i f O W)
  isplitr; · iexact Hi1
  isplitr; · iexact Hi2
  isplitl [Hsrc]; · iexact Hsrc
  isplitl [Hdst]; · iexact Hdst
  isplitl [Ho]; · iexact Ho
  isplitl [Ht1]; · iexact Ht1
  isplitr; · iexact Hr1
  isplitl [Ht2]; · iexact Ht2
  iexact Hr2

/-- The relay of slot `j` across `y`, from the regrouped state, the relay's resources and the lent share of the slot. -/
theorem sendB_step (K : Dev nD × Fin 65 → ℕ) (c n : Dev nD) (hn : n = yp c) (j : Fin 15)
    {hsc : (slotB j : Memref sig (Dev.tc n : Thread nD τ).2.kind .vmem S64x512 .f32).view.ref.isScScratch = false}
    {hsrc : (slotA (up j) : Memref sig .tc .vmem S64x512 .f32).view.WordExact} {hdst : (slotB j : Memref sig .tc .vmem S64x512 .f32).view.WordExact}
    {hsem : DmaTarget.Typed .vmem (.dma (rBy j)) (.remote (Dev.tc n : Thread nD τ) (slotB j : Memref sig .tc .vmem S64x512 .f32) (.dma (sBy j)) hsc)}
    {α : Type} {Q : α → sProp 𝕄} {k : PUnit → Prog (TpuEff nD τ sig (Elt F) Λ₀ .tc) α}
    (f : Buf (Elt F) ((slotB j : Memref sig .tc .vmem S64x512 .f32).view.loc (yp c : Thread nD τ))) (O : CellTallies nD τ sig Unit) (W : Waits sig Unit) :
    iprop(invsB m K c ∗ reachedB c ∗ chunkB c j f ∗ slotAPts m c (up j) qS ∗ owes (c : Thread nD τ) (O + tallyAt (dmaCell (yp c) (rBy j)) () N) W)
      ⊢ iprop(((cred (tallyAt (dmaCell c (sBy j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA (up j)) (.remote (Dev.tc n : Thread nD τ) (slotB j) (.dma (sBy j)) hsc) (.dma (rBy j)) hsrc hdst hsem) k) Q) := by
  unfold chunkB
  iintro ⟨#HI, #HR, ⟨Ht1, Ht2, Hdst⟩, Hsrc, Ho⟩
  ihave #Hi1 := (invsB_sB m K c j) $$ HI
  ihave #Hi2 := (invsB_yrB m K c j) $$ HI
  ihave #Hr1 := (reachedB_sB c j) $$ HR
  ihave #Hr2 := (reachedB_yrB c j) $$ HR
  iapply (wp_sendB m (K (c, kSB j)) (K (yp c, kRB j)) c n hn j f O W)
  isplitr; · iexact Hi1
  isplitr; · iexact Hi2
  isplitl [Hsrc]; · iexact Hsrc
  isplitl [Hdst]; · iexact Hdst
  isplitl [Ho]; · iexact Ho
  isplitl [Ht1]; · iexact Ht1
  isplitr; · iexact Hr1
  isplitl [Ht2]; · iexact Ht2
  iexact Hr2

/-! ## The chunks' resources, from the families -/

theorem chunksA_intro (c : Dev nD) (f : Buf (Elt F) ((aM : Memref sig .tc .vmem S17x64x512 .f32).view.loc (xp c : Thread nD τ))) :
    iprop((bigSep Finset.univ fun i : Fin 17 => srcPts m c i)
        ∗ (bigSep Finset.univ fun i : Fin 17 => dutyTok ER (dmaCell c (sAx i)) 0 false)
        ∗ (bigSep Finset.univ fun i : Fin 17 => dutyTok ER (dmaCell (xp c) (rAx i)) 0 false)
        ∗ (bigSep Finset.univ fun i : Fin 17 => (slotA i : Memref sig .tc .vmem S64x512 .f32).view.loc (xp c : Thread nD τ) ↦[(slotA i : Memref sig .tc .vmem S64x512 .f32).view.set]{fullShare} f))
      ⊢ iprop(chunkA m c 0 f ∗ chunkA m c 1 f ∗ chunkA m c 2 f ∗ chunkA m c 3 f ∗ chunkA m c 4 f ∗ chunkA m c 5 f ∗ chunkA m c 6 f ∗ chunkA m c 7 f
          ∗ chunkA m c 8 f ∗ chunkA m c 9 f ∗ chunkA m c 10 f ∗ chunkA m c 11 f ∗ chunkA m c 12 f ∗ chunkA m c 13 f ∗ chunkA m c 14 f ∗ chunkA m c 15 f
          ∗ chunkA m c 16 f) := by
  refine BI.Entails.trans ?_ (Entails.of_eq (bigSep_fin17 fun i => chunkA m c i f))
  unfold chunkA
  rw [bigSep_sep', bigSep_sep', bigSep_sep']
  exact BI.Entails.refl _

theorem chunksB_intro (c : Dev nD) (f : Buf (Elt F) ((bM : Memref sig .tc .vmem S15x64x512 .f32).view.loc (yp c : Thread nD τ))) :
    iprop((bigSep Finset.univ fun j : Fin 15 => dutyTok ER (dmaCell c (sBy j)) 0 false)
        ∗ (bigSep Finset.univ fun j : Fin 15 => dutyTok ER (dmaCell (yp c) (rBy j)) 0 false)
        ∗ (bigSep Finset.univ fun j : Fin 15 => (slotB j : Memref sig .tc .vmem S64x512 .f32).view.loc (yp c : Thread nD τ) ↦[(slotB j : Memref sig .tc .vmem S64x512 .f32).view.set]{fullShare} f))
      ⊢ iprop(chunkB c 0 f ∗ chunkB c 1 f ∗ chunkB c 2 f ∗ chunkB c 3 f ∗ chunkB c 4 f ∗ chunkB c 5 f ∗ chunkB c 6 f ∗ chunkB c 7 f
          ∗ chunkB c 8 f ∗ chunkB c 9 f ∗ chunkB c 10 f ∗ chunkB c 11 f ∗ chunkB c 12 f ∗ chunkB c 13 f ∗ chunkB c 14 f) := by
  refine BI.Entails.trans ?_ (Entails.of_eq (bigSep_fin15 fun j => chunkB c j f))
  unfold chunkB
  rw [bigSep_sep', bigSep_sep']
  exact BI.Entails.refl _

/-- A landed slot, whole, is the share a relay borrows and the share the device keeps to read. -/
theorem slot_share (c : Dev nD) (i : Fin 17) : slotAPts m c i fullShare ⊣⊢ iprop(slotAPts m c i qS ∗ slotAPts m c i qL) := by
  unfold slotAPts
  exact pointsTo_share (PCS.mem_op_comm.mp (PosShare.mem_left_op_right fullShare))

end Steps

end Cert.Kernel.ARProof

end
-- ==== Proof.KOutList.lean ====
/-
  The result buffer, written chunk by chunk.

  The body stores 32 chunks of 64 rows into the result buffer, chunk `k` through the rectangle of rows it covers. Kept as
  a list of writes, the last write first, the contents after all 32 stores are the contents the chunk-by-chunk recursion
  `outSeq` names: writing the list's head over what the tail leaves is one step of that recursion.
-/
import proofs.«900127_g7700000000000128_dist_ar_v7x_xy2x2_x_m2048_n512_f32_1_alg».proof.Proof.KProto
import Idealize.ShloMosaic.Lib.Writes

noncomputable section

namespace Cert.Kernel.ARProof

open Cert.Kernel Cert.Kernel.Gen Cert.Kernel.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) [∀ e, Nonempty (Elt F e)]

/-- The 32 stores of the body as a list of writes, the last store first. -/
def outList (c : Dev nD) : List (View.Piece (Elt F) S2048x512 .f32) :=
  ((List.finRange 32).map fun k : Fin 32 => (⟨rectO c k, sumChunk m c k⟩ : View.Piece (Elt F) S2048x512 .f32)).reverse

/-- The first `n` stores, the last of them first. -/
def outPieces (c : Dev nD) : ℕ → List (View.Piece (Elt F) S2048x512 .f32)
  | 0 => []
  | n + 1 => if h : n < 32 then ⟨rectO c ⟨n, h⟩, sumChunk m c ⟨n, h⟩⟩ :: outPieces c n else outPieces c n

/-- The first `n` writes leave what the first `n` steps of the recursion leave. -/
theorem writes_outPieces (c : Dev nD) (g : (cc0_stg1_0 : Ref sig .tc).ty.Contents (Elt F)) :
    ∀ n, (oM : Memref sig .tc .vmem S2048x512 .f32).view.writes (Elt F) g (outPieces m c n) = outSeq m c g n
  | 0 => rfl
  | n + 1 => by
    by_cases h : n < 32
    · have e1 : outPieces m c (n + 1) = ⟨rectO c ⟨n, h⟩, sumChunk m c ⟨n, h⟩⟩ :: outPieces m c n := dif_pos h
      have e2 : outSeq m c g (n + 1)
          = ((oM : Memref sig .tc .vmem S2048x512 .f32).access (rectO c ⟨n, h⟩) : View sig .tc _ _ _).write (Elt F) (outSeq m c g n) (sumChunk m c ⟨n, h⟩) Finset.univ :=
        dif_pos h
      rw [e1, e2, View.writes_cons, writes_outPieces c g n]
    · have e1 : outPieces m c (n + 1) = outPieces m c n := dif_neg h
      have e2 : outSeq m c g (n + 1) = outSeq m c g n := dif_neg h
      rw [e1, e2]; exact writes_outPieces c g n

theorem outList_eq_pieces (c : Dev nD) : outList m c = outPieces m c 32 := rfl

/-- All 32 writes leave the contents the recursion names after 32 steps. -/
theorem writes_outList (c : Dev nD) (g : (cc0_stg1_0 : Ref sig .tc).ty.Contents (Elt F)) :
    (oM : Memref sig .tc .vmem S2048x512 .f32).view.writes (Elt F) g (outList m c) = outSeq m c g 32 := by
  rw [outList_eq_pieces]; exact writes_outPieces m c g 32

/-- The list written out, the last store first. -/
theorem outList_eq (c : Dev nD) : outList m c = [
     ⟨rectO c 31, sumChunk m c 31⟩, ⟨rectO c 30, sumChunk m c 30⟩, ⟨rectO c 29, sumChunk m c 29⟩,
     ⟨rectO c 28, sumChunk m c 28⟩, ⟨rectO c 27, sumChunk m c 27⟩, ⟨rectO c 26, sumChunk m c 26⟩,
     ⟨rectO c 25, sumChunk m c 25⟩, ⟨rectO c 24, sumChunk m c 24⟩, ⟨rectO c 23, sumChunk m c 23⟩,
     ⟨rectO c 22, sumChunk m c 22⟩, ⟨rectO c 21, sumChunk m c 21⟩, ⟨rectO c 20, sumChunk m c 20⟩,
     ⟨rectO c 19, sumChunk m c 19⟩, ⟨rectO c 18, sumChunk m c 18⟩, ⟨rectO c 17, sumChunk m c 17⟩,
     ⟨rectO c 16, sumChunk m c 16⟩, ⟨rectO c 15, sumChunk m c 15⟩, ⟨rectO c 14, sumChunk m c 14⟩,
     ⟨rectO c 13, sumChunk m c 13⟩, ⟨rectO c 12, sumChunk m c 12⟩, ⟨rectO c 11, sumChunk m c 11⟩,
     ⟨rectO c 10, sumChunk m c 10⟩, ⟨rectO c 9, sumChunk m c 9⟩, ⟨rectO c 8, sumChunk m c 8⟩,
     ⟨rectO c 7, sumChunk m c 7⟩, ⟨rectO c 6, sumChunk m c 6⟩, ⟨rectO c 5, sumChunk m c 5⟩,
     ⟨rectO c 4, sumChunk m c 4⟩, ⟨rectO c 3, sumChunk m c 3⟩, ⟨rectO c 2, sumChunk m c 2⟩,
     ⟨rectO c 1, sumChunk m c 1⟩, ⟨rectO c 0, sumChunk m c 0⟩] := rfl

end Cert.Kernel.ARProof

end
-- ==== Proof.KDevEqs.lean ====
import proofs.«900127_g7700000000000128_dist_ar_v7x_xy2x2_x_m2048_n512_f32_1_alg».proof.Proof.KSpec
import proofs.«900127_g7700000000000128_dist_ar_v7x_xy2x2_x_m2048_n512_f32_1_alg».proof.Proof.Gen.Kernel

namespace Cert.Kernel.ARProof

open Cert.Kernel Cert.Kernel.Gen Cert.Kernel.AR Idealize.ShloMosaic

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = xp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = xp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = xp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = xp c := Fin.ext (k0_dev17_eq c)
theorem dev18_eq (c : Dev nD) : (⟨k0_dev18 c, k0_dev18_lt c⟩ : Dev nD) = xp c := Fin.ext (k0_dev18_eq c)
theorem dev19_eq (c : Dev nD) : (⟨k0_dev19 c, k0_dev19_lt c⟩ : Dev nD) = xp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = yp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = yp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = yp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = yp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = yp c := Fin.ext (k0_dev33_eq c)
theorem dev34_eq (c : Dev nD) : (⟨k0_dev34 c, k0_dev34_lt c⟩ : Dev nD) = yp c := Fin.ext (k0_dev34_eq c)

end Cert.Kernel.ARProof
-- ==== Proof.KBodyRun.lean ====
/-
  One device's body of the all-reduce, run from the device's share of the protocol's ghost state.

  The device pays its two entry units and waits for its own two, which hand it both peers' landing buffers. It cuts the
  first of them into its 17 slots and sends the 17 chunks across x. Then, arrival by arrival, it relays a landed slot
  across y (lending the relay half of the slot's share, reading through the other half), adds the slot to its own rows and
  stores the sum; the slots relayed to it are added the same way. Last it waits for every departure, which returns the lent
  shares, closes its 64 cells and puts its buffers together again: the result holds, row by row, its own block plus the
  block that reached it.
-/
import proofs.«900127_g7700000000000128_dist_ar_v7x_xy2x2_x_m2048_n512_f32_1_alg».proof.Proof.KLForms
import proofs.«900127_g7700000000000128_dist_ar_v7x_xy2x2_x_m2048_n512_f32_1_alg».proof.Proof.KUnpack
import proofs.«900127_g7700000000000128_dist_ar_v7x_xy2x2_x_m2048_n512_f32_1_alg».proof.Proof.KPieces
import proofs.«900127_g7700000000000128_dist_ar_v7x_xy2x2_x_m2048_n512_f32_1_alg».proof.Proof.KClose
import proofs.«900127_g7700000000000128_dist_ar_v7x_xy2x2_x_m2048_n512_f32_1_alg».proof.Proof.KSteps
import proofs.«900127_g7700000000000128_dist_ar_v7x_xy2x2_x_m2048_n512_f32_1_alg».proof.Proof.KOutList
import proofs.«900127_g7700000000000128_dist_ar_v7x_xy2x2_x_m2048_n512_f32_1_alg».proof.Proof.KDevEqs
import Idealize.ShloMosaic.Lib.Exec

noncomputable section

namespace Cert.Kernel.ARProof

open Cert.Kernel Cert.Kernel.Gen Cert.Kernel.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families of 17 and of 15 written out -/

theorem open17 (Φ : Fin 17 → sProp 𝕄) : bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  Entails.of_eq (bigSep_fin17 Φ)
theorem open15 (Φ : Fin 15 → sProp 𝕄) : bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  Entails.of_eq (bigSep_fin15 Φ)
theorem close17 (Φ : Fin 17 → sProp 𝕄) : iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) ⊢ bigSep Finset.univ Φ :=
  Entails.of_eq (bigSep_fin17 Φ).symm
theorem close15 (Φ : Fin 15 → sProp 𝕄) : iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) ⊢ bigSep Finset.univ Φ :=
  Entails.of_eq (bigSep_fin15 Φ).symm

/-! ## The point, the staged buffers -/

theorem cfg0_N1 : cfg0.N = 1 := by decide
def pt0 : Fin cfg0.N := ⟨0, by rw [cfg0_N1]; decide⟩
theorem fin_pt (t : Fin cfg0.N) : t = pt0 := by
  obtain ⟨t, ht⟩ := t; have := cfg0_N1; exact Fin.ext (by simp only [pt0]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer through its view is the buffer. -/
theorem whole_pts (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  simp only [Memref.view_whole, View.set_whole]

section Body
variable [∀ e, Nonempty (Elt F e)] (K : Dev nD × Fin 65 → ℕ)

def bodyPre (c : Dev nD) : sProp 𝕄 :=
  iprop((ghost m K c ∗ creds c ∗ levAts L lv ∗ bufA c ∗ bufB c)
    ∗ (dats m 0 c).owesAt () pt0.castSucc
    ∗ (∃ d, stg c cc0_stg0_0 ((dats m 0 c).before (0 : Fin 2) pt0 d))
    ∗ (∃ d, stg c cc0_stg1_0 ((dats m 0 c).before (1 : Fin 2) pt0 d)))

def bodyPost (c : Dev nD) : sProp 𝕄 :=
  iprop(Φ₁ c ∗ (dats m 0 c).owesAt () pt0.succ ∗ stg c cc0_stg0_0 (xstg m c) ∗ stg c cc0_stg1_0 (outAt m c))

/-- The invariants and the reached rounds kept as two closed bundles for the transfer steps, beside a copy to take apart. -/
def invsKeep (c : Dev nD) : sProp 𝕄 := invsB m K c
def reachKeep (c : Dev nD) : sProp 𝕄 := reachedB (F := F) c
instance invsKeep_persistent (c : Dev nD) : BI.Persistent (invsKeep m K c) := by unfold invsKeep; infer_instance
instance reachKeep_persistent (c : Dev nD) : BI.Persistent (reachKeep (F := F) c) := by unfold reachKeep; infer_instance

theorem keep2 (c : Dev nD) : iprop(invsB m K c ∗ reachedB (F := F) c) ⊢ iprop((invsKeep m K c ∗ reachKeep (F := F) c) ∗ invsB m K c ∗ reachedB (F := F) c) := by
  unfold invsKeep reachKeep
  iintro ⟨#H1, #H2⟩
  isplitr
  · isplitr
    · iexact H1
    · iexact H2
  · isplitr
    · iexact H1
    · iexact H2

theorem sendA_stepK (c n : Dev nD) (hn : n = xp c) (i : Fin 17)
    {hsc : (slotA i : Memref sig (Dev.tc n : Thread nD τ).2.kind .vmem S64x512 .f32).view.ref.isScScratch = false}
    {hsrc : (srcA c i).view.WordExact} {hdst : (slotA i : Memref sig .tc .vmem S64x512 .f32).view.WordExact}
    {hsem : DmaTarget.Typed .vmem (.dma (rAx i)) (.remote (Dev.tc n : Thread nD τ) (slotA i : Memref sig .tc .vmem S64x512 .f32) (.dma (sAx i)) hsc)}
    {α : Type} {Q : α → sProp 𝕄} {k : PUnit → Prog (TpuEff nD τ sig (Elt F) Λ₀ .tc) α}
    (f : Buf (Elt F) ((slotA i : Memref sig .tc .vmem S64x512 .f32).view.loc (xp c : Thread nD τ))) (O : CellTallies nD τ sig Unit) (W : Waits sig Unit) :
    iprop(invsKeep m K c ∗ reachKeep (F := F) c ∗ chunkA m c i f ∗ owes (c : Thread nD τ) (O + tallyAt (dmaCell (xp c) (rAx i)) () N) W)
      ⊢ iprop(((cred (tallyAt (dmaCell c (sAx i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c i) (.remote (Dev.tc n : Thread nD τ) (slotA i) (.dma (sAx i)) hsc) (.dma (rAx i)) hsrc hdst hsem) k) Q) :=
  sendA_step m K c n hn i f O W

theorem sendB_stepK (c n : Dev nD) (hn : n = yp c) (j : Fin 15)
    {hsc : (slotB j : Memref sig (Dev.tc n : Thread nD τ).2.kind .vmem S64x512 .f32).view.ref.isScScratch = false}
    {hsrc : (slotA (up j) : Memref sig .tc .vmem S64x512 .f32).view.WordExact} {hdst : (slotB j : Memref sig .tc .vmem S64x512 .f32).view.WordExact}
    {hsem : DmaTarget.Typed .vmem (.dma (rBy j)) (.remote (Dev.tc n : Thread nD τ) (slotB j : Memref sig .tc .vmem S64x512 .f32) (.dma (sBy j)) hsc)}
    {α : Type} {Q : α → sProp 𝕄} {k : PUnit → Prog (TpuEff nD τ sig (Elt F) Λ₀ .tc) α}
    (f : Buf (Elt F) ((slotB j : Memref sig .tc .vmem S64x512 .f32).view.loc (yp c : Thread nD τ))) (O : CellTallies nD τ sig Unit) (W : Waits sig Unit) :
    iprop(invsKeep m K c ∗ reachKeep (F := F) c ∗ chunkB (F := F) c j f ∗ slotAPts m c (up j) qS ∗ owes (c : Thread nD τ) (O + tallyAt (dmaCell (yp c) (rBy j)) () N) W)
      ⊢ iprop(((cred (tallyAt (dmaCell c (sBy j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA (up j)) (.remote (Dev.tc n : Thread nD τ) (slotB j) (.dma (sBy j)) hsc) (.dma (rBy j)) hsrc hdst hsem) k) Q) :=
  sendB_step m K c n hn j f O W

/-- A landed slot's share halved: one half for the relay, one to read through. -/
theorem slot_halves (c : Dev nD) (i : Fin 17) :
    ((slotA i).view.loc (c : Thread nD τ) ↦[(slotA i).view.set]{fullShare} cA m c : sProp 𝕄)
      ⊢ iprop(slotAPts m c i qS ∗ ((slotA i).view.loc (c : Thread nD τ) ↦[(slotA i).view.set]{qL} cA m c)) :=
  (slot_share m c i).1

set_option maxHeartbeats 2000000 in
/-- A relayed slot's two half shares joined again: the relay's half as its departure returns it, the half read through. -/
theorem slot_rejoin (c : Dev nD) (j : Fin 15) (i : Fin 17) (h : i.val = j.val) :
    iprop(((slotAL j.val (slotA_inb ⟨j.val, lt17_of_lt15 j.isLt⟩)).view.loc (c : Thread nD τ) ↦[(slotAL j.val (slotA_inb ⟨j.val, lt17_of_lt15 j.isLt⟩)).view.set]{qS} cA m c)
        ∗ ((slotA i).view.loc (c : Thread nD τ) ↦[(slotA i).view.set]{qL} cA m c))
      ⊢ ((slotA i).view.loc (c : Thread nD τ) ↦[(slotA i).view.set]{fullShare} cA m c : sProp 𝕄) := by
  obtain ⟨iv, hiv⟩ := i
  have h' : iv = j.val := h
  subst h'
  exact (slot_share m c ⟨j.val, hiv⟩).2

/-- The result buffer after the 32 additions, as the list of writes the run leaves, holds the sum of the two blocks. -/
theorem out_final (c : Dev nD) (g : (cc0_stg1_0 : Ref sig .tc).ty.Contents (Elt F)) (Ls : List (View.Piece (Elt F) S2048x512 .f32))
    (hL : Ls = outList m c) : (oM : Memref sig .tc .vmem S2048x512 .f32).view.writes (Elt F) g Ls = outAt m c := by
  subst hL
  rw [writes_outList, outSeq_final]

attribute [local sl_rounds] duties_bar amount_bar expect_bar pay_bar_t pay_bar_f amount_dmaL
  duties_sAxL duties_rAxL duties_sByL duties_rByL expect_sAxL expect_rAxL expect_sByL expect_rByL
  payload_rAxL payload_rByL payload_sAxL payload_sByL
attribute [local sl_rounds high] pay_bar_xp pay_bar_yp
attribute [local sl_canon] dev1_eq dev2_eq

set_option maxHeartbeats 3200000 in
/-- The body, from the device's ghost state and its staged buffers, to the result block and the buffers whole again. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  unfold bodyPre
  iintro ⟨⟨⟨Hg, Hcr, #Hlev, HbA, HbB⟩, Ho, ⟨%d0, %g0, %hg0, Hx⟩, ⟨%d1, %g1, %hg1, Hout⟩⟩, Hk⟩
  have hx : g0 = xstg m c := by rw [hg0]; unfold Dat.before; rw [if_pos (fetch0_0 pt0)]; rfl
  subst hx
  ihave Hg' := (ghost_unpack m K c) $$ Hg
  icases Hg' with ⟨Hinv0, Hreach0, Hpos, Htok⟩
  -- the invariants and reached rounds: two closed bundles for the transfer steps, and a copy taken apart cell by cell
  ihave H2 := (keep2 m K c) $$ [Hinv0 Hreach0]
  · isplitl [Hinv0]; · iexact Hinv0
    iexact Hreach0
  icases H2 with ⟨⟨#Hinv, #Hreach⟩, Hown, Hrown⟩
  unfold invsB reachedB
  icases Hown with ⟨#IB, #HfS, #HfR, #HfU, #HfV, #IBx, #IBy, -, -⟩
  ihave H := (open17 _) $$ HfS; icases H with ⟨#IS0, #IS1, #IS2, #IS3, #IS4, #IS5, #IS6, #IS7, #IS8, #IS9, #IS10, #IS11, #IS12, #IS13, #IS14, #IS15, #IS16⟩
  ihave H := (open17 _) $$ HfR; icases H with ⟨#IR0, #IR1, #IR2, #IR3, #IR4, #IR5, #IR6, #IR7, #IR8, #IR9, #IR10, #IR11, #IR12, #IR13, #IR14, #IR15, #IR16⟩
  ihave H := (open15 _) $$ HfU; icases H with ⟨#IU0, #IU1, #IU2, #IU3, #IU4, #IU5, #IU6, #IU7, #IU8, #IU9, #IU10, #IU11, #IU12, #IU13, #IU14⟩
  ihave H := (open15 _) $$ HfV; icases H with ⟨#IV0, #IV1, #IV2, #IV3, #IV4, #IV5, #IV6, #IV7, #IV8, #IV9, #IV10, #IV11, #IV12, #IV13, #IV14⟩
  -- its positions
  unfold posB
  icases Hpos with ⟨PB, HpS, HpR, HpU, HpV⟩
  ihave H := (open17 _) $$ HpS; icases H with ⟨PS0, PS1, PS2, PS3, PS4, PS5, PS6, PS7, PS8, PS9, PS10, PS11, PS12, PS13, PS14, PS15, PS16⟩
  ihave H := (open17 _) $$ HpR; icases H with ⟨PR0, PR1, PR2, PR3, PR4, PR5, PR6, PR7, PR8, PR9, PR10, PR11, PR12, PR13, PR14, PR15, PR16⟩
  ihave H := (open15 _) $$ HpU; icases H with ⟨PU0, PU1, PU2, PU3, PU4, PU5, PU6, PU7, PU8, PU9, PU10, PU11, PU12, PU13, PU14⟩
  ihave H := (open15 _) $$ HpV; icases H with ⟨PV0, PV1, PV2, PV3, PV4, PV5, PV6, PV7, PV8, PV9, PV10, PV11, PV12, PV13, PV14⟩
  -- the credit for what the peers owe it
  unfold creds
  icases Hcr with ⟨CB, HcR, HcV⟩
  ihave H := (open17 _) $$ HcR; icases H with ⟨CR0, CR1, CR2, CR3, CR4, CR5, CR6, CR7, CR8, CR9, CR10, CR11, CR12, CR13, CR14, CR15, CR16⟩
  ihave H := (open15 _) $$ HcV; icases H with ⟨CV0, CV1, CV2, CV3, CV4, CV5, CV6, CV7, CV8, CV9, CV10, CV11, CV12, CV13, CV14⟩
  -- the tokens of what it pays: the two entry units apart, the transfers' kept as families
  unfold payToks
  icases Htok with ⟨Ttx, Tty, HtRx, HtRy, HtS, HtU⟩
  icases Hrown with ⟨-, -, -, -, -, #Rbx, #Rby, -, -⟩
  -- what it owes: the 32 transfers, then the two entry units
  unfold Dat.owesAt Pipeline.owesWithin
  icases Ho with ⟨%W, %hW, HO⟩
  rw [show (dats m 0 c).owed pt0.castSucc = rem c 32 + tallyAt (barCell (yp c)) () 1 + tallyAt (barCell (xp c)) () 1 from rfl]
  -- its own landing buffers, through their views: what the entry signals hand the peers
  unfold bufA bufB
  icases HbA with ⟨%fA, HbA⟩
  icases HbB with ⟨%fB, HbB⟩
  ihave HbA' := (Entails.of_eq (whole_pts c cc0_scratch0 fA).symm) $$ HbA
  ihave HbB' := (Entails.of_eq (whole_pts c cc0_scratch1 fB).symm) $$ HbB
  have hmwB := mayWait_bar (F := F) c
  have hmwR := fun (i : Fin 17) (n : ℕ) (hn : n ≤ 15) => mayWait_rAx (F := F) c i n hn
  rw [cc0_body_eq_skeleton]; unfold cc0_body_skel
  -- the two entry signals and the entry wait
  sl_exec
  -- the entry round's two payloads: both peers' landing buffers
  ihave Hp := (Entails.of_eq (pay_bar_all m c)) $$ PB_pay1
  unfold bufA bufB
  icases Hp with ⟨⟨%fY, HdB⟩, ⟨%fX, HdA⟩⟩
  ihave HdA' := (Entails.of_eq (whole_pts (xp c) cc0_scratch0 fX).symm) $$ HdA
  ihave HdB' := (Entails.of_eq (whole_pts (yp c) cc0_scratch1 fY).symm) $$ HdB
  ihave Hx' := (Entails.of_eq (whole_pts c cc0_stg0_0 (xstg m c)).symm) $$ Hx
  ihave Hout' := (Entails.of_eq (whole_pts c cc0_stg1_0 g1).symm) $$ Hout
  -- the peers' landing buffers cut into slots; the argument block into the half share read and the 17 ranges sent
  ihave HsA := (splitA (F := F) (xp c) fullShare fX).1 $$ HdA'
  ihave HsB := (splitB (F := F) (yp c) fullShare fY).1 $$ HdB'
  ihave HsX := (splitX (F := F) c (xstg m c)).1 $$ Hx'
  icases HsX with ⟨HxL, HxS, HxRest⟩
  ihave HA := (chunksA_intro m c fX) $$ [HxS HtS HtRx HsA]
  · isplitl [HxS]; · iexact HxS
    isplitl [HtS]; · iexact HtS
    isplitl [HtRx]; · iexact HtRx
    iexact HsA
  icases HA with ⟨HA0, HA1, HA2, HA3, HA4, HA5, HA6, HA7, HA8, HA9, HA10, HA11, HA12, HA13, HA14, HA15, HA16⟩
  ihave HB := (chunksB_intro (F := F) c fY) $$ [HtU HtRy HsB]
  · isplitl [HtU]; · iexact HtU
    isplitl [HtRy]; · iexact HtRy
    iexact HsB
  icases HB with ⟨HB0, HB1, HB2, HB3, HB4, HB5, HB6, HB7, HB8, HB9, HB10, HB11, HB12, HB13, HB14⟩
  -- the 17 transfers across x: chunk i through the printed device chain 3 + i, 31 - i payments left after it
  iapply (sendA_stepK m K c _ (dev3_eq c) 0 fX (rem c 31) _) $$ [HA0 HO]
  · isplitr; · iexact Hinv
    isplitr; · iexact Hreach
    isplitl [HA0]; · iexact HA0
    iexact HO
  iintro ⟨CS0, HO⟩
  sl_exec
  iapply (sendA_stepK m K c _ (dev4_eq c) 1 fX (rem c 30) _) $$ [HA1 HO]
  · isplitr; · iexact Hinv
    isplitr; · iexact Hreach
    isplitl [HA1]; · iexact HA1
    iexact HO
  iintro ⟨CS1, HO⟩
  sl_exec
  iapply (sendA_stepK m K c _ (dev5_eq c) 2 fX (rem c 29) _) $$ [HA2 HO]
  · isplitr; · iexact Hinv
    isplitr; · iexact Hreach
    isplitl [HA2]; · iexact HA2
    iexact HO
  iintro ⟨CS2, HO⟩
  sl_exec
  iapply (sendA_stepK m K c _ (dev6_eq c) 3 fX (rem c 28) _) $$ [HA3 HO]
  · isplitr; · iexact Hinv
    isplitr; · iexact Hreach
    isplitl [HA3]; · iexact HA3
    iexact HO
  iintro ⟨CS3, HO⟩
  sl_exec
  iapply (sendA_stepK m K c _ (dev7_eq c) 4 fX (rem c 27) _) $$ [HA4 HO]
  · isplitr; · iexact Hinv
    isplitr; · iexact Hreach
    isplitl [HA4]; · iexact HA4
    iexact HO
  iintro ⟨CS4, HO⟩
  sl_exec
  iapply (sendA_stepK m K c _ (dev8_eq c) 5 fX (rem c 26) _) $$ [HA5 HO]
  · isplitr; · iexact Hinv
    isplitr; · iexact Hreach
    isplitl [HA5]; · iexact HA5
    iexact HO
  iintro ⟨CS5, HO⟩
  sl_exec
  iapply (sendA_stepK m K c _ (dev9_eq c) 6 fX (rem c 25) _) $$ [HA6 HO]
  · isplitr; · iexact Hinv
    isplitr; · iexact Hreach
    isplitl [HA6]; · iexact HA6
    iexact HO
  iintro ⟨CS6, HO⟩
  sl_exec
  iapply (sendA_stepK m K c _ (dev10_eq c) 7 fX (rem c 24) _) $$ [HA7 HO]
  · isplitr; · iexact Hinv
    isplitr; · iexact Hreach
    isplitl [HA7]; · iexact HA7
    iexact HO
  iintro ⟨CS7, HO⟩
  sl_exec
  iapply (sendA_stepK m K c _ (dev11_eq c) 8 fX (rem c 23) _) $$ [HA8 HO]
  · isplitr; · iexact Hinv
    isplitr; · iexact Hreach
    isplitl [HA8]; · iexact HA8
    iexact HO
  iintro ⟨CS8, HO⟩
  sl_exec
  iapply (sendA_stepK m K c _ (dev12_eq c) 9 fX (rem c 22) _) $$ [HA9 HO]
  · isplitr; · iexact Hinv
    isplitr; · iexact Hreach
    isplitl [HA9]; · iexact HA9
    iexact HO
  iintro ⟨CS9, HO⟩
  sl_exec
  iapply (sendA_stepK m K c _ (dev13_eq c) 10 fX (rem c 21) _) $$ [HA10 HO]
  · isplitr; · iexact Hinv
    isplitr; · iexact Hreach
    isplitl [HA10]; · iexact HA10
    iexact HO
  iintro ⟨CS10, HO⟩
  sl_exec
  iapply (sendA_stepK m K c _ (dev14_eq c) 11 fX (rem c 20) _) $$ [HA11 HO]
  · isplitr; · iexact Hinv
    isplitr; · iexact Hreach
    isplitl [HA11]; · iexact HA11
    iexact HO
  iintro ⟨CS11, HO⟩
  sl_exec
  iapply (sendA_stepK m K c _ (dev15_eq c) 12 fX (rem c 19) _) $$ [HA12 HO]
  · isplitr; · iexact Hinv
    isplitr; · iexact Hreach
    isplitl [HA12]; · iexact HA12
    iexact HO
  iintro ⟨CS12, HO⟩
  sl_exec
  iapply (sendA_stepK m K c _ (dev16_eq c) 13 fX (rem c 18) _) $$ [HA13 HO]
  · isplitr; · iexact Hinv
    isplitr; · iexact Hreach
    isplitl [HA13]; · iexact HA13
    iexact HO
  iintro ⟨CS13, HO⟩
  sl_exec
  iapply (sendA_stepK m K c _ (dev17_eq c) 14 fX (rem c 17) _) $$ [HA14 HO]
  · isplitr; · iexact Hinv
    isplitr; · iexact Hreach
    isplitl [HA14]; · iexact HA14
    iexact HO
  iintro ⟨CS14, HO⟩
  sl_exec
  iapply (sendA_stepK m K c _ (dev18_eq c) 15 fX (rem c 16) _) $$ [HA15 HO]
  · isplitr; · iexact Hinv
    isplitr; · iexact Hreach
    isplitl [HA15]; · iexact HA15
    iexact HO
  iintro ⟨CS15, HO⟩
  sl_exec
  iapply (sendA_stepK m K c _ (dev19_eq c) 16 fX (rem c 15) _) $$ [HA16 HO]
  · isplitr; · iexact Hinv
    isplitr; · iexact Hreach
    isplitl [HA16]; · iexact HA16
    iexact HO
  iintro ⟨CS16, HO⟩
  sl_exec
  -- the relays: as each of the first 15 chunks lands, half of its slot's share goes to the relay across y
  -- (slot j through the printed device chain 20 + j, 14 - j payments left after it); the run then adds the slot to the
  -- device's rows and waits for the next arrival
  ihave Hs := (slot_halves m c 0) $$ PR0_pay1
  icases Hs with ⟨Hq0, Hl0⟩
  iapply (sendB_stepK m K c _ (dev20_eq c) 0 fY (rem c 14) _) $$ [HB0 Hq0 HO]
  · isplitr; · iexact Hinv
    isplitr; · iexact Hreach
    isplitl [HB0]; · iexact HB0
    isplitl [Hq0]; · iexact Hq0
    iexact HO
  iintro ⟨CU0, HO⟩
  sl_exec
  ihave Hs := (slot_halves m c 1) $$ PR1_pay1
  icases Hs with ⟨Hq1, Hl1⟩
  iapply (sendB_stepK m K c _ (dev21_eq c) 1 fY (rem c 13) _) $$ [HB1 Hq1 HO]
  · isplitr; · iexact Hinv
    isplitr; · iexact Hreach
    isplitl [HB1]; · iexact HB1
    isplitl [Hq1]; · iexact Hq1
    iexact HO
  iintro ⟨CU1, HO⟩
  sl_exec
  ihave Hs := (slot_halves m c 2) $$ PR2_pay1
  icases Hs with ⟨Hq2, Hl2⟩
  iapply (sendB_stepK m K c _ (dev22_eq c) 2 fY (rem c 12) _) $$ [HB2 Hq2 HO]
  · isplitr; · iexact Hinv
    isplitr; · iexact Hreach
    isplitl [HB2]; · iexact HB2
    isplitl [Hq2]; · iexact Hq2
    iexact HO
  iintro ⟨CU2, HO⟩
  sl_exec
  ihave Hs := (slot_halves m c 3) $$ PR3_pay1
  icases Hs with ⟨Hq3, Hl3⟩
  iapply (sendB_stepK m K c _ (dev23_eq c) 3 fY (rem c 11) _) $$ [HB3 Hq3 HO]
  · isplitr; · iexact Hinv
    isplitr; · iexact Hreach
    isplitl [HB3]; · iexact HB3
    isplitl [Hq3]; · iexact Hq3
    iexact HO
  iintro ⟨CU3, HO⟩
  sl_exec
  ihave Hs := (slot_halves m c 4) $$ PR4_pay1
  icases Hs with ⟨Hq4, Hl4⟩
  iapply (sendB_stepK m K c _ (dev24_eq c) 4 fY (rem c 10) _) $$ [HB4 Hq4 HO]
  · isplitr; · iexact Hinv
    isplitr; · iexact Hreach
    isplitl [HB4]; · iexact HB4
    isplitl [Hq4]; · iexact Hq4
    iexact HO
  iintro ⟨CU4, HO⟩
  sl_exec
  ihave Hs := (slot_halves m c 5) $$ PR5_pay1
  icases Hs with ⟨Hq5, Hl5⟩
  iapply (sendB_stepK m K c _ (dev25_eq c) 5 fY (rem c 9) _) $$ [HB5 Hq5 HO]
  · isplitr; · iexact Hinv
    isplitr; · iexact Hreach
    isplitl [HB5]; · iexact HB5
    isplitl [Hq5]; · iexact Hq5
    iexact HO
  iintro ⟨CU5, HO⟩
  sl_exec
  ihave Hs := (slot_halves m c 6) $$ PR6_pay1
  icases Hs with ⟨Hq6, Hl6⟩
  iapply (sendB_stepK m K c _ (dev26_eq c) 6 fY (rem c 8) _) $$ [HB6 Hq6 HO]
  · isplitr; · iexact Hinv
    isplitr; · iexact Hreach
    isplitl [HB6]; · iexact HB6
    isplitl [Hq6]; · iexact Hq6
    iexact HO
  iintro ⟨CU6, HO⟩
  sl_exec
  ihave Hs := (slot_halves m c 7) $$ PR7_pay1
  icases Hs with ⟨Hq7, Hl7⟩
  iapply (sendB_stepK m K c _ (dev27_eq c) 7 fY (rem c 7) _) $$ [HB7 Hq7 HO]
  · isplitr; · iexact Hinv
    isplitr; · iexact Hreach
    isplitl [HB7]; · iexact HB7
    isplitl [Hq7]; · iexact Hq7
    iexact HO
  iintro ⟨CU7, HO⟩
  sl_exec
  ihave Hs := (slot_halves m c 8) $$ PR8_pay1
  icases Hs with ⟨Hq8, Hl8⟩
  iapply (sendB_stepK m K c _ (dev28_eq c) 8 fY (rem c 6) _) $$ [HB8 Hq8 HO]
  · isplitr; · iexact Hinv
    isplitr; · iexact Hreach
    isplitl [HB8]; · iexact HB8
    isplitl [Hq8]; · iexact Hq8
    iexact HO
  iintro ⟨CU8, HO⟩
  sl_exec
  ihave Hs := (slot_halves m c 9) $$ PR9_pay1
  icases Hs with ⟨Hq9, Hl9⟩
  iapply (sendB_stepK m K c _ (dev29_eq c) 9 fY (rem c 5) _) $$ [HB9 Hq9 HO]
  · isplitr; · iexact Hinv
    isplitr; · iexact Hreach
    isplitl [HB9]; · iexact HB9
    isplitl [Hq9]; · iexact Hq9
    iexact HO
  iintro ⟨CU9, HO⟩
  sl_exec
  ihave Hs := (slot_halves m c 10) $$ PR10_pay1
  icases Hs with ⟨Hq10, Hl10⟩
  iapply (sendB_stepK m K c _ (dev30_eq c) 10 fY (rem c 4) _) $$ [HB10 Hq10 HO]
  · isplitr; · iexact Hinv
    isplitr; · iexact Hreach
    isplitl [HB10]; · iexact HB10
    isplitl [Hq10]; · iexact Hq10
    iexact HO
  iintro ⟨CU10, HO⟩
  sl_exec
  ihave Hs := (slot_halves m c 11) $$ PR11_pay1
  icases Hs with ⟨Hq11, Hl11⟩
  iapply (sendB_stepK m K c _ (dev31_eq c) 11 fY (rem c 3) _) $$ [HB11 Hq11 HO]
  · isplitr; · iexact Hinv
    isplitr; · iexact Hreach
    isplitl [HB11]; · iexact HB11
    isplitl [Hq11]; · iexact Hq11
    iexact HO
  iintro ⟨CU11, HO⟩
  sl_exec
  ihave Hs := (slot_halves m c 12) $$ PR12_pay1
  icases Hs with ⟨Hq12, Hl12⟩
  iapply (sendB_stepK m K c _ (dev32_eq c) 12 fY (rem c 2) _) $$ [HB12 Hq12 HO]
  · isplitr; · iexact Hinv
    isplitr; · iexact Hreach
    isplitl [HB12]; · iexact HB12
    isplitl [Hq12]; · iexact Hq12
    iexact HO
  iintro ⟨CU12, HO⟩
  sl_exec
  ihave Hs := (slot_halves m c 13) $$ PR13_pay1
  icases Hs with ⟨Hq13, Hl13⟩
  iapply (sendB_stepK m K c _ (dev33_eq c) 13 fY (rem c 1) _) $$ [HB13 Hq13 HO]
  · isplitr; · iexact Hinv
    isplitr; · iexact Hreach
    isplitl [HB13]; · iexact HB13
    isplitl [Hq13]; · iexact Hq13
    iexact HO
  iintro ⟨CU13, HO⟩
  sl_exec
  ihave Hs := (slot_halves m c 14) $$ PR14_pay1
  icases Hs with ⟨Hq14, Hl14⟩
  iapply (sendB_stepK m K c _ (dev34_eq c) 14 fY (rem c 0) _) $$ [HB14 Hq14 HO]
  · isplitr; · iexact Hinv
    isplitr; · iexact Hreach
    isplitl [HB14]; · iexact HB14
    isplitl [Hq14]; · iexact Hq14
    iexact HO
  iintro ⟨CU14, HO⟩
  -- the rest of the body: the last two arrivals across x, the 15 relayed arrivals, every addition, every departure
  sl_exec
  -- every departure has returned its lent share; the relayed slots' two halves are joined again
  ihave S0 := (slot_rejoin m c 0 0 rfl) $$ [PU0_pay1 Hl0]
  · isplitl [PU0_pay1]; · iexact PU0_pay1
    iexact Hl0
  ihave S1 := (slot_rejoin m c 1 1 rfl) $$ [PU1_pay1 Hl1]
  · isplitl [PU1_pay1]; · iexact PU1_pay1
    iexact Hl1
  ihave S2 := (slot_rejoin m c 2 2 rfl) $$ [PU2_pay1 Hl2]
  · isplitl [PU2_pay1]; · iexact PU2_pay1
    iexact Hl2
  ihave S3 := (slot_rejoin m c 3 3 rfl) $$ [PU3_pay1 Hl3]
  · isplitl [PU3_pay1]; · iexact PU3_pay1
    iexact Hl3
  ihave S4 := (slot_rejoin m c 4 4 rfl) $$ [PU4_pay1 Hl4]
  · isplitl [PU4_pay1]; · iexact PU4_pay1
    iexact Hl4
  ihave S5 := (slot_rejoin m c 5 5 rfl) $$ [PU5_pay1 Hl5]
  · isplitl [PU5_pay1]; · iexact PU5_pay1
    iexact Hl5
  ihave S6 := (slot_rejoin m c 6 6 rfl) $$ [PU6_pay1 Hl6]
  · isplitl [PU6_pay1]; · iexact PU6_pay1
    iexact Hl6
  ihave S7 := (slot_rejoin m c 7 7 rfl) $$ [PU7_pay1 Hl7]
  · isplitl [PU7_pay1]; · iexact PU7_pay1
    iexact Hl7
  ihave S8 := (slot_rejoin m c 8 8 rfl) $$ [PU8_pay1 Hl8]
  · isplitl [PU8_pay1]; · iexact PU8_pay1
    iexact Hl8
  ihave S9 := (slot_rejoin m c 9 9 rfl) $$ [PU9_pay1 Hl9]
  · isplitl [PU9_pay1]; · iexact PU9_pay1
    iexact Hl9
  ihave S10 := (slot_rejoin m c 10 10 rfl) $$ [PU10_pay1 Hl10]
  · isplitl [PU10_pay1]; · iexact PU10_pay1
    iexact Hl10
  ihave S11 := (slot_rejoin m c 11 11 rfl) $$ [PU11_pay1 Hl11]
  · isplitl [PU11_pay1]; · iexact PU11_pay1
    iexact Hl11
  ihave S12 := (slot_rejoin m c 12 12 rfl) $$ [PU12_pay1 Hl12]
  · isplitl [PU12_pay1]; · iexact PU12_pay1
    iexact Hl12
  ihave S13 := (slot_rejoin m c 13 13 rfl) $$ [PU13_pay1 Hl13]
  · isplitl [PU13_pay1]; · iexact PU13_pay1
    iexact Hl13
  ihave S14 := (slot_rejoin m c 14 14 rfl) $$ [PU14_pay1 Hl14]
  · isplitl [PU14_pay1]; · iexact PU14_pay1
    iexact Hl14
  -- the first landing buffer whole again, at its stated contents
  ihave HAw := (close17 (fun i : Fin 17 => ((slotA i).view.loc (c : Thread nD τ) ↦[(slotA i).view.set]{fullShare} cA m c : sProp 𝕄)))
    $$ [S0 S1 S2 S3 S4 S5 S6 S7 S8 S9 S10 S11 S12 S13 S14 PR15_pay1 PR16_pay1]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [PR15_pay1]; · iexact PR15_pay1
    iexact PR16_pay1
  ihave HAw2 := (splitA (F := F) c fullShare (cA m c)).2 $$ HAw
  ihave HAw3 := (Entails.of_eq (whole_pts c cc0_scratch0 (cA m c))) $$ HAw2
  -- the second landing buffer
  ihave HBw := (close15 (fun j : Fin 15 => ((slotB j).view.loc (c : Thread nD τ) ↦[(slotB j).view.set]{fullShare} cB m c : sProp 𝕄)))
    $$ [PV0_pay1 PV1_pay1 PV2_pay1 PV3_pay1 PV4_pay1 PV5_pay1 PV6_pay1 PV7_pay1 PV8_pay1 PV9_pay1 PV10_pay1 PV11_pay1 PV12_pay1 PV13_pay1 PV14_pay1]
  · isplitl [PV0_pay1]; · iexact PV0_pay1
    isplitl [PV1_pay1]; · iexact PV1_pay1
    isplitl [PV2_pay1]; · iexact PV2_pay1
    isplitl [PV3_pay1]; · iexact PV3_pay1
    isplitl [PV4_pay1]; · iexact PV4_pay1
    isplitl [PV5_pay1]; · iexact PV5_pay1
    isplitl [PV6_pay1]; · iexact PV6_pay1
    isplitl [PV7_pay1]; · iexact PV7_pay1
    isplitl [PV8_pay1]; · iexact PV8_pay1
    isplitl [PV9_pay1]; · iexact PV9_pay1
    isplitl [PV10_pay1]; · iexact PV10_pay1
    isplitl [PV11_pay1]; · iexact PV11_pay1
    isplitl [PV12_pay1]; · iexact PV12_pay1
    isplitl [PV13_pay1]; · iexact PV13_pay1
    iexact PV14_pay1
  ihave HBw2 := (splitB (F := F) c fullShare (cB m c)).2 $$ HBw
  ihave HBw3 := (Entails.of_eq (whole_pts c cc0_scratch1 (cB m c))) $$ HBw2
  -- the argument block: the 17 ranges' lent halves, the rest of that half, and the half read through
  ihave HXs := (close17 (fun i : Fin 17 => srcPts m c i))
    $$ [PS0_pay1 PS1_pay1 PS2_pay1 PS3_pay1 PS4_pay1 PS5_pay1 PS6_pay1 PS7_pay1 PS8_pay1 PS9_pay1 PS10_pay1 PS11_pay1 PS12_pay1 PS13_pay1 PS14_pay1 PS15_pay1 PS16_pay1]
  · isplitl [PS0_pay1]; · iexact PS0_pay1
    isplitl [PS1_pay1]; · iexact PS1_pay1
    isplitl [PS2_pay1]; · iexact PS2_pay1
    isplitl [PS3_pay1]; · iexact PS3_pay1
    isplitl [PS4_pay1]; · iexact PS4_pay1
    isplitl [PS5_pay1]; · iexact PS5_pay1
    isplitl [PS6_pay1]; · iexact PS6_pay1
    isplitl [PS7_pay1]; · iexact PS7_pay1
    isplitl [PS8_pay1]; · iexact PS8_pay1
    isplitl [PS9_pay1]; · iexact PS9_pay1
    isplitl [PS10_pay1]; · iexact PS10_pay1
    isplitl [PS11_pay1]; · iexact PS11_pay1
    isplitl [PS12_pay1]; · iexact PS12_pay1
    isplitl [PS13_pay1]; · iexact PS13_pay1
    isplitl [PS14_pay1]; · iexact PS14_pay1
    isplitl [PS15_pay1]; · iexact PS15_pay1
    iexact PS16_pay1
  ihave HXs2 := (Entails.of_eq (show (bigSep Finset.univ (fun i : Fin 17 => srcPts m c i) : sProp 𝕄)
      = bigSep Finset.univ (fun i : Fin 17 => ((srcA c i).view.loc (c : Thread nD τ) ↦[(srcA c i).view.set]{qS} xstg m c)) from rfl)) $$ HXs
  ihave HXw := (splitX (F := F) c (xstg m c)).2 $$ [HxL HXs2 HxRest]
  · isplitl [HxL]; · iexact HxL
    isplitl [HXs2]; · iexact HXs2
    iexact HxRest
  ihave HXw2 := (Entails.of_eq (whole_pts c cc0_stg0_0 (xstg m c))) $$ HXw
  -- the 64 transfer cells have consumed their one round: closed, their counters back at zero
  ihave HqS := (close17 (fun i : Fin 17 => (atPos ER (dmaCell c (sAx i)) 1 ∅ 0 : sProp 𝕄)))
    $$ [PS0 PS1 PS2 PS3 PS4 PS5 PS6 PS7 PS8 PS9 PS10 PS11 PS12 PS13 PS14 PS15 PS16]
  · isplitl [PS0]; · iexact PS0
    isplitl [PS1]; · iexact PS1
    isplitl [PS2]; · iexact PS2
    isplitl [PS3]; · iexact PS3
    isplitl [PS4]; · iexact PS4
    isplitl [PS5]; · iexact PS5
    isplitl [PS6]; · iexact PS6
    isplitl [PS7]; · iexact PS7
    isplitl [PS8]; · iexact PS8
    isplitl [PS9]; · iexact PS9
    isplitl [PS10]; · iexact PS10
    isplitl [PS11]; · iexact PS11
    isplitl [PS12]; · iexact PS12
    isplitl [PS13]; · iexact PS13
    isplitl [PS14]; · iexact PS14
    isplitl [PS15]; · iexact PS15
    iexact PS16
  ihave HqR := (close17 (fun i : Fin 17 => (atPos ER (dmaCell c (rAx i)) 1 ∅ 0 : sProp 𝕄)))
    $$ [PR0 PR1 PR2 PR3 PR4 PR5 PR6 PR7 PR8 PR9 PR10 PR11 PR12 PR13 PR14 PR15 PR16]
  · isplitl [PR0]; · iexact PR0
    isplitl [PR1]; · iexact PR1
    isplitl [PR2]; · iexact PR2
    isplitl [PR3]; · iexact PR3
    isplitl [PR4]; · iexact PR4
    isplitl [PR5]; · iexact PR5
    isplitl [PR6]; · iexact PR6
    isplitl [PR7]; · iexact PR7
    isplitl [PR8]; · iexact PR8
    isplitl [PR9]; · iexact PR9
    isplitl [PR10]; · iexact PR10
    isplitl [PR11]; · iexact PR11
    isplitl [PR12]; · iexact PR12
    isplitl [PR13]; · iexact PR13
    isplitl [PR14]; · iexact PR14
    isplitl [PR15]; · iexact PR15
    iexact PR16
  ihave HqU := (close15 (fun j : Fin 15 => (atPos ER (dmaCell c (sBy j)) 1 ∅ 0 : sProp 𝕄)))
    $$ [PU0 PU1 PU2 PU3 PU4 PU5 PU6 PU7 PU8 PU9 PU10 PU11 PU12 PU13 PU14]
  · isplitl [PU0]; · iexact PU0
    isplitl [PU1]; · iexact PU1
    isplitl [PU2]; · iexact PU2
    isplitl [PU3]; · iexact PU3
    isplitl [PU4]; · iexact PU4
    isplitl [PU5]; · iexact PU5
    isplitl [PU6]; · iexact PU6
    isplitl [PU7]; · iexact PU7
    isplitl [PU8]; · iexact PU8
    isplitl [PU9]; · iexact PU9
    isplitl [PU10]; · iexact PU10
    isplitl [PU11]; · iexact PU11
    isplitl [PU12]; · iexact PU12
    isplitl [PU13]; · iexact PU13
    iexact PU14
  ihave HqV := (close15 (fun j : Fin 15 => (atPos ER (dmaCell c (rBy j)) 1 ∅ 0 : sProp 𝕄)))
    $$ [PV0 PV1 PV2 PV3 PV4 PV5 PV6 PV7 PV8 PV9 PV10 PV11 PV12 PV13 PV14]
  · isplitl [PV0]; · iexact PV0
    isplitl [PV1]; · iexact PV1
    isplitl [PV2]; · iexact PV2
    isplitl [PV3]; · iexact PV3
    isplitl [PV4]; · iexact PV4
    isplitl [PV5]; · iexact PV5
    isplitl [PV6]; · iexact PV6
    isplitl [PV7]; · iexact PV7
    isplitl [PV8]; · iexact PV8
    isplitl [PV9]; · iexact PV9
    isplitl [PV10]; · iexact PV10
    isplitl [PV11]; · iexact PV11
    isplitl [PV12]; · iexact PV12
    isplitl [PV13]; · iexact PV13
    iexact PV14
  imod (close_all m (fun i => K (c, kSA i)) (fun i => K (c, kRA i)) (fun j => K (c, kSB j)) (fun j => K (c, kRB j)) c) $$ [HqS HqR HqU HqV] with Hz
  · isplitr; · iexact HfS
    isplitr; · iexact HfR
    isplitr; · iexact HfU
    isplitr; · iexact HfV
    isplitl [HqS]; · iexact HqS
    isplitl [HqR]; · iexact HqR
    isplitl [HqU]; · iexact HqU
    iexact HqV
  -- the result buffer: the 32 additions tile its rows
  ihave Hout2 := (Entails.of_eq (whole_pts c cc0_stg1_0 _)) $$ Hout'
  rw [show rem c 0 = (0 : CellTallies nD τ sig Unit) from rfl]
  rw [wp_ret]; imodintro
  iapply Hk
  unfold bodyPost Φ₁ bufA bufB Dat.owesAt Pipeline.owesWithin
  rw [show (dats m 0 c).owed pt0.succ = 0 from rfl]
  isplitl [HAw3 HBw3 Hz]
  · isplitl [HAw3]
    · iexists (cA m c); iexact HAw3
    isplitl [HBw3]
    · iexists (cB m c); iexact HBw3
    iexact Hz
  isplitl [HO]
  · iexists _
    isplitr; swap
    · iexact HO
    ipureintro; exact fun _ _ => Or.inl trivial
  isplitl [HXw2]
  · iexists _; isplitr; · (ipureintro; rfl)
    iexact HXw2
  iexists _
  isplitr; swap
  · iexact Hout2
  ipureintro
  exact out_final m c g1 _ rfl

/-- info: 'Cert.Kernel.ARProof.sound_body' depends on axioms: [propext, Classical.choice, Quot.sound] -/
#guard_msgs in #print axioms sound_body

end Body

end Cert.Kernel.ARProof

end
-- ==== Proof.KBody.lean ====
/-
  The library's body obligation for one device of the all-reduce: the pipeline's precondition at its one point, sorted
  into what the body's run starts from, and the run's post handed back.
-/
import proofs.«900127_g7700000000000128_dist_ar_v7x_xy2x2_x_m2048_n512_f32_1_alg».proof.Proof.KBodyRun

noncomputable section

namespace Cert.Kernel.ARProof

open Cert.Kernel Cert.Kernel.Gen Cert.Kernel.AR
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable [∀ e, Nonempty (Elt F e)]

/-! ## The body obligation -/

def bodyPre' (c : Dev nD) : sProp 𝕄 :=
  iprop(Φ₀ m c ∗ (dats m 0 c).owesAt () pt0.castSucc
    ∗ (∃ d, stg c cc0_stg0_0 ((dats m 0 c).before (0 : Fin 2) pt0 d))
    ∗ (∃ d, stg c cc0_stg1_0 ((dats m 0 c).before (1 : Fin 2) pt0 d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device c, at the one point of the gridless pipeline. -/
theorem body_obligation (c : Dev nD) : BodyObligation (dats (F := F) m 0 c) (defs₀ (F := F)) 𝒱₀ () Set.univ := fun t => by
  rw [fin_pt t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m c)
  unfold bodyPre' Φ₀ start
  iintro ⟨⟨⟨⟨%K, Hg⟩, Hcr, Hlev⟩, HbA, HbB⟩, Ho, Hx, Hout⟩
  iapply (sound_body m K c fun _ => bodyPost m c)
  unfold bodyPre
  isplitr []
  · isplitl [Hg Hcr Hlev HbA HbB]
    · isplitl [Hg]; · iexact Hg
      isplitl [Hcr]; · iexact Hcr
      isplitl [Hlev]; · iexact Hlev
      isplitl [HbA]; · iexact HbA
      iexact HbB
    isplitl [Ho]; · iexact Ho
    isplitl [Hx]; · iexact Hx
    iexact Hout
  · iintro H; iexact H

/-- info: 'Cert.Kernel.ARProof.body_obligation' depends on axioms: [propext, Classical.choice, Quot.sound] -/
#guard_msgs in #print axioms body_obligation

end Body

end Cert.Kernel.ARProof

end
-- ==== Proof.RefValue.lean ====
/-
  The value side of the two-axis all-reduce: the one-device reference's result, read at an index, is the entrywise sum of
  the two row blocks of the whole array, and each device of the 2 × 2 mesh ends holding exactly that sum.

  The whole array `X` has 4096 rows; the reference reshapes it to `2 × 2048` rows and sums over the leading axis, so row `r`
  of its result is `0 + (X[r] + X[2048 + r])`. Device `c` (coordinates `(c / 2, c % 2)`) holds block `c / 2` of the rows,
  the devices across the `x` axis block `1 - c / 2`; the entrywise sum of the two is the same two rows added in one
  order or the other. Addition of extended reals is commutative and `0` is its unit, so no finiteness is needed.
-/
import proofs.«900127_g7700000000000128_dist_ar_v7x_xy2x2_x_m2048_n512_f32_1_alg».proof.Defs
import proofs.«900127_g7700000000000128_dist_ar_v7x_xy2x2_x_m2048_n512_f32_1_alg».proof.Proof.Spec
import proofs.«900127_g7700000000000128_dist_ar_v7x_xy2x2_x_m2048_n512_f32_1_alg».proof.Proof.Gen.KernelIdeal
import proofs.«900127_g7700000000000128_dist_ar_v7x_xy2x2_x_m2048_n512_f32_1_alg».proof.Proof.Gen.ReferenceIdeal
import proofs.«900127_g7700000000000128_dist_ar_v7x_xy2x2_x_m2048_n512_f32_1_alg».proof.Proof.Gen.Pre_finite_inputs_Kernel
import proofs.«900127_g7700000000000128_dist_ar_v7x_xy2x2_x_m2048_n512_f32_1_alg».proof.Proof.Gen.Pre_finite_inputs_ReferenceIdeal
import proofs.«900127_g7700000000000128_dist_ar_v7x_xy2x2_x_m2048_n512_f32_1_alg».proof.Proof.Gen.ReferenceIdeal.Run
import proofs.«900127_g7700000000000128_dist_ar_v7x_xy2x2_x_m2048_n512_f32_1_alg».proof.Proof.Gen.ReferenceIdeal.Read

noncomputable section

namespace Cert.KernelIdeal.ARValue

open Idealize.ShloMosaic Idealize.SL.Sem Idealize.ShloMosaic.Layout
open Cert.KernelIdeal Cert.KernelIdeal.AR

/-! ## The reference's frame -/

/-- The reference runs and leaves its argument unchanged: its run with the result's value dropped. -/
theorem frame_ri : Cert.frame_ReferenceIdeal :=
  fun m ρ _ => (θ_run Cert.ReferenceIdeal.defs _ _).mono (fun _ h c => (h c).2)
    (Cert.ReferenceIdeal.Value.run (F := Ideal) m ρ)

/-! ## Where a device's block lies in the whole array -/

/-- The whole array as the one-device reference holds it. -/
abbrev Whole : Type := (⟨Cert.ReferenceIdeal.S4096x512, .f32⟩ : BufTy).Contents (Elt Ideal)

/-- The block coordinate of device `c` along the rows is its first mesh coordinate, `c / 2`. -/
theorem meshLin_rows (c : Nat) (hc : c < 4) : meshLin [2, 2] c [0] = c / 2 := by
  simp only [meshLin, meshCoord, cutSize, List.drop, List.foldr, List.getD_cons_zero]
  omega

/-- Device `c`'s block of the whole array `X`, read at `i`: row `2048 · (c / 2) + i₀`, column `i₁` of `X`, which is
    where the reference's reshape puts entry `(c / 2, i₀, i₁)`. -/
theorem blockN_at (X : Whole) (c : Dev nD) (i : S2048x512.Idx) (k : Fin 2) (hk : k.val = c.val / 2) :
    (blockN ⟨2, ![2048, 512]⟩ ⟨2, ![4096, 512]⟩ (meshBlock [2, 2] ![[0], []] c) X) i
      = X (Cert.ReferenceIdeal.Read.idx_main_v0 (Cert.ReferenceIdeal.Read.idx_main_v1 i k)) := by
  rw [blockN_apply]
  refine congrArg X (funext fun a => Fin.ext ?_)
  have hc : c.val < 4 := c.isLt
  have h0 : (i 0).val < 2048 := (i 0).isLt
  have h1 : (i 1).val < 512 := (i 1).isLt
  match a with
  | ⟨0, _⟩ =>
    show meshLin [2, 2] c.val [0] * 2048 + (i 0).val = ((k.val * 2048 + (i 0).val) * 512 + (i 1).val) / 512
    rw [meshLin_rows c.val hc, hk]; omega
  | ⟨1, _⟩ =>
    show meshLin [2, 2] c.val [] * 512 + (i 1).val = ((k.val * 2048 + (i 0).val) * 512 + (i 1).val) % 512
    show 0 * 512 + (i 1).val = _
    omega

/-! ## The two sides meet -/

/-- The device whose block a row of the result adds to device `c`'s own lies across the `x` axis, whichever of the two
    devices there it is: its first mesh coordinate is `1 - c / 2`. -/
theorem src_div (c : Dev nD) (i : S2048x512.Idx) : (src c i).val / 2 = 1 - c.val / 2 := by
  unfold src; split
  · rw [yp_div, xp_div]
  · exact xp_div c

/-- On every device the entrywise sum of its block and the block that reached it from across the `x` axis is the
    reference's result: the two row blocks of the whole array added, in one order or the other, to the reduction's
    initial `0`. Both devices across the `x` axis hold the same block, the array being cut along `x` only. -/
theorem total_eq (m : (ℓ : Loc nD τ sig) → Buf (Elt Ideal) ℓ) (X : Whole)
    (hblk : ∀ c : Dev nD, blk m c = blockN ⟨2, ![2048, 512]⟩ ⟨2, ![4096, 512]⟩ (meshBlock [2, 2] ![[0], []] c) X)
    (c : Dev nD) : total m c = Cert.ReferenceIdeal.Read.val_main_v1 (F := Ideal) X := by
  funext i
  have hc : c.val < 4 := c.isLt
  have hx : (src c i).val / 2 = 1 - c.val / 2 := src_div c i
  rw [Cert.ReferenceIdeal.Read.val_main_v1_apply, Fin.sum_univ_two,
    Cert.ReferenceIdeal.Read.val_main_v0_apply, Cert.ReferenceIdeal.Read.val_main_v0_apply,
    Cert.ReferenceIdeal.Read.val_main_cst_apply]
  show (show EReal from blk m c i) + (show EReal from blk m (src c i) i) = _
  rw [hblk c, hblk (src c i), Ideal.ofBits_def, Ideal.ofBits_zero_f32, zero_add]
  rcases Nat.lt_or_ge c.val 2 with h | h
  · rw [blockN_at X c i 0 (by show 0 = c.val / 2; omega), blockN_at X (src c i) i 1 (by show 1 = (src c i).val / 2; omega)]
  · rw [blockN_at X c i 1 (by show 1 = c.val / 2; omega), blockN_at X (src c i) i 0 (by show 0 = (src c i).val / 2; omega)]
    exact add_comm (G := EReal) _ _

/-- Given the kernel's strong run (every device ends at the sum of its block and the block that reached it from across the
    `x` axis), the
    kernel on the mesh and the reference on one device end with the same values: the reference's result, on every device. -/
theorem algebraic_of (h : RunSpec (F := Ideal)) : Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run _ _ _).mono (fun r hr c => ⟨(hr c).1.trans (total_eq m _ hblk c), (hr c).2⟩) (h m g)
  · exact (θ_run _ _ _).mono
      (fun r hr => ⟨(hr 0).1.trans (Cert.ReferenceIdeal.Read.val_main_v1_eq _), (hr 0).2⟩)
      (Cert.ReferenceIdeal.Value.run (F := Ideal) m' g')

/-- info: 'Cert.KernelIdeal.ARValue.algebraic_of' depends on axioms: [propext, Classical.choice, Quot.sound] -/
#guard_msgs in #print axioms algebraic_of

end Cert.KernelIdeal.ARValue

end
-- ==== Proof.lean ====
/-
  The claim of the two-axis all-reduce on the 2 × 2 mesh: its five conjuncts, each closed by one fact.

  On every device the kernel's run ends with the result at the device's own block plus, entry by entry, the block that
  reached it (directly from the device across the `x` axis, or for the relayed rows from that device's `y` peer), and
  with the argument unchanged; this strong run holds at any float instance,
  from the body's proof on a symbolic device and the launch of the whole mesh. The two kernel frames are that run, at
  the word-level instance and at the ideal one, with the result's value dropped. The reference's frame is its own run
  with the value dropped. The idealization rewrote no operation, so nothing is to preserve. Under the claim's hypothesis that every
  device holds its block of the whole array, cut along `x` only, both senders hold the other half of the rows, so the strong run's result is the sum of the
  two halves, which is what the reference's reduction of the reshaped array computes at every entry: both programs
  end at that value.
-/
import proofs.«900127_g7700000000000128_dist_ar_v7x_xy2x2_x_m2048_n512_f32_1_alg».proof.Defs
import proofs.«900127_g7700000000000128_dist_ar_v7x_xy2x2_x_m2048_n512_f32_1_alg».proof.Proof.Gen.Kernel
import proofs.«900127_g7700000000000128_dist_ar_v7x_xy2x2_x_m2048_n512_f32_1_alg».proof.Proof.Gen.KernelIdeal
import proofs.«900127_g7700000000000128_dist_ar_v7x_xy2x2_x_m2048_n512_f32_1_alg».proof.Proof.Gen.ReferenceIdeal
import proofs.«900127_g7700000000000128_dist_ar_v7x_xy2x2_x_m2048_n512_f32_1_alg».proof.Proof.Gen.Pre_finite_inputs_Kernel
import proofs.«900127_g7700000000000128_dist_ar_v7x_xy2x2_x_m2048_n512_f32_1_alg».proof.Proof.Gen.Pre_finite_inputs_ReferenceIdeal
import proofs.«900127_g7700000000000128_dist_ar_v7x_xy2x2_x_m2048_n512_f32_1_alg».proof.Proof.Launch
import proofs.«900127_g7700000000000128_dist_ar_v7x_xy2x2_x_m2048_n512_f32_1_alg».proof.Proof.KLaunch
import proofs.«900127_g7700000000000128_dist_ar_v7x_xy2x2_x_m2048_n512_f32_1_alg».proof.Proof.Body
import proofs.«900127_g7700000000000128_dist_ar_v7x_xy2x2_x_m2048_n512_f32_1_alg».proof.Proof.KBody
import proofs.«900127_g7700000000000128_dist_ar_v7x_xy2x2_x_m2048_n512_f32_1_alg».proof.Proof.RefValue

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m g _ => (θ_run _ _ _).mono (fun _ h c => (h c).2)
      (Cert.Kernel.ARProof.run_of_body (F := Bits) (fun m c => Cert.Kernel.ARProof.body_obligation m c) m g),
    fun m g _ => (θ_run _ _ _).mono (fun _ h c => (h c).2)
      (Cert.KernelIdeal.ARProof.run_of_body (F := Ideal) (fun m c => Cert.KernelIdeal.ARProof.body_obligation m c) m g),
    Cert.KernelIdeal.ARValue.frame_ri,
    trivial,
    Cert.KernelIdeal.ARValue.algebraic_of
      (Cert.KernelIdeal.ARProof.run_of_body (F := Ideal) (fun m c => Cert.KernelIdeal.ARProof.body_obligation m c))⟩

end Cert.Proof

end
